-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131073x3x21 : Shape := ⟨3, ![131073, 3, 21]⟩
abbrev S131072x2x21 : Shape := ⟨3, ![131072, 2, 21]⟩
abbrev S131072x3x20 : Shape := ⟨3, ![131072, 3, 20]⟩
abbrev S131072x3x3 : Shape := ⟨3, ![131072, 3, 3]⟩
abbrev S131072x3x1 : Shape := ⟨3, ![131072, 3, 1]⟩
abbrev S20 : Shape := ⟨1, ![20]⟩
abbrev S3x3 : Shape := ⟨2, ![3, 3]⟩
abbrev S20x2 : Shape := ⟨2, ![20, 2]⟩
abbrev S_ : Shape := ⟨0, ![]⟩

class Facts : Prop where
  bcast_S_S131073x3x21 : S_.BroadcastsInDim S131073x3x21 (![] : Fin 0 → Fin S131073x3x21.rank)
  reducesTo_S131073x3x21_S_d0_1_2 : S131073x3x21.ReducesTo [0, 1, 2] S_
  h_S_ : 0 < S_.numel
  bcast_S_S131072x2x21 : S_.BroadcastsInDim S131072x2x21 (![] : Fin 0 → Fin S131072x2x21.rank)
  reducesTo_S131072x2x21_S_d0_1_2 : S131072x2x21.ReducesTo [0, 1, 2] S_
  bcast_S_S131072x3x20 : S_.BroadcastsInDim S131072x3x20 (![] : Fin 0 → Fin S131072x3x20.rank)
  reducesTo_S131072x3x20_S_d0_1_2 : S131072x3x20.ReducesTo [0, 1, 2] S_
  bcast_S_S131072x3x3 : S_.BroadcastsInDim S131072x3x3 (![] : Fin 0 → Fin S131072x3x3.rank)
  reducesTo_S131072x3x3_S_d0_1_2 : S131072x3x3.ReducesTo [0, 1, 2] S_
  bcast_S_S131072x3x1 : S_.BroadcastsInDim S131072x3x1 (![] : Fin 0 → Fin S131072x3x1.rank)
  reducesTo_S131072x3x1_S_d0_1_2 : S131072x3x1.ReducesTo [0, 1, 2] S_
  bcast_S_S20 : S_.BroadcastsInDim S20 (![] : Fin 0 → Fin S20.rank)
  reducesTo_S20_S_d0 : S20.ReducesTo [0] S_
  bcast_S_S3x3 : S_.BroadcastsInDim S3x3 (![] : Fin 0 → Fin S3x3.rank)
  reducesTo_S3x3_S_d0_1 : S3x3.ReducesTo [0, 1] S_
  bcast_S_S20x2 : S_.BroadcastsInDim S20x2 (![] : Fin 0 → Fin S20x2.rank)
  reducesTo_S20x2_S_d0_1 : S20x2.ReducesTo [0, 1] S_

variable [Facts]

def fn_part2 {F : FTy → Type} [FloatOps F] (main_arg7 : IVec S20x2 32) (main_v33 : IVec S_ 1) : IVec S_ 1 :=
  let main_c_12 : IVec S_ 32 := constantI S_ 32 0#32
  let main_v34 : IVec S20x2 32 := broadcastInDim S20x2 ![] bcast_S_S20x2 main_c_12
  let main_v35 : IVec S20x2 1 := cmpi .sge main_arg7 main_v34
  let main_c_13 : IVec S_ 32 := constantI S_ 32 21#32
  let main_v36 : IVec S20x2 32 := broadcastInDim S20x2 ![] bcast_S_S20x2 main_c_13
  let main_v37 : IVec S20x2 1 := cmpi .slt main_arg7 main_v36
  let main_v38 : IVec S20x2 1 := andi main_v35 main_v37
  let main_c_14 : IVec S_ 1 := constantI S_ 1 1#1
  let main_v39 : IVec S_ 1 := (fun x v => Host.reduce IntOp.andi x v reducesTo_S20x2_S_d0_1 h_S_) main_v38 main_c_14
  let main_v40 : IVec S_ 1 := andi main_v33 main_v39
  main_v40

def fn_part1 {F : FTy → Type} [FloatOps F] (main_arg4 : FVec F S131072x3x1 .f32) (main_arg5 : FVec F S20 .f32) (main_arg6 : FVec F S3x3 .f32) (main_arg7 : IVec S20x2 32) (main_v13 : IVec S_ 1) (main_v16 : IVec S131072x3x3 1) : IVec S_ 1 :=
  let main_c_5 : IVec S_ 1 := constantI S_ 1 1#1
  let main_v17 : IVec S_ 1 := (fun x v => Host.reduce IntOp.andi x v reducesTo_S131072x3x3_S_d0_1_2 h_S_) main_v16 main_c_5
  let main_v18 : IVec S_ 1 := andi main_v13 main_v17
  let main_v19 : FVec F S131072x3x1 .f32 := Host.absf main_arg4
  let main_cst_6 : FVec F S_ .f32 := constant S_ .f32 0x7F800000#32
  let main_v20 : FVec F S131072x3x1 .f32 := broadcastInDim S131072x3x1 ![] bcast_S_S131072x3x1 main_cst_6
  let main_v21 : IVec S131072x3x1 1 := cmpf .olt main_v19 main_v20
  let main_c_7 : IVec S_ 1 := constantI S_ 1 1#1
  let main_v22 : IVec S_ 1 := (fun x v => Host.reduce IntOp.andi x v reducesTo_S131072x3x1_S_d0_1_2 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S3x3 .f32 := Host.absf main_arg6
  let main_cst_10 : FVec F S_ .f32 := constant S_ .f32 0x7F800000#32
  let main_v30 : FVec F S3x3 .f32 := broadcastInDim S3x3 ![] bcast_S_S3x3 main_cst_10
  let main_v31 : IVec S3x3 1 := cmpf .olt main_v29 main_v30
  let main_c_11 : IVec S_ 1 := constantI S_ 1 1#1
  let main_v32 : IVec S_ 1 := (fun x v => Host.reduce IntOp.andi x v reducesTo_S3x3_S_d0_1 h_S_) main_v31 main_c_11
  let main_v33 : IVec S_ 1 := andi main_v28 main_v32
  fn_part2 (F := F) main_arg7 main_v33

def fn {F : FTy → Type} [FloatOps F] (main_arg0 : FVec F S131073x3x21 .f32) (main_arg1 : FVec F S131072x2x21 .f32) (main_arg2 : FVec F S131072x3x20 .f32) (main_arg3 : FVec F S131072x3x3 .f32) (main_arg4 : FVec F S131072x3x1 .f32) (main_arg5 : FVec F S20 .f32) (main_arg6 : FVec F S3x3 .f32) (main_arg7 : IVec S20x2 32) : IVec S_ 1 :=
  let main_v0 : FVec F S131073x3x21 .f32 := Host.absf main_arg0
  let main_cst : FVec F S_ .f32 := constant S_ .f32 0x7F800000#32
  let main_v1 : FVec F S131073x3x21 .f32 := broadcastInDim S131073x3x21 ![] bcast_S_S131073x3x21 main_cst
  let main_v2 : IVec S131073x3x21 1 := cmpf .olt main_v0 main_v1
  let main_c : IVec S_ 1 := constantI S_ 1 1#1
  let main_v3 : IVec S_ 1 := (fun x v => Host.reduce IntOp.andi x v reducesTo_S131073x3x21_S_d0_1_2 h_S_) main_v2 main_c
  let main_v4 : FVec F S131072x2x21 .f32 := Host.absf main_arg1
  let main_cst_0 : FVec F S_ .f32 := constant S_ .f32 0x7F800000#32
  let main_v5 : FVec F S131072x2x21 .f32 := broadcastInDim S131072x2x21 ![] bcast_S_S131072x2x21 main_cst_0
  let main_v6 : IVec S131072x2x21 1 := cmpf .olt main_v4 main_v5
  let main_c_1 : IVec S_ 1 := constantI S_ 1 1#1
  let main_v7 : IVec S_ 1 := (fun x v => Host.reduce IntOp.andi x v reducesTo_S131072x2x21_S_d0_1_2 h_S_) main_v6 main_c_1
  let main_v8 : IVec S_ 1 := andi main_v3 main_v7
  let main_v9 : FVec F S131072x3x20 .f32 := Host.absf main_arg2
  let main_cst_2 : FVec F S_ .f32 := constant S_ .f32 0x7F800000#32
  let main_v10 : FVec F S131072x3x20 .f32 := broadcastInDim S131072x3x20 ![] bcast_S_S131072x3x20 main_cst_2
  let main_v11 : IVec S131072x3x20 1 := cmpf .olt main_v9 main_v10
  let main_c_3 : IVec S_ 1 := constantI S_ 1 1#1
  let main_v12 : IVec S_ 1 := (fun x v => Host.reduce IntOp.andi x v reducesTo_S131072x3x20_S_d0_1_2 h_S_) main_v11 main_c_3
  let main_v13 : IVec S_ 1 := andi main_v8 main_v12
  let main_v14 : FVec F S131072x3x3 .f32 := Host.absf main_arg3
  let main_cst_4 : FVec F S_ .f32 := constant S_ .f32 0x7F800000#32
  let main_v15 : FVec F S131072x3x3 .f32 := broadcastInDim S131072x3x3 ![] bcast_S_S131072x3x3 main_cst_4
  let main_v16 : IVec S131072x3x3 1 := cmpf .olt main_v14 main_v15
  fn_part1 (F := F) main_arg4 main_arg5 main_arg6 main_arg7 main_v13 main_v16
-- ==== Kernel.lean ====
abbrev S131073x3x21 : Shape := ⟨3, ![131073, 3, 21]⟩
abbrev S131072x2x21 : Shape := ⟨3, ![131072, 2, 21]⟩
abbrev S131072x3x20 : Shape := ⟨3, ![131072, 3, 20]⟩
abbrev S131072x3x3 : Shape := ⟨3, ![131072, 3, 3]⟩
abbrev S131072x3x1 : Shape := ⟨3, ![131072, 3, 1]⟩
abbrev S20 : Shape := ⟨1, ![20]⟩
abbrev S3x3 : Shape := ⟨2, ![3, 3]⟩
abbrev S20x2 : Shape := ⟨2, ![20, 2]⟩
abbrev S20x1 : Shape := ⟨2, ![20, 1]⟩
abbrev S1x21 : Shape := ⟨2, ![1, 21]⟩
abbrev S20x21 : Shape := ⟨2, ![20, 21]⟩
abbrev S21x20 : Shape := ⟨2, ![21, 20]⟩
abbrev S_ : Shape := ⟨0, ![]⟩
abbrev S131074x3x21 : Shape := ⟨3, ![131074, 3, 21]⟩
abbrev S1x20 : Shape := ⟨2, ![1, 20]⟩
abbrev S2x1x1 : Shape := ⟨3, ![2, 1, 1]⟩
abbrev S512x2x21 : Shape := ⟨3, ![512, 2, 21]⟩
abbrev S512x3x20 : Shape := ⟨3, ![512, 3, 20]⟩
abbrev S512x3x3 : Shape := ⟨3, ![512, 3, 3]⟩
abbrev S512x3x1 : Shape := ⟨3, ![512, 3, 1]⟩
abbrev S512x3x21 : Shape := ⟨3, ![512, 3, 21]⟩
abbrev S2x3x21 : Shape := ⟨3, ![2, 3, 21]⟩
abbrev S1x1x1 : Shape := ⟨3, ![1, 1, 1]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S2x1x21 : Shape := ⟨3, ![2, 1, 21]⟩
abbrev S2x21 : Shape := ⟨2, ![2, 21]⟩
abbrev S511x21 : Shape := ⟨2, ![511, 21]⟩
abbrev S510x21 : Shape := ⟨2, ![510, 21]⟩
abbrev S1x512x20 : Shape := ⟨3, ![1, 512, 20]⟩
abbrev S1 : Shape := ⟨1, ![1]⟩
abbrev S1x1 : Shape := ⟨2, ![1, 1]⟩
abbrev S512x1x1 : Shape := ⟨3, ![512, 1, 1]⟩
abbrev S512x1 : Shape := ⟨2, ![512, 1]⟩
abbrev S1x512x21 : Shape := ⟨3, ![1, 512, 21]⟩
abbrev S1x3x21 : Shape := ⟨3, ![1, 3, 21]⟩
abbrev S3x21 : Shape := ⟨2, ![3, 21]⟩
abbrev S3x20 : Shape := ⟨2, ![3, 20]⟩

abbrev nBuf : Space → Nat
  | .hbm => 72
  | .vmem => 23
  | .smem => 0
  | _ => 0

abbrev bufTy : (tb : Table) → Fin (tcTables nBuf tb) → BufTy
  | .hbm, ⟨0, _⟩ => ⟨S131073x3x21, .f32⟩
  | .hbm, ⟨1, _⟩ => ⟨S131072x2x21, .f32⟩
  | .hbm, ⟨2, _⟩ => ⟨S131072x3x20, .f32⟩
  | .hbm, ⟨3, _⟩ => ⟨S131072x3x3, .f32⟩
  | .hbm, ⟨4, _⟩ => ⟨S131072x3x1, .f32⟩
  | .hbm, ⟨5, _⟩ => ⟨S20, .f32⟩
  | .hbm, ⟨6, _⟩ => ⟨S3x3, .f32⟩
  | .hbm, ⟨7, _⟩ => ⟨S20x2, .i32⟩
  | .hbm, ⟨8, _⟩ => ⟨S20x1, .i32⟩
  | .hbm, ⟨9, _⟩ => ⟨S20, .i32⟩
  | .hbm, ⟨10, _⟩ => ⟨S20x1, .i32⟩
  | .hbm, ⟨11, _⟩ => ⟨S20, .i32⟩
  | .hbm, ⟨12, _⟩ => ⟨S20x1, .i32⟩
  | .hbm, ⟨13, _⟩ => ⟨S1x21, .i32⟩
  | .hbm, ⟨14, _⟩ => ⟨S20x21, .i32⟩
  | .hbm, ⟨15, _⟩ => ⟨S20x21, .i32⟩
  | .hbm, ⟨16, _⟩ => ⟨S20x21, .i1⟩
  | .hbm, ⟨17, _⟩ => ⟨S20x21, .f32⟩
  | .hbm, ⟨18, _⟩ => ⟨S20x1, .i32⟩
  | .hbm, ⟨19, _⟩ => ⟨S1x21, .i32⟩
  | .hbm, ⟨20, _⟩ => ⟨S20x21, .i32⟩
  | .hbm, ⟨21, _⟩ => ⟨S20x21, .i32⟩
  | .hbm, ⟨22, _⟩ => ⟨S20x21, .i1⟩
  | .hbm, ⟨23, _⟩ => ⟨S20x21, .f32⟩
  | .hbm, ⟨24, _⟩ => ⟨S20x21, .f32⟩
  | .hbm, ⟨25, _⟩ => ⟨S21x20, .f32⟩
  | .hbm, ⟨26, _⟩ => ⟨S_, .i32⟩
  | .hbm, ⟨27, _⟩ => ⟨S_, .f32⟩
  | .hbm, ⟨28, _⟩ => ⟨S131074x3x21, .f32⟩
  | .hbm, ⟨29, _⟩ => ⟨S1x20, .f32⟩
  | .hbm, ⟨30, _⟩ => ⟨S2x1x1, .f32⟩
  | .hbm, ⟨31, _⟩ => ⟨S2x1x1, .f32⟩
  | .hbm, ⟨32, _⟩ => ⟨S2x1x1, .f32⟩
  | .hbm, ⟨33, _⟩ => ⟨S2x1x1, .f32⟩
  | .hbm, ⟨34, _⟩ => ⟨S1x3x21, .f32⟩
  | .hbm, ⟨35, _⟩ => ⟨S3x21, .f32⟩
  | .hbm, ⟨36, _⟩ => ⟨S3x20, .f32⟩
  | .hbm, ⟨37, _⟩ => ⟨S3x20, .f32⟩
  | .hbm, ⟨38, _⟩ => ⟨S_, .f32⟩
  | .hbm, ⟨39, _⟩ => ⟨S20, .f32⟩
  | .hbm, ⟨40, _⟩ => ⟨S20, .f32⟩
  | .hbm, ⟨41, _⟩ => ⟨S20, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S512x2x21, .f32⟩
  | .local _ .vmem, ⟨1, _⟩ => ⟨S512x2x21, .f32⟩
  | .local _ .vmem, ⟨2, _⟩ => ⟨S512x3x20, .f32⟩
  | .local _ .vmem, ⟨3, _⟩ => ⟨S512x3x20, .f32⟩
  | .local _ .vmem, ⟨4, _⟩ => ⟨S512x3x3, .f32⟩
  | .local _ .vmem, ⟨5, _⟩ => ⟨S512x3x3, .f32⟩
  | .local _ .vmem, ⟨6, _⟩ => ⟨S3x3, .f32⟩
  | .local _ .vmem, ⟨7, _⟩ => ⟨S512x3x1, .f32⟩
  | .local _ .vmem, ⟨8, _⟩ => ⟨S512x3x1, .f32⟩
  | .local _ .vmem, ⟨9, _⟩ => ⟨S21x20, .f32⟩
  | .local _ .vmem, ⟨10, _⟩ => ⟨S1x20, .f32⟩
  | .local _ .vmem, ⟨11, _⟩ => ⟨S512x3x21, .f32⟩
  | .local _ .vmem, ⟨12, _⟩ => ⟨S512x3x21, .f32⟩
  | .local _ .vmem, ⟨13, _⟩ => ⟨S2x3x21, .f32⟩
  | .local _ .vmem, ⟨14, _⟩ => ⟨S2x3x21, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | _, _ => ⟨S131073x3x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_call2_v0 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_v10_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_cst_8 : Ref sig .tc := ⟨.hbm, 59, rfl⟩
abbrev main_v27 : Ref sig .tc := ⟨.hbm, 60, rfl⟩
abbrev main_cst_9 : Ref sig .tc := ⟨.hbm, 61, rfl⟩
abbrev main_v28 : Ref sig .tc := ⟨.hbm, 62, rfl⟩
abbrev main_cst_10 : Ref sig .tc := ⟨.hbm, 63, rfl⟩
abbrev main_v29 : Ref sig .tc := ⟨.hbm, 64, rfl⟩
abbrev main_v30 : Ref sig .tc := ⟨.hbm, 65, rfl⟩
abbrev main_cst_11 : Ref sig .tc := ⟨.hbm, 66, rfl⟩
abbrev main_v31 : Ref sig .tc := ⟨.hbm, 67, rfl⟩
abbrev main_v32 : Ref sig .tc := ⟨.hbm, 68, rfl⟩
abbrev main_cst_12 : Ref sig .tc := ⟨.hbm, 69, rfl⟩
abbrev main_v33 : Ref sig .tc := ⟨.hbm, 70, rfl⟩
abbrev main_v34 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let v2 : BitVec 32 := Scalar.addi v1 c1_i32
  let c256_i32 : BitVec 32 := 256#32
  let v3 : BitVec 32 := Scalar.muli v2 c256_i32
  let c0_i32 : BitVec 32 := 0#32
  let c0_i32_0 : BitVec 32 := 0#32
  let c0_i32_1 : BitVec 32 := 0#32
  ![v3.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S21x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x3x21 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x21 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  slices_S20x2_S20x1_0_0 : S20x2.Slices ![0, 0] S20x1
  shapeCasts_S20x1_S20 : S20x1.ShapeCasts S20
  slices_S20x2_S20x1_0_1 : S20x2.Slices ![0, 1] S20x1
  bcast_S20_S20x1_0 : S20.BroadcastsInDim S20x1 (![0] : Fin 1 → Fin S20x1.rank)
  bcast_S20x1_S20x21_0_1 : S20x1.BroadcastsInDim S20x21 (![0, 1] : Fin 2 → Fin S20x21.rank)
  bcast_S1x21_S20x21_0_1 : S1x21.BroadcastsInDim S20x21 (![0, 1] : Fin 2 → Fin S20x21.rank)
  transposes_S20x21_S21x20_1_0 : S20x21.Transposes [1, 0] S21x20
  pads_S131073x3x21_S131074x3x21_010_000_000 : S131073x3x21.Pads (![0, 0, 0] : Fin 3 → Nat) ![1, 0, 0] ![0, 0, 0] S131074x3x21
  h_S_ : 0 < S_.numel
  shapeCasts_S20_S1x20 : S20.ShapeCasts S1x20
  inb_S1x1x1_S1x1x1_0_0_0 : ∀ a, (![0, 0, 0] : Fin 3 → Nat) a + S1x1x1.size a ≤ S1x1x1.size a
  h_S1x1x1 : 0 < S1x1x1.numel
  inb_S21x20_S21x20_0_0 : ∀ a, (![0, 0] : Fin 2 → Nat) a + S21x20.size a ≤ S21x20.size a
  h_S21x20 : 0 < S21x20.numel
  shapeCasts_S21x20_S21x20 : S21x20.ShapeCasts S21x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S3x3_S3x3_0_0 : ∀ a, (![0, 0] : Fin 2 → Nat) a + S3x3.size a ≤ S3x3.size a
  h_S3x3 : 0 < S3x3.numel
  inb_S512x2x21_S512x1x21_0_0_0 : ∀ a, (![0, 0, 0] : Fin 3 → Nat) a + S512x1x21.size a ≤ S512x2x21.size a
  h_S512x1x21 : 0 < S512x1x21.numel
  shapeCasts_S512x1x21_S512x21 : S512x1x21.ShapeCasts S512x21
  inb_S512x2x21_S512x1x21_0_1_0 : ∀ a, (![0, 1, 0] : Fin 3 → Nat) a + S512x1x21.size a ≤ S512x2x21.size a
  inb_S512x3x20_S512x1x20_0_0_0 : ∀ a, (![0, 0, 0] : Fin 3 → Nat) a + S512x1x20.size a ≤ S512x3x20.size a
  h_S512x1x20 : 0 < S512x1x20.numel
  shapeCasts_S512x1x20_S512x20 : S512x1x20.ShapeCasts S512x20
  inb_S512x3x20_S512x1x20_0_1_0 : ∀ a, (![0, 1, 0] : Fin 3 → Nat) a + S512x1x20.size a ≤ S512x3x20.size a
  inb_S512x3x20_S512x1x20_0_2_0 : ∀ a, (![0, 2, 0] : Fin 3 → Nat) a + S512x1x20.size a ≤ S512x3x20.size a
  inb_S512x3x21_S512x1x21_0_0_0 : ∀ a, (![0, 0, 0] : Fin 3 → Nat) a + S512x1x21.size a ≤ S512x3x21.size a
  inb_S512x3x21_S512x1x21_0_1_0 : ∀ a, (![0, 1, 0] : Fin 3 → Nat) a + S512x1x21.size a ≤ S512x3x21.size a
  inb_S512x3x21_S512x1x21_0_2_0 : ∀ a, (![0, 2, 0] : Fin 3 → Nat) a + S512x1x21.size a ≤ S512x3x21.size a
  inb_S2x3x21_S2x1x21_0_0_0 : ∀ a, (![0, 0, 0] : Fin 3 → Nat) a + S2x1x21.size a ≤ S2x3x21.size a
  h_S2x1x21 : 0 < S2x1x21.numel
  shapeCasts_S2x1x21_S2x21 : S2x1x21.ShapeCasts S2x21
  inb_S2x3x21_S2x1x21_0_1_0 : ∀ a, (![0, 1, 0] : Fin 3 → Nat) a + S2x1x21.size a ≤ S2x3x21.size a
  inb_S2x3x21_S2x1x21_0_2_0 : ∀ a, (![0, 2, 0] : Fin 3 → Nat) a + S2x1x21.size a ≤ S2x3x21.size a
  slices_S512x21_o1_0_S511x21 : S512x21.Slices ![1, 0] S511x21
  slices_S2x21_o0_0_S1x21 : S2x21.Slices ![0, 0] S1x21
  concatenates_S511x21_S1x21_S512x21_d0 : Shape.Concatenates [S511x21, S1x21] S512x21 0
  slices_S512x21_o2_0_S510x21 : S512x21.Slices ![2, 0] S510x21
  concatenates_S510x21_S2x21_S512x21_d0 : Shape.Concatenates [S510x21, S2x21] S512x21 0
  broadcasts_S1x20_S512x20 : S1x20.Broadcasts S512x20
  shapeCasts_S512x20_S1x512x20 : S512x20.ShapeCasts S1x512x20
  reduces_S1x512x20_S1 : S1x512x20.Reduces [1, 2] S1
  shapeCasts_S1_S1x1x1 : S1.ShapeCasts S1x1x1
  inpos_S1x1x1_p0_0_0 : ∀ a, (![0, 0, 0] : Fin 3 → Nat) a < S1x1x1.size a
  inb_S512x3x1_S512x1x1_0_0_0 : ∀ a, (![0, 0, 0] : Fin 3 → Nat) a + S512x1x1.size a ≤ S512x3x1.size a
  h_S512x1x1 : 0 < S512x1x1.numel
  shapeCasts_S512x1x1_S512x1 : S512x1x1.ShapeCasts S512x1
  broadcasts_S512x1_S512x21 : S512x1.Broadcasts S512x21
  inb_S512x3x1_S512x1x1_0_1_0 : ∀ a, (![0, 1, 0] : Fin 3 → Nat) a + S512x1x1.size a ≤ S512x3x1.size a
  inb_S512x3x1_S512x1x1_0_2_0 : ∀ a, (![0, 2, 0] : Fin 3 → Nat) a + S512x1x1.size a ≤ S512x3x1.size a
  inb_S512x3x3_S512x1x1_0_0_0 : ∀ a, (![0, 0, 0] : Fin 3 → Nat) a + S512x1x1.size a ≤ S512x3x3.size a
  inb_S512x3x3_S512x1x1_0_0_1 : ∀ a, (![0, 0, 1] : Fin 3 → Nat) a + S512x1x1.size a ≤ S512x3x3.size a
  inb_S512x3x3_S512x1x1_0_0_2 : ∀ a, (![0, 0, 2] : Fin 3 → Nat) a + S512x1x1.size a ≤ S512x3x3.size a
  inb_S512x3x3_S512x1x1_0_1_0 : ∀ a, (![0, 1, 0] : Fin 3 → Nat) a + S512x1x1.size a ≤ S512x3x3.size a
  inb_S512x3x3_S512x1x1_0_1_1 : ∀ a, (![0, 1, 1] : Fin 3 → Nat) a + S512x1x1.size a ≤ S512x3x3.size a
  inb_S512x3x3_S512x1x1_0_1_2 : ∀ a, (![0, 1, 2] : Fin 3 → Nat) a + S512x1x1.size a ≤ S512x3x3.size a
  inb_S512x3x3_S512x1x1_0_2_0 : ∀ a, (![0, 2, 0] : Fin 3 → Nat) a + S512x1x1.size a ≤ S512x3x3.size a
  inb_S512x3x3_S512x1x1_0_2_1 : ∀ a, (![0, 2, 1] : Fin 3 → Nat) a + S512x1x1.size a ≤ S512x3x3.size a
  inb_S512x3x3_S512x1x1_0_2_2 : ∀ a, (![0, 2, 2] : Fin 3 → Nat) a + S512x1x1.size a ≤ S512x3x3.size a
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  shapeCasts_S512x21_S1x512x21 : S512x21.ShapeCasts S1x512x21
  reduces_S1x512x21_S1 : S1x512x21.Reduces [1, 2] S1
  iota_S512x1_d0_w32 : S512x1.Iotas .tc 32 [0]
  natLt_1_32 : 1 < 32
  shapeCasts_S1x1x1_S1x1x1 : S1x1x1.ShapeCasts S1x1x1
  shapeCasts_S1x1_S1x1x1 : S1x1.ShapeCasts S1x1x1
  slices_S131073x3x21_S1x3x21_131072_0_0 : S131073x3x21.Slices ![131072, 0, 0] S1x3x21
  shapeCasts_S1x3x21_S3x21 : S1x3x21.ShapeCasts S3x21
  reducesTo_S3x20_S20_d0 : S3x20.ReducesTo [0] S20
  reducesTo_S20_S_d0 : S20.ReducesTo [0] S_
  reducesTo_S2x1x1_S_d0_1_2 : S2x1x1.ReducesTo [0, 1, 2] S_
  dot_S512x21_S21x20_S512x20_1_0_0_1_n_n_wf : DotDims.WF S512x21 S21x20 S512x20 [1] [0] [0] [1] [] []
  dot_S3x21_S21x20_S3x20_1_0_0_1_n_n_wf : DotDims.WF S3x21 S21x20 S3x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2x21.size a ≤ S131072x2x21.size a
  hwx0_0 : ∀ i : grid0.Coords, EltTy.bits .f32 = 32 ∨ (Rect.block (s := S131072x2x21) S512x2x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3x20.size a ≤ S131072x3x20.size a
  hwx0_1 : ∀ i : grid0.Coords, EltTy.bits .f32 = 32 ∨ (Rect.block (s := S131072x3x20) S512x3x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3x3.size a ≤ S131072x3x3.size a
  hwx0_2 : ∀ i : grid0.Coords, EltTy.bits .f32 = 32 ∨ (Rect.block (s := S131072x3x3) S512x3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3x1.size a ≤ S131072x3x1.size a
  hwx0_4 : ∀ i : grid0.Coords, EltTy.bits .f32 = 32 ∨ (Rect.block (s := S131072x3x1) S512x3x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S21x20.size a ≤ S21x20.size a
  hwx0_5 : ∀ i : grid0.Coords, EltTy.bits .f32 = 32 ∨ (Rect.block (s := S21x20) S21x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S512x3x21.size a < S131074x3x21.size a
  hwx0_7 : ∀ i : grid0.Coords, EltTy.bits .f32 = 32 ∨ (Rect.unit (s := S131074x3x21) (fun a => cc0_transform_7 i a * S512x3x21.size a) (fun a => (Pipeline.Clip.of (cc0_transform_7 i a) (S512x3x21.size a) (S131074x3x21.size a)).extent (S512x3x21.size a)) fun a => Pipeline.Clip.inb (Pipeline.Clip.ok_of (hstart0_7 i a))).WholeWords (EltTy.packing .f32)
  hwxs0_7 : ∀ i : grid0.Coords, EltTy.bits .f32 = 32 ∨ (Rect.unit (s := S512x3x21) (fun _ => 0) (fun a => (Pipeline.Clip.of (cc0_transform_7 i a) (S512x3x21.size a) (S131074x3x21.size a)).extent (S512x3x21.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x3x21.size a ≤ S131074x3x21.size a
  hwx0_8 : ∀ i : grid0.Coords, EltTy.bits .f32 = 32 ∨ (Rect.block (s := S131074x3x21) S2x3x21.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S2x1x1.size a
  hwx0_12 : ∀ i : grid0.Coords, EltTy.bits .f32 = 32 ∨ (Rect.block (s := S2x1x1) S1x1x1.size (cc0_transform_12 i) (hinb0_12 i)).WholeWords (EltTy.packing .f32)

variable [Facts₀]

def dot_S512x21_S21x20_S512x20_1_0_0_1_n_n : DotDims S512x21 S21x20 S512x20 where
  lhsContracting := [1]
  rhsContracting := [0]
  lhsNonContracting := [0]
  rhsNonContracting := [1]
  lhsBatch := []
  rhsBatch := []
  wf := dot_S512x21_S21x20_S512x20_1_0_0_1_n_n_wf
def dot_S3x21_S21x20_S3x20_1_0_0_1_n_n : DotDims S3x21 S21x20 S3x20 where
  lhsContracting := [1]
  rhsContracting := [0]
  lhsNonContracting := [0]
  rhsNonContracting := [1]
  lhsBatch := []
  rhsBatch := []
  wf := dot_S3x21_S21x20_S3x20_1_0_0_1_n_n_wf

abbrev win0_0 : Pipeline.Window sig grid0 :=
  Pipeline.Window.ofSpec (Memref.whole main_arg1) S512x2x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x3x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x3x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S21x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v8) S512x3x21.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpec (Memref.whole main_v8) S2x3x21.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S1x1x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S1x1x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_3) S1x1x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131073x3x21 : Shape := ⟨3, ![131073, 3, 21]⟩
abbrev S131072x2x21 : Shape := ⟨3, ![131072, 2, 21]⟩
abbrev S131072x3x20 : Shape := ⟨3, ![131072, 3, 20]⟩
abbrev S131072x3x3 : Shape := ⟨3, ![131072, 3, 3]⟩
abbrev S131072x3x1 : Shape := ⟨3, ![131072, 3, 1]⟩
abbrev S20 : Shape := ⟨1, ![20]⟩
abbrev S3x3 : Shape := ⟨2, ![3, 3]⟩
abbrev S20x2 : Shape := ⟨2, ![20, 2]⟩
abbrev S20x1 : Shape := ⟨2, ![20, 1]⟩
abbrev S131072x3x21 : Shape := ⟨3, ![131072, 3, 21]⟩
abbrev S131072x1x21 : Shape := ⟨3, ![131072, 1, 21]⟩
abbrev S131072x21 : Shape := ⟨2, ![131072, 21]⟩
abbrev S_ : Shape := ⟨0, ![]⟩
abbrev S131072x20 : Shape := ⟨2, ![131072, 20]⟩
abbrev S131072x1x20 : Shape := ⟨3, ![131072, 1, 20]⟩
abbrev S131073x3x20 : Shape := ⟨3, ![131073, 3, 20]⟩
abbrev S131073x20 : Shape := ⟨2, ![131073, 20]⟩
abbrev S1x20 : Shape := ⟨2, ![1, 20]⟩
abbrev S131071x3x21 : Shape := ⟨3, ![131071, 3, 21]⟩

abbrev nBuf : Space → Nat
  | .hbm => 133
  | .vmem => 0
  | .smem => 0
  | _ => 0

abbrev hbmTy0_0 (i : Nat) : BufTy := match i % 128 with
  | 0 => ⟨S131073x3x21, .f32⟩
  | 1 => ⟨S131072x2x21, .f32⟩
  | 2 => ⟨S131072x3x20, .f32⟩
  | 3 => ⟨S131072x3x3, .f32⟩
  | 4 => ⟨S131072x3x1, .f32⟩
  | 5 => ⟨S20, .f32⟩
  | 6 => ⟨S3x3, .f32⟩
  | 7 => ⟨S20x2, .i32⟩
  | 8 => ⟨S20x1, .i32⟩
  | 9 => ⟨S20, .i32⟩
  | 10 => ⟨S20x1, .i32⟩
  | 11 => ⟨S20, .i32⟩
  | 12 => ⟨S131072x3x21, .f32⟩
  | 13 => ⟨S131072x3x21, .f32⟩
  | 14 => ⟨S131072x3x21, .f32⟩
  | 15 => ⟨S131072x3x3, .f32⟩
  | 16 => ⟨S131072x3x21, .f32⟩
  | 17 => ⟨S131072x1x21, .f32⟩
  | 18 => ⟨S131072x21, .f32⟩
  | 19 => ⟨S131072x1x21, .f32⟩
  | 20 => ⟨S131072x21, .f32⟩
  | 21 => ⟨S_, .f32⟩
  | 22 => ⟨S131072x21, .f32⟩
  | 23 => ⟨S131072x21, .f32⟩
  | 24 => ⟨S131072x21, .f32⟩
  | 25 => ⟨S_, .f32⟩
  | 26 => ⟨S131072x21, .f32⟩
  | 27 => ⟨S131072x21, .f32⟩
  | 28 => ⟨S131072x1x21, .f32⟩
  | 29 => ⟨S131072x21, .f32⟩
  | 30 => ⟨S_, .f32⟩
  | 31 => ⟨S131072x21, .f32⟩
  | 32 => ⟨S131072x21, .f32⟩
  | 33 => ⟨S131072x21, .f32⟩
  | 34 => ⟨S_, .f32⟩
  | 35 => ⟨S131072x21, .f32⟩
  | 36 => ⟨S131072x21, .f32⟩
  | 37 => ⟨S131072x1x21, .f32⟩
  | 38 => ⟨S131072x1x21, .f32⟩
  | 39 => ⟨S131072x2x21, .f32⟩
  | 40 => ⟨S131072x2x21, .f32⟩
  | 41 => ⟨S131072x2x21, .f32⟩
  | 42 => ⟨S_, .f32⟩
  | 43 => ⟨S_, .f32⟩
  | 44 => ⟨S_, .f32⟩
  | 45 => ⟨S_, .f32⟩
  | 46 => ⟨S_, .i32⟩
  | 47 => ⟨S20, .i32⟩
  | 48 => ⟨S20, .i1⟩
  | 49 => ⟨S_, .i32⟩
  | 50 => ⟨S20, .i32⟩
  | 51 => ⟨S20, .i32⟩
  | 52 => ⟨S20, .i32⟩
  | 53 => ⟨S20x1, .i32⟩
  | 54 => ⟨S131072x3x20, .f32⟩
  | 55 => ⟨S_, .i32⟩
  | 56 => ⟨S20, .i32⟩
  | 57 => ⟨S20, .i1⟩
  | 58 => ⟨S_, .i32⟩
  | 59 => ⟨S20, .i32⟩
  | 60 => ⟨S20, .i32⟩
  | 61 => ⟨S20, .i32⟩
  | 62 => ⟨S20x1, .i32⟩
  | 63 => ⟨S131072x3x20, .f32⟩
  | 64 => ⟨S131072x3x20, .f32⟩
  | 65 => ⟨S131072x3x20, .f32⟩
  | 66 => ⟨S_, .f32⟩
  | 67 => ⟨S131072x20, .f32⟩
  | 68 => ⟨S131072x1x20, .f32⟩
  | 69 => ⟨S131072x1x20, .f32⟩
  | 70 => ⟨S_, .f32⟩
  | 71 => ⟨S131072x1x20, .f32⟩
  | 72 => ⟨S131072x1x20, .f32⟩
  | 73 => ⟨S131072x3x20, .f32⟩
  | 74 => ⟨S131072x3x20, .f32⟩
  | 75 => ⟨S131072x3x20, .f32⟩
  | 76 => ⟨S131072x3x20, .f32⟩
  | 77 => ⟨S_, .f32⟩
  | 78 => ⟨S_, .f32⟩
  | 79 => ⟨S_, .f32⟩
  | 80 => ⟨S_, .f32⟩
  | 81 => ⟨S_, .i32⟩
  | 82 => ⟨S20, .i32⟩
  | 83 => ⟨S20, .i1⟩
  | 84 => ⟨S_, .i32⟩
  | 85 => ⟨S20, .i32⟩
  | 86 => ⟨S20, .i32⟩
  | 87 => ⟨S20, .i32⟩
  | 88 => ⟨S20x1, .i32⟩
  | 89 => ⟨S131073x3x20, .f32⟩
  | 90 => ⟨S_, .i32⟩
  | 91 => ⟨S20, .i32⟩
  | 92 => ⟨S20, .i1⟩
  | 93 => ⟨S_, .i32⟩
  | 94 => ⟨S20, .i32⟩
  | 95 => ⟨S20, .i32⟩
  | 96 => ⟨S20, .i32⟩
  | 97 => ⟨S20x1, .i32⟩
  | 98 => ⟨S131073x3x20, .f32⟩
  | 99 => ⟨S131073x3x20, .f32⟩
  | 100 => ⟨S131073x3x20, .f32⟩
  | 101 => ⟨S_, .f32⟩
  | 102 => ⟨S131073x20, .f32⟩
  | 103 => ⟨S1x20, .f32⟩
  | 104 => ⟨S131073x20, .f32⟩
  | 105 => ⟨S131073x20, .f32⟩
  | 106 => ⟨S131073x20, .f32⟩
  | 107 => ⟨S_, .f32⟩
  | 108 => ⟨S_, .f32⟩
  | 109 => ⟨S_, .f32⟩
  | 110 => ⟨S_, .f32⟩
  | 111 => ⟨S131072x3x21, .f32⟩
  | 112 => ⟨S131072x3x21, .f32⟩
  | 113 => ⟨S131072x3x21, .f32⟩
  | 114 => ⟨S131071x3x21, .f32⟩
  | 115 => ⟨S131071x3x21, .f32⟩
  | 116 => ⟨S131071x3x21, .f32⟩
  | 117 => ⟨S131071x3x21, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S131073x3x21, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S131073x3x21, .f32⟩

abbrev hbmTy (i : Nat) : BufTy := match i / 128 with
  | 0 => hbmTy0_0 i
  | 1 => hbmTy0_1 i
  | _ => ⟨S131073x3x21, .f32⟩

abbrev bufTy : (tb : Table) → Fin (tcTables nBuf tb) → BufTy
  | .hbm, ⟨i, _⟩ => hbmTy i
  | _, _ => ⟨S131073x3x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_v0 : Ref sig .tc := ⟨.hbm, 65, rfl⟩
abbrev main_call0_cst : Ref sig .tc := ⟨.hbm, 66, rfl⟩
abbrev main_call0_v1 : Ref sig .tc := ⟨.hbm, 67, rfl⟩
abbrev main_call0_v2 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_cst_22 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S20x2_S20x1_0_0 : S20x2.Slices ![0, 0] S20x1
  shapeCasts_S20x1_S20 : S20x1.ShapeCasts S20
  slices_S20x2_S20x1_0_1 : S20x2.Slices ![0, 1] S20x1
  slices_S131073x3x21_S131072x3x21_1_0_0 : S131073x3x21.Slices ![1, 0, 0] S131072x3x21
  bcast_S131072x3x1_S131072x3x21_0_1_2 : S131072x3x1.BroadcastsInDim S131072x3x21 (![0, 1, 2] : Fin 3 → Fin S131072x3x21.rank)
  slices_S131072x3x21_S131072x1x21_0_2_0 : S131072x3x21.Slices ![0, 2, 0] S131072x1x21
  shapeCasts_S131072x1x21_S131072x21 : S131072x1x21.ShapeCasts S131072x21
  slices_S131072x3x21_S131072x1x21_0_0_0 : S131072x3x21.Slices ![0, 0, 0] S131072x1x21
  bcast_S_S131072x21 : S_.BroadcastsInDim S131072x21 (![] : Fin 0 → Fin S131072x21.rank)
  slices_S131072x3x21_S131072x1x21_0_1_0 : S131072x3x21.Slices ![0, 1, 0] S131072x1x21
  bcast_S131072x21_S131072x1x21_0_2 : S131072x21.BroadcastsInDim S131072x1x21 (![0, 2] : Fin 2 → Fin S131072x1x21.rank)
  concatenates_S131072x1x21_S131072x1x21_S131072x2x21_d1 : Shape.Concatenates [S131072x1x21, S131072x1x21] S131072x2x21 1
  reducesTo_S131072x2x21_S_d0_1_2 : S131072x2x21.ReducesTo [0, 1, 2] S_
  h_S_ : 0 < S_.numel
  bcast_S_S20 : S_.BroadcastsInDim S20 (![] : Fin 0 → Fin S20.rank)
  bcast_S20_S20x1_0 : S20.BroadcastsInDim S20x1 (![0] : Fin 1 → Fin S20x1.rank)
  reducesTo_S131072x3x20_S131072x20_d1 : S131072x3x20.ReducesTo [1] S131072x20
  bcast_S131072x20_S131072x1x20_0_2 : S131072x20.BroadcastsInDim S131072x1x20 (![0, 2] : Fin 2 → Fin S131072x1x20.rank)
  bcast_S_S131072x1x20 : S_.BroadcastsInDim S131072x1x20 (![] : Fin 0 → Fin S131072x1x20.rank)
  bcast_S131072x1x20_S131072x3x20_0_1_2 : S131072x1x20.BroadcastsInDim S131072x3x20 (![0, 1, 2] : Fin 3 → Fin S131072x3x20.rank)
  reducesTo_S131072x3x20_S_d0_1_2 : S131072x3x20.ReducesTo [0, 1, 2] S_
  reducesTo_S131073x3x20_S131073x20_d1 : S131073x3x20.ReducesTo [1] S131073x20
  bcast_S20_S1x20_1 : S20.BroadcastsInDim S1x20 (![1] : Fin 1 → Fin S1x20.rank)
  bcast_S1x20_S131073x20_0_1 : S1x20.BroadcastsInDim S131073x20 (![0, 1] : Fin 2 → Fin S131073x20.rank)
  reducesTo_S131073x20_S_d0_1 : S131073x20.ReducesTo [0, 1] S_
  slices_S131073x3x21_S131072x3x21_0_0_0 : S131073x3x21.Slices ![0, 0, 0] S131072x3x21
  slices_S131072x3x21_S131071x3x21_1_0_0 : S131072x3x21.Slices ![1, 0, 0] S131071x3x21
  slices_S131072x3x21_S131071x3x21_0_0_0 : S131072x3x21.Slices ![0, 0, 0] S131071x3x21
  reducesTo_S131071x3x21_S_d0_1_2 : S131071x3x21.ReducesTo [0, 1, 2] S_
  dot_S131072x3x3_S3x3_S131072x3x3_2_1_01_0_n_n_wf : DotDims.WF S131072x3x3 S3x3 S131072x3x3 [2] [1] [0, 1] [0] [] []
  dot_S131072x3x3_S131072x3x21_S131072x3x21_1_1_2_2_0_0_wf : DotDims.WF S131072x3x3 S131072x3x21 S131072x3x21 [1] [1] [2] [2] [0] [0]
  gather_S131072x3x21_S20x1_S131072x3x20_01_2_n_n_2_1_13107231_wf : GatherDims.WF S131072x3x21 S20x1 S131072x3x20 [0, 1] [2] [] [2] [] 1 ![131072, 3, 1]
  gather_S131073x3x21_S20x1_S131073x3x20_01_2_n_n_2_1_13107331_wf : GatherDims.WF S131073x3x21 S20x1 S131073x3x20 [0, 1] [2] [] [2] [] 1 ![131073, 3, 1]

variable [Facts₀]

def dot_S131072x3x3_S3x3_S131072x3x3_2_1_01_0_n_n : DotDims S131072x3x3 S3x3 S131072x3x3 where
  lhsContracting := [2]
  rhsContracting := [1]
  lhsNonContracting := [0, 1]
  rhsNonContracting := [0]
  lhsBatch := []
  rhsBatch := []
  wf := dot_S131072x3x3_S3x3_S131072x3x3_2_1_01_0_n_n_wf
def dot_S131072x3x3_S131072x3x21_S131072x3x21_1_1_2_2_0_0 : DotDims S131072x3x3 S131072x3x21 S131072x3x21 where
  lhsContracting := [1]
  rhsContracting := [1]
  lhsNonContracting := [2]
  rhsNonContracting := [2]
  lhsBatch := [0]
  rhsBatch := [0]
  wf := dot_S131072x3x3_S131072x3x21_S131072x3x21_1_1_2_2_0_0_wf
def gather_S131072x3x21_S20x1_S131072x3x20_01_2_n_n_2_1_13107231 : GatherDims S131072x3x21 S20x1 S131072x3x20 where
  offsetDims := [0, 1]
  collapsedSliceDims := [2]
  operandBatchingDims := []
  startIndicesBatchingDims := []
  startIndexMap := [2]
  indexVectorDim := 1
  sliceSizes := ![131072, 3, 1]
  wf := gather_S131072x3x21_S20x1_S131072x3x20_01_2_n_n_2_1_13107231_wf
def gather_S131073x3x21_S20x1_S131073x3x20_01_2_n_n_2_1_13107331 : GatherDims S131073x3x21 S20x1 S131073x3x20 where
  offsetDims := [0, 1]
  collapsedSliceDims := [2]
  operandBatchingDims := []
  startIndicesBatchingDims := []
  startIndexMap := [2]
  indexVectorDim := 1
  sliceSizes := ![131073, 3, 1]
  wf := gather_S131073x3x21_S20x1_S131073x3x20_01_2_n_n_2_1_13107331_wf

class Facts : Prop extends Facts₀ where

variable [Facts]
-- ==== Proof.KI.Runs.lean ====
/-
  What the two runs of the kernel body of `KernelIdeal` share: the body's one branch condition in closed form
  over the grid, one staging view per output window through which its contents are stated, and each window's
  current staging memref at a grid point with its wholeness.
-/
import proofs.«404832_j45707041964541_3_alg».proof.Proof.Gen.KernelIdeal.Launch
import proofs.«404832_j45707041964541_3_alg».proof.Proof.Gen.KernelIdeal.Skeleton
import proofs.«404832_j45707041964541_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional: grid coordinate 1 is zero (the scalar chain
    `cmpi eq`, `extui`, `cmpi ne` of the body, substituted). -/
abbrev cond0_0 (i : grid0.Coords) : Prop := (Scalar.cmpi .ne (Scalar.extui (Scalar.cmpi .eq (BitVec.ofNat 32 (i 1).val) 0#32)) 0#32) = 1#1

/-- It holds exactly at the points whose position is a multiple of 128 (the first point of each row of the
    grid): decided over the 256 points. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The outputs' staging views -/

/-- One staging buffer of output window 9: its contents are stated through this view (which buffer is chosen
    does not matter: a covered read of writes depends on the pieces alone). -/
abbrev VO0_9 : View sig .tc .vmem S1x1x1 .f32 := (Memref.whole cc0_stg9_0 : Memref sig .tc .vmem S1x1x1 .f32).view
/-- One staging buffer of output window 10: its contents are stated through this view (which buffer is chosen
    does not matter: a covered read of writes depends on the pieces alone). -/
abbrev VO0_10 : View sig .tc .vmem S1x1x1 .f32 := (Memref.whole cc0_stg10_0 : Memref sig .tc .vmem S1x1x1 .f32).view
/-- One staging buffer of output window 11: its contents are stated through this view (which buffer is chosen
    does not matter: a covered read of writes depends on the pieces alone). -/
abbrev VO0_11 : View sig .tc .vmem S1x1x1 .f32 := (Memref.whole cc0_stg11_0 : Memref sig .tc .vmem S1x1x1 .f32).view
/-- One staging buffer of output window 12: its contents are stated through this view (which buffer is chosen
    does not matter: a covered read of writes depends on the pieces alone). -/
abbrev VO0_12 : View sig .tc .vmem S1x1x1 .f32 := (Memref.whole cc0_stg12_0 : Memref sig .tc .vmem S1x1x1 .f32).view

/-! ## The windows' current staging memrefs at a point -/

abbrev ms0_0 (t : Fin cfg0.N) : Memref sig .tc .vmem S512x2x21 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S21x20 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x20 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x3x21 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x3x21 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1 .f32 := win0_12.stage (cfg0.slots t 12)
abbrev hs0_12 (t : Fin cfg0.N) : (ms0_12 t).IsWhole := hstage0_12 ((cfg0.slots t 12).cast nbuf0_12)

end Cert.KernelIdeal.Gen

end
-- ==== Proof.KI.RunA.lean ====
/-
  The whole-body run of the kernel body of `KernelIdeal` at the grid points whose coordinate 1 is zero: the body
  first stores zeros over each of its four one-element outputs, later reads each back and stores it again with a
  block sum added. The run is a triple over the body's skeleton, found by symbolic execution; what each output's
  staging memref ends with is a list of written pieces, the witness of a subtype.
-/
import proofs.«404832_j45707041964541_3_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the four outputs' staging memrefs (last store first) when grid coordinate 1 is zero (the conditional taken: the outputs are reset, then accumulated into), with the proof that on
    whole staging memrefs — the nine inputs' at contents `x0 … x8`, the four outputs' at anything — the body runs
    to a continuation that is handed the inputs' memrefs as they were and each output's with its pieces written. The
    pieces are the witness the run finds. -/
noncomputable def kernelRun0_A (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) :
    Σ' (L9 : List (View.Piece (Elt F) S1x1x1 .f32)) (L10 : List (View.Piece (Elt F) S1x1x1 .f32)) (L11 : List (View.Piece (Elt F) S1x1x1 .f32)), { L12 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0__pose3d_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__pose3d_kernel_eq_skeleton]; unfold cc0__pose3d_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact H12

end Cert.KernelIdeal.Gen

end
-- ==== Proof.KI.RunB.lean ====
/-
  The whole-body run of the kernel body of `KernelIdeal` at the grid points whose coordinate 1 is not zero: the
  body reads each of its four one-element outputs — the running sums the point before left — and stores it back
  with a block sum added. The run is a triple over the body's skeleton, found by symbolic execution; what each
  output's staging memref ends with is a list of written pieces, the witness of a subtype.
-/
import proofs.«404832_j45707041964541_3_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the four outputs' staging memrefs (last store first) when grid coordinate 1 is not zero (the conditional not taken: the outputs are accumulated into), with the proof that on
    whole staging memrefs — the nine inputs' at contents `x0 … x8`, the four outputs' at their running contents `xo9 … xo12` — the body runs
    to a continuation that is handed the inputs' memrefs as they were and each output's with its pieces written. The
    pieces are the witness the run finds. -/
noncomputable def kernelRun0_B (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) :
    Σ' (L9 : List (View.Piece (Elt F) S1x1x1 .f32)) (L10 : List (View.Piece (Elt F) S1x1x1 .f32)) (L11 : List (View.Piece (Elt F) S1x1x1 .f32)), { L12 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xo9 ∗ owns (c : Thread nD τ) arg12 fullShare xo10 ∗ owns (c : Thread nD τ) arg13 fullShare xo11 ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0__pose3d_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__pose3d_kernel_eq_skeleton]; unfold cc0__pose3d_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact H12

end Cert.KernelIdeal.Gen

end
-- ==== Proof.KI.Region.lean ====
/-
  The region half of the frame of `KernelIdeal`: its one pipelined region (256 grid points, thirteen windows) at a
  parameter `V`, the buffer contents when the region is entered. Each input window's staging buffer holds its
  block of the array at every point; the four one-element outputs are reset at the first point of each row of the
  grid and accumulated into at the others, and written back at the last point of the row, so what they hold after a
  point is a recursion on the point. From these: the pipeline's proof data and the body obligation.
-/
import proofs.«404832_j45707041964541_3_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`): the block's part inside
    the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 7's array has 131074 rows, not a multiple of the block's 512, yet the grid's 256 blocks end at row
    131072: no block of it is cut on any axis — decided over the grid. -/
theorem clip0_7 : ∀ (t : Fin cfg0.N) (a : Fin 3), (cfg0.win 7).clip (cfg0.grid.coords t) a = none :=
  (by decide +kernel : ∀ (t : Fin grid0.N) (a : Fin 3), win0_7.clip (grid0.coords t) a = none)

/-- Window 7's block at point `t` as a whole staging buffer's contents: the block's part inside the array laid
    over a filler. Since no block is cut (`clip0_7`) the part is all of it and the filler is never seen. -/
def blk0_7 (c : Dev nD) (t : Fin cfg0.N) : Vec F S512x3x21 .f32 :=
  (cfg0.win 7).fill (cfg0.grid.coords t) (fun _ => Scalar.ofBits .f32 0#32) (iblk0 V c 7 t)

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block (`blk0_7`) at every point: what a fetch there puts in
    the buffer, which, the block being uncut, does not depend on what the buffer held. -/
theorem before0_7_of {c : Dev nD} (dat : Dat τ (Elt F) Unit ℕ (UR sig nD τ) ℕ cfg0 c) (hA : dat.A 7 = V c (Pipeline.arrRef spec0 7))
    (hafter : ∀ t, dat.after 7 t = blk0_7 V c t) (t : Fin cfg0.N) (d) : dat.before 7 t d = blk0_7 V c t :=
  (dat.before_in_eq_fetched 7 rfl (fun _ => rfl) (fun t t' _ => funext fun a => (clip0_7 t a).trans (clip0_7 t' a).symm)
    (fun t => by rw [hafter]; unfold blk0_7; rw [Window.cut_fill]; unfold Dat.blockOf iblk0; rw [hA]; try rfl) t d).trans
    ((dat.fetched_of_clip_none 7 t (clip0_7 t) d (fun _ => Scalar.ofBits .f32 0#32)).trans
      (by unfold Dat.fetched Dat.blockOf blk0_7 iblk0; rw [hA]; try rfl))

/-! ## What each case of the body leaves in the outputs' staging buffers -/

/-- At a point whose grid coordinate 1 is zero the pieces stored into output window 9's buffer tile its one-element block, so they cover it. -/
theorem cover0_A_9 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1 S1x1x1.size (by sl_kernel_rfl) y

/-- What that case leaves in output window 9's staging buffer: its pieces read back over junk. -/
def out0_A_9 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) : Vec F S1x1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1)

/-- At a point whose grid coordinate 1 is zero the pieces stored into output window 10's buffer tile its one-element block, so they cover it. -/
theorem cover0_A_10 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1 S1x1x1.size (by sl_kernel_rfl) y

/-- What that case leaves in output window 10's staging buffer: its pieces read back over junk. -/
def out0_A_10 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) : Vec F S1x1x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1)

/-- At a point whose grid coordinate 1 is zero the pieces stored into output window 11's buffer tile its one-element block, so they cover it. -/
theorem cover0_A_11 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1 S1x1x1.size (by sl_kernel_rfl) y

/-- What that case leaves in output window 11's staging buffer: its pieces read back over junk. -/
def out0_A_11 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) : Vec F S1x1x1 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1)

/-- At a point whose grid coordinate 1 is zero the pieces stored into output window 12's buffer tile its one-element block, so they cover it. -/
theorem cover0_A_12 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1 S1x1x1.size (by sl_kernel_rfl) y

/-- What that case leaves in output window 12's staging buffer: its pieces read back over junk. -/
def out0_A_12 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) : Vec F S1x1x1 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1)

/-- At a point whose grid coordinate 1 is not zero the pieces stored into output window 9's buffer tile its one-element block, so they cover it. -/
theorem cover0_B_9 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).1 S1x1x1.size (by sl_kernel_rfl) y

/-- What that case leaves in output window 9's staging buffer: its pieces read back over junk. -/
def out0_B_9 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) : Vec F S1x1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).1)

/-- At a point whose grid coordinate 1 is not zero the pieces stored into output window 10's buffer tile its one-element block, so they cover it. -/
theorem cover0_B_10 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.1 S1x1x1.size (by sl_kernel_rfl) y

/-- What that case leaves in output window 10's staging buffer: its pieces read back over junk. -/
def out0_B_10 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) : Vec F S1x1x1 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.1)

/-- At a point whose grid coordinate 1 is not zero the pieces stored into output window 11's buffer tile its one-element block, so they cover it. -/
theorem cover0_B_11 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.2.1 S1x1x1.size (by sl_kernel_rfl) y

/-- What that case leaves in output window 11's staging buffer: its pieces read back over junk. -/
def out0_B_11 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) : Vec F S1x1x1 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.2.1)

/-- At a point whose grid coordinate 1 is not zero the pieces stored into output window 12's buffer tile its one-element block, so they cover it. -/
theorem cover0_B_12 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.2.2.1 S1x1x1.size (by sl_kernel_rfl) y

/-- What that case leaves in output window 12's staging buffer: its pieces read back over junk. -/
def out0_B_12 (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) : Vec F S1x1x1 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12).2.2.2.1)

/-! ## What the outputs hold after each point -/

/-- The four outputs' staging contents after the body at a point of the first kind (position a multiple of 128):
    the reset-and-add case run at the point's memrefs and input blocks. -/
def outsA0 (c : Dev nD) (t : Fin cfg0.N) (h0 : t.val % 128 = 0) : Vec F S1x1x1 .f32 × Vec F S1x1x1 .f32 × Vec F S1x1x1 .f32 × Vec F S1x1x1 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t),
   out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t),
   out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t),
   out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t))

/-- The same at a point of the second kind, over the contents `xo` the point before left. -/
def outsB0 (c : Dev nD) (t : Fin cfg0.N) (h0 : ¬t.val % 128 = 0) (xo : Vec F S1x1x1 .f32 × Vec F S1x1x1 .f32 × Vec F S1x1x1 .f32 × Vec F S1x1x1 .f32) : Vec F S1x1x1 .f32 × Vec F S1x1x1 .f32 × Vec F S1x1x1 .f32 × Vec F S1x1x1 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2,
   out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2,
   out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2,
   out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2)

/-- The components of `outsA0` and `outsB0`, output by output. -/
theorem outsA0_9 (c : Dev nD) (t : Fin cfg0.N) (h0 : t.val % 128 = 0) :
    (outsA0 V c t h0).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t) := rfl
theorem outsA0_10 (c : Dev nD) (t : Fin cfg0.N) (h0 : t.val % 128 = 0) :
    (outsA0 V c t h0).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t) := rfl
theorem outsA0_11 (c : Dev nD) (t : Fin cfg0.N) (h0 : t.val % 128 = 0) :
    (outsA0 V c t h0).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t) := rfl
theorem outsA0_12 (c : Dev nD) (t : Fin cfg0.N) (h0 : t.val % 128 = 0) :
    (outsA0 V c t h0).2.2.2 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t) := rfl
theorem outsB0_9 (c : Dev nD) (t : Fin cfg0.N) (h0 : ¬t.val % 128 = 0) (xo : Vec F S1x1x1 .f32 × Vec F S1x1x1 .f32 × Vec F S1x1x1 .f32 × Vec F S1x1x1 .f32) :
    (outsB0 V c t h0 xo).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2 := rfl
theorem outsB0_10 (c : Dev nD) (t : Fin cfg0.N) (h0 : ¬t.val % 128 = 0) (xo : Vec F S1x1x1 .f32 × Vec F S1x1x1 .f32 × Vec F S1x1x1 .f32 × Vec F S1x1x1 .f32) :
    (outsB0 V c t h0 xo).2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2 := rfl
theorem outsB0_11 (c : Dev nD) (t : Fin cfg0.N) (h0 : ¬t.val % 128 = 0) (xo : Vec F S1x1x1 .f32 × Vec F S1x1x1 .f32 × Vec F S1x1x1 .f32 × Vec F S1x1x1 .f32) :
    (outsB0 V c t h0 xo).2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2 := rfl
theorem outsB0_12 (c : Dev nD) (t : Fin cfg0.N) (h0 : ¬t.val % 128 = 0) (xo : Vec F S1x1x1 .f32 × Vec F S1x1x1 .f32 × Vec F S1x1x1 .f32 × Vec F S1x1x1 .f32) :
    (outsB0 V c t h0 xo).2.2.2 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) xo.1 xo.2.1 xo.2.2.1 xo.2.2.2 := rfl

/-- THE ACCUMULATION. What the four outputs' staging buffers hold after the body at position `n`: at a multiple of
    128 the reset-and-add case; elsewhere the add case over what this leaves at `n - 1` (the buffers are not written
    back between). -/
def outsAt0 (c : Dev nD) : (n : ℕ) → n < cfg0.N → Vec F S1x1x1 .f32 × Vec F S1x1x1 .f32 × Vec F S1x1x1 .f32 × Vec F S1x1x1 .f32
  | 0, hn => outsA0 V c ⟨0, hn⟩ (Nat.zero_mod _)
  | n + 1, hn =>
    if h0 : (n + 1) % 128 = 0 then outsA0 V c ⟨n + 1, hn⟩ h0
    else outsB0 V c ⟨n + 1, hn⟩ h0 (outsAt0 c n (Nat.lt_of_succ_lt hn))

/-- `outsAt0` at a point of the first kind. -/
theorem outsAt0_A (c : Dev nD) (t : Fin cfg0.N) (h0 : t.val % 128 = 0) :
    outsAt0 V c t.val t.isLt = outsA0 V c t h0 := by
  obtain ⟨n, hn⟩ := t
  cases n with
  | zero => exact rfl
  | succ n => exact (dif_pos h0).trans rfl

/-- `outsAt0` at a point of the second kind: over what the point before left. -/
theorem outsAt0_B (c : Dev nD) (t : Fin cfg0.N) (h0 : ¬t.val % 128 = 0) :
    outsAt0 V c t.val t.isLt = outsB0 V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at
    point `t` each input's buffer at its block and the outputs' at `outsAt0`; the invariant the scoped rest and the
    generator register, untouched; nothing owed; full shares, but that windows 7 and 8, which stage one array, hold
    a half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => blk0_7 V c t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
    | ⟨12, _⟩ => (outsAt0 V c t.val t.isLt).2.2.2
  Φ _ := Pipeline.ΦA spec0 c
  q := fun w => match w with | ⟨7, _⟩ => fullShare.left | ⟨8, _⟩ => fullShare.right | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = blk0_7 V c t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]
theorem after0_12 (c : Dev nD) (t : Fin cfg0.N) : (dat0 V c).after 12 t = (outsAt0 V c t.val t.isLt).2.2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = blk0_7 V c t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- At a point of the second kind output window 9's current staging buffer holds what the body left at the point
    before: the point is not the first, and the point before — not the last of its row — did not write the buffer back. -/
theorem before0_9_B (c : Dev nD) (t : Fin cfg0.N) (h0 : ¬t.val % 128 = 0) (d) :
    (dat0 V c).before 9 t d = (outsAt0 V c (t.val - 1) (Nat.lt_of_le_of_lt (Nat.sub_le _ _) t.isLt)).1 := by
  have hN : t.val < 256 := lt_of_lt_of_eq t.isLt (show cfg0.N = 256 from N_0)
  rw [Dat.before_out_kept _ 9 rfl t (by omega) (Bool.eq_false_iff.mpr fun h => by have := (flush0_9 _).mp h; dsimp only at this; omega)
    (fun _ => rfl) (fun _ _ => rfl)]
  dsimp only [dat0]
/-- At a point of the second kind output window 10's current staging buffer holds what the body left at the point
    before: the point is not the first, and the point before — not the last of its row — did not write the buffer back. -/
theorem before0_10_B (c : Dev nD) (t : Fin cfg0.N) (h0 : ¬t.val % 128 = 0) (d) :
    (dat0 V c).before 10 t d = (outsAt0 V c (t.val - 1) (Nat.lt_of_le_of_lt (Nat.sub_le _ _) t.isLt)).2.1 := by
  have hN : t.val < 256 := lt_of_lt_of_eq t.isLt (show cfg0.N = 256 from N_0)
  rw [Dat.before_out_kept _ 10 rfl t (by omega) (Bool.eq_false_iff.mpr fun h => by have := (flush0_10 _).mp h; dsimp only at this; omega)
    (fun _ => rfl) (fun _ _ => rfl)]
  dsimp only [dat0]
/-- At a point of the second kind output window 11's current staging buffer holds what the body left at the point
    before: the point is not the first, and the point before — not the last of its row — did not write the buffer back. -/
theorem before0_11_B (c : Dev nD) (t : Fin cfg0.N) (h0 : ¬t.val % 128 = 0) (d) :
    (dat0 V c).before 11 t d = (outsAt0 V c (t.val - 1) (Nat.lt_of_le_of_lt (Nat.sub_le _ _) t.isLt)).2.2.1 := by
  have hN : t.val < 256 := lt_of_lt_of_eq t.isLt (show cfg0.N = 256 from N_0)
  rw [Dat.before_out_kept _ 11 rfl t (by omega) (Bool.eq_false_iff.mpr fun h => by have := (flush0_11 _).mp h; dsimp only at this; omega)
    (fun _ => rfl) (fun _ _ => rfl)]
  dsimp only [dat0]
/-- At a point of the second kind output window 12's current staging buffer holds what the body left at the point
    before: the point is not the first, and the point before — not the last of its row — did not write the buffer back. -/
theorem before0_12_B (c : Dev nD) (t : Fin cfg0.N) (h0 : ¬t.val % 128 = 0) (d) :
    (dat0 V c).before 12 t d = (outsAt0 V c (t.val - 1) (Nat.lt_of_le_of_lt (Nat.sub_le _ _) t.isLt)).2.2.2 := by
  have hN : t.val < 256 := lt_of_lt_of_eq t.isLt (show cfg0.N = 256 from N_0)
  rw [Dat.before_out_kept _ 12 rfl t (by omega) (Bool.eq_false_iff.mpr fun h => by have := (flush0_12 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 1600000 in
/-- The body at any point: the inputs' memrefs hold their blocks; the point's position says which case it is in; in
    the second an output holds what the point before left; so that case's run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  have hN : t.val < 256 := lt_of_lt_of_eq t.isLt (show cfg0.N = 256 from N_0)
  by_cases h0 : t.val % 128 = 0
  · rw [outsAt0_A V c t h0, outsA0_9, outsA0_10, outsA0_11, outsA0_12]
    unfold out0_A_9 out0_A_10 out0_A_11 out0_A_12
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (blk0_7 V c t) (iblk0 V c 8 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _)
  · rw [outsAt0_B V c t h0, outsB0_9, outsB0_10, outsB0_11, outsB0_12]
    simp only [before0_9_B V c t h0, before0_10_B V c t h0, before0_11_B V c t h0, before0_12_B V c t h0]
    unfold out0_B_9 out0_B_10 out0_B_11 out0_B_12
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (blk0_7 V c t) (iblk0 V c 8 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Gen

end
-- ==== Proof.KI.Launch.lean ====
/-
  The run of the kernel program: the host operations that build the kernel's operands, the pallas_call, and the host
  operations that combine its four results, from the launch to the return.  The thread state carried from segment to
  segment is "every unscoped buffer at the boundary's contents, the generator register at some state, nothing owed".
  At the pallas_call the buffers behind its windows' arrays are taken out of that state; the trajectory's padded copy
  is read through TWO windows, so its buffer is split into two half shares, one per window, and the halves are joined
  again when the call returns; the four result arrays come back at what the pipeline's write-backs leave.
-/
import proofs.«404832_j45707041964541_3_alg».proof.Proof.KI.Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The contents the pallas_call is entered from. -/
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b

/-- The contents the pallas_call leaves: its four result arrays at what the write-backs leave, everything else as entered. -/
def W7 (c : Dev nD) : Valuation τ sig (Elt F) :=
  Function.update (Function.update (Function.update (Function.update (W6 m ρ c)
    (Proc.devRef .tc main_v10_0) ((dat0 (V6 m ρ) c).arrAt 9 cfg0.N))
    (Proc.devRef .tc main_v10_1) ((dat0 (V6 m ρ) c).arrAt 10 cfg0.N))
    (Proc.devRef .tc main_v10_2) ((dat0 (V6 m ρ) c).arrAt 11 cfg0.N))
    (Proc.devRef .tc main_v10_3) ((dat0 (V6 m ρ) c).arrAt 12 cfg0.N)
abbrev V7 : (c : Dev nD) → (b : Ref sig .tc) → Buf (Elt F) ((c : Thread nD τ).loc b) := fun c b => W7 m ρ c b
/-- The contents at the return. -/
abbrev W8 : Dev nD → Valuation τ sig (Elt F) := fun c => StableHlo.after hostOps1 (W7 m ρ c)

theorem W7_out0 (c : Dev nD) : W7 m ρ c (Proc.devRef .tc main_v10_0) = (dat0 (V6 m ρ) c).arrAt 9 cfg0.N := by
  unfold W7
  rw [Function.update_of_ne (by decide), Function.update_of_ne (by decide), Function.update_of_ne (by decide), Function.update_self]
theorem W7_out1 (c : Dev nD) : W7 m ρ c (Proc.devRef .tc main_v10_1) = (dat0 (V6 m ρ) c).arrAt 10 cfg0.N := by
  unfold W7
  rw [Function.update_of_ne (by decide), Function.update_of_ne (by decide), Function.update_self]
theorem W7_out2 (c : Dev nD) : W7 m ρ c (Proc.devRef .tc main_v10_2) = (dat0 (V6 m ρ) c).arrAt 11 cfg0.N := by
  unfold W7
  rw [Function.update_of_ne (by decide), Function.update_self]
theorem W7_out3 (c : Dev nD) : W7 m ρ c (Proc.devRef .tc main_v10_3) = (dat0 (V6 m ρ) c).arrAt 12 cfg0.N := by
  unfold W7
  rw [Function.update_self]
theorem W7_of_ne (c : Dev nD) (b : Ref sig .tc) (h0 : b ≠ main_v10_0) (h1 : b ≠ main_v10_1) (h2 : b ≠ main_v10_2) (h3 : b ≠ main_v10_3) :
    W7 m ρ c (Proc.devRef .tc b) = W6 m ρ c (Proc.devRef .tc b) := by
  unfold W7
  rw [Function.update_of_ne (fun e => h3 (Proc.devRef_injective _ e)), Function.update_of_ne (fun e => h2 (Proc.devRef_injective _ e)),
    Function.update_of_ne (fun e => h1 (Proc.devRef_injective _ e)), Function.update_of_ne (fun e => h0 (Proc.devRef_injective _ e))]

/-! ## The thread state and the host segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

/-! ## The pallas_call's arrays out of the unscoped buffers and back -/

/-- The buffers behind the windows' arrays, listed: twelve, the padded trajectory's serving two windows. -/
theorem arrRefs_eq : Finset.univ.image (Pipeline.arrRef spec0) = ([main_arg1, main_arg2, main_arg3, main_arg6, main_arg4, main_v7, main_v9, main_v8, main_v10_0, main_v10_1, main_v10_2, main_v10_3] : List (Ref sig .tc)).toFinset := by
  ext b
  simp only [Finset.mem_image, Finset.mem_univ, true_and, List.mem_toFinset, List.mem_cons, List.not_mem_nil, or_false]
  constructor
  · rintro ⟨w, rfl⟩
    fin_cases w <;> decide
  · rintro (rfl | rfl | rfl | rfl | rfl | rfl | rfl | rfl | rfl | rfl | rfl | rfl)
    · exact ⟨0, rfl⟩
    · exact ⟨1, rfl⟩
    · exact ⟨2, rfl⟩
    · exact ⟨3, rfl⟩
    · exact ⟨4, rfl⟩
    · exact ⟨5, rfl⟩
    · exact ⟨6, rfl⟩
    · exact ⟨7, rfl⟩
    · exact ⟨9, rfl⟩
    · exact ⟨10, rfl⟩
    · exact ⟨11, rfl⟩
    · exact ⟨12, rfl⟩

/-- The buffers behind the windows' arrays conjoined one by one. -/
theorem bigSep_refs0 {M : Type} [URA M] (Φ : Ref sig .tc → sProp M) :
    bigSep (Finset.univ.image (Pipeline.arrRef spec0)) Φ
      = iprop(Φ main_arg1 ∗ Φ main_arg2 ∗ Φ main_arg3 ∗ Φ main_arg6 ∗ Φ main_arg4 ∗ Φ main_v7 ∗ Φ main_v9 ∗ Φ main_v8 ∗ Φ main_v10_0 ∗ Φ main_v10_1 ∗ Φ main_v10_2 ∗ Φ main_v10_3) :=
  bigSep_eq_bigSepL_of_eq [main_arg1, main_arg2, main_arg3, main_arg6, main_arg4, main_v7, main_v9, main_v8, main_v10_0, main_v10_1, main_v10_2, main_v10_3] arrRefs_eq (by decide) Φ

/-- A window's array, a whole buffer, held at the window's share at contents `G`, spelled over the buffer's reference. -/
theorem win_pt (V : (c : Dev nD) → (b : Ref sig .tc) → Buf (Elt F) ((c : Thread nD τ).loc b)) (c : Dev nD) (w : Fin 13) (q : PosShare TreeShare) (hq : (dat0 V c).share w = q)
    (G : Buf (Elt F) ((cfg0.win w).arr.view.loc (c : Thread nD τ))) :
    ((cfg0.win w).arr.view.loc (c : Thread nD τ) ↦[(cfg0.win w).arr.view.set]{(dat0 V c).share w} G : sProp 𝕄)
      = (((c : Thread nD τ)).loc (Pipeline.arrRef spec0 w) ↦{q} G) := by
  rw [(arr_whole0 w).set_eq_univ, hq]

/-- The windows' shares: the two windows on the padded trajectory hold a half each, every other window all of its array. -/
theorem share_full (V : (c : Dev nD) → (b : Ref sig .tc) → Buf (Elt F) ((c : Thread nD τ).loc b)) (c : Dev nD) (w : Fin 13) (h7 : w ≠ 7) (h8 : w ≠ 8) : (dat0 V c).share w = fullShare := by
  match w, h7, h8 with
  | 0, _, _ => rfl | 1, _, _ => rfl | 2, _, _ => rfl | 3, _, _ => rfl | 4, _, _ => rfl | 5, _, _ => rfl | 6, _, _ => rfl
  | 7, h, _ => exact absurd rfl h | 8, _, h => exact absurd rfl h
  | 9, _, _ => rfl | 10, _, _ => rfl | 11, _, _ => rfl | 12, _, _ => rfl
theorem share_7 (V : (c : Dev nD) → (b : Ref sig .tc) → Buf (Elt F) ((c : Thread nD τ).loc b)) (c : Dev nD) : (dat0 V c).share 7 = fullShare.left := rfl
theorem share_8 (V : (c : Dev nD) → (b : Ref sig .tc) → Buf (Elt F) ((c : Thread nD τ).loc b)) (c : Dev nD) : (dat0 V c).share 8 = fullShare.right := rfl

/-- One window's array from its buffer, at entry. -/
theorem pt_in (V : (c : Dev nD) → (b : Ref sig .tc) → Buf (Elt F) ((c : Thread nD τ).loc b)) (c : Dev nD) (w : Fin 13) (q : PosShare TreeShare) (hq : (dat0 V c).share w = q) :
    ((((c : Thread nD τ)).loc (Pipeline.arrRef spec0 w) ↦{q} V c (Pipeline.arrRef spec0 w)) : sProp 𝕄)
      ⊢ ((cfg0.win w).arr.view.loc (c : Thread nD τ) ↦[(cfg0.win w).arr.view.set]{(dat0 V c).share w} (dat0 V c).arrAt w 0) :=
  Entails.of_eq (by rw [win_pt V c w q hq, show (dat0 V c).arrAt w 0 = (dat0 V c).A w from rfl, A_eq0])

/-- One window's array back to its buffer, at exit, at contents `G` equal to what the array ends with. -/
theorem pt_out (V : (c : Dev nD) → (b : Ref sig .tc) → Buf (Elt F) ((c : Thread nD τ).loc b)) (c : Dev nD) (w : Fin 13) (q : PosShare TreeShare) (hq : (dat0 V c).share w = q)
    (G : Buf (Elt F) ((cfg0.win w).arr.view.loc (c : Thread nD τ))) (hG : (dat0 V c).arrAt w cfg0.N = G) :
    ((cfg0.win w).arr.view.loc (c : Thread nD τ) ↦[(cfg0.win w).arr.view.set]{(dat0 V c).share w} (dat0 V c).arrAt w cfg0.N : sProp 𝕄)
      ⊢ (((c : Thread nD τ)).loc (Pipeline.arrRef spec0 w) ↦{q} G) :=
  Entails.of_eq (by rw [win_pt V c w q hq, hG])

/-- ENTRY: the buffers behind the windows' arrays, whole at the entry contents, are the pipeline's arrays — the padded
    trajectory's buffer as two half shares, one for each of the two windows that read it. -/
theorem arrays_in0 (c : Dev nD) :
    (Pipeline.arrBufs (Ix := Unit) (Name := ℕ) (U := UR sig nD τ) (Lvl := ℕ) spec0 c (V6 m ρ c) : sProp 𝕄)
      ⊢ (pdats m ρ 0 c).arrays ((pdats m ρ 0 c).arrAt · 0) := by
  show _ ⊢ (dat0 (V6 m ρ) c).arrays ((dat0 (V6 m ρ) c).arrAt · 0)
  unfold Pipeline.arrBufs Dat.arrays
  rw [bigSep_refs0, bigSep_W0]
  iintro ⟨H1, H2, H3, H6, H4, H7, H9, H8, Ho0, Ho1, Ho2, Ho3⟩
  ihave H8' := (pointsTo_share (PosShare.mem_left_op_right fullShare)).1 $$ H8
  icases H8' with ⟨H8l, H8r⟩
  isplitl [H1]; · iapply (pt_in (V6 m ρ) c 0 fullShare (share_full _ c 0 (by decide) (by decide))); iexact H1
  isplitl [H2]; · iapply (pt_in (V6 m ρ) c 1 fullShare (share_full _ c 1 (by decide) (by decide))); iexact H2
  isplitl [H3]; · iapply (pt_in (V6 m ρ) c 2 fullShare (share_full _ c 2 (by decide) (by decide))); iexact H3
  isplitl [H6]; · iapply (pt_in (V6 m ρ) c 3 fullShare (share_full _ c 3 (by decide) (by decide))); iexact H6
  isplitl [H4]; · iapply (pt_in (V6 m ρ) c 4 fullShare (share_full _ c 4 (by decide) (by decide))); iexact H4
  isplitl [H7]; · iapply (pt_in (V6 m ρ) c 5 fullShare (share_full _ c 5 (by decide) (by decide))); iexact H7
  isplitl [H9]; · iapply (pt_in (V6 m ρ) c 6 fullShare (share_full _ c 6 (by decide) (by decide))); iexact H9
  isplitl [H8l]; · iapply (pt_in (V6 m ρ) c 7 fullShare.left (share_7 _ c)); iexact H8l
  isplitl [H8r]; · iapply (pt_in (V6 m ρ) c 8 fullShare.right (share_8 _ c)); iexact H8r
  isplitl [Ho0]; · iapply (pt_in (V6 m ρ) c 9 fullShare (share_full _ c 9 (by decide) (by decide))); iexact Ho0
  isplitl [Ho1]; · iapply (pt_in (V6 m ρ) c 10 fullShare (share_full _ c 10 (by decide) (by decide))); iexact Ho1
  isplitl [Ho2]; · iapply (pt_in (V6 m ρ) c 11 fullShare (share_full _ c 11 (by decide) (by decide))); iexact Ho2
  iapply (pt_in (V6 m ρ) c 12 fullShare (share_full _ c 12 (by decide) (by decide))); iexact Ho3

/-- An input window's array ends as it was entered. -/
theorem arrAt_in_eq (c : Dev nD) (w : Fin 13) (hw : (cfg0.win w).isOut = false)
    (h0 : Pipeline.arrRef spec0 w ≠ main_v10_0) (h1 : Pipeline.arrRef spec0 w ≠ main_v10_1) (h2 : Pipeline.arrRef spec0 w ≠ main_v10_2) (h3 : Pipeline.arrRef spec0 w ≠ main_v10_3) :
    (dat0 (V6 m ρ) c).arrAt w cfg0.N = V7 m ρ c (Pipeline.arrRef spec0 w) :=
  ((dat0 (V6 m ρ) c).arrAt_in w hw _).trans ((A_eq0 (V6 m ρ) c w).trans (W7_of_ne m ρ c _ h0 h1 h2 h3).symm)

/-- EXIT: the pipeline's arrays at what the write-backs leave are the buffers behind them at the exit contents. -/
theorem arrays_out0 (c : Dev nD) :
    ((pdats m ρ 0 c).arrays ((pdats m ρ 0 c).arrAt · cfg0.N) : sProp 𝕄)
      ⊢ Pipeline.arrBufs (Ix := Unit) (Name := ℕ) (U := UR sig nD τ) (Lvl := ℕ) spec0 c (V7 m ρ c) := by
  show (dat0 (V6 m ρ) c).arrays ((dat0 (V6 m ρ) c).arrAt · cfg0.N) ⊢ _
  unfold Pipeline.arrBufs Dat.arrays
  rw [bigSep_refs0, bigSep_W0]
  iintro ⟨H1, H2, H3, H6, H4, H7, H9, H8l, H8r, Ho0, Ho1, Ho2, Ho3⟩
  ihave G1 := (pt_out (V6 m ρ) c 0 fullShare (share_full _ c 0 (by decide) (by decide)) _ (arrAt_in_eq m ρ c 0 rfl (by decide) (by decide) (by decide) (by decide))) $$ H1
  ihave G2 := (pt_out (V6 m ρ) c 1 fullShare (share_full _ c 1 (by decide) (by decide)) _ (arrAt_in_eq m ρ c 1 rfl (by decide) (by decide) (by decide) (by decide))) $$ H2
  ihave G3 := (pt_out (V6 m ρ) c 2 fullShare (share_full _ c 2 (by decide) (by decide)) _ (arrAt_in_eq m ρ c 2 rfl (by decide) (by decide) (by decide) (by decide))) $$ H3
  ihave G6 := (pt_out (V6 m ρ) c 3 fullShare (share_full _ c 3 (by decide) (by decide)) _ (arrAt_in_eq m ρ c 3 rfl (by decide) (by decide) (by decide) (by decide))) $$ H6
  ihave G4 := (pt_out (V6 m ρ) c 4 fullShare (share_full _ c 4 (by decide) (by decide)) _ (arrAt_in_eq m ρ c 4 rfl (by decide) (by decide) (by decide) (by decide))) $$ H4
  ihave G7 := (pt_out (V6 m ρ) c 5 fullShare (share_full _ c 5 (by decide) (by decide)) _ (arrAt_in_eq m ρ c 5 rfl (by decide) (by decide) (by decide) (by decide))) $$ H7
  ihave G9 := (pt_out (V6 m ρ) c 6 fullShare (share_full _ c 6 (by decide) (by decide)) _ (arrAt_in_eq m ρ c 6 rfl (by decide) (by decide) (by decide) (by decide))) $$ H9
  ihave G8l := (pt_out (V6 m ρ) c 7 fullShare.left (share_7 _ c) _ (arrAt_in_eq m ρ c 7 rfl (by decide) (by decide) (by decide) (by decide))) $$ H8l
  ihave G8r := (pt_out (V6 m ρ) c 8 fullShare.right (share_8 _ c) _ (arrAt_in_eq m ρ c 8 rfl (by decide) (by decide) (by decide) (by decide))) $$ H8r
  ihave Go0 := (pt_out (V6 m ρ) c 9 fullShare (share_full _ c 9 (by decide) (by decide)) _ (W7_out0 m ρ c).symm) $$ Ho0
  ihave Go1 := (pt_out (V6 m ρ) c 10 fullShare (share_full _ c 10 (by decide) (by decide)) _ (W7_out1 m ρ c).symm) $$ Ho1
  ihave Go2 := (pt_out (V6 m ρ) c 11 fullShare (share_full _ c 11 (by decide) (by decide)) _ (W7_out2 m ρ c).symm) $$ Ho2
  ihave Go3 := (pt_out (V6 m ρ) c 12 fullShare (share_full _ c 12 (by decide) (by decide)) _ (W7_out3 m ρ c).symm) $$ Ho3
  ihave G8 := (pointsTo_share (PosShare.mem_left_op_right fullShare)).2 $$ [G8l G8r]
  · isplitl [G8l] <;> iassumption
  isplitl [G1]; · iexact G1
  isplitl [G2]; · iexact G2
  isplitl [G3]; · iexact G3
  isplitl [G6]; · iexact G6
  isplitl [G4]; · iexact G4
  isplitl [G7]; · iexact G7
  isplitl [G9]; · iexact G9
  isplitl [G8]; · iexact G8
  isplitl [Go0]; · iexact Go0
  isplitl [Go1]; · iexact Go1
  isplitl [Go2]; · iexact Go2
  iexact Go3

/-- Off the windows' arrays the exit contents are the entry contents. -/
theorem rest_eq0 (c : Dev nD) :
    (Pipeline.unscopedRest (Ix := Unit) (Name := ℕ) (U := UR sig nD τ) (Lvl := ℕ) spec0 c (V7 m ρ c) : sProp 𝕄)
      = Pipeline.unscopedRest spec0 c (V6 m ρ c) := by
  unfold Pipeline.unscopedRest
  refine BI.bigSep_congr fun b hb => ?_
  have hb' := (Finset.mem_sdiff.mp hb).2
  rw [show V7 m ρ c b = V6 m ρ c b from W7_of_ne m ρ c b
    (fun e => hb' (Finset.mem_image.mpr ⟨9, Finset.mem_univ _, e.symm⟩)) (fun e => hb' (Finset.mem_image.mpr ⟨10, Finset.mem_univ _, e.symm⟩))
    (fun e => hb' (Finset.mem_image.mpr ⟨11, Finset.mem_univ _, e.symm⟩)) (fun e => hb' (Finset.mem_image.mpr ⟨12, Finset.mem_univ _, e.symm⟩))]

set_option backward.isDefEq.respectTransparency.types false in
/-- The pallas_call over the thread state. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V6 m ρ) c).loose
  hwaits := Pipeline.hwaits_of_owed_zero _ _ _ _ L lv 0 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec0 c (V6 m ρ c)
  hentry c := by
    rw [Pipeline.ownSems0_none]
    have hsplit : (StableHlo.held (c : Thread nD τ) (Pipeline.ucRefs τ sig) (W6 m ρ c) : sProp 𝕄)
        ⊢ iprop((pdats m ρ 0 c).arrays ((pdats m ρ 0 c).arrAt · 0) ∗ Pipeline.unscopedRest spec0 c (V6 m ρ c)) := by
      rw [← Pipeline.unscopedBufs_held c (W6 m ρ c), Pipeline.unscopedBufs_split₀ cfgs 0 winFacts₀0.arr_unscoped c (V6 m ρ c)]
      exact BI.Laws.sep_mono (arrays_in0 m ρ c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V6 m ρ c))
        ⊢ (StableHlo.held (c : Thread nD τ) (Pipeline.ucRefs τ sig) (W7 m ρ c) : sProp 𝕄) := by
      rw [← Pipeline.unscopedBufs_held c (W7 m ρ c), Pipeline.unscopedBufs_split₀ cfgs 0 winFacts₀0.arr_unscoped c (V7 m ρ c), rest_eq0 m ρ c]
      exact BI.Laws.sep_mono (arrays_out0 m ρ c) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .region (reg0 m ρ),
    .host (hseg hostOps1 hostOps1_sub hostOps1_fresh (W7 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer at the contents the
    fold of the segments gives (`W8`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Gen

end
-- ==== Proof.KI.Blocks.lean ====
/-
  The pieces of the kernel program's value that several modules share, as pure functions of the argument arrays.
  * The host operations before the pallas_call: the one-hot difference matrix of the bone table (`dmOf`: entry (j, k) is
    [first joint of bone k = j] - [second joint of bone k = j]), the trajectory padded by one zero frame (`padPose`), the
    bone lengths as a row (`lenRow`).
  * The blocks the pipeline hands the body at grid point `t` (row-major position of the point in the 2 x 128 grid): the
    512 frames `512 t, …, 512 t + 511` of each streamed array (`rows512`), and of the padded trajectory also the two
    frames `512 (t + 1), 512 (t + 1) + 1` that follow (`rows2`).
  * The last frame's bone-length residual, which the host adds after the pallas_call (`boneLast`).
-/
import proofs.«404832_j45707041964541_3_alg».proof.Proof.Gen.KernelIdeal
import Idealize.ShloMosaic.Lib.ValueIdx

noncomputable section

namespace Cert.KernelIdeal.Gen

open Idealize.ShloMosaic Idealize.SL.Sem Idealize.ShloMosaic.ValueIdx

variable {F : FTy → Type} [FloatOps F]

/-! ## The host operations before the pallas_call -/

/-- One column of the bone table as a vector of 20 joint numbers. -/
def boneCol0 (bc : IVec S20x2 32) : IVec S20 32 :=
  shapeCast _ (extractStridedSlice S20x1 ![0, 0] bc slices_S20x2_S20x1_0_0) shapeCasts_S20x1_S20
def boneCol1 (bc : IVec S20x2 32) : IVec S20 32 :=
  shapeCast _ (extractStridedSlice S20x1 ![0, 1] bc slices_S20x2_S20x1_0_1) shapeCasts_S20x1_S20

/-- The one-hot rows of a vector of 20 joint numbers: entry (k, j) is 1 when the k-th number is j, else 0. -/
def oneHot (v : IVec S20 32) : FVec F S20x21 .f32 :=
  uitofp .f32 (cmpi .eq
    (broadcastInDim S20x21 ![0, 1] bcast_S20x1_S20x21_0_1 (broadcastInDim S20x1 ![0] bcast_S20_S20x1_0 v))
    (broadcastInDim S20x21 ![0, 1] bcast_S1x21_S20x21_0_1 (iotaInDim S1x21 32 1)))

/-- The difference matrix the kernel multiplies the joints by. -/
def dmOf (bc : IVec S20x2 32) : FVec F S21x20 .f32 :=
  transpose S21x20 [1, 0] (subf (oneHot (F := F) (boneCol0 bc)) (oneHot (F := F) (boneCol1 bc))) transposes_S20x21_S21x20_1_0

/-- The trajectory with one zero frame appended. -/
def padPose (P : FVec F S131073x3x21 .f32) : FVec F S131074x3x21 .f32 :=
  pad S131074x3x21 ![0, 0, 0] ![1, 0, 0] ![0, 0, 0] P (sitofp .f32 (constantI S_ 32 0#32)) pads_S131073x3x21_S131074x3x21_010_000_000 h_S_

/-- The bone lengths as a 1 x 20 row. -/
def lenRow (L : FVec F S20 .f32) : FVec F S1x20 .f32 := shapeCast _ L shapeCasts_S20_S1x20

/-! ## The blocks at a grid point -/

/-- Frames `512 t … 512 t + 511` of an array of at least `512 · 256` frames. -/
def rows512 {n a b : Nat} {e : EltTy} (h : 512 * 256 ≤ n) (A : (⟨3, ![n, a, b]⟩ : Shape).Idx → Elt F e) (t : Fin 256) :
    (⟨3, ![512, a, b]⟩ : Shape).Idx → Elt F e :=
  fun j => A (ix3 ⟨512 * t.val + (j 0).val, by have h0 : (j 0).val < 512 := (j 0).isLt; have := t.isLt; show _ < n; omega⟩ (j 1) (j 2))

/-- Frames `512 (t + 1)` and `512 (t + 1) + 1` of an array of at least `512 · 256 + 2` frames. -/
def rows2 {n a b : Nat} {e : EltTy} (h : 512 * 256 + 2 ≤ n) (A : (⟨3, ![n, a, b]⟩ : Shape).Idx → Elt F e) (t : Fin 256) :
    (⟨3, ![2, a, b]⟩ : Shape).Idx → Elt F e :=
  fun j => A (ix3 ⟨512 * (t.val + 1) + (j 0).val, by have h0 : (j 0).val < 2 := (j 0).isLt; have := t.isLt; show _ < n; omega⟩ (j 1) (j 2))

/-! ## The last frame's bone-length residual (host operations after the pallas_call) -/

/-- `Σ_k (L k − Σ_a (P[last] · Dm)[a, k]²)²`, as the program computes it. -/
def boneLast (P : FVec F S131073x3x21 .f32) (Dm : FVec F S21x20 .f32) (L : FVec F S20 .f32) : FVec F S_ .f32 :=
  let d : FVec F S3x20 .f32 := Host.dotGeneral dot_S3x21_S21x20_S3x20_1_0_0_1_n_n (some .fp32)
    (shapeCast _ (extractStridedSlice S1x3x21 ![131072, 0, 0] P slices_S131073x3x21_S1x3x21_131072_0_0) shapeCasts_S1x3x21_S3x21) Dm
  let s : FVec F S20 .f32 := Host.reduceAdd (mulf d d) (constant S_ .f32 0x00000000#32) reducesTo_S3x20_S20_d0 h_S_
  let e : FVec F S20 .f32 := subf L s
  Host.reduceAdd (mulf e e) (constant S_ .f32 0x00000000#32) reducesTo_S20_S_d0 h_S_

end Cert.KernelIdeal.Gen

end
-- ==== Proof.KI.HostVals.lean ====
/-
  What the kernel program's buffers hold at the return, read off the fold of its host operations: every argument array
  as launched (no host operation and no write-back touches one), and the result as the host's closing arithmetic of the
  four result arrays of the pallas_call, the last frame's bone-length residual, and the weights.
-/
import proofs.«404832_j45707041964541_3_alg».proof.Proof.KI.Launch
import proofs.«404832_j45707041964541_3_alg».proof.Proof.KI.Blocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's closing arithmetic: each result array summed, scaled by its count and by the weight 1/4, the bone term
    taking the last frame's residual first. -/
def tailVal (P : FVec F S131073x3x21 .f32) (Dm : FVec F S21x20 .f32) (BL : FVec F S20 .f32)
    (o0 o1 o2 o3 : FVec F S2x1x1 .f32) : FVec F S_ .f32 :=
  let s0 : FVec F S_ .f32 := Host.reduceAdd o0 (constant S_ .f32 0x00000000#32) reducesTo_S2x1x1_S_d0_1_2 h_S_
  let s1 : FVec F S_ .f32 := Host.reduceAdd o1 (constant S_ .f32 0x00000000#32) reducesTo_S2x1x1_S_d0_1_2 h_S_
  let s2 : FVec F S_ .f32 := Host.reduceAdd o2 (constant S_ .f32 0x00000000#32) reducesTo_S2x1x1_S_d0_1_2 h_S_
  let s3 : FVec F S_ .f32 := Host.reduceAdd o3 (constant S_ .f32 0x00000000#32) reducesTo_S2x1x1_S_d0_1_2 h_S_
  addf (addf (addf
    (mulf (constant S_ .f32 0x3E800000#32) (Host.divf s0 (constant S_ .f32 0x42280000#32)))
    (mulf (constant S_ .f32 0x3E800000#32) (Host.divf s1 (constant S_ .f32 0x427C0000#32))))
    (mulf (constant S_ .f32 0x3E800000#32) (Host.divf (addf s2 (boneLast P Dm BL)) (constant S_ .f32 0x41A00000#32))))
    (mulf (constant S_ .f32 0x3E800000#32) (Host.divf s3 (constant S_ .f32 0x427C0000#32)))

/-! ## The operands of the pallas_call, as entered -/

theorem W6_v7 (c : Dev nD) : W6 m ρ c (Proc.devRef .tc main_v7) = dmOf (F := F) (m ((c : Thread nD τ).loc main_arg7)) := by
  show StableHlo.after hostOps0_5 (StableHlo.after hostOps0_4 (StableHlo.after hostOps0_3 (StableHlo.after hostOps0_2 (StableHlo.after hostOps0_1 (StableHlo.after hostOps0 _))))) (Proc.devRef .tc main_v7) = _
  after_results
  rfl

theorem W6_v8 (c : Dev nD) : W6 m ρ c (Proc.devRef .tc main_v8) = padPose (F := F) (m ((c : Thread nD τ).loc main_arg0)) := by
  show StableHlo.after hostOps0_5 (StableHlo.after hostOps0_4 (StableHlo.after hostOps0_3 (StableHlo.after hostOps0_2 (StableHlo.after hostOps0_1 (StableHlo.after hostOps0 _))))) (Proc.devRef .tc main_v8) = _
  after_results
  rfl

theorem W6_v9 (c : Dev nD) : W6 m ρ c (Proc.devRef .tc main_v9) = lenRow (F := F) (m ((c : Thread nD τ).loc main_arg5)) := by
  show StableHlo.after hostOps0_5 (StableHlo.after hostOps0_4 (StableHlo.after hostOps0_3 (StableHlo.after hostOps0_2 (StableHlo.after hostOps0_1 (StableHlo.after hostOps0 _))))) (Proc.devRef .tc main_v9) = _
  after_results
  rfl

/-- An argument array is as launched when the pallas_call is entered. -/
theorem W6_arg (c : Dev nD) (b : Ref sig .tc) (hb : b = main_arg0 ∨ b = main_arg1 ∨ b = main_arg2 ∨ b = main_arg3 ∨ b = main_arg4 ∨ b = main_arg5 ∨ b = main_arg6 ∨ b = main_arg7) :
    W6 m ρ c (Proc.devRef .tc b) = m ((c : Thread nD τ).loc b) := by
  rcases hb with rfl | rfl | rfl | rfl | rfl | rfl | rfl | rfl <;>
  · show StableHlo.after hostOps0_5 (StableHlo.after hostOps0_4 (StableHlo.after hostOps0_3 (StableHlo.after hostOps0_2 (StableHlo.after hostOps0_1 (StableHlo.after hostOps0 _))))) (Proc.devRef .tc _) = _
    after_results

/-! ## The buffers at the return -/

set_option maxHeartbeats 4000000 in
/-- No host operation after the pallas_call writes an argument array. -/
theorem W8_keep (c : Dev nD) (b : Ref sig .tc) (hb : b = main_arg0 ∨ b = main_arg1 ∨ b = main_arg2 ∨ b = main_arg3 ∨ b = main_arg4 ∨ b = main_arg5 ∨ b = main_arg6 ∨ b = main_arg7) :
    W8 m ρ c (Proc.devRef .tc b) = W7 m ρ c (Proc.devRef .tc b) := by
  rcases hb with rfl | rfl | rfl | rfl | rfl | rfl | rfl | rfl <;>
  · show StableHlo.after hostOps1 (W7 m ρ c) (Proc.devRef .tc _) = _
    after_results

/-- An argument array is as launched at the return. -/
theorem W8_arg (c : Dev nD) (b : Ref sig .tc) (hb : b = main_arg0 ∨ b = main_arg1 ∨ b = main_arg2 ∨ b = main_arg3 ∨ b = main_arg4 ∨ b = main_arg5 ∨ b = main_arg6 ∨ b = main_arg7) :
    W8 m ρ c (Proc.devRef .tc b) = m ((c : Thread nD τ).loc b) := by
  have h7 : W7 m ρ c (Proc.devRef .tc b) = W6 m ρ c (Proc.devRef .tc b) := by
    rcases hb with rfl | rfl | rfl | rfl | rfl | rfl | rfl | rfl <;>
    exact W7_of_ne m ρ c _ (by decide) (by decide) (by decide) (by decide)
  exact (W8_keep m ρ c b hb).trans (h7.trans (W6_arg m ρ c b hb))

set_option maxHeartbeats 4000000 in
/-- The result at the return, over the contents the pallas_call left. -/
theorem W8_result0 (c : Dev nD) :
    W8 m ρ c (Proc.devRef .tc main_v34)
      = tailVal (F := F) (W7 m ρ c (Proc.devRef .tc main_arg0)) (W7 m ρ c (Proc.devRef .tc main_v7)) (W7 m ρ c (Proc.devRef .tc main_arg5))
          (W7 m ρ c (Proc.devRef .tc main_v10_0)) (W7 m ρ c (Proc.devRef .tc main_v10_1)) (W7 m ρ c (Proc.devRef .tc main_v10_2)) (W7 m ρ c (Proc.devRef .tc main_v10_3)) := by
  show StableHlo.after hostOps1 (W7 m ρ c) (Proc.devRef .tc main_v34) = _
  after_results
  rfl

/-- The result at the return: the host's closing arithmetic of what the pallas_call's four result arrays end with. -/
theorem W8_result (c : Dev nD) :
    W8 m ρ c (Proc.devRef .tc main_v34)
      = tailVal (F := F) (m ((c : Thread nD τ).loc main_arg0)) (dmOf (F := F) (m ((c : Thread nD τ).loc main_arg7))) (m ((c : Thread nD τ).loc main_arg5))
          ((dat0 (V6 m ρ) c).arrAt 9 cfg0.N) ((dat0 (V6 m ρ) c).arrAt 10 cfg0.N) ((dat0 (V6 m ρ) c).arrAt 11 cfg0.N) ((dat0 (V6 m ρ) c).arrAt 12 cfg0.N) := by
  rw [W8_result0, W7_out0, W7_out1, W7_out2, W7_out3,
    W7_of_ne m ρ c main_arg0 (by decide) (by decide) (by decide) (by decide), W7_of_ne m ρ c main_arg5 (by decide) (by decide) (by decide) (by decide),
    W7_of_ne m ρ c main_v7 (by decide) (by decide) (by decide) (by decide),
    W6_arg m ρ c main_arg0 (Or.inl rfl), W6_arg m ρ c main_arg5 (Or.inr (Or.inr (Or.inr (Or.inr (Or.inr (Or.inl rfl)))))), W6_v7 m ρ c]

end Cert.KernelIdeal.Gen

end
-- ==== Proof.KI.Frame.lean ====
/-
  The kernel program's frame — it runs to the end, faults nowhere, and leaves its argument arrays as launched — and,
  beside it, its result: both read off the run of its segments.
-/
import proofs.«404832_j45707041964541_3_alg».proof.Proof.KI.HostVals

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W8_arg m ρ c main_arg0 (Or.inl rfl)),
      (h c _ (mem_uc main_arg1 (by decide))).trans (W8_arg m ρ c main_arg1 (Or.inr (Or.inl rfl))),
      (h c _ (mem_uc main_arg2 (by decide))).trans (W8_arg m ρ c main_arg2 (Or.inr (Or.inr (Or.inl rfl)))),
      (h c _ (mem_uc main_arg3 (by decide))).trans (W8_arg m ρ c main_arg3 (Or.inr (Or.inr (Or.inr (Or.inl rfl))))),
      (h c _ (mem_uc main_arg4 (by decide))).trans (W8_arg m ρ c main_arg4 (Or.inr (Or.inr (Or.inr (Or.inr (Or.inl rfl)))))),
      (h c _ (mem_uc main_arg5 (by decide))).trans (W8_arg m ρ c main_arg5 (Or.inr (Or.inr (Or.inr (Or.inr (Or.inr (Or.inl rfl))))))),
      (h c _ (mem_uc main_arg6 (by decide))).trans (W8_arg m ρ c main_arg6 (Or.inr (Or.inr (Or.inr (Or.inr (Or.inr (Or.inr (Or.inl rfl)))))))),
      (h c _ (mem_uc main_arg7 (by decide))).trans (W8_arg m ρ c main_arg7 (Or.inr (Or.inr (Or.inr (Or.inr (Or.inr (Or.inr (Or.inr (rfl)))))))))⟩) (run_main m ρ)

/-- The same run with the result named: the host's closing arithmetic of what the four result arrays end with. -/
theorem run_value : θ_run defs (onTc (τ := τ) (main (F := F))) ⟨m, fun _ => 0, ρ⟩ (fun r => ∀ c : Dev nD,
      r.2.mem ((c.tc : Thread nD τ).loc main_v34)
        = tailVal (F := F) (m ((c : Thread nD τ).loc main_arg0)) (dmOf (F := F) (m ((c : Thread nD τ).loc main_arg7))) (m ((c : Thread nD τ).loc main_arg5))
            ((dat0 (V6 m ρ) c).arrAt 9 cfg0.N) ((dat0 (V6 m ρ) c).arrAt 10 cfg0.N) ((dat0 (V6 m ρ) c).arrAt 11 cfg0.N) ((dat0 (V6 m ρ) c).arrAt 12 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v34 (by decide))).trans (W8_result m ρ c),
      (h c _ (mem_uc main_arg0 (by decide))).trans (W8_arg m ρ c main_arg0 (Or.inl rfl)),
      (h c _ (mem_uc main_arg1 (by decide))).trans (W8_arg m ρ c main_arg1 (Or.inr (Or.inl rfl))),
      (h c _ (mem_uc main_arg2 (by decide))).trans (W8_arg m ρ c main_arg2 (Or.inr (Or.inr (Or.inl rfl)))),
      (h c _ (mem_uc main_arg3 (by decide))).trans (W8_arg m ρ c main_arg3 (Or.inr (Or.inr (Or.inr (Or.inl rfl))))),
      (h c _ (mem_uc main_arg4 (by decide))).trans (W8_arg m ρ c main_arg4 (Or.inr (Or.inr (Or.inr (Or.inr (Or.inl rfl)))))),
      (h c _ (mem_uc main_arg5 (by decide))).trans (W8_arg m ρ c main_arg5 (Or.inr (Or.inr (Or.inr (Or.inr (Or.inr (Or.inl rfl))))))),
      (h c _ (mem_uc main_arg6 (by decide))).trans (W8_arg m ρ c main_arg6 (Or.inr (Or.inr (Or.inr (Or.inr (Or.inr (Or.inr (Or.inl rfl)))))))),
      (h c _ (mem_uc main_arg7 (by decide))).trans (W8_arg m ρ c main_arg7 (Or.inr (Or.inr (Or.inr (Or.inr (Or.inr (Or.inr (Or.inr (rfl)))))))))⟩) (run_main m ρ)

end Cert.KernelIdeal.Gen

end
-- ==== Proof.KI.BlockRead.lean ====
/-
  The blocks the pipeline of `KernelIdeal` hands the body at a grid point, read as rows of the arrays the region
  finds (`V`): the printed index maps, decided over the grid's 256 points, say which block each window stages at a
  point; an element of a block sits in its array, on each axis, at the block index times the block's size plus its
  own coordinate. The streamed windows' blocks are the 512 frames `512 t, …` of their arrays (window 8's the two
  frames that follow), the constant windows' blocks the whole arrays.
-/
import proofs.«404832_j45707041964541_3_alg».proof.Proof.KI.Region
import proofs.«404832_j45707041964541_3_alg».proof.Proof.KI.Blocks
import Idealize.ShloMosaic.Lib.Pipeline.Value

set_option maxRecDepth 16384

noncomputable section

namespace Cert.KernelIdeal.Gen

open Idealize.ShloMosaic Idealize.ShloMosaic.TcCoe
open Idealize.SL Idealize.SL.Sem Idealize.ShloMosaic.ValueIdx
open Idealize.ShloMosaic.Pipeline (Dat Cfg Window)

variable {F : FTy → Type} [FloatOps F]

/-! ## The index maps over the grid -/

/-- Window 0's block index at point `t` is `(t, 0, 0)`. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
/-- Window 1's block index at point `t` is `(t, 0, 0)`. -/
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
/-- Window 2's block index at point `t` is `(t, 0, 0)`. -/
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
/-- Window 4's block index at point `t` is `(t, 0, 0)`. -/
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
/-- Window 7's block index at point `t` is `(t, 0, 0)`. -/
theorem idx0_7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)
/-- Window 8's block index at point `t` is `(256 (t + 1), 0, 0)`: blocks of two frames. -/
theorem idx0_8 : ∀ t : Fin cfg0.N, win0_8.index t (0 : Fin 3) = (t.val + 1) * 256 ∧ win0_8.index t (1 : Fin 3) = 0 ∧ win0_8.index t (2 : Fin 3) = 0 :=
  (by decide +kernel : ∀ t : Fin grid0.N, win0_8.index t (0 : Fin 3) = (t.val + 1) * 256 ∧ win0_8.index t (1 : Fin 3) = 0 ∧ win0_8.index t (2 : Fin 3) = 0)
/-- Window 3's block index is `(0, 0)` at every point. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 5's block index is `(0, 0)` at every point. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index is `(0, 0)` at every point. -/
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

section Regions
variable (V : (c : Dev nD) → (b : Ref sig .tc) → Buf (Elt F) ((c : Thread nD τ).loc b))

/-! ## The streamed windows' blocks: 512 frames of the array -/

/-- Window 0's block at point `t` is frames `512 t … 512 t + 511` of its array. -/
theorem iblk0_0_eq (c : Dev nD) (t : Fin cfg0.N) (t' : Fin 256) (ht : t'.val = t.val) :
    iblk0 V c 0 t = rows512 (n := 131072) (a := 2) (b := 21) (e := .f32) (by decide) (V c main_arg1) t' := by
  obtain ⟨e0, e1, e2⟩ := idx0_0 t
  funext y
  unfold iblk0 rows512
  rw [View.read_apply]
  show V c main_arg1 _ = V c main_arg1 _
  congr 1
  funext a
  apply Fin.ext
  match a with
  | ⟨0, _⟩ => show win0_0.index t 0 * 512 + 1 * (y 0).val = 512 * t'.val + (y 0).val; rw [e0, ht]; omega
  | ⟨1, _⟩ => show win0_0.index t 1 * 2 + 1 * (y 1).val = (y 1).val; rw [e1]; omega
  | ⟨2, _⟩ => show win0_0.index t 2 * 21 + 1 * (y 2).val = (y 2).val; rw [e2]; omega

/-- Window 1's block at point `t` is frames `512 t … 512 t + 511` of its array. -/
theorem iblk0_1_eq (c : Dev nD) (t : Fin cfg0.N) (t' : Fin 256) (ht : t'.val = t.val) :
    iblk0 V c 1 t = rows512 (n := 131072) (a := 3) (b := 20) (e := .f32) (by decide) (V c main_arg2) t' := by
  obtain ⟨e0, e1, e2⟩ := idx0_1 t
  funext y
  unfold iblk0 rows512
  rw [View.read_apply]
  show V c main_arg2 _ = V c main_arg2 _
  congr 1
  funext a
  apply Fin.ext
  match a with
  | ⟨0, _⟩ => show win0_1.index t 0 * 512 + 1 * (y 0).val = 512 * t'.val + (y 0).val; rw [e0, ht]; omega
  | ⟨1, _⟩ => show win0_1.index t 1 * 3 + 1 * (y 1).val = (y 1).val; rw [e1]; omega
  | ⟨2, _⟩ => show win0_1.index t 2 * 20 + 1 * (y 2).val = (y 2).val; rw [e2]; omega

/-- Window 2's block at point `t` is frames `512 t … 512 t + 511` of its array. -/
theorem iblk0_2_eq (c : Dev nD) (t : Fin cfg0.N) (t' : Fin 256) (ht : t'.val = t.val) :
    iblk0 V c 2 t = rows512 (n := 131072) (a := 3) (b := 3) (e := .f32) (by decide) (V c main_arg3) t' := by
  obtain ⟨e0, e1, e2⟩ := idx0_2 t
  funext y
  unfold iblk0 rows512
  rw [View.read_apply]
  show V c main_arg3 _ = V c main_arg3 _
  congr 1
  funext a
  apply Fin.ext
  match a with
  | ⟨0, _⟩ => show win0_2.index t 0 * 512 + 1 * (y 0).val = 512 * t'.val + (y 0).val; rw [e0, ht]; omega
  | ⟨1, _⟩ => show win0_2.index t 1 * 3 + 1 * (y 1).val = (y 1).val; rw [e1]; omega
  | ⟨2, _⟩ => show win0_2.index t 2 * 3 + 1 * (y 2).val = (y 2).val; rw [e2]; omega

/-- Window 4's block at point `t` is frames `512 t … 512 t + 511` of its array. -/
theorem iblk0_4_eq (c : Dev nD) (t : Fin cfg0.N) (t' : Fin 256) (ht : t'.val = t.val) :
    iblk0 V c 4 t = rows512 (n := 131072) (a := 3) (b := 1) (e := .f32) (by decide) (V c main_arg4) t' := by
  obtain ⟨e0, e1, e2⟩ := idx0_4 t
  funext y
  unfold iblk0 rows512
  rw [View.read_apply]
  show V c main_arg4 _ = V c main_arg4 _
  congr 1
  funext a
  apply Fin.ext
  match a with
  | ⟨0, _⟩ => show win0_4.index t 0 * 512 + 1 * (y 0).val = 512 * t'.val + (y 0).val; rw [e0, ht]; omega
  | ⟨1, _⟩ => show win0_4.index t 1 * 3 + 1 * (y 1).val = (y 1).val; rw [e1]; omega
  | ⟨2, _⟩ => show win0_4.index t 2 * 1 + 1 * (y 2).val = (y 2).val; rw [e2]; omega

/-- Window 7's block at point `t` is frames `512 t … 512 t + 511` of the padded trajectory: no block of it is cut, so
    the filler of `blk0_7` is nowhere read. -/
theorem blk0_7_eq (c : Dev nD) (t : Fin cfg0.N) (t' : Fin 256) (ht : t'.val = t.val) :
    blk0_7 V c t = rows512 (n := 131074) (a := 3) (b := 21) (e := .f32) (by decide) (V c main_v8) t' := by
  obtain ⟨e0, e1, e2⟩ := idx0_7 t
  funext y
  have hm : (cfg0.win 7).moved (cfg0.grid.coords t) y = true :=
    ((cfg0.win 7).moved_iff _ y).mpr fun a => by have := (y a).isLt; unfold Window.xsize; rw [clip0_7 t a]; exact this
  unfold blk0_7 Window.fill
  rw [dif_pos hm]
  unfold iblk0 rows512
  rw [View.read_apply]
  show V c main_v8 _ = V c main_v8 _
  congr 1
  funext a
  apply Fin.ext
  match a with
  | ⟨0, _⟩ => show win0_7.index t 0 * 512 + 1 * (y 0).val = 512 * t'.val + (y 0).val; rw [e0, ht]; omega
  | ⟨1, _⟩ => show win0_7.index t 1 * 3 + 1 * (y 1).val = (y 1).val; rw [e1]; omega
  | ⟨2, _⟩ => show win0_7.index t 2 * 21 + 1 * (y 2).val = (y 2).val; rw [e2]; omega

/-- Window 8's block at point `t` is the two frames `512 (t + 1), 512 (t + 1) + 1` of the padded trajectory. -/
theorem iblk0_8_eq (c : Dev nD) (t : Fin cfg0.N) (t' : Fin 256) (ht : t'.val = t.val) :
    iblk0 V c 8 t = rows2 (n := 131074) (a := 3) (b := 21) (e := .f32) (by decide) (V c main_v8) t' := by
  obtain ⟨e0, e1, e2⟩ := idx0_8 t
  funext y
  unfold iblk0 rows2
  rw [View.read_apply]
  show V c main_v8 _ = V c main_v8 _
  congr 1
  funext a
  apply Fin.ext
  match a with
  | ⟨0, _⟩ => show win0_8.index t 0 * 2 + 1 * (y 0).val = 512 * (t'.val + 1) + (y 0).val; rw [e0, ht]; omega
  | ⟨1, _⟩ => show win0_8.index t 1 * 3 + 1 * (y 1).val = (y 1).val; rw [e1]; omega
  | ⟨2, _⟩ => show win0_8.index t 2 * 21 + 1 * (y 2).val = (y 2).val; rw [e2]; omega

/-! ## The constant windows' blocks: the whole array -/

/-- Window 3's block is its whole array at every point. -/
theorem iblk0_3_eq (c : Dev nD) (t : Fin cfg0.N) : iblk0 V c 3 t = V c main_arg6 := by
  obtain ⟨e0, e1⟩ := idx0_3 t
  funext y
  unfold iblk0
  rw [View.read_apply]
  show V c main_arg6 _ = V c main_arg6 y
  congr 1
  funext a
  apply Fin.ext
  match a with
  | ⟨0, _⟩ => show win0_3.index t 0 * 3 + 1 * (y 0).val = (y 0).val; rw [e0]; omega
  | ⟨1, _⟩ => show win0_3.index t 1 * 3 + 1 * (y 1).val = (y 1).val; rw [e1]; omega

/-- Window 5's block is its whole array at every point. -/
theorem iblk0_5_eq (c : Dev nD) (t : Fin cfg0.N) : iblk0 V c 5 t = V c main_v7 := by
  obtain ⟨e0, e1⟩ := idx0_5 t
  funext y
  unfold iblk0
  rw [View.read_apply]
  show V c main_v7 _ = V c main_v7 y
  congr 1
  funext a
  apply Fin.ext
  match a with
  | ⟨0, _⟩ => show win0_5.index t 0 * 21 + 1 * (y 0).val = (y 0).val; rw [e0]; omega
  | ⟨1, _⟩ => show win0_5.index t 1 * 20 + 1 * (y 1).val = (y 1).val; rw [e1]; omega

/-- Window 6's block is its whole array at every point. -/
theorem iblk0_6_eq (c : Dev nD) (t : Fin cfg0.N) : iblk0 V c 6 t = V c main_v9 := by
  obtain ⟨e0, e1⟩ := idx0_6 t
  funext y
  unfold iblk0
  rw [View.read_apply]
  show V c main_v9 _ = V c main_v9 y
  congr 1
  funext a
  apply Fin.ext
  match a with
  | ⟨0, _⟩ => show win0_6.index t 0 * 1 + 1 * (y 0).val = (y 0).val; rw [e0]; omega
  | ⟨1, _⟩ => show win0_6.index t 1 * 20 + 1 * (y 1).val = (y 1).val; rw [e1]; omega

end Regions

end Cert.KernelIdeal.Gen

end
-- ==== Proof.KI.BlockVals.lean ====
/-
  The four per-point sums of the pose-loss kernel as pure functions of the nine input blocks the body loads
  (window w's block is `xw`): each block is read through the literal rectangles of the body's loads (one channel of
  the middle axis at a time), and the loaded pieces go through the body's arithmetic exactly as the printed
  function threads them.  `sumProj` is the point's projection residual (summed over the block's 512 frames and 21
  joints, both image coordinates), `sumLift` the lifted-direction residual over 512 frames, 3 coordinates and 20
  bones, `sumBone` the bone-length residual over 512 frames and 20 bones, and `sumSmooth` the masked second
  difference of the trajectory over 512 frames, 3 coordinates and 21 joints (the mask depends on the grid point).
  Each output's accumulator receives its sum at every grid point.
-/
import proofs.«404832_j45707041964541_3_alg».proof.Proof.Gen.KernelIdeal.Skeleton
import Idealize.ShloMosaic.Lib.Pipeline.FrameBody

set_option synthInstance.maxSize 4096

noncomputable section

namespace Cert.KernelIdeal.Gen

open Idealize.ShloMosaic Idealize.SL.Sem

variable {F : FTy → Type} [FloatOps F]

/-! ## The loaded pieces -/

/-- The difference matrix (window 5), whole. -/
def ldDm (x5 : Vec F S21x20 .f32) : Vec F S21x20 .f32 :=
  View.ld x5 (Rect.unit (s := S21x20) ![0, 0] S21x20.size inb_S21x20_S21x20_0_0)
/-- The bone lengths as a row (window 6), whole. -/
def ldLen (x6 : Vec F S1x20 .f32) : Vec F S1x20 .f32 :=
  View.ld x6 (Rect.unit (s := S1x20) ![0, 0] S1x20.size inb_S1x20_S1x20_0_0)
/-- The camera rotation (window 3), whole. -/
def ldCam (x3 : Vec F S3x3 .f32) : Vec F S3x3 .f32 :=
  View.ld x3 (Rect.unit (s := S3x3) ![0, 0] S3x3.size inb_S3x3_S3x3_0_0)
/-- Image coordinate 0 / 1 of the observed joints (window 0). -/
def ldObs0 (x0 : Vec F S512x2x21 .f32) : Vec F S512x1x21 .f32 :=
  View.ld x0 (Rect.unit (s := S512x2x21) ![0, 0, 0] S512x1x21.size inb_S512x2x21_S512x1x21_0_0_0)
def ldObs1 (x0 : Vec F S512x2x21 .f32) : Vec F S512x1x21 .f32 :=
  View.ld x0 (Rect.unit (s := S512x2x21) ![0, 1, 0] S512x1x21.size inb_S512x2x21_S512x1x21_0_1_0)
/-- Coordinate 0 / 1 / 2 of the lifted directions (window 1). -/
def ldDir0 (x1 : Vec F S512x3x20 .f32) : Vec F S512x1x20 .f32 :=
  View.ld x1 (Rect.unit (s := S512x3x20) ![0, 0, 0] S512x1x20.size inb_S512x3x20_S512x1x20_0_0_0)
def ldDir1 (x1 : Vec F S512x3x20 .f32) : Vec F S512x1x20 .f32 :=
  View.ld x1 (Rect.unit (s := S512x3x20) ![0, 1, 0] S512x1x20.size inb_S512x3x20_S512x1x20_0_1_0)
def ldDir2 (x1 : Vec F S512x3x20 .f32) : Vec F S512x1x20 .f32 :=
  View.ld x1 (Rect.unit (s := S512x3x20) ![0, 2, 0] S512x1x20.size inb_S512x3x20_S512x1x20_0_2_0)
/-- Coordinate 0 / 1 / 2 of the block's own 512 frames of the trajectory (window 7). -/
def ldCur0 (x7 : Vec F S512x3x21 .f32) : Vec F S512x1x21 .f32 :=
  View.ld x7 (Rect.unit (s := S512x3x21) ![0, 0, 0] S512x1x21.size inb_S512x3x21_S512x1x21_0_0_0)
def ldCur1 (x7 : Vec F S512x3x21 .f32) : Vec F S512x1x21 .f32 :=
  View.ld x7 (Rect.unit (s := S512x3x21) ![0, 1, 0] S512x1x21.size inb_S512x3x21_S512x1x21_0_1_0)
def ldCur2 (x7 : Vec F S512x3x21 .f32) : Vec F S512x1x21 .f32 :=
  View.ld x7 (Rect.unit (s := S512x3x21) ![0, 2, 0] S512x1x21.size inb_S512x3x21_S512x1x21_0_2_0)
/-- Coordinate 0 / 1 / 2 of the two frames that follow the block (window 8). -/
def ldNxt0 (x8 : Vec F S2x3x21 .f32) : Vec F S2x1x21 .f32 :=
  View.ld x8 (Rect.unit (s := S2x3x21) ![0, 0, 0] S2x1x21.size inb_S2x3x21_S2x1x21_0_0_0)
def ldNxt1 (x8 : Vec F S2x3x21 .f32) : Vec F S2x1x21 .f32 :=
  View.ld x8 (Rect.unit (s := S2x3x21) ![0, 1, 0] S2x1x21.size inb_S2x3x21_S2x1x21_0_1_0)
def ldNxt2 (x8 : Vec F S2x3x21 .f32) : Vec F S2x1x21 .f32 :=
  View.ld x8 (Rect.unit (s := S2x3x21) ![0, 2, 0] S2x1x21.size inb_S2x3x21_S2x1x21_0_2_0)
/-- Coordinate 0 / 1 / 2 of the drone positions (window 4). -/
def ldPos0 (x4 : Vec F S512x3x1 .f32) : Vec F S512x1x1 .f32 :=
  View.ld x4 (Rect.unit (s := S512x3x1) ![0, 0, 0] S512x1x1.size inb_S512x3x1_S512x1x1_0_0_0)
def ldPos1 (x4 : Vec F S512x3x1 .f32) : Vec F S512x1x1 .f32 :=
  View.ld x4 (Rect.unit (s := S512x3x1) ![0, 1, 0] S512x1x1.size inb_S512x3x1_S512x1x1_0_1_0)
def ldPos2 (x4 : Vec F S512x3x1 .f32) : Vec F S512x1x1 .f32 :=
  View.ld x4 (Rect.unit (s := S512x3x1) ![0, 2, 0] S512x1x1.size inb_S512x3x1_S512x1x1_0_2_0)
/-- Entry (p, q) of the drone rotations (window 2), one column of 512 frames each. -/
def ldRot00 (x2 : Vec F S512x3x3 .f32) : Vec F S512x1x1 .f32 :=
  View.ld x2 (Rect.unit (s := S512x3x3) ![0, 0, 0] S512x1x1.size inb_S512x3x3_S512x1x1_0_0_0)
def ldRot01 (x2 : Vec F S512x3x3 .f32) : Vec F S512x1x1 .f32 :=
  View.ld x2 (Rect.unit (s := S512x3x3) ![0, 0, 1] S512x1x1.size inb_S512x3x3_S512x1x1_0_0_1)
def ldRot02 (x2 : Vec F S512x3x3 .f32) : Vec F S512x1x1 .f32 :=
  View.ld x2 (Rect.unit (s := S512x3x3) ![0, 0, 2] S512x1x1.size inb_S512x3x3_S512x1x1_0_0_2)
def ldRot10 (x2 : Vec F S512x3x3 .f32) : Vec F S512x1x1 .f32 :=
  View.ld x2 (Rect.unit (s := S512x3x3) ![0, 1, 0] S512x1x1.size inb_S512x3x3_S512x1x1_0_1_0)
def ldRot11 (x2 : Vec F S512x3x3 .f32) : Vec F S512x1x1 .f32 :=
  View.ld x2 (Rect.unit (s := S512x3x3) ![0, 1, 1] S512x1x1.size inb_S512x3x3_S512x1x1_0_1_1)
def ldRot12 (x2 : Vec F S512x3x3 .f32) : Vec F S512x1x1 .f32 :=
  View.ld x2 (Rect.unit (s := S512x3x3) ![0, 1, 2] S512x1x1.size inb_S512x3x3_S512x1x1_0_1_2)
def ldRot20 (x2 : Vec F S512x3x3 .f32) : Vec F S512x1x1 .f32 :=
  View.ld x2 (Rect.unit (s := S512x3x3) ![0, 2, 0] S512x1x1.size inb_S512x3x3_S512x1x1_0_2_0)
def ldRot21 (x2 : Vec F S512x3x3 .f32) : Vec F S512x1x1 .f32 :=
  View.ld x2 (Rect.unit (s := S512x3x3) ![0, 2, 1] S512x1x1.size inb_S512x3x3_S512x1x1_0_2_1)
def ldRot22 (x2 : Vec F S512x3x3 .f32) : Vec F S512x1x1 .f32 :=
  View.ld x2 (Rect.unit (s := S512x3x3) ![0, 2, 2] S512x1x1.size inb_S512x3x3_S512x1x1_0_2_2)

/-! ## The four sums -/

/-- The bone-length residual of the block's 512 frames. -/
def sumBone (x5 : Vec F S21x20 .f32) (x6 : Vec F S1x20 .f32) (x7 : Vec F S512x3x21 .f32) : FVec F S1x1 .f32 :=
  k0_pay27 (k0_pay8 (ldDm x5)) (k0_pay9 (ldLen x6)) (k0_pay15 (ldCur0 x7)) (k0_pay16 (ldCur1 x7)) (ldCur2 x7)

/-- The lifted-direction residual of the 512 frames one later than the block's own. -/
def sumLift (x1 : Vec F S512x3x20 .f32) (x5 : Vec F S21x20 .f32) (x7 : Vec F S512x3x21 .f32) (x8 : Vec F S2x3x21 .f32) : FVec F S1x1 .f32 :=
  k0_pay31 (k0_pay12 (ldDir0 x1)) (k0_pay13 (ldDir1 x1)) (k0_pay14 (ldDir2 x1))
    (k0_pay28 (k0_pay8 (ldDm x5)) (k0_pay15 (ldCur0 x7)) (ldNxt0 x8))
    (k0_pay29 (k0_pay8 (ldDm x5)) (k0_pay16 (ldCur1 x7)) (ldNxt1 x8))
    (k0_pay30 (k0_pay8 (ldDm x5)) (ldCur2 x7) (ldNxt2 x8))

/-- The three coordinates of the shifted trajectory less the drone position. -/
def rel0 (x4 : Vec F S512x3x1 .f32) (x7 : Vec F S512x3x21 .f32) (x8 : Vec F S2x3x21 .f32) : FVec F S512x21 .f32 :=
  k0_pay32 (k0_pay21 (k0_pay15 (ldCur0 x7)) (ldNxt0 x8)) (ldPos0 x4)
def rel1 (x4 : Vec F S512x3x1 .f32) (x7 : Vec F S512x3x21 .f32) (x8 : Vec F S2x3x21 .f32) : FVec F S512x21 .f32 :=
  k0_pay33 (k0_pay22 (k0_pay16 (ldCur1 x7)) (ldNxt1 x8)) (ldPos1 x4)
def rel2 (x4 : Vec F S512x3x1 .f32) (x7 : Vec F S512x3x21 .f32) (x8 : Vec F S2x3x21 .f32) : FVec F S512x21 .f32 :=
  k0_pay34 (k0_pay23 (ldCur2 x7) (ldNxt2 x8)) (ldPos2 x4)

/-- Camera coordinate 0 of the relative positions. -/
def camX (x2 : Vec F S512x3x3 .f32) (x3 : Vec F S3x3 .f32) (x4 : Vec F S512x3x1 .f32) (x7 : Vec F S512x3x21 .f32) (x8 : Vec F S2x3x21 .f32) : FVec F S512x21 .f32 :=
  k0_pay46 (ldCam x3) (rel0 x4 x7 x8) (rel1 x4 x7 x8) (rel2 x4 x7 x8)
    (k0_pay38 (ldRot10 x2)) (k0_pay39 (ldRot11 x2)) (k0_pay40 (ldRot12 x2)) (k0_pay41 (ldRot20 x2)) (k0_pay42 (ldRot21 x2)) (k0_pay43 (ldRot22 x2))
    (k0_pay44 (F := F)) (k0_pay45 (ldCam x3) (ldRot00 x2) (ldRot01 x2) (ldRot02 x2))

/-- The first term of camera coordinates 1 and 2 (the printed function computes it twice). -/
def camY0 (x2 : Vec F S512x3x3 .f32) (x3 : Vec F S3x3 .f32) (x4 : Vec F S512x3x1 .f32) (x7 : Vec F S512x3x21 .f32) (x8 : Vec F S2x3x21 .f32) : FVec F S512x21 .f32 :=
  k0_pay47 (ldCam x3) (rel0 x4 x7 x8) (k0_pay35 (ldRot00 x2)) (k0_pay36 (ldRot01 x2)) (k0_pay37 (ldRot02 x2))
def camZ0 (x2 : Vec F S512x3x3 .f32) (x3 : Vec F S3x3 .f32) (x4 : Vec F S512x3x1 .f32) (x7 : Vec F S512x3x21 .f32) (x8 : Vec F S2x3x21 .f32) : FVec F S512x21 .f32 :=
  k0_pay50 (ldCam x3) (rel0 x4 x7 x8) (k0_pay35 (ldRot00 x2)) (k0_pay36 (ldRot01 x2)) (k0_pay37 (ldRot02 x2))

/-- Camera coordinate 1 of the relative positions. -/
def camY (x2 : Vec F S512x3x3 .f32) (x3 : Vec F S3x3 .f32) (x4 : Vec F S512x3x1 .f32) (x7 : Vec F S512x3x21 .f32) (x8 : Vec F S2x3x21 .f32) : FVec F S512x21 .f32 :=
  k0_pay49 (ldCam x3) (rel1 x4 x7 x8) (rel2 x4 x7 x8)
    (k0_pay39 (ldRot11 x2)) (k0_pay40 (ldRot12 x2)) (k0_pay41 (ldRot20 x2)) (k0_pay42 (ldRot21 x2)) (k0_pay43 (ldRot22 x2))
    (camY0 x2 x3 x4 x7 x8) (k0_pay48 (ldCam x3) (k0_pay38 (ldRot10 x2)))

/-- The projection residual of the 512 frames one later than the block's own. -/
def sumProj (x0 : Vec F S512x2x21 .f32) (x2 : Vec F S512x3x3 .f32) (x3 : Vec F S3x3 .f32) (x4 : Vec F S512x3x1 .f32) (x7 : Vec F S512x3x21 .f32) (x8 : Vec F S2x3x21 .f32) : FVec F S1x1 .f32 :=
  k0_pay53 (ldCam x3) (k0_pay10 (ldObs0 x0)) (k0_pay11 (ldObs1 x0)) (rel1 x4 x7 x8) (rel2 x4 x7 x8)
    (k0_pay40 (ldRot12 x2)) (k0_pay41 (ldRot20 x2)) (k0_pay42 (ldRot21 x2)) (k0_pay43 (ldRot22 x2))
    (camX x2 x3 x4 x7 x8) (camY x2 x3 x4 x7 x8) (camZ0 x2 x3 x4 x7 x8)
    (k0_pay51 (ldCam x3) (k0_pay38 (ldRot10 x2)) (k0_pay39 (ldRot11 x2))) (k0_pay52 (ldCam x3))

/-- The word the body computes from the grid point: 512 times the point's position in row-major order. -/
def startWord (i : grid0.Coords) : BitVec 32 :=
  Scalar.muli (Scalar.addi (Scalar.muli (BitVec.ofNat 32 (i 0).val) 128#32) (BitVec.ofNat 32 (i 1).val)) 512#32

/-- The masked second difference of the trajectory over the block's 512 frames, the mask computed from the word `w`
    (the number of the block's first frame). -/
def sumSmoothAt (w : BitVec 32) (x7 : Vec F S512x3x21 .f32) (x8 : Vec F S2x3x21 .f32) : FVec F S1x1 .f32 :=
  k0_pay55 (k0_pay15 (ldCur0 x7)) (k0_pay16 (ldCur1 x7)) (k0_pay17 (ldCur2 x7))
    (k0_pay21 (k0_pay15 (ldCur0 x7)) (ldNxt0 x8)) (k0_pay22 (k0_pay16 (ldCur1 x7)) (ldNxt1 x8)) (k0_pay23 (ldCur2 x7) (ldNxt2 x8))
    (k0_pay24 (k0_pay15 (ldCur0 x7)) (ldNxt0 x8)) (k0_pay25 (k0_pay16 (ldCur1 x7)) (ldNxt1 x8)) (k0_pay26 (ldCur2 x7) (ldNxt2 x8))
    (k0_pay54 w)

/-- The masked second difference at a grid point. -/
def sumSmooth (i : grid0.Coords) (x7 : Vec F S512x3x21 .f32) (x8 : Vec F S2x3x21 .f32) : FVec F S1x1 .f32 :=
  sumSmoothAt (startWord i) x7 x8

end Cert.KernelIdeal.Gen

end
-- ==== Proof.KI.OutVals.lean ====
/-
  The values the four one-element-per-row result arrays of `KernelIdeal`'s pipelined region end with, at any
  contents `V` of the buffers when the region is entered.
  * What each case of the body leaves in an output's staging buffer, as a term: at the first point of a row of the
    grid the zero store read back with the point's sum added, at the other points the running contents with the
    point's sum added (the sums are the pure functions of the nine input blocks of the module `BlockVals`).
  * So what an output's buffer holds after a point is the fold of its row of the grid up to that point; the last
    point of a row writes the fold of the whole row back to the row's entry of the result array, and the two
    write-backs cover the array.
  * At the ideal instance the fold is a sum over the row's 128 points, the blocks read as rows of the arrays.
-/
import proofs.«404832_j45707041964541_3_alg».proof.Proof.KI.BlockRead
import proofs.«404832_j45707041964541_3_alg».proof.Proof.KI.BlockVals
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.Sem Idealize.ShloMosaic.ValueIdx
open Idealize.ShloMosaic.Pipeline (Dat Cfg Window)
open scoped BigOperators

variable {F : FTy → Type} [FloatOps F]

/-! ## What each case leaves in an output's buffer, as a term -/

theorem hz3 : (![0, 0, 0] : Fin 3 → Nat) = fun _ => 0 := funext fun a => by fin_cases a <;> rfl

/-- At a point whose grid coordinate 1 is zero output window 9's buffer ends holding the zero store read back with
    the point's sum added. -/
theorem out0_A_9_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay56 (sumProj x0 x2 x3 x4 x7 x8) (k0_pay4 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  unfold sumProj camX camY camY0 camZ0 rel0 rel1 rel2 ldCam ldObs0 ldObs1 ldRot00 ldRot01 ldRot02 ldRot10 ldRot11 ldRot12 ldRot20 ldRot21 ldRot22 ldPos0 ldPos1 ldPos2 ldCur0 ldCur1 ldCur2 ldNxt0 ldNxt1 ldNxt2
  rfl

/-- At a point whose grid coordinate 1 is not zero it ends holding what it held with the point's sum added. -/
theorem out0_B_9_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12 = k0_pay56 (sumProj x0 x2 x3 x4 x7 x8) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12)]
  unfold kernelRun0_B
  dsimp only
  sl_unfold_words
  rw [View.canon_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1x1) hz3]
  unfold sumProj camX camY camY0 camZ0 rel0 rel1 rel2 ldCam ldObs0 ldObs1 ldRot00 ldRot01 ldRot02 ldRot10 ldRot11 ldRot12 ldRot20 ldRot21 ldRot22 ldPos0 ldPos1 ldPos2 ldCur0 ldCur1 ldCur2 ldNxt0 ldNxt1 ldNxt2
  rfl

/-- At a point whose grid coordinate 1 is zero output window 10's buffer ends holding the zero store read back with
    the point's sum added. -/
theorem out0_A_10_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay1 (sumLift x1 x5 x7 x8) (k0_pay5 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  unfold sumLift ldDir0 ldDir1 ldDir2 ldDm ldCur0 ldCur1 ldCur2 ldNxt0 ldNxt1 ldNxt2
  rfl

/-- At a point whose grid coordinate 1 is not zero it ends holding what it held with the point's sum added. -/
theorem out0_B_10_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12 = k0_pay1 (sumLift x1 x5 x7 x8) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12)]
  unfold kernelRun0_B
  dsimp only
  sl_unfold_words
  rw [View.canon_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1x1) hz3]
  unfold sumLift ldDir0 ldDir1 ldDir2 ldDm ldCur0 ldCur1 ldCur2 ldNxt0 ldNxt1 ldNxt2
  rfl

/-- At a point whose grid coordinate 1 is zero output window 11's buffer ends holding the zero store read back with
    the point's sum added. -/
theorem out0_A_11_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay2 (sumBone x5 x6 x7) (k0_pay6 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  unfold sumBone ldDm ldLen ldCur0 ldCur1 ldCur2
  rfl

/-- At a point whose grid coordinate 1 is not zero it ends holding what it held with the point's sum added. -/
theorem out0_B_11_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12 = k0_pay2 (sumBone x5 x6 x7) xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12)]
  unfold kernelRun0_B
  dsimp only
  sl_unfold_words
  rw [View.canon_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1x1) hz3]
  unfold sumBone ldDm ldLen ldCur0 ldCur1 ldCur2
  rfl

/-- At a point whose grid coordinate 1 is zero output window 12's buffer ends holding the zero store read back with
    the point's sum added. -/
theorem out0_A_12_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 (sumSmooth i x7 x8) (k0_pay7 (F := F)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  unfold sumSmooth sumSmoothAt startWord ldCur0 ldCur1 ldCur2 ldNxt0 ldNxt1 ldNxt2
  rfl

/-- At a point whose grid coordinate 1 is not zero it ends holding what it held with the point's sum added. -/
theorem out0_B_12_eq (c : Dev nD) (i : grid0.Coords) (arg2 : Memref sig .tc .vmem S512x2x21 .f32) (harg2 : arg2.IsWhole) (arg3 : Memref sig .tc .vmem S512x3x20 .f32) (harg3 : arg3.IsWhole) (arg4 : Memref sig .tc .vmem S512x3x3 .f32) (harg4 : arg4.IsWhole) (arg5 : Memref sig .tc .vmem S3x3 .f32) (harg5 : arg5.IsWhole) (arg6 : Memref sig .tc .vmem S512x3x1 .f32) (harg6 : arg6.IsWhole) (arg7 : Memref sig .tc .vmem S21x20 .f32) (harg7 : arg7.IsWhole) (arg8 : Memref sig .tc .vmem S1x20 .f32) (harg8 : arg8.IsWhole) (arg9 : Memref sig .tc .vmem S512x3x21 .f32) (harg9 : arg9.IsWhole) (arg10 : Memref sig .tc .vmem S2x3x21 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (hc0 : ¬cond0_0 i)
    (x0 : Vec F S512x2x21 .f32) (x1 : Vec F S512x3x20 .f32) (x2 : Vec F S512x3x3 .f32) (x3 : Vec F S3x3 .f32) (x4 : Vec F S512x3x1 .f32) (x5 : Vec F S21x20 .f32) (x6 : Vec F S1x20 .f32) (x7 : Vec F S512x3x21 .f32) (x8 : Vec F S2x3x21 .f32)
    (xo9 : Vec F S1x1x1 .f32) (xo10 : Vec F S1x1x1 .f32) (xo11 : Vec F S1x1x1 .f32) (xo12 : Vec F S1x1x1 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12 = k0_pay3 (sumSmooth i x7 x8) xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo9 xo10 xo11 xo12)]
  unfold kernelRun0_B
  dsimp only
  sl_unfold_words
  rw [View.canon_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1x1) hz3]
  unfold sumSmooth sumSmoothAt startWord ldCur0 ldCur1 ldCur2 ldNxt0 ldNxt1 ldNxt2
  rfl

/-! ## The index maps of the output windows over the grid -/

/-- Output window 9's block index at point `t` is `(t / 128, 0, 0)`: the row of the grid. -/
theorem idx0_9 : ∀ t : Fin cfg0.N, win0_9.index t (0 : Fin 3) = t.val / 128 ∧ win0_9.index t (1 : Fin 3) = 0 ∧ win0_9.index t (2 : Fin 3) = 0 :=
  (by decide +kernel : ∀ t : Fin grid0.N, win0_9.index t (0 : Fin 3) = t.val / 128 ∧ win0_9.index t (1 : Fin 3) = 0 ∧ win0_9.index t (2 : Fin 3) = 0)
/-- Output window 10's block index at point `t` is `(t / 128, 0, 0)`: the row of the grid. -/
theorem idx0_10 : ∀ t : Fin cfg0.N, win0_10.index t (0 : Fin 3) = t.val / 128 ∧ win0_10.index t (1 : Fin 3) = 0 ∧ win0_10.index t (2 : Fin 3) = 0 :=
  (by decide +kernel : ∀ t : Fin grid0.N, win0_10.index t (0 : Fin 3) = t.val / 128 ∧ win0_10.index t (1 : Fin 3) = 0 ∧ win0_10.index t (2 : Fin 3) = 0)
/-- Output window 11's block index at point `t` is `(t / 128, 0, 0)`: the row of the grid. -/
theorem idx0_11 : ∀ t : Fin cfg0.N, win0_11.index t (0 : Fin 3) = t.val / 128 ∧ win0_11.index t (1 : Fin 3) = 0 ∧ win0_11.index t (2 : Fin 3) = 0 :=
  (by decide +kernel : ∀ t : Fin grid0.N, win0_11.index t (0 : Fin 3) = t.val / 128 ∧ win0_11.index t (1 : Fin 3) = 0 ∧ win0_11.index t (2 : Fin 3) = 0)
/-- Output window 12's block index at point `t` is `(t / 128, 0, 0)`: the row of the grid. -/
theorem idx0_12 : ∀ t : Fin cfg0.N, win0_12.index t (0 : Fin 3) = t.val / 128 ∧ win0_12.index t (1 : Fin 3) = 0 ∧ win0_12.index t (2 : Fin 3) = 0 :=
  (by decide +kernel : ∀ t : Fin grid0.N, win0_12.index t (0 : Fin 3) = t.val / 128 ∧ win0_12.index t (1 : Fin 3) = 0 ∧ win0_12.index t (2 : Fin 3) = 0)

section Regions
variable (V : (c : Dev nD) → (b : Ref sig .tc) → Buf (Elt F) ((c : Thread nD τ).loc b))

/-! ## The fold of a row of the grid -/

/-- The sum the body adds into output window 9's buffer at point `n`, over the point's input blocks. -/
def sum9At (c : Dev nD) (n : ℕ) (h : n < cfg0.N) : FVec F S1x1 .f32 :=
  sumProj (iblk0 V c 0 ⟨n, h⟩) (iblk0 V c 2 ⟨n, h⟩) (iblk0 V c 3 ⟨n, h⟩) (iblk0 V c 4 ⟨n, h⟩) (blk0_7 V c ⟨n, h⟩) (iblk0 V c 8 ⟨n, h⟩)

/-- THE RESET: what the first point of a row leaves in output window 9's buffer. -/
def reset9 (c : Dev nD) (n : ℕ) (h : n < cfg0.N) : Vec F S1x1x1 .f32 :=
  k0_pay56 (sum9At V c n h) (k0_pay4 (F := F))

/-- THE STEP: what a later point of the row leaves there, over the contents `acc` the point before left. -/
def step9 (c : Dev nD) (n : ℕ) (h : n < cfg0.N) (acc : Vec F S1x1x1 .f32) : Vec F S1x1x1 .f32 :=
  k0_pay56 (sum9At V c n h) acc

/-- What output window 9's buffer holds after point `t`: the fold of its row up to `t` — the reset at the row's first
    point `128 (t / 128)`, the step at each later one. -/
theorem outsAt_9_eq (c : Dev nD) (t : Fin cfg0.N) :
    (outsAt0 V c t.val t.isLt).1 = Pipeline.accAt (reset9 V c) (step9 V c) (128 * (t.val / 128)) (t.val % 128)
      (by have h1 := t.isLt; have h2 := Nat.div_add_mod t.val 128; omega) :=
  Pipeline.eq_accAt_of_mod (fun n h => (outsAt0 V c n h).1) 128 (reset9 V c) (step9 V c)
    (fun n h hn => by rw [outsAt0_A V c ⟨n, h⟩ hn, outsA0_9]; exact out0_A_9_eq ..)
    (fun n h hn => by rw [outsAt0_B V c ⟨n + 1, h⟩ hn, outsB0_9]; exact out0_B_9_eq ..)
    (by decide) t.val t.isLt _

/-- The sum the body adds into output window 10's buffer at point `n`, over the point's input blocks. -/
def sum10At (c : Dev nD) (n : ℕ) (h : n < cfg0.N) : FVec F S1x1 .f32 :=
  sumLift (iblk0 V c 1 ⟨n, h⟩) (iblk0 V c 5 ⟨n, h⟩) (blk0_7 V c ⟨n, h⟩) (iblk0 V c 8 ⟨n, h⟩)

/-- THE RESET: what the first point of a row leaves in output window 10's buffer. -/
def reset10 (c : Dev nD) (n : ℕ) (h : n < cfg0.N) : Vec F S1x1x1 .f32 :=
  k0_pay1 (sum10At V c n h) (k0_pay5 (F := F))

/-- THE STEP: what a later point of the row leaves there, over the contents `acc` the point before left. -/
def step10 (c : Dev nD) (n : ℕ) (h : n < cfg0.N) (acc : Vec F S1x1x1 .f32) : Vec F S1x1x1 .f32 :=
  k0_pay1 (sum10At V c n h) acc

/-- What output window 10's buffer holds after point `t`: the fold of its row up to `t` — the reset at the row's first
    point `128 (t / 128)`, the step at each later one. -/
theorem outsAt_10_eq (c : Dev nD) (t : Fin cfg0.N) :
    (outsAt0 V c t.val t.isLt).2.1 = Pipeline.accAt (reset10 V c) (step10 V c) (128 * (t.val / 128)) (t.val % 128)
      (by have h1 := t.isLt; have h2 := Nat.div_add_mod t.val 128; omega) :=
  Pipeline.eq_accAt_of_mod (fun n h => (outsAt0 V c n h).2.1) 128 (reset10 V c) (step10 V c)
    (fun n h hn => by rw [outsAt0_A V c ⟨n, h⟩ hn, outsA0_10]; exact out0_A_10_eq ..)
    (fun n h hn => by rw [outsAt0_B V c ⟨n + 1, h⟩ hn, outsB0_10]; exact out0_B_10_eq ..)
    (by decide) t.val t.isLt _

/-- The sum the body adds into output window 11's buffer at point `n`, over the point's input blocks. -/
def sum11At (c : Dev nD) (n : ℕ) (h : n < cfg0.N) : FVec F S1x1 .f32 :=
  sumBone (iblk0 V c 5 ⟨n, h⟩) (iblk0 V c 6 ⟨n, h⟩) (blk0_7 V c ⟨n, h⟩)

/-- THE RESET: what the first point of a row leaves in output window 11's buffer. -/
def reset11 (c : Dev nD) (n : ℕ) (h : n < cfg0.N) : Vec F S1x1x1 .f32 :=
  k0_pay2 (sum11At V c n h) (k0_pay6 (F := F))

/-- THE STEP: what a later point of the row leaves there, over the contents `acc` the point before left. -/
def step11 (c : Dev nD) (n : ℕ) (h : n < cfg0.N) (acc : Vec F S1x1x1 .f32) : Vec F S1x1x1 .f32 :=
  k0_pay2 (sum11At V c n h) acc

/-- What output window 11's buffer holds after point `t`: the fold of its row up to `t` — the reset at the row's first
    point `128 (t / 128)`, the step at each later one. -/
theorem outsAt_11_eq (c : Dev nD) (t : Fin cfg0.N) :
    (outsAt0 V c t.val t.isLt).2.2.1 = Pipeline.accAt (reset11 V c) (step11 V c) (128 * (t.val / 128)) (t.val % 128)
      (by have h1 := t.isLt; have h2 := Nat.div_add_mod t.val 128; omega) :=
  Pipeline.eq_accAt_of_mod (fun n h => (outsAt0 V c n h).2.2.1) 128 (reset11 V c) (step11 V c)
    (fun n h hn => by rw [outsAt0_A V c ⟨n, h⟩ hn, outsA0_11]; exact out0_A_11_eq ..)
    (fun n h hn => by rw [outsAt0_B V c ⟨n + 1, h⟩ hn, outsB0_11]; exact out0_B_11_eq ..)
    (by decide) t.val t.isLt _

/-- The sum the body adds into output window 12's buffer at point `n`, over the point's input blocks. -/
def sum12At (c : Dev nD) (n : ℕ) (h : n < cfg0.N) : FVec F S1x1 .f32 :=
  sumSmooth (grid0.coords ⟨n, h⟩) (blk0_7 V c ⟨n, h⟩) (iblk0 V c 8 ⟨n, h⟩)

/-- THE RESET: what the first point of a row leaves in output window 12's buffer. -/
def reset12 (c : Dev nD) (n : ℕ) (h : n < cfg0.N) : Vec F S1x1x1 .f32 :=
  k0_pay3 (sum12At V c n h) (k0_pay7 (F := F))

/-- THE STEP: what a later point of the row leaves there, over the contents `acc` the point before left. -/
def step12 (c : Dev nD) (n : ℕ) (h : n < cfg0.N) (acc : Vec F S1x1x1 .f32) : Vec F S1x1x1 .f32 :=
  k0_pay3 (sum12At V c n h) acc

/-- What output window 12's buffer holds after point `t`: the fold of its row up to `t` — the reset at the row's first
    point `128 (t / 128)`, the step at each later one. -/
theorem outsAt_12_eq (c : Dev nD) (t : Fin cfg0.N) :
    (outsAt0 V c t.val t.isLt).2.2.2 = Pipeline.accAt (reset12 V c) (step12 V c) (128 * (t.val / 128)) (t.val % 128)
      (by have h1 := t.isLt; have h2 := Nat.div_add_mod t.val 128; omega) :=
  Pipeline.eq_accAt_of_mod (fun n h => (outsAt0 V c n h).2.2.2) 128 (reset12 V c) (step12 V c)
    (fun n h hn => by rw [outsAt0_A V c ⟨n, h⟩ hn, outsA0_12]; exact out0_A_12_eq ..)
    (fun n h hn => by rw [outsAt0_B V c ⟨n + 1, h⟩ hn, outsB0_12]; exact out0_B_12_eq ..)
    (by decide) t.val t.isLt _

/-! ## The result arrays after the run -/

/-- What result array 0 ends holding at index `i`: the fold of the whole row `i 0` of the grid (only inside the
    grid's two rows is this the array's contents; every index of the array is). -/
def G9 (c : Dev nD) : Buf (Elt F) ((c : Thread nD τ).loc main_v10_0) := fun i =>
  if h : 128 * (i 0).val + 127 < cfg0.N then
    (Pipeline.accAt (reset9 V c) (step9 V c) (128 * (i 0).val) 127 h) (ix3 (0 : Fin 1) (0 : Fin 1) (0 : Fin 1))
  else V c (Pipeline.arrRef spec0 9) i

/-- What a point that writes output window 9's block back writes is that block of `G9`: the whole row's fold. -/
theorem flushed9_eq (c : Dev nD) (t : Fin cfg0.N) (hf : (cfg0.win 9).flush t = true) :
    (dat0 V c).flushed 9 t = ((cfg0.win 9).blk t).view.read (Elt F) (G9 V c) := by
  show (cfg0.win 9).cut (grid0.coords t) ((dat0 V c).after 9 t) = _
  rw [after0_9, outsAt_9_eq]
  have hm : t.val % 128 = 127 := (flush0_9 t).mp hf
  obtain ⟨e0, e1, e2⟩ := idx0_9 t
  funext y
  have hy0 : (y 0).val < 1 := (y 0).isLt
  have hy1 : (y 1).val < 1 := (y 1).isLt
  have hy2 : (y 2).val < 1 := (y 2).isLt
  have hb0 : (((cfg0.win 9).blk t).view.emb y 0).val = win0_9.index t (0 : Fin 3) * 1 + 1 * (y 0).val := rfl
  have hr : (((cfg0.win 9).blk t).view.emb y 0).val = t.val / 128 := by rw [hb0, e0]; omega
  have hl : (cfg0.win 9).xinj (grid0.coords t) y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  show (Pipeline.accAt (reset9 V c) (step9 V c) (128 * (t.val / 128)) (t.val % 128) _) ((cfg0.win 9).xinj (grid0.coords t) y)
    = G9 V c (((cfg0.win 9).blk t).view.emb y)
  unfold G9
  rw [dif_pos (by rw [hr]; have := t.isLt; have := Nat.div_add_mod t.val 128; omega), hl]
  have e : ∀ (b j : ℕ) (h : b + j < cfg0.N) (b' j' : ℕ) (h' : b' + j' < cfg0.N), b = b' → j = j' →
      Pipeline.accAt (reset9 V c) (step9 V c) b j h = Pipeline.accAt (reset9 V c) (step9 V c) b' j' h' := by
    intro b j h b' j' h' hb hj; subst hb; subst hj; rfl
  exact congrFun (e _ _ _ _ _ _ (by rw [hr]) hm) _

/-- The two write-backs cover result array 0, so it ends holding `G9`. -/
theorem final9 (c : Dev nD) : (dat0 V c).arrAt 9 cfg0.N = G9 V c :=
  (dat0 V c).arrAt_eq_of_cover 9 (G9 V c) (flushed9_eq V c) fun i => by
    have hi0 : (i 0 : ℕ) < 2 := (i 0).isLt
    have hi1 : (i 1 : ℕ) < 1 := (i 1).isLt
    have hi2 : (i 2 : ℕ) < 1 := (i 2).isLt
    have hlt : 128 * (i 0 : ℕ) + 127 < cfg0.N := by rw [show cfg0.N = 256 from N_0]; omega
    obtain ⟨e0, e1, e2⟩ := idx0_9 ⟨128 * (i 0 : ℕ) + 127, hlt⟩
    refine ⟨⟨128 * (i 0 : ℕ) + 127, hlt⟩, (flush0_9 _).mpr (by dsimp only; omega), ?_⟩
    show i ∈ ((View.whole main_v10_0).slice (win0_9.rect ⟨128 * (i 0 : ℕ) + 127, hlt⟩)).set
    rw [View.set_slice_whole, Rect.mem_set_unit]
    intro a
    match a with
    | ⟨0, _⟩ =>
      show win0_9.index ⟨128 * (i 0 : ℕ) + 127, hlt⟩ 0 * 1 ≤ (i 0 : ℕ) ∧ (i 0 : ℕ) < win0_9.index ⟨128 * (i 0 : ℕ) + 127, hlt⟩ 0 * 1 + 1
      rw [e0]; dsimp only; omega
    | ⟨1, _⟩ =>
      show win0_9.index ⟨128 * (i 0 : ℕ) + 127, hlt⟩ 1 * 1 ≤ (i 1 : ℕ) ∧ (i 1 : ℕ) < win0_9.index ⟨128 * (i 0 : ℕ) + 127, hlt⟩ 1 * 1 + 1
      rw [e1]; omega
    | ⟨2, _⟩ =>
      show win0_9.index ⟨128 * (i 0 : ℕ) + 127, hlt⟩ 2 * 1 ≤ (i 2 : ℕ) ∧ (i 2 : ℕ) < win0_9.index ⟨128 * (i 0 : ℕ) + 127, hlt⟩ 2 * 1 + 1
      rw [e2]; omega

/-- Entry `j` of result array 0 after the run: the fold of row `j` of the grid, its 128 points. -/
theorem arrAt9_apply (c : Dev nD) (j : Fin 2) :
    (dat0 V c).arrAt 9 cfg0.N (ix3 j (0 : Fin 1) (0 : Fin 1))
      = Pipeline.accAt (reset9 V c) (step9 V c) (128 * j.val) 127
          (by have := j.isLt; rw [show cfg0.N = 256 from N_0]; omega) (ix3 (0 : Fin 1) (0 : Fin 1) (0 : Fin 1)) := by
  rw [final9]
  unfold G9
  exact dif_pos _

/-- What result array 1 ends holding at index `i`: the fold of the whole row `i 0` of the grid (only inside the
    grid's two rows is this the array's contents; every index of the array is). -/
def G10 (c : Dev nD) : Buf (Elt F) ((c : Thread nD τ).loc main_v10_1) := fun i =>
  if h : 128 * (i 0).val + 127 < cfg0.N then
    (Pipeline.accAt (reset10 V c) (step10 V c) (128 * (i 0).val) 127 h) (ix3 (0 : Fin 1) (0 : Fin 1) (0 : Fin 1))
  else V c (Pipeline.arrRef spec0 10) i

/-- What a point that writes output window 10's block back writes is that block of `G10`: the whole row's fold. -/
theorem flushed10_eq (c : Dev nD) (t : Fin cfg0.N) (hf : (cfg0.win 10).flush t = true) :
    (dat0 V c).flushed 10 t = ((cfg0.win 10).blk t).view.read (Elt F) (G10 V c) := by
  show (cfg0.win 10).cut (grid0.coords t) ((dat0 V c).after 10 t) = _
  rw [after0_10, outsAt_10_eq]
  have hm : t.val % 128 = 127 := (flush0_10 t).mp hf
  obtain ⟨e0, e1, e2⟩ := idx0_10 t
  funext y
  have hy0 : (y 0).val < 1 := (y 0).isLt
  have hy1 : (y 1).val < 1 := (y 1).isLt
  have hy2 : (y 2).val < 1 := (y 2).isLt
  have hb0 : (((cfg0.win 10).blk t).view.emb y 0).val = win0_10.index t (0 : Fin 3) * 1 + 1 * (y 0).val := rfl
  have hr : (((cfg0.win 10).blk t).view.emb y 0).val = t.val / 128 := by rw [hb0, e0]; omega
  have hl : (cfg0.win 10).xinj (grid0.coords t) y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  show (Pipeline.accAt (reset10 V c) (step10 V c) (128 * (t.val / 128)) (t.val % 128) _) ((cfg0.win 10).xinj (grid0.coords t) y)
    = G10 V c (((cfg0.win 10).blk t).view.emb y)
  unfold G10
  rw [dif_pos (by rw [hr]; have := t.isLt; have := Nat.div_add_mod t.val 128; omega), hl]
  have e : ∀ (b j : ℕ) (h : b + j < cfg0.N) (b' j' : ℕ) (h' : b' + j' < cfg0.N), b = b' → j = j' →
      Pipeline.accAt (reset10 V c) (step10 V c) b j h = Pipeline.accAt (reset10 V c) (step10 V c) b' j' h' := by
    intro b j h b' j' h' hb hj; subst hb; subst hj; rfl
  exact congrFun (e _ _ _ _ _ _ (by rw [hr]) hm) _

/-- The two write-backs cover result array 1, so it ends holding `G10`. -/
theorem final10 (c : Dev nD) : (dat0 V c).arrAt 10 cfg0.N = G10 V c :=
  (dat0 V c).arrAt_eq_of_cover 10 (G10 V c) (flushed10_eq V c) fun i => by
    have hi0 : (i 0 : ℕ) < 2 := (i 0).isLt
    have hi1 : (i 1 : ℕ) < 1 := (i 1).isLt
    have hi2 : (i 2 : ℕ) < 1 := (i 2).isLt
    have hlt : 128 * (i 0 : ℕ) + 127 < cfg0.N := by rw [show cfg0.N = 256 from N_0]; omega
    obtain ⟨e0, e1, e2⟩ := idx0_10 ⟨128 * (i 0 : ℕ) + 127, hlt⟩
    refine ⟨⟨128 * (i 0 : ℕ) + 127, hlt⟩, (flush0_10 _).mpr (by dsimp only; omega), ?_⟩
    show i ∈ ((View.whole main_v10_1).slice (win0_10.rect ⟨128 * (i 0 : ℕ) + 127, hlt⟩)).set
    rw [View.set_slice_whole, Rect.mem_set_unit]
    intro a
    match a with
    | ⟨0, _⟩ =>
      show win0_10.index ⟨128 * (i 0 : ℕ) + 127, hlt⟩ 0 * 1 ≤ (i 0 : ℕ) ∧ (i 0 : ℕ) < win0_10.index ⟨128 * (i 0 : ℕ) + 127, hlt⟩ 0 * 1 + 1
      rw [e0]; dsimp only; omega
    | ⟨1, _⟩ =>
      show win0_10.index ⟨128 * (i 0 : ℕ) + 127, hlt⟩ 1 * 1 ≤ (i 1 : ℕ) ∧ (i 1 : ℕ) < win0_10.index ⟨128 * (i 0 : ℕ) + 127, hlt⟩ 1 * 1 + 1
      rw [e1]; omega
    | ⟨2, _⟩ =>
      show win0_10.index ⟨128 * (i 0 : ℕ) + 127, hlt⟩ 2 * 1 ≤ (i 2 : ℕ) ∧ (i 2 : ℕ) < win0_10.index ⟨128 * (i 0 : ℕ) + 127, hlt⟩ 2 * 1 + 1
      rw [e2]; omega

/-- Entry `j` of result array 1 after the run: the fold of row `j` of the grid, its 128 points. -/
theorem arrAt10_apply (c : Dev nD) (j : Fin 2) :
    (dat0 V c).arrAt 10 cfg0.N (ix3 j (0 : Fin 1) (0 : Fin 1))
      = Pipeline.accAt (reset10 V c) (step10 V c) (128 * j.val) 127
          (by have := j.isLt; rw [show cfg0.N = 256 from N_0]; omega) (ix3 (0 : Fin 1) (0 : Fin 1) (0 : Fin 1)) := by
  rw [final10]
  unfold G10
  exact dif_pos _

/-- What result array 2 ends holding at index `i`: the fold of the whole row `i 0` of the grid (only inside the
    grid's two rows is this the array's contents; every index of the array is). -/
def G11 (c : Dev nD) : Buf (Elt F) ((c : Thread nD τ).loc main_v10_2) := fun i =>
  if h : 128 * (i 0).val + 127 < cfg0.N then
    (Pipeline.accAt (reset11 V c) (step11 V c) (128 * (i 0).val) 127 h) (ix3 (0 : Fin 1) (0 : Fin 1) (0 : Fin 1))
  else V c (Pipeline.arrRef spec0 11) i

/-- What a point that writes output window 11's block back writes is that block of `G11`: the whole row's fold. -/
theorem flushed11_eq (c : Dev nD) (t : Fin cfg0.N) (hf : (cfg0.win 11).flush t = true) :
    (dat0 V c).flushed 11 t = ((cfg0.win 11).blk t).view.read (Elt F) (G11 V c) := by
  show (cfg0.win 11).cut (grid0.coords t) ((dat0 V c).after 11 t) = _
  rw [after0_11, outsAt_11_eq]
  have hm : t.val % 128 = 127 := (flush0_11 t).mp hf
  obtain ⟨e0, e1, e2⟩ := idx0_11 t
  funext y
  have hy0 : (y 0).val < 1 := (y 0).isLt
  have hy1 : (y 1).val < 1 := (y 1).isLt
  have hy2 : (y 2).val < 1 := (y 2).isLt
  have hb0 : (((cfg0.win 11).blk t).view.emb y 0).val = win0_11.index t (0 : Fin 3) * 1 + 1 * (y 0).val := rfl
  have hr : (((cfg0.win 11).blk t).view.emb y 0).val = t.val / 128 := by rw [hb0, e0]; omega
  have hl : (cfg0.win 11).xinj (grid0.coords t) y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  show (Pipeline.accAt (reset11 V c) (step11 V c) (128 * (t.val / 128)) (t.val % 128) _) ((cfg0.win 11).xinj (grid0.coords t) y)
    = G11 V c (((cfg0.win 11).blk t).view.emb y)
  unfold G11
  rw [dif_pos (by rw [hr]; have := t.isLt; have := Nat.div_add_mod t.val 128; omega), hl]
  have e : ∀ (b j : ℕ) (h : b + j < cfg0.N) (b' j' : ℕ) (h' : b' + j' < cfg0.N), b = b' → j = j' →
      Pipeline.accAt (reset11 V c) (step11 V c) b j h = Pipeline.accAt (reset11 V c) (step11 V c) b' j' h' := by
    intro b j h b' j' h' hb hj; subst hb; subst hj; rfl
  exact congrFun (e _ _ _ _ _ _ (by rw [hr]) hm) _

/-- The two write-backs cover result array 2, so it ends holding `G11`. -/
theorem final11 (c : Dev nD) : (dat0 V c).arrAt 11 cfg0.N = G11 V c :=
  (dat0 V c).arrAt_eq_of_cover 11 (G11 V c) (flushed11_eq V c) fun i => by
    have hi0 : (i 0 : ℕ) < 2 := (i 0).isLt
    have hi1 : (i 1 : ℕ) < 1 := (i 1).isLt
    have hi2 : (i 2 : ℕ) < 1 := (i 2).isLt
    have hlt : 128 * (i 0 : ℕ) + 127 < cfg0.N := by rw [show cfg0.N = 256 from N_0]; omega
    obtain ⟨e0, e1, e2⟩ := idx0_11 ⟨128 * (i 0 : ℕ) + 127, hlt⟩
    refine ⟨⟨128 * (i 0 : ℕ) + 127, hlt⟩, (flush0_11 _).mpr (by dsimp only; omega), ?_⟩
    show i ∈ ((View.whole main_v10_2).slice (win0_11.rect ⟨128 * (i 0 : ℕ) + 127, hlt⟩)).set
    rw [View.set_slice_whole, Rect.mem_set_unit]
    intro a
    match a with
    | ⟨0, _⟩ =>
      show win0_11.index ⟨128 * (i 0 : ℕ) + 127, hlt⟩ 0 * 1 ≤ (i 0 : ℕ) ∧ (i 0 : ℕ) < win0_11.index ⟨128 * (i 0 : ℕ) + 127, hlt⟩ 0 * 1 + 1
      rw [e0]; dsimp only; omega
    | ⟨1, _⟩ =>
      show win0_11.index ⟨128 * (i 0 : ℕ) + 127, hlt⟩ 1 * 1 ≤ (i 1 : ℕ) ∧ (i 1 : ℕ) < win0_11.index ⟨128 * (i 0 : ℕ) + 127, hlt⟩ 1 * 1 + 1
      rw [e1]; omega
    | ⟨2, _⟩ =>
      show win0_11.index ⟨128 * (i 0 : ℕ) + 127, hlt⟩ 2 * 1 ≤ (i 2 : ℕ) ∧ (i 2 : ℕ) < win0_11.index ⟨128 * (i 0 : ℕ) + 127, hlt⟩ 2 * 1 + 1
      rw [e2]; omega

/-- Entry `j` of result array 2 after the run: the fold of row `j` of the grid, its 128 points. -/
theorem arrAt11_apply (c : Dev nD) (j : Fin 2) :
    (dat0 V c).arrAt 11 cfg0.N (ix3 j (0 : Fin 1) (0 : Fin 1))
      = Pipeline.accAt (reset11 V c) (step11 V c) (128 * j.val) 127
          (by have := j.isLt; rw [show cfg0.N = 256 from N_0]; omega) (ix3 (0 : Fin 1) (0 : Fin 1) (0 : Fin 1)) := by
  rw [final11]
  unfold G11
  exact dif_pos _

/-- What result array 3 ends holding at index `i`: the fold of the whole row `i 0` of the grid (only inside the
    grid's two rows is this the array's contents; every index of the array is). -/
def G12 (c : Dev nD) : Buf (Elt F) ((c : Thread nD τ).loc main_v10_3) := fun i =>
  if h : 128 * (i 0).val + 127 < cfg0.N then
    (Pipeline.accAt (reset12 V c) (step12 V c) (128 * (i 0).val) 127 h) (ix3 (0 : Fin 1) (0 : Fin 1) (0 : Fin 1))
  else V c (Pipeline.arrRef spec0 12) i

/-- What a point that writes output window 12's block back writes is that block of `G12`: the whole row's fold. -/
theorem flushed12_eq (c : Dev nD) (t : Fin cfg0.N) (hf : (cfg0.win 12).flush t = true) :
    (dat0 V c).flushed 12 t = ((cfg0.win 12).blk t).view.read (Elt F) (G12 V c) := by
  show (cfg0.win 12).cut (grid0.coords t) ((dat0 V c).after 12 t) = _
  rw [after0_12, outsAt_12_eq]
  have hm : t.val % 128 = 127 := (flush0_12 t).mp hf
  obtain ⟨e0, e1, e2⟩ := idx0_12 t
  funext y
  have hy0 : (y 0).val < 1 := (y 0).isLt
  have hy1 : (y 1).val < 1 := (y 1).isLt
  have hy2 : (y 2).val < 1 := (y 2).isLt
  have hb0 : (((cfg0.win 12).blk t).view.emb y 0).val = win0_12.index t (0 : Fin 3) * 1 + 1 * (y 0).val := rfl
  have hr : (((cfg0.win 12).blk t).view.emb y 0).val = t.val / 128 := by rw [hb0, e0]; omega
  have hl : (cfg0.win 12).xinj (grid0.coords t) y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  show (Pipeline.accAt (reset12 V c) (step12 V c) (128 * (t.val / 128)) (t.val % 128) _) ((cfg0.win 12).xinj (grid0.coords t) y)
    = G12 V c (((cfg0.win 12).blk t).view.emb y)
  unfold G12
  rw [dif_pos (by rw [hr]; have := t.isLt; have := Nat.div_add_mod t.val 128; omega), hl]
  have e : ∀ (b j : ℕ) (h : b + j < cfg0.N) (b' j' : ℕ) (h' : b' + j' < cfg0.N), b = b' → j = j' →
      Pipeline.accAt (reset12 V c) (step12 V c) b j h = Pipeline.accAt (reset12 V c) (step12 V c) b' j' h' := by
    intro b j h b' j' h' hb hj; subst hb; subst hj; rfl
  exact congrFun (e _ _ _ _ _ _ (by rw [hr]) hm) _

/-- The two write-backs cover result array 3, so it ends holding `G12`. -/
theorem final12 (c : Dev nD) : (dat0 V c).arrAt 12 cfg0.N = G12 V c :=
  (dat0 V c).arrAt_eq_of_cover 12 (G12 V c) (flushed12_eq V c) fun i => by
    have hi0 : (i 0 : ℕ) < 2 := (i 0).isLt
    have hi1 : (i 1 : ℕ) < 1 := (i 1).isLt
    have hi2 : (i 2 : ℕ) < 1 := (i 2).isLt
    have hlt : 128 * (i 0 : ℕ) + 127 < cfg0.N := by rw [show cfg0.N = 256 from N_0]; omega
    obtain ⟨e0, e1, e2⟩ := idx0_12 ⟨128 * (i 0 : ℕ) + 127, hlt⟩
    refine ⟨⟨128 * (i 0 : ℕ) + 127, hlt⟩, (flush0_12 _).mpr (by dsimp only; omega), ?_⟩
    show i ∈ ((View.whole main_v10_3).slice (win0_12.rect ⟨128 * (i 0 : ℕ) + 127, hlt⟩)).set
    rw [View.set_slice_whole, Rect.mem_set_unit]
    intro a
    match a with
    | ⟨0, _⟩ =>
      show win0_12.index ⟨128 * (i 0 : ℕ) + 127, hlt⟩ 0 * 1 ≤ (i 0 : ℕ) ∧ (i 0 : ℕ) < win0_12.index ⟨128 * (i 0 : ℕ) + 127, hlt⟩ 0 * 1 + 1
      rw [e0]; dsimp only; omega
    | ⟨1, _⟩ =>
      show win0_12.index ⟨128 * (i 0 : ℕ) + 127, hlt⟩ 1 * 1 ≤ (i 1 : ℕ) ∧ (i 1 : ℕ) < win0_12.index ⟨128 * (i 0 : ℕ) + 127, hlt⟩ 1 * 1 + 1
      rw [e1]; omega
    | ⟨2, _⟩ =>
      show win0_12.index ⟨128 * (i 0 : ℕ) + 127, hlt⟩ 2 * 1 ≤ (i 2 : ℕ) ∧ (i 2 : ℕ) < win0_12.index ⟨128 * (i 0 : ℕ) + 127, hlt⟩ 2 * 1 + 1
      rw [e2]; omega

/-- Entry `j` of result array 3 after the run: the fold of row `j` of the grid, its 128 points. -/
theorem arrAt12_apply (c : Dev nD) (j : Fin 2) :
    (dat0 V c).arrAt 12 cfg0.N (ix3 j (0 : Fin 1) (0 : Fin 1))
      = Pipeline.accAt (reset12 V c) (step12 V c) (128 * j.val) 127
          (by have := j.isLt; rw [show cfg0.N = 256 from N_0]; omega) (ix3 (0 : Fin 1) (0 : Fin 1) (0 : Fin 1)) := by
  rw [final12]
  unfold G12
  exact dif_pos _

end Regions

/-! ## At the ideal instance: the fold is a sum -/

section IdealSums
variable (V : (c : Dev nD) → (b : Ref sig .tc) → Buf (Elt Ideal) ((c : Thread nD τ).loc b))

/-- The one index of a 1 x 1 block and of a 1 x 1 x 1 block sit at the same row-major position. -/
theorem rowMajor_one (i : S1x1x1.Idx) : (S1x1.rowMajor (ix2 (0 : Fin 1) (0 : Fin 1))).val = (S1x1x1.rowMajor i).val := by
  have h1 := (S1x1.rowMajor (ix2 (0 : Fin 1) (0 : Fin 1))).isLt
  have h2 := (S1x1x1.rowMajor i).isLt
  have e1 : S1x1.numel = 1 := by decide
  have e2 : S1x1x1.numel = 1 := by decide
  omega

/-- Over the extended reals the accumulating store of output window 9 adds the point's sum to what the buffer held, -/
theorem pay9_apply (s : FVec Ideal S1x1 .f32) (p : Vec Ideal S1x1x1 .f32) (i : S1x1x1.Idx) :
    k0_pay56 s p i = p i + s (ix2 (0 : Fin 1) (0 : Fin 1)) := by
  unfold k0_pay56
  show addf (shapeCast S1x1x1 p shapeCasts_S1x1x1_S1x1x1) (shapeCast S1x1x1 s shapeCasts_S1x1_S1x1x1) i = _
  rw [addf_apply, shapeCast_self, shapeCast_apply s shapeCasts_S1x1_S1x1x1 i (ix2 (0 : Fin 1) (0 : Fin 1)) (rowMajor_one i)]

/-- and the reset stores zero. -/
theorem zero9_apply (i : S1x1x1.Idx) : (k0_pay4 (F := Ideal)) i = 0 := by
  unfold k0_pay4
  show broadcast S1x1x1 (Scalar.ofBits (F := Ideal) .f32 0x00000000#32) i = 0
  rw [broadcast_apply]
  exact Ideal.ofBits_zero_f32

/-- Point `n`'s addend into output window 9 (zero past the grid, where it is never read). -/
def add9At (c : Dev nD) (n : ℕ) : EReal :=
  if h : n < cfg0.N then sum9At V c n h (ix2 (0 : Fin 1) (0 : Fin 1)) else 0

/-- The fold of a row unrolled: the sum of its points' addends. -/
theorem acc9_apply (c : Dev nD) (b : ℕ) (h : b + 127 < cfg0.N) (i : S1x1x1.Idx) :
    Pipeline.accAt (reset9 V c) (step9 V c) b 127 h i = ∑ s ∈ Finset.range 128, add9At V c (b + s) := by
  have key := Pipeline.accAt_add_apply (reset9 V c) (step9 V c) (fun i => (k0_pay4 (F := Ideal)) i) (fun n _ => add9At V c n) b 127
    (fun hb i => by unfold reset9 add9At; rw [pay9_apply, dif_pos hb])
    (fun n hn acc i _ _ => by unfold step9 add9At; rw [pay9_apply, dif_pos hn])
    127 le_rfl h i
  rw [key, zero9_apply, zero_add]

/-- ENTRY `j` OF RESULT ARRAY 0: the sum over the 128 points of row `j` of the grid of the point's sum, the blocks
    read as rows of the arrays the region finds. -/
theorem result9 (c : Dev nD) (j : Fin 2) :
    @Eq EReal ((dat0 (F := Ideal) V c).arrAt 9 cfg0.N (ix3 j (0 : Fin 1) (0 : Fin 1)))
      (∑ ib : Fin 128, sumProj (F := Ideal) (rows512 (n := 131072) (a := 2) (b := 21) (e := .f32) (by decide) (V c main_arg1) (⟨128 * j.val + ib.val, by have := j.isLt; have := ib.isLt; omega⟩ : Fin 256)) (rows512 (n := 131072) (a := 3) (b := 3) (e := .f32) (by decide) (V c main_arg3) (⟨128 * j.val + ib.val, by have := j.isLt; have := ib.isLt; omega⟩ : Fin 256)) (V c main_arg6) (rows512 (n := 131072) (a := 3) (b := 1) (e := .f32) (by decide) (V c main_arg4) (⟨128 * j.val + ib.val, by have := j.isLt; have := ib.isLt; omega⟩ : Fin 256)) (rows512 (n := 131074) (a := 3) (b := 21) (e := .f32) (by decide) (V c main_v8) (⟨128 * j.val + ib.val, by have := j.isLt; have := ib.isLt; omega⟩ : Fin 256)) (rows2 (n := 131074) (a := 3) (b := 21) (e := .f32) (by decide) (V c main_v8) (⟨128 * j.val + ib.val, by have := j.isLt; have := ib.isLt; omega⟩ : Fin 256)) (ix2 (0 : Fin 1) (0 : Fin 1))) := by
  rw [arrAt9_apply, acc9_apply, Finset.sum_range]
  refine Finset.sum_congr rfl fun ib _ => ?_
  have hlt : 128 * j.val + ib.val < cfg0.N := by have := j.isLt; have := ib.isLt; rw [show cfg0.N = 256 from N_0]; omega
  unfold add9At
  rw [dif_pos hlt]
  unfold sum9At
  rw [iblk0_0_eq V c ⟨128 * j.val + ib.val, hlt⟩ ⟨128 * j.val + ib.val, by have := j.isLt; have := ib.isLt; omega⟩ rfl, iblk0_2_eq V c ⟨128 * j.val + ib.val, hlt⟩ ⟨128 * j.val + ib.val, by have := j.isLt; have := ib.isLt; omega⟩ rfl, iblk0_3_eq, iblk0_4_eq V c ⟨128 * j.val + ib.val, hlt⟩ ⟨128 * j.val + ib.val, by have := j.isLt; have := ib.isLt; omega⟩ rfl, blk0_7_eq V c ⟨128 * j.val + ib.val, hlt⟩ ⟨128 * j.val + ib.val, by have := j.isLt; have := ib.isLt; omega⟩ rfl, iblk0_8_eq V c ⟨128 * j.val + ib.val, hlt⟩ ⟨128 * j.val + ib.val, by have := j.isLt; have := ib.isLt; omega⟩ rfl]

/-- Over the extended reals the accumulating store of output window 10 adds the point's sum to what the buffer held, -/
theorem pay10_apply (s : FVec Ideal S1x1 .f32) (p : Vec Ideal S1x1x1 .f32) (i : S1x1x1.Idx) :
    k0_pay1 s p i = p i + s (ix2 (0 : Fin 1) (0 : Fin 1)) := by
  unfold k0_pay1
  show addf (shapeCast S1x1x1 p shapeCasts_S1x1x1_S1x1x1) (shapeCast S1x1x1 s shapeCasts_S1x1_S1x1x1) i = _
  rw [addf_apply, shapeCast_self, shapeCast_apply s shapeCasts_S1x1_S1x1x1 i (ix2 (0 : Fin 1) (0 : Fin 1)) (rowMajor_one i)]

/-- and the reset stores zero. -/
theorem zero10_apply (i : S1x1x1.Idx) : (k0_pay5 (F := Ideal)) i = 0 := by
  unfold k0_pay5
  show broadcast S1x1x1 (Scalar.ofBits (F := Ideal) .f32 0x00000000#32) i = 0
  rw [broadcast_apply]
  exact Ideal.ofBits_zero_f32

/-- Point `n`'s addend into output window 10 (zero past the grid, where it is never read). -/
def add10At (c : Dev nD) (n : ℕ) : EReal :=
  if h : n < cfg0.N then sum10At V c n h (ix2 (0 : Fin 1) (0 : Fin 1)) else 0

/-- The fold of a row unrolled: the sum of its points' addends. -/
theorem acc10_apply (c : Dev nD) (b : ℕ) (h : b + 127 < cfg0.N) (i : S1x1x1.Idx) :
    Pipeline.accAt (reset10 V c) (step10 V c) b 127 h i = ∑ s ∈ Finset.range 128, add10At V c (b + s) := by
  have key := Pipeline.accAt_add_apply (reset10 V c) (step10 V c) (fun i => (k0_pay5 (F := Ideal)) i) (fun n _ => add10At V c n) b 127
    (fun hb i => by unfold reset10 add10At; rw [pay10_apply, dif_pos hb])
    (fun n hn acc i _ _ => by unfold step10 add10At; rw [pay10_apply, dif_pos hn])
    127 le_rfl h i
  rw [key, zero10_apply, zero_add]

/-- ENTRY `j` OF RESULT ARRAY 1: the sum over the 128 points of row `j` of the grid of the point's sum, the blocks
    read as rows of the arrays the region finds. -/
theorem result10 (c : Dev nD) (j : Fin 2) :
    @Eq EReal ((dat0 (F := Ideal) V c).arrAt 10 cfg0.N (ix3 j (0 : Fin 1) (0 : Fin 1)))
      (∑ ib : Fin 128, sumLift (F := Ideal) (rows512 (n := 131072) (a := 3) (b := 20) (e := .f32) (by decide) (V c main_arg2) (⟨128 * j.val + ib.val, by have := j.isLt; have := ib.isLt; omega⟩ : Fin 256)) (V c main_v7) (rows512 (n := 131074) (a := 3) (b := 21) (e := .f32) (by decide) (V c main_v8) (⟨128 * j.val + ib.val, by have := j.isLt; have := ib.isLt; omega⟩ : Fin 256)) (rows2 (n := 131074) (a := 3) (b := 21) (e := .f32) (by decide) (V c main_v8) (⟨128 * j.val + ib.val, by have := j.isLt; have := ib.isLt; omega⟩ : Fin 256)) (ix2 (0 : Fin 1) (0 : Fin 1))) := by
  rw [arrAt10_apply, acc10_apply, Finset.sum_range]
  refine Finset.sum_congr rfl fun ib _ => ?_
  have hlt : 128 * j.val + ib.val < cfg0.N := by have := j.isLt; have := ib.isLt; rw [show cfg0.N = 256 from N_0]; omega
  unfold add10At
  rw [dif_pos hlt]
  unfold sum10At
  rw [iblk0_1_eq V c ⟨128 * j.val + ib.val, hlt⟩ ⟨128 * j.val + ib.val, by have := j.isLt; have := ib.isLt; omega⟩ rfl, iblk0_5_eq, blk0_7_eq V c ⟨128 * j.val + ib.val, hlt⟩ ⟨128 * j.val + ib.val, by have := j.isLt; have := ib.isLt; omega⟩ rfl, iblk0_8_eq V c ⟨128 * j.val + ib.val, hlt⟩ ⟨128 * j.val + ib.val, by have := j.isLt; have := ib.isLt; omega⟩ rfl]

/-- Over the extended reals the accumulating store of output window 11 adds the point's sum to what the buffer held, -/
theorem pay11_apply (s : FVec Ideal S1x1 .f32) (p : Vec Ideal S1x1x1 .f32) (i : S1x1x1.Idx) :
    k0_pay2 s p i = p i + s (ix2 (0 : Fin 1) (0 : Fin 1)) := by
  unfold k0_pay2
  show addf (shapeCast S1x1x1 p shapeCasts_S1x1x1_S1x1x1) (shapeCast S1x1x1 s shapeCasts_S1x1_S1x1x1) i = _
  rw [addf_apply, shapeCast_self, shapeCast_apply s shapeCasts_S1x1_S1x1x1 i (ix2 (0 : Fin 1) (0 : Fin 1)) (rowMajor_one i)]

/-- and the reset stores zero. -/
theorem zero11_apply (i : S1x1x1.Idx) : (k0_pay6 (F := Ideal)) i = 0 := by
  unfold k0_pay6
  show broadcast S1x1x1 (Scalar.ofBits (F := Ideal) .f32 0x00000000#32) i = 0
  rw [broadcast_apply]
  exact Ideal.ofBits_zero_f32

/-- Point `n`'s addend into output window 11 (zero past the grid, where it is never read). -/
def add11At (c : Dev nD) (n : ℕ) : EReal :=
  if h : n < cfg0.N then sum11At V c n h (ix2 (0 : Fin 1) (0 : Fin 1)) else 0

/-- The fold of a row unrolled: the sum of its points' addends. -/
theorem acc11_apply (c : Dev nD) (b : ℕ) (h : b + 127 < cfg0.N) (i : S1x1x1.Idx) :
    Pipeline.accAt (reset11 V c) (step11 V c) b 127 h i = ∑ s ∈ Finset.range 128, add11At V c (b + s) := by
  have key := Pipeline.accAt_add_apply (reset11 V c) (step11 V c) (fun i => (k0_pay6 (F := Ideal)) i) (fun n _ => add11At V c n) b 127
    (fun hb i => by unfold reset11 add11At; rw [pay11_apply, dif_pos hb])
    (fun n hn acc i _ _ => by unfold step11 add11At; rw [pay11_apply, dif_pos hn])
    127 le_rfl h i
  rw [key, zero11_apply, zero_add]

/-- ENTRY `j` OF RESULT ARRAY 2: the sum over the 128 points of row `j` of the grid of the point's sum, the blocks
    read as rows of the arrays the region finds. -/
theorem result11 (c : Dev nD) (j : Fin 2) :
    @Eq EReal ((dat0 (F := Ideal) V c).arrAt 11 cfg0.N (ix3 j (0 : Fin 1) (0 : Fin 1)))
      (∑ ib : Fin 128, sumBone (F := Ideal) (V c main_v7) (V c main_v9) (rows512 (n := 131074) (a := 3) (b := 21) (e := .f32) (by decide) (V c main_v8) (⟨128 * j.val + ib.val, by have := j.isLt; have := ib.isLt; omega⟩ : Fin 256)) (ix2 (0 : Fin 1) (0 : Fin 1))) := by
  rw [arrAt11_apply, acc11_apply, Finset.sum_range]
  refine Finset.sum_congr rfl fun ib _ => ?_
  have hlt : 128 * j.val + ib.val < cfg0.N := by have := j.isLt; have := ib.isLt; rw [show cfg0.N = 256 from N_0]; omega
  unfold add11At
  rw [dif_pos hlt]
  unfold sum11At
  rw [iblk0_5_eq, iblk0_6_eq, blk0_7_eq V c ⟨128 * j.val + ib.val, hlt⟩ ⟨128 * j.val + ib.val, by have := j.isLt; have := ib.isLt; omega⟩ rfl]

/-- Over the extended reals the accumulating store of output window 12 adds the point's sum to what the buffer held, -/
theorem pay12_apply (s : FVec Ideal S1x1 .f32) (p : Vec Ideal S1x1x1 .f32) (i : S1x1x1.Idx) :
    k0_pay3 s p i = p i + s (ix2 (0 : Fin 1) (0 : Fin 1)) := by
  unfold k0_pay3
  show addf (shapeCast S1x1x1 p shapeCasts_S1x1x1_S1x1x1) (shapeCast S1x1x1 s shapeCasts_S1x1_S1x1x1) i = _
  rw [addf_apply, shapeCast_self, shapeCast_apply s shapeCasts_S1x1_S1x1x1 i (ix2 (0 : Fin 1) (0 : Fin 1)) (rowMajor_one i)]

/-- and the reset stores zero. -/
theorem zero12_apply (i : S1x1x1.Idx) : (k0_pay7 (F := Ideal)) i = 0 := by
  unfold k0_pay7
  show broadcast S1x1x1 (Scalar.ofBits (F := Ideal) .f32 0x00000000#32) i = 0
  rw [broadcast_apply]
  exact Ideal.ofBits_zero_f32

/-- Point `n`'s addend into output window 12 (zero past the grid, where it is never read). -/
def add12At (c : Dev nD) (n : ℕ) : EReal :=
  if h : n < cfg0.N then sum12At V c n h (ix2 (0 : Fin 1) (0 : Fin 1)) else 0

/-- The fold of a row unrolled: the sum of its points' addends. -/
theorem acc12_apply (c : Dev nD) (b : ℕ) (h : b + 127 < cfg0.N) (i : S1x1x1.Idx) :
    Pipeline.accAt (reset12 V c) (step12 V c) b 127 h i = ∑ s ∈ Finset.range 128, add12At V c (b + s) := by
  have key := Pipeline.accAt_add_apply (reset12 V c) (step12 V c) (fun i => (k0_pay7 (F := Ideal)) i) (fun n _ => add12At V c n) b 127
    (fun hb i => by unfold reset12 add12At; rw [pay12_apply, dif_pos hb])
    (fun n hn acc i _ _ => by unfold step12 add12At; rw [pay12_apply, dif_pos hn])
    127 le_rfl h i
  rw [key, zero12_apply, zero_add]

/-- ENTRY `j` OF RESULT ARRAY 3: the sum over the 128 points of row `j` of the grid of the point's sum, the blocks
    read as rows of the arrays the region finds. -/
theorem result12 (c : Dev nD) (j : Fin 2) :
    @Eq EReal ((dat0 (F := Ideal) V c).arrAt 12 cfg0.N (ix3 j (0 : Fin 1) (0 : Fin 1)))
      (∑ ib : Fin 128, sumSmooth (F := Ideal) (grid0.coords (⟨128 * j.val + ib.val, by have := j.isLt; have := ib.isLt; rw [show cfg0.N = 256 from N_0]; omega⟩ : Fin cfg0.N)) (rows512 (n := 131074) (a := 3) (b := 21) (e := .f32) (by decide) (V c main_v8) (⟨128 * j.val + ib.val, by have := j.isLt; have := ib.isLt; omega⟩ : Fin 256)) (rows2 (n := 131074) (a := 3) (b := 21) (e := .f32) (by decide) (V c main_v8) (⟨128 * j.val + ib.val, by have := j.isLt; have := ib.isLt; omega⟩ : Fin 256)) (ix2 (0 : Fin 1) (0 : Fin 1))) := by
  rw [arrAt12_apply, acc12_apply, Finset.sum_range]
  refine Finset.sum_congr rfl fun ib _ => ?_
  have hlt : 128 * j.val + ib.val < cfg0.N := by have := j.isLt; have := ib.isLt; rw [show cfg0.N = 256 from N_0]; omega
  unfold add12At
  rw [dif_pos hlt]
  unfold sum12At
  rw [blk0_7_eq V c ⟨128 * j.val + ib.val, hlt⟩ ⟨128 * j.val + ib.val, by have := j.isLt; have := ib.isLt; omega⟩ rfl, iblk0_8_eq V c ⟨128 * j.val + ib.val, hlt⟩ ⟨128 * j.val + ib.val, by have := j.isLt; have := ib.isLt; omega⟩ rfl]

end IdealSums

end Cert.KernelIdeal.Gen

end
-- ==== Proof.Val.IndexSums.lean ====
/-
  Two facts about finite sums the value proofs share: the coercion of a finite sum of reals into the extended reals
  is the sum of the coercions, and a sum over the index set of a rank-3 array is the triple sum over its coordinates.
-/
import Idealize.ShloMosaic.Lib.ValueIdx
import Mathlib.Data.EReal.Basic
import Mathlib.Algebra.BigOperators.Group.Finset.Basic

noncomputable section

namespace Cert.Val

open Idealize.ShloMosaic Idealize.ShloMosaic.ValueIdx
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Val

end
-- ==== Proof.KI.TailSum.lean ====
/-
  The host's closing sums. After the pallas_call each of its four 2 x 1 x 1 result arrays is summed over every index
  from zero. Entry j of such an array is the sum of the 128 per-point values of row j of the 2 x 128 grid, so the
  host's sum is the sum of the per-point values over all 256 grid points, taken in row-major order. Beside it, the
  grid's row-major numbering: point t has coordinates (t / 128, t mod 128), and the word the body computes from
  them is 512 t.
-/
import proofs.«404832_j45707041964541_3_alg».proof.Proof.KI.BlockVals
import proofs.«404832_j45707041964541_3_alg».proof.Proof.KI.Blocks
import proofs.«404832_j45707041964541_3_alg».proof.Proof.Val.IndexSums
import Idealize.ShloMosaic.PureOps.Ideal.Laws
import Mathlib.Algebra.BigOperators.Fin
import Mathlib.Logic.Equiv.Fin.Basic

noncomputable section

namespace Cert.KernelIdeal.Gen

open Idealize.ShloMosaic Idealize.ShloMosaic.ValueIdx
open scoped BigOperators

/-- A sum over 2 rows of 128 consecutive positions is the sum over the 256 positions. -/
theorem sum_rows_128 {M : Type*} [AddCommMonoid M] (s : Fin 256 → M) :
    ∑ j : Fin 2, ∑ ib : Fin 128, s ⟨128 * j.val + ib.val, by have := j.isLt; have := ib.isLt; omega⟩ = ∑ t : Fin 256, s t := by
  have h := Equiv.sum_comp (finProdFinEquiv (m := 2) (n := 128)) (fun i : Fin (2 * 128) => s i)
  rw [Fintype.sum_prod_type] at h
  refine Eq.trans ?_ h
  refine Finset.sum_congr rfl fun j _ => Finset.sum_congr rfl fun ib _ => ?_
  congr 1
  apply Fin.ext
  show 128 * j.val + ib.val = ib.val + 128 * j.val
  omega

/-- THE HOST'S SUM OF A RESULT ARRAY: when entry j of the array is the sum of row j's 128 per-point values, the sum of
    the array over every index from zero is the sum of the per-point values over the 256 grid points. -/
theorem tail_total (o : FVec Ideal S2x1x1 .f32) (s : Fin 256 → EReal)
    (h : ∀ j : Fin 2, o (ix3 j 0 0)
      = ∑ ib : Fin 128, s ⟨128 * j.val + ib.val, by have := j.isLt; have := ib.isLt; omega⟩) :
    Host.reduceAdd (F := Ideal) o (constant S_ .f32 0x00000000#32) reducesTo_S2x1x1_S_d0_1_2 h_S_
      = fun _ => ∑ t : Fin 256, s t := by
  funext i
  simp only [Host.reduceAdd, Ideal.hostReduceAdd_def]
  rw [Ideal.hostReduceAdd_total reducesTo_S2x1x1_S_d0_1_2 (fun b => b.elim0) o _ i]
  show Ideal.ofBits .f32 0x00000000#32 + _ = _
  rw [Ideal.ofBits_zero_f32, zero_add, Cert.Val.sum_idx3]
  simp only [Fin.sum_univ_one]
  rw [← sum_rows_128 s]
  exact Finset.sum_congr rfl fun j _ => h j

/-- The word the body computes at the t-th grid point, in row-major order, is 512 t. -/
theorem startWord_eq : ∀ t : Fin grid0.N, startWord (grid0.coords t) = BitVec.ofNat 32 (512 * t.val) := by
  decide +kernel

/-- The t-th grid point in row-major order is (t / 128, t mod 128). -/
theorem coords_val : ∀ t : Fin grid0.N,
    ((grid0.coords t) (0 : Fin 2)).val = t.val / 128 ∧ ((grid0.coords t) (1 : Fin 2)).val = t.val % 128 := by
  decide +kernel

/-- The number of grid points. -/
theorem grid0_N : grid0.N = 256 := by decide

/-- The point of row j and column ib is the (128 j + ib)-th. -/
theorem coords_eq (j : Fin 2) (ib : Fin 128) :
    ((grid0.coords ⟨128 * j.val + ib.val, by have := j.isLt; have := ib.isLt; show 128 * j.val + ib.val < 256; omega⟩) (0 : Fin 2)).val = j.val
    ∧ ((grid0.coords ⟨128 * j.val + ib.val, by have := j.isLt; have := ib.isLt; show 128 * j.val + ib.val < 256; omega⟩) (1 : Fin 2)).val = ib.val := by
  have := coords_val ⟨128 * j.val + ib.val, by have := j.isLt; have := ib.isLt; show 128 * j.val + ib.val < 256; omega⟩
  have hj := j.isLt
  have hib := ib.isLt
  refine ⟨this.1.trans ?_, this.2.trans ?_⟩
  · show (128 * j.val + ib.val) / 128 = j.val
    omega
  · show (128 * j.val + ib.val) % 128 = ib.val
    omega

end Cert.KernelIdeal.Gen

end
-- ==== Proof.Val.SmoothReal.lean ====
/-
  The smoothness total over the reals. A trajectory of 131073 frames (3 coordinates, 21 joints), continued by zero
  frames, has a second difference q(i+2) − 2 q(i+1) + q(i) at every frame i; the sum of its squares over the frames
  i ≤ 131070 can be taken in two ways. Blockwise: 256 blocks of 512 frames, every frame of every block, each term
  multiplied by the indicator of i ≤ 131070 before it is squared (the one frame i = 131071 contributes zero).
  Directly: over the 131071 frames, the difference of consecutive first differences squared. The two agree.
-/
import Mathlib.Algebra.BigOperators.Fin
import Mathlib.Algebra.BigOperators.Group.Finset.Basic
import Mathlib.Logic.Equiv.Fin.Basic
import Mathlib.Data.Real.Basic
import Mathlib.Tactic.Ring

namespace Cert.Val

open scoped BigOperators

/-- A trajectory continued by zero frames past its last frame. -/
noncomputable def padR (p : Fin 131073 → Fin 3 → Fin 21 → ℝ) (f : ℕ) (a : Fin 3) (n : Fin 21) : ℝ :=
  if h : f < 131073 then p ⟨f, h⟩ a n else 0

/-- The indicator of the frames that have a second difference inside the trajectory. -/
noncomputable def validR (i : ℕ) : ℝ := if i ≤ 131070 then 1 else 0

/-- The blockwise term: the masked second difference, squared. -/
noncomputable def maskedTerm (q : ℕ → Fin 3 → Fin 21 → ℝ) (i : ℕ) (a : Fin 3) (n : Fin 21) : ℝ :=
  ((q (i + 2) a n - 2 * q (i + 1) a n + q i a n) * validR i) * ((q (i + 2) a n - 2 * q (i + 1) a n + q i a n) * validR i)

/-- The direct term: the difference of consecutive first differences, squared. -/
noncomputable def diffTerm (q : ℕ → Fin 3 → Fin 21 → ℝ) (i : ℕ) (a : Fin 3) (n : Fin 21) : ℝ :=
  ((q (i + 2) a n - q (i + 1) a n) - (q (i + 1) a n - q i a n)) * ((q (i + 2) a n - q (i + 1) a n) - (q (i + 1) a n - q i a n))

theorem maskedTerm_of_le (q : ℕ → Fin 3 → Fin 21 → ℝ) {i : ℕ} (hi : i ≤ 131070) (a : Fin 3) (n : Fin 21) :
    maskedTerm q i a n = diffTerm q i a n := by
  unfold maskedTerm diffTerm validR
  rw [if_pos hi]
  ring

theorem maskedTerm_of_gt (q : ℕ → Fin 3 → Fin 21 → ℝ) {i : ℕ} (hi : ¬ i ≤ 131070) (a : Fin 3) (n : Fin 21) :
    maskedTerm q i a n = 0 := by
  unfold maskedTerm validR
  rw [if_neg hi]
  ring

/-- A sum over 256 blocks of 512 consecutive positions is the sum over the 131072 positions. -/
theorem sum_blocks {M : Type*} [AddCommMonoid M] (G : ℕ → M) :
    ∑ t : Fin 256, ∑ r : Fin 512, G (512 * t.val + r.val) = ∑ i : Fin 131072, G i.val := by
  have h := Equiv.sum_comp (finProdFinEquiv (m := 256) (n := 512)) (fun i : Fin (256 * 512) => G i.val)
  rw [Fintype.sum_prod_type] at h
  refine Eq.trans ?_ h
  refine Finset.sum_congr rfl fun t _ => Finset.sum_congr rfl fun r _ => ?_
  congr 1
  show 512 * t.val + r.val = r.val + 512 * t.val
  omega

/-- THE TWO WAYS AGREE. -/
theorem smooth_real (q : ℕ → Fin 3 → Fin 21 → ℝ) :
    ∑ t : Fin 256, ∑ a : Fin 3, ∑ r : Fin 512, ∑ n : Fin 21, maskedTerm q (512 * t.val + r.val) a n
      = ∑ i : Fin 131071, ∑ a : Fin 3, ∑ n : Fin 21, diffTerm q i.val a n := by
  have h1 : ∀ t : Fin 256, ∑ a : Fin 3, ∑ r : Fin 512, ∑ n : Fin 21, maskedTerm q (512 * t.val + r.val) a n
      = ∑ r : Fin 512, (fun i => ∑ a : Fin 3, ∑ n : Fin 21, maskedTerm q i a n) (512 * t.val + r.val) :=
    fun t => Finset.sum_comm
  rw [Finset.sum_congr rfl fun t _ => h1 t, sum_blocks (fun i => ∑ a : Fin 3, ∑ n : Fin 21, maskedTerm q i a n)]
  rw [show (131072 : ℕ) = 131071 + 1 from rfl, Fin.sum_univ_castSucc]
  have hlast : (∑ a : Fin 3, ∑ n : Fin 21, maskedTerm q (Fin.last 131071).val a n) = 0 :=
    Finset.sum_eq_zero fun a _ => Finset.sum_eq_zero fun n _ => maskedTerm_of_gt q (by simp) a n
  rw [hlast, add_zero]
  refine Finset.sum_congr rfl fun i _ => Finset.sum_congr rfl fun a _ => Finset.sum_congr rfl fun n _ => ?_
  exact maskedTerm_of_le q (by have := i.isLt; simp; omega) a n

end Cert.Val
-- ==== Proof.Val.SmoothBlockAt.lean ====
/-
  The pieces of the kernel body's smoothness term, read at one element. Of the block of 512 frames the body loads
  (one coordinate of the middle axis at a time) and of the two frames that follow it: the block itself, the block
  shifted by one frame and the block shifted by two frames (slices and concatenations along the frame axis) at
  (row p, joint q); the mask's bit and its value as a real at row p; the literal 2.0; and the body's sum of a
  512 x 21 array over both axes as the double sum over rows and joints.
-/
import proofs.«404832_j45707041964541_3_alg».proof.Proof.KI.BlockVals
import proofs.«404832_j45707041964541_3_alg».proof.Proof.Val.SmoothReal
import proofs.«404832_j45707041964541_3_alg».proof.Proof.Val.IndexSums
import Idealize.ShloMosaic.Lib.Pipeline.Value
import Idealize.ShloMosaic.Lib.ValueIdx
import Idealize.ShloMosaic.Lib.Affine
import Idealize.ShloMosaic.Lib.StableHlo.Predicate
import Idealize.ShloMosaic.PureOps.Ideal.Laws

noncomputable section

namespace Cert.Val

open Idealize.ShloMosaic Idealize.ShloMosaic.ValueIdx Cert.KernelIdeal Cert.KernelIdeal.Gen
open scoped BigOperators

variable {F : FTy → Type} [FloatOps F] {α : Type}

/-! ## The block's own frames and the two that follow, one coordinate at a time -/

theorem cur0_at (x7 : Vec F S512x3x21 .f32) (p : Fin 512) (q : Fin 21) :
    k0_pay15 (ldCur0 x7) (ix2 p q) = x7 (ix3 p 0 q) := by
  unfold k0_pay15 ldCur0
  refine (shapeCast_apply _ _ (ix2 p q) (ix3 p 0 q) ?_).trans ?_
  · rw [Shape.rowMajor_val_three, Shape.rowMajor_val_two]
    show (p.val * 1 + 0) * 21 + q.val = p.val * 21 + q.val
    omega
  · show x7 _ = x7 _
    congr 1
    funext a
    apply Fin.ext
    match a with
    | ⟨0, _⟩ => show 0 + 1 * p.val = p.val; omega
    | ⟨1, _⟩ => show 0 + 1 * 0 = 0; omega
    | ⟨2, _⟩ => show 0 + 1 * q.val = q.val; omega

theorem cur1_at (x7 : Vec F S512x3x21 .f32) (p : Fin 512) (q : Fin 21) :
    k0_pay16 (ldCur1 x7) (ix2 p q) = x7 (ix3 p 1 q) := by
  unfold k0_pay16 ldCur1
  refine (shapeCast_apply _ _ (ix2 p q) (ix3 p 0 q) ?_).trans ?_
  · rw [Shape.rowMajor_val_three, Shape.rowMajor_val_two]
    show (p.val * 1 + 0) * 21 + q.val = p.val * 21 + q.val
    omega
  · show x7 _ = x7 _
    congr 1
    funext a
    apply Fin.ext
    match a with
    | ⟨0, _⟩ => show 0 + 1 * p.val = p.val; omega
    | ⟨1, _⟩ => show 1 + 1 * 0 = 1; omega
    | ⟨2, _⟩ => show 0 + 1 * q.val = q.val; omega

theorem cur2_at (x7 : Vec F S512x3x21 .f32) (p : Fin 512) (q : Fin 21) :
    k0_pay17 (ldCur2 x7) (ix2 p q) = x7 (ix3 p 2 q) := by
  unfold k0_pay17 ldCur2
  refine (shapeCast_apply _ _ (ix2 p q) (ix3 p 0 q) ?_).trans ?_
  · rw [Shape.rowMajor_val_three, Shape.rowMajor_val_two]
    show (p.val * 1 + 0) * 21 + q.val = p.val * 21 + q.val
    omega
  · show x7 _ = x7 _
    congr 1
    funext a
    apply Fin.ext
    match a with
    | ⟨0, _⟩ => show 0 + 1 * p.val = p.val; omega
    | ⟨1, _⟩ => show 2 + 1 * 0 = 2; omega
    | ⟨2, _⟩ => show 0 + 1 * q.val = q.val; omega

theorem nxt0_at (x8 : Vec F S2x3x21 .f32) (s : Fin 2) (q : Fin 21) :
    k0_pay18 (ldNxt0 x8) (ix2 s q) = x8 (ix3 s 0 q) := by
  unfold k0_pay18 ldNxt0
  refine (shapeCast_apply _ _ (ix2 s q) (ix3 s 0 q) ?_).trans ?_
  · rw [Shape.rowMajor_val_three, Shape.rowMajor_val_two]
    show (s.val * 1 + 0) * 21 + q.val = s.val * 21 + q.val
    omega
  · show x8 _ = x8 _
    congr 1
    funext a
    apply Fin.ext
    match a with
    | ⟨0, _⟩ => show 0 + 1 * s.val = s.val; omega
    | ⟨1, _⟩ => show 0 + 1 * 0 = 0; omega
    | ⟨2, _⟩ => show 0 + 1 * q.val = q.val; omega

theorem nxt1_at (x8 : Vec F S2x3x21 .f32) (s : Fin 2) (q : Fin 21) :
    k0_pay19 (ldNxt1 x8) (ix2 s q) = x8 (ix3 s 1 q) := by
  unfold k0_pay19 ldNxt1
  refine (shapeCast_apply _ _ (ix2 s q) (ix3 s 0 q) ?_).trans ?_
  · rw [Shape.rowMajor_val_three, Shape.rowMajor_val_two]
    show (s.val * 1 + 0) * 21 + q.val = s.val * 21 + q.val
    omega
  · show x8 _ = x8 _
    congr 1
    funext a
    apply Fin.ext
    match a with
    | ⟨0, _⟩ => show 0 + 1 * s.val = s.val; omega
    | ⟨1, _⟩ => show 1 + 1 * 0 = 1; omega
    | ⟨2, _⟩ => show 0 + 1 * q.val = q.val; omega

theorem nxt2_at (x8 : Vec F S2x3x21 .f32) (s : Fin 2) (q : Fin 21) :
    k0_pay20 (ldNxt2 x8) (ix2 s q) = x8 (ix3 s 2 q) := by
  unfold k0_pay20 ldNxt2
  refine (shapeCast_apply _ _ (ix2 s q) (ix3 s 0 q) ?_).trans ?_
  · rw [Shape.rowMajor_val_three, Shape.rowMajor_val_two]
    show (s.val * 1 + 0) * 21 + q.val = s.val * 21 + q.val
    omega
  · show x8 _ = x8 _
    congr 1
    funext a
    apply Fin.ext
    match a with
    | ⟨0, _⟩ => show 0 + 1 * s.val = s.val; omega
    | ⟨1, _⟩ => show 2 + 1 * 0 = 2; omega
    | ⟨2, _⟩ => show 0 + 1 * q.val = q.val; omega

/-! ## The shifted blocks -/

/-- The block shifted by one frame: rows 1 … 511 of the block, then row 0 of the two frames that follow. -/
theorem shift1_at (v : S512x21.Idx → α) (w : S2x21.Idx → α) (p : Fin 512) (q : Fin 21) :
    concatenate S512x21 0 [⟨S511x21, extractStridedSlice S511x21 ![1, 0] v slices_S512x21_o1_0_S511x21⟩,
        ⟨S1x21, extractStridedSlice S1x21 ![0, 0] w slices_S2x21_o0_0_S1x21⟩] concatenates_S511x21_S1x21_S512x21_d0 (ix2 p q)
      = if h : p.val < 511 then v (ix2 ⟨p.val + 1, by omega⟩ q) else w (ix2 0 q) := by
  split
  · next h =>
    refine (concatenate_pair_apply_left (t := S512x21) (s₁ := S511x21) (s₂ := S1x21) (0 : Fin 2) _ _ concatenates_S511x21_S1x21_S512x21_d0 (ix2 p q) rfl
      (ix2 (⟨p.val, h⟩ : Fin 511) q) (fun b => match b with | ⟨0, _⟩ => rfl | ⟨1, _⟩ => rfl)).trans ?_
    refine extractStridedSlice_apply _ v _ _ (ix2 ⟨p.val + 1, by omega⟩ q) (fun a => match a with
      | ⟨0, _⟩ => by show p.val + 1 = 1 + p.val; omega
      | ⟨1, _⟩ => by show q.val = 0 + q.val; omega)
  · next h =>
    refine (concatenate_pair_apply_right (t := S512x21) (s₁ := S511x21) (s₂ := S1x21) (0 : Fin 2) _ _ concatenates_S511x21_S1x21_S512x21_d0 (ix2 p q) rfl rfl
      (ix2 (0 : Fin 1) q) (fun b hb => match b, hb with | ⟨0, _⟩, hb => absurd rfl hb | ⟨1, _⟩, _ => rfl)
      (by show 0 + 511 = p.val; have := p.isLt; omega)).trans ?_
    refine extractStridedSlice_apply _ w _ _ (ix2 0 q) (fun a => match a with
      | ⟨0, _⟩ => by show 0 = 0 + 0; omega
      | ⟨1, _⟩ => by show q.val = 0 + q.val; omega)

/-- The block shifted by two frames: rows 2 … 511 of the block, then the two frames that follow. -/
theorem shift2_at (v : S512x21.Idx → α) (w : S2x21.Idx → α) (p : Fin 512) (q : Fin 21) :
    concatenate S512x21 0 [⟨S510x21, extractStridedSlice S510x21 ![2, 0] v slices_S512x21_o2_0_S510x21⟩,
        ⟨S2x21, w⟩] concatenates_S510x21_S2x21_S512x21_d0 (ix2 p q)
      = if h : p.val < 510 then v (ix2 ⟨p.val + 2, by omega⟩ q) else w (ix2 ⟨p.val - 510, by have := p.isLt; omega⟩ q) := by
  split
  · next h =>
    refine (concatenate_pair_apply_left (t := S512x21) (s₁ := S510x21) (s₂ := S2x21) (0 : Fin 2) _ _ concatenates_S510x21_S2x21_S512x21_d0 (ix2 p q) rfl
      (ix2 (⟨p.val, h⟩ : Fin 510) q) (fun b => match b with | ⟨0, _⟩ => rfl | ⟨1, _⟩ => rfl)).trans ?_
    refine extractStridedSlice_apply _ v _ _ (ix2 ⟨p.val + 2, by omega⟩ q) (fun a => match a with
      | ⟨0, _⟩ => by show p.val + 2 = 2 + p.val; omega
      | ⟨1, _⟩ => by show q.val = 0 + q.val; omega)
  · next h =>
    exact concatenate_pair_apply_right (t := S512x21) (s₁ := S510x21) (s₂ := S2x21) (0 : Fin 2) _ _ concatenates_S510x21_S2x21_S512x21_d0 (ix2 p q) rfl rfl
      (ix2 (⟨p.val - 510, by have := p.isLt; omega⟩ : Fin 2) q) (fun b hb => match b, hb with | ⟨0, _⟩, hb => absurd rfl hb | ⟨1, _⟩, _ => rfl)
      (by show (p.val - 510) + 510 = p.val; omega)

/-! ## The mask, the literal, the sum over the block -/

/-- The mask bit of row p of the block that starts at frame w: frame w + p is at most 131070, read signed. -/
theorem mask_at (w : BitVec 32) (p : Fin 512) :
    k0_pay54 w (ix2 p 0) = IntOp.cmpi .sle (w + BitVec.ofNat 32 p.val) 131070#32 := by
  unfold k0_pay54
  show IntOp.cmpi .sle (IntOp.addi w (iota .tc S512x1 32 [0] iota_S512x1_d0_w32 (ix2 p 0))) 131070#32 = _
  rw [iota_single_apply]
  rfl

/-- The mask of the block at grid position t as a real: the indicator of 512 t + p ≤ 131070. -/
theorem valid_at (t : Fin 256) (p : Fin 512) :
    (sitofp .f32 (extui 32 (k0_pay54 (BitVec.ofNat 32 (512 * t.val))) natLt_1_32) : FVec Ideal S512x1 .f32) (ix2 p 0)
      = ((validR (512 * t.val + p.val) : ℝ) : EReal) := by
  show ((((k0_pay54 (BitVec.ofNat 32 (512 * t.val)) (ix2 p 0)).setWidth 32).toInt : ℝ) : EReal) = _
  rw [mask_at]
  have hlt : 512 * t.val + p.val < 2 ^ 31 := by have := t.isLt; have := p.isLt; omega
  have hadd : BitVec.ofNat 32 (512 * t.val) + BitVec.ofNat 32 p.val = BitVec.ofNat 32 (512 * t.val + p.val) :=
    (BitVec.ofNat_add _ _).symm
  rw [hadd]
  have hI : (BitVec.ofNat 32 (512 * t.val + p.val)).toInt = ((512 * t.val + p.val : ℕ) : Int) :=
    StableHlo.Predicate.toInt_ofNat_small _ hlt
  have hC : (131070#32 : BitVec 32).toInt = 131070 := by decide
  unfold validR
  by_cases h : 512 * t.val + p.val ≤ 131070
  · have e : IntOp.cmpi .sle (BitVec.ofNat 32 (512 * t.val + p.val)) 131070#32 = 1#1 :=
      IntOp.cmpi_sle.2 (by rw [hI, hC]; omega)
    rw [e, if_pos h]
    norm_num
  · have e : IntOp.cmpi .sle (BitVec.ofNat 32 (512 * t.val + p.val)) 131070#32 = 0#1 :=
      eq_zero_of_ne_one fun e => h (by have := IntOp.cmpi_sle.1 e; rw [hI, hC] at this; omega)
    rw [e, if_neg h]
    norm_num

/-- The literal 2.0. -/
theorem ofBits_two_f32 : Ideal.ofBits .f32 0x40000000#32 = ((2 : ℝ) : EReal) := by
  simp [Ideal.ofBits, Ideal.ieee, -EReal.coe_mul]; norm_num

/-- The sum of a 512 x 21 array over both axes, as the body takes it: cast to 1 x 512 x 21, reduced over the two
    trailing axes, the one entry extracted. -/
theorem lane_total (v : FVec Ideal S512x21 .f32) :
    extractAt ![0, 0, 0] (shapeCast S1x1x1 (multiReduction (F := Ideal) .add [1, 2] S1 (shapeCast S1x512x21 v shapeCasts_S512x21_S1x512x21)
        0x00000000#32 reduces_S1x512x21_S1 (.inl rfl) rfl) shapeCasts_S1_S1x1x1) inpos_S1x1x1_p0_0_0
      = ∑ p : Fin 512, ∑ q : Fin 21, v (ix2 p q) := by
  unfold extractAt
  refine (Ideal.multiReduction_add_total (shapeCast S1x512x21 v shapeCasts_S512x21_S1x512x21) 0x00000000#32
    reduces_S1x512x21_S1 (fun b => match b with | ⟨0, _⟩ => rfl) (.inl rfl) rfl _).trans ?_
  unfold shapeCast
  rw [Equiv.sum_comp (Shape.reshapeEquiv (s := S512x21) (s' := S1x512x21) shapeCasts_S512x21_S1x512x21) v, sum_idx2]

end Cert.Val

end
-- ==== Proof.Val.SmoothKernel.lean ====
/-
  The kernel body's smoothness sum at one grid position, read. The body forms, for each of the three coordinates, the
  block shifted by two frames less twice the block shifted by one frame plus the block itself, multiplies by the
  mask (1 at the frames up to 131070, 0 at the frame after), squares, and sums over the 512 frames and 21 joints;
  the three sums are added from zero. When the block and the two frames after it hold consecutive frames of a real
  trajectory this is the coercion of the real sum of the masked second differences squared.
-/
import proofs.«404832_j45707041964541_3_alg».proof.Proof.Val.SmoothBlockAt
import proofs.«404832_j45707041964541_3_alg».proof.Proof.Val.IndexSums

noncomputable section

namespace Cert.Val

open Idealize.ShloMosaic Idealize.ShloMosaic.ValueIdx Cert.KernelIdeal Cert.KernelIdeal.Gen
open scoped BigOperators

/-- One coordinate's sum as the body computes it: from the block v0, the block shifted by one frame v1, the block shifted
    by two frames v2 and the mask m as a column of floats. -/
def coordSum (v0 v1 v2 : FVec Ideal S512x21 .f32) (m : FVec Ideal S512x1 .f32) : EReal :=
  extractAt ![0, 0, 0] (shapeCast S1x1x1 (multiReduction (F := Ideal) .add [1, 2] S1 (shapeCast S1x512x21
    (mulf (mulf (addf (subf v2 (mulf (broadcast S512x21 (Scalar.ofBits (F := Ideal) .f32 0x40000000#32)) v1)) v0)
            (broadcastTo S512x21 m broadcasts_S512x1_S512x21))
          (mulf (addf (subf v2 (mulf (broadcast S512x21 (Scalar.ofBits (F := Ideal) .f32 0x40000000#32)) v1)) v0)
            (broadcastTo S512x21 m broadcasts_S512x1_S512x21)))
    shapeCasts_S512x21_S1x512x21) 0x00000000#32 reduces_S1x512x21_S1 (.inl rfl) rfl) shapeCasts_S1_S1x1x1) inpos_S1x1x1_p0_0_0

/-- The body's smoothness payload at its one entry: the three coordinates' sums added from the literal zero. -/
theorem pay55_eq (v22 v24 v26 v35 v38 v41 v43 v45 v47 : FVec Ideal S512x21 .f32) (v316 : IVec S512x1 1) :
    k0_pay55 (F := Ideal) v22 v24 v26 v35 v38 v41 v43 v45 v47 v316 (ix2 0 0)
      = ((Ideal.ofBits .f32 0x00000000#32 + coordSum v22 v35 v43 (sitofp .f32 (extui 32 v316 natLt_1_32)))
          + coordSum v24 v38 v45 (sitofp .f32 (extui 32 v316 natLt_1_32)))
          + coordSum v26 v41 v47 (sitofp .f32 (extui 32 v316 natLt_1_32)) := rfl

/-- One coordinate's sum at real entries. -/
theorem coordSum_real (v0 v1 v2 : FVec Ideal S512x21 .f32) (m : FVec Ideal S512x1 .f32)
    (c0 c1 c2 : Fin 512 → Fin 21 → ℝ) (mm : Fin 512 → ℝ)
    (h0 : ∀ p n, v0 (ix2 p n) = ((c0 p n : ℝ) : EReal)) (h1 : ∀ p n, v1 (ix2 p n) = ((c1 p n : ℝ) : EReal))
    (h2 : ∀ p n, v2 (ix2 p n) = ((c2 p n : ℝ) : EReal)) (hm : ∀ p, m (ix2 p 0) = ((mm p : ℝ) : EReal)) :
    coordSum v0 v1 v2 m
      = ((∑ p : Fin 512, ∑ n : Fin 21,
          ((c2 p n - 2 * c1 p n + c0 p n) * mm p) * ((c2 p n - 2 * c1 p n + c0 p n) * mm p) : ℝ) : EReal) := by
  unfold coordSum
  rw [lane_total, coe_sum]
  refine Finset.sum_congr rfl fun p _ => ?_
  rw [coe_sum]
  refine Finset.sum_congr rfl fun n _ => ?_
  have hb : broadcastTo S512x21 m broadcasts_S512x1_S512x21 (ix2 p n) = m (ix2 p 0) :=
    broadcastTo_apply m _ (ix2 p n) (ix2 p 0) (fun a => match a with
      | ⟨0, _⟩ => rfl
      | ⟨1, _⟩ => rfl)
  show ((v2 (ix2 p n) - Ideal.ofBits .f32 0x40000000#32 * v1 (ix2 p n) + v0 (ix2 p n))
          * broadcastTo S512x21 m broadcasts_S512x1_S512x21 (ix2 p n))
        * ((v2 (ix2 p n) - Ideal.ofBits .f32 0x40000000#32 * v1 (ix2 p n) + v0 (ix2 p n))
          * broadcastTo S512x21 m broadcasts_S512x1_S512x21 (ix2 p n)) = _
  rw [hb, h0, h1, h2, hm, ofBits_two_f32]
  simp only [EReal.coe_mul, EReal.coe_sub, EReal.coe_add]

section Block

variable (t : Fin 256) (c : ℕ → Fin 21 → ℝ)

/-- The block shifted by one frame holds the trajectory one frame on. -/
theorem shift1_real (v : S512x21.Idx → EReal) (w : S2x21.Idx → EReal)
    (hv : ∀ (p : Fin 512) (n : Fin 21), v (ix2 p n) = ((c (512 * t.val + p.val) n : ℝ) : EReal))
    (hw : ∀ (s : Fin 2) (n : Fin 21), w (ix2 s n) = ((c (512 * t.val + 512 + s.val) n : ℝ) : EReal))
    (p : Fin 512) (n : Fin 21) :
    concatenate S512x21 0 [⟨S511x21, extractStridedSlice S511x21 ![1, 0] v slices_S512x21_o1_0_S511x21⟩,
        ⟨S1x21, extractStridedSlice S1x21 ![0, 0] w slices_S2x21_o0_0_S1x21⟩] concatenates_S511x21_S1x21_S512x21_d0 (ix2 p n)
      = ((c (512 * t.val + p.val + 1) n : ℝ) : EReal) := by
  rw [shift1_at]
  split
  · next h => rw [hv]; exact congrArg (fun i => ((c i n : ℝ) : EReal)) (by show 512 * t.val + (p.val + 1) = _; omega)
  · next h => rw [hw]; exact congrArg (fun i => ((c i n : ℝ) : EReal)) (by show 512 * t.val + 512 + 0 = _; have := p.isLt; omega)

/-- The block shifted by two frames holds the trajectory two frames on. -/
theorem shift2_real (v : S512x21.Idx → EReal) (w : S2x21.Idx → EReal)
    (hv : ∀ (p : Fin 512) (n : Fin 21), v (ix2 p n) = ((c (512 * t.val + p.val) n : ℝ) : EReal))
    (hw : ∀ (s : Fin 2) (n : Fin 21), w (ix2 s n) = ((c (512 * t.val + 512 + s.val) n : ℝ) : EReal))
    (p : Fin 512) (n : Fin 21) :
    concatenate S512x21 0 [⟨S510x21, extractStridedSlice S510x21 ![2, 0] v slices_S512x21_o2_0_S510x21⟩,
        ⟨S2x21, w⟩] concatenates_S510x21_S2x21_S512x21_d0 (ix2 p n)
      = ((c (512 * t.val + p.val + 2) n : ℝ) : EReal) := by
  rw [shift2_at]
  split
  · next h => rw [hv]; exact congrArg (fun i => ((c i n : ℝ) : EReal)) (by show 512 * t.val + (p.val + 2) = _; omega)
  · next h => rw [hw]; exact congrArg (fun i => ((c i n : ℝ) : EReal)) (by show 512 * t.val + 512 + (p.val - 510) = _; have := p.isLt; omega)

end Block

/-- THE BODY'S SMOOTHNESS SUM AT GRID POSITION t, when the block holds frames 512 t … 512 t + 511 of the real trajectory q
    and the two frames after it frames 512 t + 512 and 512 t + 513. -/
theorem smooth_block (t : Fin 256) (x7 : Vec Ideal S512x3x21 .f32) (x8 : Vec Ideal S2x3x21 .f32) (q : ℕ → Fin 3 → Fin 21 → ℝ)
    (h7 : ∀ (p : Fin 512) (a : Fin 3) (n : Fin 21), x7 (ix3 p a n) = ((q (512 * t.val + p.val) a n : ℝ) : EReal))
    (h8 : ∀ (s : Fin 2) (a : Fin 3) (n : Fin 21), x8 (ix3 s a n) = ((q (512 * t.val + 512 + s.val) a n : ℝ) : EReal)) :
    sumSmoothAt (F := Ideal) (BitVec.ofNat 32 (512 * t.val)) x7 x8 (ix2 0 0)
      = ((∑ a : Fin 3, ∑ r : Fin 512, ∑ n : Fin 21, maskedTerm q (512 * t.val + r.val) a n : ℝ) : EReal) := by
  have hc0 : ∀ (p : Fin 512) (n : Fin 21), k0_pay15 (ldCur0 x7) (ix2 p n) = ((q (512 * t.val + p.val) 0 n : ℝ) : EReal) :=
    fun p n => (cur0_at x7 p n).trans (h7 p 0 n)
  have hc1 : ∀ (p : Fin 512) (n : Fin 21), k0_pay16 (ldCur1 x7) (ix2 p n) = ((q (512 * t.val + p.val) 1 n : ℝ) : EReal) :=
    fun p n => (cur1_at x7 p n).trans (h7 p 1 n)
  have hc2 : ∀ (p : Fin 512) (n : Fin 21), k0_pay17 (ldCur2 x7) (ix2 p n) = ((q (512 * t.val + p.val) 2 n : ℝ) : EReal) :=
    fun p n => (cur2_at x7 p n).trans (h7 p 2 n)
  have hn0 : ∀ (s : Fin 2) (n : Fin 21), k0_pay18 (ldNxt0 x8) (ix2 s n) = ((q (512 * t.val + 512 + s.val) 0 n : ℝ) : EReal) :=
    fun s n => (nxt0_at x8 s n).trans (h8 s 0 n)
  have hn1 : ∀ (s : Fin 2) (n : Fin 21), k0_pay19 (ldNxt1 x8) (ix2 s n) = ((q (512 * t.val + 512 + s.val) 1 n : ℝ) : EReal) :=
    fun s n => (nxt1_at x8 s n).trans (h8 s 1 n)
  have hn2 : ∀ (s : Fin 2) (n : Fin 21), k0_pay20 (ldNxt2 x8) (ix2 s n) = ((q (512 * t.val + 512 + s.val) 2 n : ℝ) : EReal) :=
    fun s n => (nxt2_at x8 s n).trans (h8 s 2 n)
  unfold sumSmoothAt
  have e0 := coordSum_real (k0_pay15 (ldCur0 x7)) (k0_pay21 (k0_pay15 (ldCur0 x7)) (ldNxt0 x8)) (k0_pay24 (k0_pay15 (ldCur0 x7)) (ldNxt0 x8))
      (sitofp .f32 (extui 32 (k0_pay54 (BitVec.ofNat 32 (512 * t.val))) natLt_1_32))
      (fun p n => q (512 * t.val + p.val) 0 n) (fun p n => q (512 * t.val + p.val + 1) 0 n)
      (fun p n => q (512 * t.val + p.val + 2) 0 n) (fun p => validR (512 * t.val + p.val)) hc0
      (fun p n => shift1_real t (fun i n => q i 0 n) _ _ hc0 hn0 p n)
      (fun p n => shift2_real t (fun i n => q i 0 n) _ _ hc0 hn0 p n) (valid_at t)
  have e1 := coordSum_real (k0_pay16 (ldCur1 x7)) (k0_pay22 (k0_pay16 (ldCur1 x7)) (ldNxt1 x8)) (k0_pay25 (k0_pay16 (ldCur1 x7)) (ldNxt1 x8))
      (sitofp .f32 (extui 32 (k0_pay54 (BitVec.ofNat 32 (512 * t.val))) natLt_1_32))
      (fun p n => q (512 * t.val + p.val) 1 n) (fun p n => q (512 * t.val + p.val + 1) 1 n)
      (fun p n => q (512 * t.val + p.val + 2) 1 n) (fun p => validR (512 * t.val + p.val)) hc1
      (fun p n => shift1_real t (fun i n => q i 1 n) _ _ hc1 hn1 p n)
      (fun p n => shift2_real t (fun i n => q i 1 n) _ _ hc1 hn1 p n) (valid_at t)
  have e2 := coordSum_real (k0_pay17 (ldCur2 x7)) (k0_pay23 (ldCur2 x7) (ldNxt2 x8)) (k0_pay26 (ldCur2 x7) (ldNxt2 x8))
      (sitofp .f32 (extui 32 (k0_pay54 (BitVec.ofNat 32 (512 * t.val))) natLt_1_32))
      (fun p n => q (512 * t.val + p.val) 2 n) (fun p n => q (512 * t.val + p.val + 1) 2 n)
      (fun p n => q (512 * t.val + p.val + 2) 2 n) (fun p => validR (512 * t.val + p.val)) hc2
      (fun p n => shift1_real t (fun i n => q i 2 n) _ _ hc2 hn2 p n)
      (fun p n => shift2_real t (fun i n => q i 2 n) _ _ hc2 hn2 p n) (valid_at t)
  rw [pay55_eq, e0, e1, e2, Ideal.ofBits_zero_f32, zero_add, Fin.sum_univ_three, EReal.coe_add, EReal.coe_add]
  rfl

end Cert.Val

end
-- ==== Proof.Val.SmoothRef.lean ====
/-
  The reference's smoothness total, read. The reference takes the first differences of the trajectory (frames 1 … 131072
  less frames 0 … 131071), then the differences of consecutive first differences, squares them and sums over every
  frame, coordinate and joint from zero. At a trajectory whose entries are reals this is the coercion of the real sum
  of the squared differences of consecutive first differences.
-/
import proofs.«404832_j45707041964541_3_alg».proof.Proof.Gen.ReferenceIdeal.Read
import proofs.«404832_j45707041964541_3_alg».proof.Proof.Val.SmoothReal
import proofs.«404832_j45707041964541_3_alg».proof.Proof.Val.IndexSums
import Idealize.ShloMosaic.Lib.ValueIdx
import Idealize.ShloMosaic.PureOps.Ideal.Laws

noncomputable section

namespace Cert.Val

open Idealize.ShloMosaic Idealize.ShloMosaic.ValueIdx Cert.ReferenceIdeal Cert.ReferenceIdeal.Read
open scoped BigOperators

section
variable (P : FVec Ideal S131073x3x21 .f32) (pr : Fin 131073 → Fin 3 → Fin 21 → ℝ)
  (hpr : ∀ f a n, P (ix3 f a n) = ((pr f a n : ℝ) : EReal))
include hpr

/-- The trajectory at frame i + d of the zero-continued reals, for d ≤ 2 and i < 131071. -/
theorem traj_at (i : Fin 131071) (d : ℕ) (hd : d ≤ 2) (a : Fin 3) (n : Fin 21) :
    P (ix3 ⟨i.val + d, by have := i.isLt; omega⟩ a n) = ((padR pr (i.val + d) a n : ℝ) : EReal) := by
  rw [hpr]
  unfold padR
  rw [dif_pos (by have := i.isLt; omega)]

/-- One term of the reference's sum: the squared difference of consecutive first differences at frame i. -/
theorem ref_elem (i : Fin 131071) (a : Fin 3) (n : Fin 21) :
    val_main_v85 (F := Ideal) P (ix3 i a n) = ((diffTerm (padR pr) i.val a n : ℝ) : EReal) := by
  have k2 : idx_main_v79 (idx_main_v82 (ix3 i a n)) = ix3 ⟨i.val + 2, by have := i.isLt; omega⟩ a n := by
    funext b; apply Fin.ext
    match b with
    | ⟨0, _⟩ => show 1 + (1 + i.val) = i.val + 2; omega
    | ⟨1, _⟩ => rfl
    | ⟨2, _⟩ => rfl
  have k1a : idx_main_v80 (idx_main_v82 (ix3 i a n)) = ix3 ⟨i.val + 1, by have := i.isLt; omega⟩ a n := by
    funext b; apply Fin.ext
    match b with
    | ⟨0, _⟩ => show 1 + i.val = i.val + 1; omega
    | ⟨1, _⟩ => rfl
    | ⟨2, _⟩ => rfl
  have k1b : idx_main_v79 (idx_main_v83 (ix3 i a n)) = ix3 ⟨i.val + 1, by have := i.isLt; omega⟩ a n := by
    funext b; apply Fin.ext
    match b with
    | ⟨0, _⟩ => show 1 + i.val = i.val + 1; omega
    | ⟨1, _⟩ => rfl
    | ⟨2, _⟩ => rfl
  have k0 : idx_main_v80 (idx_main_v83 (ix3 i a n)) = ix3 ⟨i.val + 0, by have := i.isLt; omega⟩ a n := by
    funext b; apply Fin.ext
    match b with
    | ⟨0, _⟩ => rfl
    | ⟨1, _⟩ => rfl
    | ⟨2, _⟩ => rfl
  simp only [val_main_v85_apply, val_main_v84_apply, val_main_v82_apply, val_main_v83_apply, val_main_v81_apply,
    val_main_v79_apply, val_main_v80_apply, k2, k1a, k1b, k0]
  rw [traj_at P pr hpr i 2 (by omega), traj_at P pr hpr i 1 (by omega), traj_at P pr hpr i 0 (by omega)]
  unfold diffTerm
  simp only [Ideal.mulf_def, Ideal.subf_def, Nat.add_zero, EReal.coe_mul, EReal.coe_sub]

/-- THE REFERENCE'S SMOOTHNESS TOTAL: the real sum over the 131071 frames, 3 coordinates and 21 joints. -/
theorem ref_total :
    val_main_v86 (F := Ideal) P ix0
      = ((∑ i : Fin 131071, ∑ a : Fin 3, ∑ n : Fin 21, diffTerm (padR pr) i.val a n : ℝ) : EReal) := by
  rw [val_main_v86_apply, val_main_cst_18_apply, Ideal.ofBits_def, Ideal.ofBits_zero_f32, zero_add, sum_idx3, coe_sum]
  refine Finset.sum_congr rfl fun i _ => ?_
  rw [coe_sum]
  refine Finset.sum_congr rfl fun a _ => ?_
  rw [coe_sum]
  exact Finset.sum_congr rfl fun n _ => ref_elem P pr hpr i a n

end

end Cert.Val

end
-- ==== Proof.Val.Smooth.lean ====
/-
  THE SMOOTHNESS TOTAL. Summed over the 256 grid positions, the kernel body's smoothness sums of the zero-padded
  trajectory equal the reference's sum of squared second differences, when every entry of the trajectory is a real.
  The padded trajectory read at a frame; the blocks at a grid position as consecutive frames of it; then the two
  sides as coercions of real sums that agree.
-/
import proofs.«404832_j45707041964541_3_alg».proof.Proof.KI.Blocks
import proofs.«404832_j45707041964541_3_alg».proof.Proof.Val.SmoothKernel
import proofs.«404832_j45707041964541_3_alg».proof.Proof.Val.SmoothRef
import Idealize.ShloMosaic.Lib.KernelVsHost

noncomputable section

namespace Cert.Val

open Idealize.ShloMosaic Idealize.ShloMosaic.ValueIdx Cert.KernelIdeal Cert.KernelIdeal.Gen
open scoped BigOperators

/-- The padded trajectory at a frame: the trajectory inside, zero at the appended frame. -/
theorem padPose_at (P : FVec Ideal S131073x3x21 .f32) (pr : Fin 131073 → Fin 3 → Fin 21 → ℝ)
    (hpr : ∀ f a n, P (ix3 f a n) = ((pr f a n : ℝ) : EReal)) (f : Fin 131074) (a : Fin 3) (n : Fin 21) :
    padPose (F := Ideal) P (ix3 f a n) = ((padR pr f.val a n : ℝ) : EReal) := by
  unfold padPose padR
  by_cases h : f.val < 131073
  · rw [dif_pos h]
    refine (pad_apply_of_inside _ _ _ P _ pads_S131073x3x21_S131074x3x21_010_000_000 h_S_ (ix3 f a n) (ix3 ⟨f.val, h⟩ a n)
      (fun b => match b with
        | ⟨0, _⟩ => by show f.val = 0 + f.val * (0 + 1); omega
        | ⟨1, _⟩ => by show a.val = 0 + a.val * (0 + 1); omega
        | ⟨2, _⟩ => by show n.val = 0 + n.val * (0 + 1); omega)).trans (hpr _ _ _)
  · rw [dif_neg h]
    refine (pad_apply_of_not_inside _ _ _ P _ pads_S131073x3x21_S131074x3x21_010_000_000 h_S_ (ix3 f a n) (0 : Fin 3)
      (by show ¬(0 ≤ f.val ∧ (f.val - 0) % (0 + 1) = 0 ∧ (f.val - 0) / (0 + 1) < 131073); omega)).trans ?_
    show ((((0#32 : BitVec 32).toInt : ℝ)) : EReal) = ((0 : ℝ) : EReal)
    norm_num

/-- THE SMOOTHNESS TOTAL. -/
theorem smooth_total (P : FVec Ideal S131073x3x21 .f32) (hP : ∀ i, ∃ r : ℝ, P i = (r : EReal)) :
    (∑ t : Fin 256, sumSmoothAt (F := Ideal) (BitVec.ofNat 32 (512 * t.val))
        (rows512 (e := .f32) (by decide) (padPose (F := Ideal) P) t) (rows2 (e := .f32) (by decide) (padPose (F := Ideal) P) t) (ix2 0 0))
      = Cert.ReferenceIdeal.Read.val_main_v86 (F := Ideal) P ix0 := by
  choose f hf using hP
  have hpr : ∀ (i : Fin 131073) (a : Fin 3) (n : Fin 21), P (ix3 i a n) = (((fun i a n => f (ix3 i a n)) i a n : ℝ) : EReal) :=
    fun i a n => hf _
  rw [ref_total P _ hpr, ← smooth_real, coe_sum]
  refine Finset.sum_congr rfl fun t _ => ?_
  exact smooth_block t _ _ _
    (fun p a n => padPose_at P _ hpr ⟨512 * t.val + p.val, by have := t.isLt; have := p.isLt; omega⟩ a n)
    (fun s a n => (padPose_at P _ hpr ⟨512 * (t.val + 1) + s.val, by have := t.isLt; have := s.isLt; omega⟩ a n).trans
      (congrArg (fun i => ((padR (fun i a n => f (ix3 i a n)) i a n : ℝ) : EReal)) (by show 512 * (t.val + 1) + s.val = 512 * t.val + 512 + s.val; omega)))

end Cert.Val

end
-- ==== Proof.Val.BoneTerm.lean ====
/-
  The bone-length residual as plain extended-real arithmetic, and the algebra both programs' values are reduced to.

  * `jointOf w`: the joint a word of the bone table names (the word read signed, kept inside 0 … 20).
  * `boneDiff P bc f a k`: coordinate `a` of bone `k`'s vector in frame `f`: the first joint's coordinate minus the
    second joint's.  `boneSq`: the bone's squared length (the three squares added left to right).  `boneTerm`: the
    square of (rest length − squared length).
  * `sum_mul_onehot_diff`: a real row times a column that is (indicator of `c0`) − (indicator of `c1`) is the row at
    `c0` minus the row at `c1`.  This is the step that turns the kernel's product with the difference matrix into the
    reference's difference of two gathered columns.
-/
import Idealize.ShloMosaic.Lib.ValueIdx
import Mathlib.Data.EReal.Basic
import Mathlib.Algebra.BigOperators.Fin
import Mathlib.Tactic.Ring

noncomputable section

namespace Cert.Val.Bone

open Idealize.ShloMosaic Idealize.ShloMosaic.ValueIdx

/-- The joint a bone-table word names: the word read signed, kept inside `0 … 20`. -/
def jointOf (w : BitVec 32) : Fin 21 := ⟨min w.toInt.toNat 20, by omega⟩

/-- Coordinate `a` of bone `k`'s vector in frame `f`. -/
def boneDiff (P : (⟨3, ![131073, 3, 21]⟩ : Shape).Idx → EReal) (bc : (⟨2, ![20, 2]⟩ : Shape).Idx → BitVec 32)
    (f : Fin 131073) (a : Fin 3) (k : Fin 20) : EReal :=
  P (ix3 f a (jointOf (bc (ix2 k (0 : Fin 2))))) - P (ix3 f a (jointOf (bc (ix2 k (1 : Fin 2)))))

/-- Bone `k`'s squared length in frame `f`. -/
def boneSq (P : (⟨3, ![131073, 3, 21]⟩ : Shape).Idx → EReal) (bc : (⟨2, ![20, 2]⟩ : Shape).Idx → BitVec 32)
    (f : Fin 131073) (k : Fin 20) : EReal :=
  boneDiff P bc f 0 k * boneDiff P bc f 0 k + boneDiff P bc f 1 k * boneDiff P bc f 1 k
    + boneDiff P bc f 2 k * boneDiff P bc f 2 k

/-- The squared residual of bone `k` in frame `f`: (rest length − squared length)². -/
def boneTerm (P : (⟨3, ![131073, 3, 21]⟩ : Shape).Idx → EReal) (L : (⟨1, ![20]⟩ : Shape).Idx → EReal)
    (bc : (⟨2, ![20, 2]⟩ : Shape).Idx → BitVec 32) (f : Fin 131073) (k : Fin 20) : EReal :=
  (L (ix1 k) - boneSq P bc f k) * (L (ix1 k) - boneSq P bc f k)

/-- A finite sum of reals, each read as an extended real, is the sum read as an extended real. -/
theorem coe_sum {ι : Type*} (s : Finset ι) (g : ι → ℝ) : ∑ i ∈ s, ((g i : ℝ) : EReal) = ((∑ i ∈ s, g i : ℝ) : EReal) := by
  classical
  induction s using Finset.induction_on with
  | empty => simp
  | insert i s hi ih => rw [Finset.sum_insert hi, Finset.sum_insert hi, ih, EReal.coe_add]

/-- A real row times the column (indicator of `c0`) − (indicator of `c1`): the row at `c0` minus the row at `c1`. -/
theorem sum_mul_onehot_diff {n : ℕ} (X : Fin n → EReal) (hX : ∀ j, ∃ r : ℝ, X j = (r : EReal)) (c0 c1 : Fin n) :
    ∑ j : Fin n, X j * ((((if c0 = j then 1 else 0 : ℝ)) : EReal) - (((if c1 = j then 1 else 0 : ℝ)) : EReal))
      = X c0 - X c1 := by
  choose x hx using hX
  have e : ∀ j : Fin n, X j * ((((if c0 = j then 1 else 0 : ℝ)) : EReal) - (((if c1 = j then 1 else 0 : ℝ)) : EReal))
      = ((x j * ((if c0 = j then 1 else 0) - (if c1 = j then 1 else 0)) : ℝ) : EReal) := fun j => by
    rw [hx j, ← EReal.coe_sub, ← EReal.coe_mul]
  rw [Finset.sum_congr rfl fun j _ => e j, coe_sum, hx c0, hx c1, ← EReal.coe_sub]
  congr 1
  simp [mul_sub, Finset.sum_sub_distrib]

/-- The word of a number below 21, read signed, is the number. -/
theorem toInt_ofNat_small (n : ℕ) (hn : n < 21) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-- Below 21 read signed and not negative, a word names joint `j` exactly when it is the word of `j`. -/
theorem jointOf_eq_iff (w : BitVec 32) (h : 0 ≤ w.toInt ∧ w.toInt < 21) (j : Fin 21) :
    w = BitVec.ofNat 32 j.val ↔ jointOf w = j := by
  obtain ⟨h0, h1⟩ := h
  have hj := j.isLt
  have hw := toInt_ofNat_small j.val hj
  constructor
  · intro e
    apply Fin.ext
    show min w.toInt.toNat 20 = j.val
    rw [e, hw]
    omega
  · intro e
    have ev : min w.toInt.toNat 20 = j.val := congrArg Fin.val e
    apply BitVec.eq_of_toInt_eq
    rw [hw]
    omega

end Cert.Val.Bone

end
-- ==== Proof.Val.DiffMatrixAt.lean ====
/-
  The one-hot difference matrix the host builds from the bone table, read at one entry: entry (j, k) is
  [first joint of bone k = j] − [second joint of bone k = j], each bracket 1 or 0 as an extended real, provided every word
  of the table lies in [0, 21) read signed.  Also the padded trajectory and the row of bone lengths at an index.
-/
import proofs.«404832_j45707041964541_3_alg».proof.Proof.KI.Blocks
import proofs.«404832_j45707041964541_3_alg».proof.Proof.Val.BoneTerm
import Idealize.ShloMosaic.Lib.ValueLayout
import Idealize.ShloMosaic.Lib.StableHlo.Predicate

noncomputable section

namespace Cert.Val.Bone

open Idealize.ShloMosaic Idealize.ShloMosaic.ValueIdx Cert.KernelIdeal Cert.KernelIdeal.Gen

/-- The first column of the bone table at bone `k`. -/
theorem boneCol0_apply (bc : IVec S20x2 32) (k : Fin 20) : boneCol0 bc (ix1 k) = bc (ix2 k (0 : Fin 2)) := by
  unfold boneCol0
  refine (shapeCast_apply _ shapeCasts_S20x1_S20 (ix1 k) (ix2 k (0 : Fin 1)) ?_).trans ?_
  · rw [Shape.rowMajor_val_two, Shape.rowMajor_val_one]
    show k.val * 1 + 0 = k.val
    omega
  · exact extractStridedSlice_apply ![0, 0] bc slices_S20x2_S20x1_0_0 (ix2 k (0 : Fin 1)) (ix2 k (0 : Fin 2))
      (fun a => match a with
        | ⟨0, _⟩ => by show k.val = 0 + k.val; omega
        | ⟨1, _⟩ => by show 0 = 0 + 0; omega)

/-- The second column of the bone table at bone `k`. -/
theorem boneCol1_apply (bc : IVec S20x2 32) (k : Fin 20) : boneCol1 bc (ix1 k) = bc (ix2 k (1 : Fin 2)) := by
  unfold boneCol1
  refine (shapeCast_apply _ shapeCasts_S20x1_S20 (ix1 k) (ix2 k (0 : Fin 1)) ?_).trans ?_
  · rw [Shape.rowMajor_val_two, Shape.rowMajor_val_one]
    show k.val * 1 + 0 = k.val
    omega
  · exact extractStridedSlice_apply ![0, 1] bc slices_S20x2_S20x1_0_1 (ix2 k (0 : Fin 1)) (ix2 k (1 : Fin 2))
      (fun a => match a with
        | ⟨0, _⟩ => by show k.val = 0 + k.val; omega
        | ⟨1, _⟩ => by show 1 = 1 + 0; omega)

/-- The one-hot rows at (k, j): the comparison of the k-th word with the word of j, read as 0 or 1. -/
theorem oneHot_apply (v : IVec S20 32) (k : Fin 20) (j : Fin 21) :
    oneHot (F := Ideal) v (ix2 k j) = (((IntOp.cmpi .eq (v (ix1 k)) (BitVec.ofNat 32 j.val)).toNat : ℝ) : EReal) := by
  have e1 : broadcastInDim S20x21 ![0, 1] bcast_S20x1_S20x21_0_1 (broadcastInDim S20x1 ![0] bcast_S20_S20x1_0 v) (ix2 k j)
      = v (ix1 k) := by
    refine (broadcastInDim_apply _ bcast_S20x1_S20x21_0_1 _ (ix2 k j) (ix2 k (0 : Fin 1)) (fun a => match a with
      | ⟨0, _⟩ => by show k.val = if (20 : ℕ) = 1 then 0 else k.val; rw [if_neg (by decide)]
      | ⟨1, _⟩ => by show 0 = if (1 : ℕ) = 1 then 0 else j.val; rw [if_pos rfl])).trans ?_
    exact broadcastInDim_apply _ bcast_S20_S20x1_0 v (ix2 k (0 : Fin 1)) (ix1 k) (fun a => match a with
      | ⟨0, _⟩ => by show k.val = if (20 : ℕ) = 1 then 0 else k.val; rw [if_neg (by decide)])
  have e2 : broadcastInDim S20x21 ![0, 1] bcast_S1x21_S20x21_0_1 (iotaInDim S1x21 32 1) (ix2 k j) = BitVec.ofNat 32 j.val := by
    refine (broadcastInDim_apply _ bcast_S1x21_S20x21_0_1 _ (ix2 k j) (ix2 (0 : Fin 1) j) (fun a => match a with
      | ⟨0, _⟩ => by show 0 = if (1 : ℕ) = 1 then 0 else k.val; rw [if_pos rfl]
      | ⟨1, _⟩ => by show j.val = if (21 : ℕ) = 1 then 0 else j.val; rw [if_neg (by decide)])).trans ?_
    rfl
  unfold oneHot
  show FloatOps.uitofp .f32 (IntOp.cmpi .eq
      (broadcastInDim S20x21 ![0, 1] bcast_S20x1_S20x21_0_1 (broadcastInDim S20x1 ![0] bcast_S20_S20x1_0 v) (ix2 k j))
      (broadcastInDim S20x21 ![0, 1] bcast_S1x21_S20x21_0_1 (iotaInDim S1x21 32 1) (ix2 k j))) = _
  rw [e1, e2]
  rfl

/-- A word in [0, 21) compared with the word of `j`, read as a real: 1 when the word names joint `j`, else 0. -/
theorem cmpi_eq_toNat (w : BitVec 32) (h : 0 ≤ w.toInt ∧ w.toInt < 21) (j : Fin 21) :
    (((IntOp.cmpi .eq w (BitVec.ofNat 32 j.val)).toNat : ℝ) : EReal) = (((if jointOf w = j then 1 else 0 : ℝ)) : EReal) := by
  by_cases e : w = BitVec.ofNat 32 j.val
  · rw [StableHlo.Predicate.cmpi_eq_iff.mpr e, if_pos ((jointOf_eq_iff w h j).mp e)]
    simp
  · have e0 : IntOp.cmpi .eq w (BitVec.ofNat 32 j.val) = 0#1 :=
      eq_zero_of_ne_one fun h1 => e (StableHlo.Predicate.cmpi_eq_iff.mp h1)
    rw [e0, if_neg fun h' => e ((jointOf_eq_iff w h j).mpr h')]
    simp

/-- THE DIFFERENCE MATRIX AT (j, k): [first joint of bone k = j] − [second joint of bone k = j]. -/
theorem dmOf_apply (bc : IVec S20x2 32) (hbc : ∀ i, 0 ≤ (bc i).toInt ∧ (bc i).toInt < 21) (j : Fin 21) (k : Fin 20) :
    dmOf (F := Ideal) bc (ix2 j k)
      = (((if jointOf (bc (ix2 k (0 : Fin 2))) = j then 1 else 0 : ℝ)) : EReal)
        - (((if jointOf (bc (ix2 k (1 : Fin 2))) = j then 1 else 0 : ℝ)) : EReal) := by
  unfold dmOf
  refine (transpose_ix2_apply _ transposes_S20x21_S21x20_1_0 j k).trans ?_
  show oneHot (F := Ideal) (boneCol0 bc) (ix2 k j) - oneHot (F := Ideal) (boneCol1 bc) (ix2 k j) = _
  rw [oneHot_apply, oneHot_apply, boneCol0_apply, boneCol1_apply, cmpi_eq_toNat _ (hbc _), cmpi_eq_toNat _ (hbc _)]

/-- A row that agrees with coordinate `a` of frame `f`, times column `k` of the difference matrix: coordinate `a` of
    bone `k`'s vector in frame `f`. -/
theorem row_mul_dm (P : FVec Ideal S131073x3x21 .f32) (bc : IVec S20x2 32)
    (hP : ∀ i, ∃ r : ℝ, P i = (r : EReal)) (hbc : ∀ i, 0 ≤ (bc i).toInt ∧ (bc i).toInt < 21)
    (f : Fin 131073) (a : Fin 3) (k : Fin 20) (X : Fin 21 → EReal) (hX : ∀ j, X j = P (ix3 f a j)) :
    ∑ j : Fin 21, X j * dmOf (F := Ideal) bc (ix2 j k) = boneDiff P bc f a k := by
  have e : ∀ j : Fin 21, X j * dmOf (F := Ideal) bc (ix2 j k)
      = P (ix3 f a j) * ((((if jointOf (bc (ix2 k (0 : Fin 2))) = j then 1 else 0 : ℝ)) : EReal)
          - (((if jointOf (bc (ix2 k (1 : Fin 2))) = j then 1 else 0 : ℝ)) : EReal)) := fun j => by
    rw [hX j, dmOf_apply bc hbc j k]
  rw [Finset.sum_congr rfl fun j _ => e j]
  exact sum_mul_onehot_diff (fun j => P (ix3 f a j)) (fun j => hP _) _ _

/-- The row of bone lengths at (0, k). -/
theorem lenRow_apply (L : FVec Ideal S20 .f32) (u : Fin 1) (k : Fin 20) : lenRow (F := Ideal) L (ix2 u k) = L (ix1 k) := by
  unfold lenRow
  exact shapeCast_a_1a_apply L shapeCasts_S20_S1x20 u k

end Cert.Val.Bone

end
-- ==== Proof.Val.DotAt.lean ====
/-
  The two products with the difference matrix read at one entry.  A block's 512 x 21 coordinate plane times the 21 x 20
  matrix, accumulated onto zero, is at (r, k) the sum over the 21 joints j of plane (r, j) times matrix (j, k); the last
  frame's 3 x 21 plane times the same matrix, on the host, likewise.
-/
import proofs.«404832_j45707041964541_3_alg».proof.Proof.Gen.KernelIdeal
import Idealize.ShloMosaic.Lib.ValueIdx
import Idealize.ShloMosaic.PureOps.Ideal.Laws

noncomputable section

namespace Cert.Val.Bone

open Idealize.ShloMosaic Idealize.ShloMosaic.ValueIdx Cert.KernelIdeal Cert.KernelIdeal.Gen

/-! ## The block's product (512 frames) -/

theorem lhs_blockDot_0 (i : S512x20.Idx) (q : dot_S512x21_S21x20_S512x20_1_0_0_1_n_n.contr.Idx) :
    (dot_S512x21_S21x20_S512x20_1_0_0_1_n_n.lhsIdx i q 0).val = (i 0).val := by
  unfold DotDims.lhsIdx
  rw [dif_neg (show ¬(0 : Fin S512x21.rank) ∈ dot_S512x21_S21x20_S512x20_1_0_0_1_n_n.lhsBatch by decide),
    dif_pos (show (0 : Fin S512x21.rank) ∈ dot_S512x21_S21x20_S512x20_1_0_0_1_n_n.lhsNonContracting by decide)]
  rfl
theorem lhs_blockDot_1 (i : S512x20.Idx) (q : dot_S512x21_S21x20_S512x20_1_0_0_1_n_n.contr.Idx) :
    (dot_S512x21_S21x20_S512x20_1_0_0_1_n_n.lhsIdx i q 1).val = (q ⟨0, by decide⟩).val :=
  dot_S512x21_S21x20_S512x20_1_0_0_1_n_n.lhsIdx_val_of_single rfl i q
theorem rhs_blockDot_0 (i : S512x20.Idx) (q : dot_S512x21_S21x20_S512x20_1_0_0_1_n_n.contr.Idx) :
    (dot_S512x21_S21x20_S512x20_1_0_0_1_n_n.rhsIdx i q 0).val = (q ⟨0, by decide⟩).val :=
  dot_S512x21_S21x20_S512x20_1_0_0_1_n_n.rhsIdx_val_of_single rfl i q
theorem rhs_blockDot_1 (i : S512x20.Idx) (q : dot_S512x21_S21x20_S512x20_1_0_0_1_n_n.contr.Idx) :
    (dot_S512x21_S21x20_S512x20_1_0_0_1_n_n.rhsIdx i q 1).val = (i 1).val := by
  unfold DotDims.rhsIdx
  rw [dif_neg (show ¬(1 : Fin S21x20.rank) ∈ dot_S512x21_S21x20_S512x20_1_0_0_1_n_n.rhsBatch by decide),
    dif_pos (show (1 : Fin S21x20.rank) ∈ dot_S512x21_S21x20_S512x20_1_0_0_1_n_n.rhsNonContracting by decide)]
  rfl

/-- The operand indices at output (r, k) and contraction coordinate j: (r, j) on the left, (j, k) on the right. -/
theorem lhsIdx_blockDot {n : ℕ} (r : Fin n) (k : Fin 20) (j : Fin 21) (i : S512x20.Idx) (hi0 : (i 0).val = r.val) (hi1 : (i 1).val = k.val) :
    (dot_S512x21_S21x20_S512x20_1_0_0_1_n_n.lhsIdx i ((contrEquiv1 dot_S512x21_S21x20_S512x20_1_0_0_1_n_n 21 rfl rfl).symm j) 0).val = r.val
    ∧ (dot_S512x21_S21x20_S512x20_1_0_0_1_n_n.lhsIdx i ((contrEquiv1 dot_S512x21_S21x20_S512x20_1_0_0_1_n_n 21 rfl rfl).symm j) 1).val = j.val
    ∧ (dot_S512x21_S21x20_S512x20_1_0_0_1_n_n.rhsIdx i ((contrEquiv1 dot_S512x21_S21x20_S512x20_1_0_0_1_n_n 21 rfl rfl).symm j) 0).val = j.val
    ∧ (dot_S512x21_S21x20_S512x20_1_0_0_1_n_n.rhsIdx i ((contrEquiv1 dot_S512x21_S21x20_S512x20_1_0_0_1_n_n 21 rfl rfl).symm j) 1).val = k.val := by
  have hk := contrEquiv1_symm_val dot_S512x21_S21x20_S512x20_1_0_0_1_n_n 21 rfl rfl j
  exact ⟨(lhs_blockDot_0 _ _).trans hi0, (lhs_blockDot_1 _ _).trans hk, (rhs_blockDot_0 _ _).trans hk, (rhs_blockDot_1 _ _).trans hi1⟩

/-- The block's product at (r, k). -/
theorem blockDot_apply (A : FVec Ideal S512x21 .f32) (B : FVec Ideal S21x20 .f32) (r : Fin 512) (k : Fin 20) :
    matmul dot_S512x21_S21x20_S512x20_1_0_0_1_n_n (some .fp32) A B (constant S512x20 .f32 0x00000000#32) (ix2 r k)
      = ∑ j : Fin 21, A (ix2 r j) * B (ix2 j k) := by
  refine (Ideal.matmul_constant_zero_apply dot_S512x21_S21x20_S512x20_1_0_0_1_n_n (some .fp32) A B (ix2 r k)).trans ?_
  rw [← Equiv.sum_comp (contrEquiv1 dot_S512x21_S21x20_S512x20_1_0_0_1_n_n 21 rfl rfl).symm]
  refine Finset.sum_congr rfl fun j _ => ?_
  obtain ⟨h0, h1, h2, h3⟩ := lhsIdx_blockDot r k j (ix2 r k) rfl rfl
  have el : dot_S512x21_S21x20_S512x20_1_0_0_1_n_n.lhsIdx (ix2 r k) ((contrEquiv1 dot_S512x21_S21x20_S512x20_1_0_0_1_n_n 21 rfl rfl).symm j) = ix2 r j :=
    funext fun a => Fin.ext (by
      match a with
      | ⟨0, _⟩ => exact h0
      | ⟨1, _⟩ => exact h1)
  have er : dot_S512x21_S21x20_S512x20_1_0_0_1_n_n.rhsIdx (ix2 r k) ((contrEquiv1 dot_S512x21_S21x20_S512x20_1_0_0_1_n_n 21 rfl rfl).symm j) = ix2 j k :=
    funext fun a => Fin.ext (by
      match a with
      | ⟨0, _⟩ => exact h2
      | ⟨1, _⟩ => exact h3)
  rw [el, er]

/-! ## The last frame's product (3 coordinates) -/

theorem lhs_lastDot_0 (i : S3x20.Idx) (q : dot_S3x21_S21x20_S3x20_1_0_0_1_n_n.contr.Idx) :
    (dot_S3x21_S21x20_S3x20_1_0_0_1_n_n.lhsIdx i q 0).val = (i 0).val := by
  unfold DotDims.lhsIdx
  rw [dif_neg (show ¬(0 : Fin S3x21.rank) ∈ dot_S3x21_S21x20_S3x20_1_0_0_1_n_n.lhsBatch by decide),
    dif_pos (show (0 : Fin S3x21.rank) ∈ dot_S3x21_S21x20_S3x20_1_0_0_1_n_n.lhsNonContracting by decide)]
  rfl
theorem lhs_lastDot_1 (i : S3x20.Idx) (q : dot_S3x21_S21x20_S3x20_1_0_0_1_n_n.contr.Idx) :
    (dot_S3x21_S21x20_S3x20_1_0_0_1_n_n.lhsIdx i q 1).val = (q ⟨0, by decide⟩).val :=
  dot_S3x21_S21x20_S3x20_1_0_0_1_n_n.lhsIdx_val_of_single rfl i q
theorem rhs_lastDot_0 (i : S3x20.Idx) (q : dot_S3x21_S21x20_S3x20_1_0_0_1_n_n.contr.Idx) :
    (dot_S3x21_S21x20_S3x20_1_0_0_1_n_n.rhsIdx i q 0).val = (q ⟨0, by decide⟩).val :=
  dot_S3x21_S21x20_S3x20_1_0_0_1_n_n.rhsIdx_val_of_single rfl i q
theorem rhs_lastDot_1 (i : S3x20.Idx) (q : dot_S3x21_S21x20_S3x20_1_0_0_1_n_n.contr.Idx) :
    (dot_S3x21_S21x20_S3x20_1_0_0_1_n_n.rhsIdx i q 1).val = (i 1).val := by
  unfold DotDims.rhsIdx
  rw [dif_neg (show ¬(1 : Fin S21x20.rank) ∈ dot_S3x21_S21x20_S3x20_1_0_0_1_n_n.rhsBatch by decide),
    dif_pos (show (1 : Fin S21x20.rank) ∈ dot_S3x21_S21x20_S3x20_1_0_0_1_n_n.rhsNonContracting by decide)]
  rfl

/-- The operand indices at output (r, k) and contraction coordinate j: (r, j) on the left, (j, k) on the right. -/
theorem lhsIdx_lastDot {n : ℕ} (r : Fin n) (k : Fin 20) (j : Fin 21) (i : S3x20.Idx) (hi0 : (i 0).val = r.val) (hi1 : (i 1).val = k.val) :
    (dot_S3x21_S21x20_S3x20_1_0_0_1_n_n.lhsIdx i ((contrEquiv1 dot_S3x21_S21x20_S3x20_1_0_0_1_n_n 21 rfl rfl).symm j) 0).val = r.val
    ∧ (dot_S3x21_S21x20_S3x20_1_0_0_1_n_n.lhsIdx i ((contrEquiv1 dot_S3x21_S21x20_S3x20_1_0_0_1_n_n 21 rfl rfl).symm j) 1).val = j.val
    ∧ (dot_S3x21_S21x20_S3x20_1_0_0_1_n_n.rhsIdx i ((contrEquiv1 dot_S3x21_S21x20_S3x20_1_0_0_1_n_n 21 rfl rfl).symm j) 0).val = j.val
    ∧ (dot_S3x21_S21x20_S3x20_1_0_0_1_n_n.rhsIdx i ((contrEquiv1 dot_S3x21_S21x20_S3x20_1_0_0_1_n_n 21 rfl rfl).symm j) 1).val = k.val := by
  have hk := contrEquiv1_symm_val dot_S3x21_S21x20_S3x20_1_0_0_1_n_n 21 rfl rfl j
  exact ⟨(lhs_lastDot_0 _ _).trans hi0, (lhs_lastDot_1 _ _).trans hk, (rhs_lastDot_0 _ _).trans hk, (rhs_lastDot_1 _ _).trans hi1⟩

/-- The last frame's product at (a, k). -/
theorem lastDot_apply (A : FVec Ideal S3x21 .f32) (B : FVec Ideal S21x20 .f32) (a : Fin 3) (k : Fin 20) :
    Host.dotGeneral dot_S3x21_S21x20_S3x20_1_0_0_1_n_n (some .fp32) A B (ix2 a k)
      = ∑ j : Fin 21, A (ix2 a j) * B (ix2 j k) := by
  refine (Ideal.dotGeneral_apply dot_S3x21_S21x20_S3x20_1_0_0_1_n_n (some .fp32) .single A B (ix2 a k)).trans ?_
  rw [← Equiv.sum_comp (contrEquiv1 dot_S3x21_S21x20_S3x20_1_0_0_1_n_n 21 rfl rfl).symm]
  refine Finset.sum_congr rfl fun j _ => ?_
  obtain ⟨h0, h1, h2, h3⟩ := lhsIdx_lastDot a k j (ix2 a k) rfl rfl
  have el : dot_S3x21_S21x20_S3x20_1_0_0_1_n_n.lhsIdx (ix2 a k) ((contrEquiv1 dot_S3x21_S21x20_S3x20_1_0_0_1_n_n 21 rfl rfl).symm j) = ix2 a j :=
    funext fun b => Fin.ext (by
      match b with
      | ⟨0, _⟩ => exact h0
      | ⟨1, _⟩ => exact h1)
  have er : dot_S3x21_S21x20_S3x20_1_0_0_1_n_n.rhsIdx (ix2 a k) ((contrEquiv1 dot_S3x21_S21x20_S3x20_1_0_0_1_n_n 21 rfl rfl).symm j) = ix2 j k :=
    funext fun b => Fin.ext (by
      match b with
      | ⟨0, _⟩ => exact h2
      | ⟨1, _⟩ => exact h3)
  rw [el, er]

end Cert.Val.Bone

end
-- ==== Proof.Val.SumIdx.lean ====
/-
  Re-indexings of finite sums used by the bone-length total: a sum over a rank-3 index set as a triple sum over the
  coordinates; the 131072 frames as 256 blocks of 512; and 131073 frames as the first 131072 and the last one.
-/
import Idealize.ShloMosaic.Lib.ValueIdx
import Mathlib.Algebra.BigOperators.Fin
import Mathlib.Logic.Equiv.Fin.Basic

noncomputable section

namespace Cert.Val.Bone

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The frames 0 … 131071 are 256 blocks of 512 consecutive frames. -/
theorem sum_blocks {M : Type*} [AddCommMonoid M] (g : Fin 131072 → M) :
    ∑ t : Fin 256, ∑ r : Fin 512, g ⟨512 * t.val + r.val, by have := t.isLt; have := r.isLt; omega⟩ = ∑ i : Fin 131072, g i := by
  let e : Fin 256 × Fin 512 ≃ Fin 131072 := finProdFinEquiv.trans (finCongr (by norm_num))
  rw [← Equiv.sum_comp e g, Fintype.sum_prod_type]
  refine Finset.sum_congr rfl fun t _ => Finset.sum_congr rfl fun r _ => congrArg g (Fin.ext ?_)
  show 512 * t.val + r.val = r.val + 512 * t.val
  omega

/-- The frames 0 … 131072 are the frames 0 … 131071 and the frame 131072. -/
theorem sum_frames {M : Type*} [AddCommMonoid M] (g : Fin 131073 → M) :
    ∑ f : Fin 131073, g f
      = ∑ i : Fin 131072, g ⟨i.val, by have := i.isLt; omega⟩ + g ⟨131072, by omega⟩ := by
  rw [Fin.sum_univ_castSucc]
  rfl

end Cert.Val.Bone

end
-- ==== Proof.Val.BlocksAt.lean ====
/-
  What the body's loads read of the blocks at a grid position, one entry at a time.  The difference matrix and the row
  of bone lengths are loaded whole; coordinate plane `a` of the block's 512 frames, read at (r, q), is the block at
  (r, a, q); the block at position `t` is frames 512 t … 512 t + 511 of the padded trajectory, which below frame 131073
  is the trajectory itself.
-/
import proofs.«404832_j45707041964541_3_alg».proof.Proof.KI.Blocks
import proofs.«404832_j45707041964541_3_alg».proof.Proof.KI.BlockVals
import Idealize.ShloMosaic.Lib.ValueLayout

noncomputable section

namespace Cert.Val.Bone

open Idealize.ShloMosaic Idealize.ShloMosaic.ValueIdx Cert.KernelIdeal Cert.KernelIdeal.Gen

variable {F : FTy → Type} [FloatOps F]

/-- The difference matrix is loaded whole. -/
theorem dmLoaded (x5 : Vec F S21x20 .f32) : k0_pay8 (ldDm x5) = x5 := by
  unfold k0_pay8 ldDm
  rw [shapeCast_self]
  exact View.ld_unit_zero (funext fun a => by match a with | ⟨0, _⟩ => rfl | ⟨1, _⟩ => rfl) _ x5

/-- The row of bone lengths is loaded whole. -/
theorem lenLoaded (x6 : Vec F S1x20 .f32) : k0_pay9 (ldLen x6) = x6 := by
  unfold k0_pay9 ldLen
  rw [shapeCast_self]
  exact View.ld_unit_zero (funext fun a => by match a with | ⟨0, _⟩ => rfl | ⟨1, _⟩ => rfl) _ x6

/-- Coordinate plane 0 of the block at (r, q). -/
theorem cur0_apply (x7 : Vec F S512x3x21 .f32) (r : Fin 512) (q : Fin 21) :
    k0_pay15 (ldCur0 x7) (ix2 r q) = x7 (ix3 r (0 : Fin 3) q) := by
  unfold k0_pay15 ldCur0
  refine (shapeCast_apply _ shapeCasts_S512x1x21_S512x21 (ix2 r q) (ix3 r (0 : Fin 1) q) ?_).trans ?_
  · rw [Shape.rowMajor_val_three, Shape.rowMajor_val_two]
    show (r.val * 1 + 0) * 21 + q.val = r.val * 21 + q.val
    omega
  · exact congrArg x7 (funext fun b => Fin.ext (by
      match b with
      | ⟨0, _⟩ => show 0 + 1 * r.val = r.val; omega
      | ⟨1, _⟩ => show 0 + 1 * 0 = 0; omega
      | ⟨2, _⟩ => show 0 + 1 * q.val = q.val; omega))

/-- Coordinate plane 1 of the block at (r, q). -/
theorem cur1_apply (x7 : Vec F S512x3x21 .f32) (r : Fin 512) (q : Fin 21) :
    k0_pay16 (ldCur1 x7) (ix2 r q) = x7 (ix3 r (1 : Fin 3) q) := by
  unfold k0_pay16 ldCur1
  refine (shapeCast_apply _ shapeCasts_S512x1x21_S512x21 (ix2 r q) (ix3 r (0 : Fin 1) q) ?_).trans ?_
  · rw [Shape.rowMajor_val_three, Shape.rowMajor_val_two]
    show (r.val * 1 + 0) * 21 + q.val = r.val * 21 + q.val
    omega
  · exact congrArg x7 (funext fun b => Fin.ext (by
      match b with
      | ⟨0, _⟩ => show 0 + 1 * r.val = r.val; omega
      | ⟨1, _⟩ => show 1 + 1 * 0 = 1; omega
      | ⟨2, _⟩ => show 0 + 1 * q.val = q.val; omega))

/-- Coordinate plane 2 of the block at (r, q). -/
theorem cur2_apply (x7 : Vec F S512x3x21 .f32) (r : Fin 512) (q : Fin 21) :
    k0_pay17 (ldCur2 x7) (ix2 r q) = x7 (ix3 r (2 : Fin 3) q) := by
  unfold k0_pay17 ldCur2
  refine (shapeCast_apply _ shapeCasts_S512x1x21_S512x21 (ix2 r q) (ix3 r (0 : Fin 1) q) ?_).trans ?_
  · rw [Shape.rowMajor_val_three, Shape.rowMajor_val_two]
    show (r.val * 1 + 0) * 21 + q.val = r.val * 21 + q.val
    omega
  · exact congrArg x7 (funext fun b => Fin.ext (by
      match b with
      | ⟨0, _⟩ => show 0 + 1 * r.val = r.val; omega
      | ⟨1, _⟩ => show 2 + 1 * 0 = 2; omega
      | ⟨2, _⟩ => show 0 + 1 * q.val = q.val; omega))

/-- Below frame 131073 the padded trajectory is the trajectory. -/
theorem padPose_apply (P : FVec F S131073x3x21 .f32) (f : Fin 131074) (hf : f.val < 131073) (a : Fin 3) (q : Fin 21) :
    padPose P (ix3 f a q) = P (ix3 ⟨f.val, hf⟩ a q) := by
  unfold padPose pad
  dsimp only
  split
  · exact congrArg P (funext fun b => Fin.ext (by
      match b with
      | ⟨0, _⟩ => show (f.val - 0) / (0 + 1) = f.val; omega
      | ⟨1, _⟩ => show (a.val - 0) / (0 + 1) = a.val; omega
      | ⟨2, _⟩ => show (q.val - 0) / (0 + 1) = q.val; omega))
  · rename_i hin
    exfalso
    apply hin
    intro b
    match b with
    | ⟨0, _⟩ =>
      refine ⟨Nat.zero_le _, ?_, ?_⟩
      · show (f.val - 0) % (0 + 1) = 0; omega
      · show (f.val - 0) / (0 + 1) < 131073; omega
    | ⟨1, _⟩ =>
      refine ⟨Nat.zero_le _, ?_, ?_⟩
      · show (a.val - 0) % (0 + 1) = 0; omega
      · show (a.val - 0) / (0 + 1) < 3; have := a.isLt; omega
    | ⟨2, _⟩ =>
      refine ⟨Nat.zero_le _, ?_, ?_⟩
      · show (q.val - 0) % (0 + 1) = 0; omega
      · show (q.val - 0) / (0 + 1) < 21; have := q.isLt; omega

/-- The block at grid position `t`, read at (r, a, q): frame 512 t + r of the trajectory. -/
theorem block_apply (P : FVec F S131073x3x21 .f32) (t : Fin 256) (r : Fin 512) (a : Fin 3) (q : Fin 21) :
    rows512 (n := 131074) (e := .f32) (by decide) (padPose P) t (ix3 r a q)
      = P (ix3 ⟨512 * t.val + r.val, by have := t.isLt; have := r.isLt; omega⟩ a q) :=
  padPose_apply P ⟨512 * t.val + r.val, by have := t.isLt; have := r.isLt; omega⟩
    (by show 512 * t.val + r.val < 131073; have := t.isLt; have := r.isLt; omega) a q

end Cert.Val.Bone

end
-- ==== Proof.Val.BoneBlock.lean ====
/-
  THE KERNEL'S SIDE of the bone-length total.  The body's bone-length sum at a grid position, read at its one entry, is
  the sum over the block's 512 frames and the 20 bones of the squared residual `boneTerm`; the host's last-frame term is
  the same sum for frame 131072.

  The road: the payload's tail (square, add a unit axis, reduce the two tile axes, reshape, extract, broadcast) read at
  its entry is the double sum of the squared entries; each entry is (length − (m₀² + m₁² + m₂²))² with m_a the product of
  coordinate plane a with the difference matrix; over real entries that product is the difference of two joints'
  coordinates (`row_mul_dm`).
-/
import proofs.«404832_j45707041964541_3_alg».proof.Proof.Val.BoneTerm
import proofs.«404832_j45707041964541_3_alg».proof.Proof.Val.DiffMatrixAt
import proofs.«404832_j45707041964541_3_alg».proof.Proof.Val.DotAt
import proofs.«404832_j45707041964541_3_alg».proof.Proof.Val.SumIdx
import proofs.«404832_j45707041964541_3_alg».proof.Proof.Val.BlocksAt

noncomputable section

namespace Cert.Val.Bone

open Idealize.ShloMosaic Idealize.ShloMosaic.ValueIdx Cert.KernelIdeal Cert.KernelIdeal.Gen

/-- The payload's tail: squares summed over the added unit axis and the two tile axes, reshaped, extracted and
    broadcast, read at the one entry: the double sum over frames and bones. -/
theorem tail_apply (V : FVec Ideal S512x20 .f32) :
    broadcast S1x1 (extractAt ![0, 0, 0]
        (shapeCast S1x1x1 (multiReduction (F := Ideal) .add [1, 2] S1 (shapeCast S1x512x20 V shapeCasts_S512x20_S1x512x20)
          0x00000000#32 reduces_S1x512x20_S1 (.inl rfl) rfl) shapeCasts_S1_S1x1x1) inpos_S1x1x1_p0_0_0) (ix2 (0 : Fin 1) (0 : Fin 1))
      = ∑ r : Fin 512, ∑ k : Fin 20, V (ix2 r k) := by
  show shapeCast S1x1x1 (multiReduction (F := Ideal) .add [1, 2] S1 (shapeCast S1x512x20 V shapeCasts_S512x20_S1x512x20)
          0x00000000#32 reduces_S1x512x20_S1 (.inl rfl) rfl) shapeCasts_S1_S1x1x1 (ix3 (0 : Fin 1) (0 : Fin 1) (0 : Fin 1)) = _
  refine (shapeCast_apply _ shapeCasts_S1_S1x1x1 (ix3 (0 : Fin 1) (0 : Fin 1) (0 : Fin 1)) (ix1 (0 : Fin 1)) ?_).trans ?_
  · rw [Shape.rowMajor_val_one, Shape.rowMajor_val_three]
    rfl
  refine (Ideal.multiReduction_add_total _ _ reduces_S1x512x20_S1 (fun b => by match b with | ⟨0, _⟩ => rfl) _ _ (ix1 (0 : Fin 1))).trans ?_
  rw [sum_idx3, Fin.sum_univ_one]
  exact Finset.sum_congr rfl fun r _ => Finset.sum_congr rfl fun k _ =>
    shapeCast_ab_1ab_apply V shapeCasts_S512x20_S1x512x20 (0 : Fin 1) r k

/-- The bone-length payload at its one entry, over any operands: the double sum of (length − (m₀² + m₁² + m₂²))². -/
theorem pay27_apply (Dm : FVec Ideal S21x20 .f32) (Lr : FVec Ideal S1x20 .f32) (A0 A1 : FVec Ideal S512x21 .f32)
    (v25 : Vec Ideal S512x1x21 .f32) :
    k0_pay27 Dm Lr A0 A1 v25 (ix2 (0 : Fin 1) (0 : Fin 1))
      = ∑ r : Fin 512, ∑ k : Fin 20,
          (Lr (ix2 (0 : Fin 1) k)
            - ((∑ j : Fin 21, A0 (ix2 r j) * Dm (ix2 j k)) * (∑ j : Fin 21, A0 (ix2 r j) * Dm (ix2 j k))
              + (∑ j : Fin 21, A1 (ix2 r j) * Dm (ix2 j k)) * (∑ j : Fin 21, A1 (ix2 r j) * Dm (ix2 j k))
              + (∑ j : Fin 21, k0_pay17 v25 (ix2 r j) * Dm (ix2 j k)) * (∑ j : Fin 21, k0_pay17 v25 (ix2 r j) * Dm (ix2 j k))))
          * (Lr (ix2 (0 : Fin 1) k)
            - ((∑ j : Fin 21, A0 (ix2 r j) * Dm (ix2 j k)) * (∑ j : Fin 21, A0 (ix2 r j) * Dm (ix2 j k))
              + (∑ j : Fin 21, A1 (ix2 r j) * Dm (ix2 j k)) * (∑ j : Fin 21, A1 (ix2 r j) * Dm (ix2 j k))
              + (∑ j : Fin 21, k0_pay17 v25 (ix2 r j) * Dm (ix2 j k)) * (∑ j : Fin 21, k0_pay17 v25 (ix2 r j) * Dm (ix2 j k)))) := by
  unfold k0_pay27
  refine (tail_apply _).trans ?_
  refine Finset.sum_congr rfl fun r _ => Finset.sum_congr rfl fun k _ => ?_
  have hL : broadcastTo S512x20 Lr broadcasts_S1x20_S512x20 (ix2 r k) = Lr (ix2 (0 : Fin 1) k) :=
    broadcastTo_1b_ab_apply Lr broadcasts_S1x20_S512x20 r k
  rw [← hL, ← blockDot_apply A0 Dm r k, ← blockDot_apply A1 Dm r k, ← blockDot_apply (k0_pay17 v25) Dm r k]
  rfl

/-- THE BLOCK'S SUM at grid position `t`: the squared residuals of frames 512 t … 512 t + 511. -/
theorem sumBone_apply (P : FVec Ideal S131073x3x21 .f32) (BL : FVec Ideal S20 .f32) (bc : IVec S20x2 32)
    (hP : ∀ i, ∃ r : ℝ, P i = (r : EReal)) (hbc : ∀ i, 0 ≤ (bc i).toInt ∧ (bc i).toInt < 21) (t : Fin 256) :
    sumBone (F := Ideal) (dmOf (F := Ideal) bc) (lenRow (F := Ideal) BL)
        (rows512 (F := Ideal) (n := 131074) (e := .f32) (by decide) (padPose (F := Ideal) P) t)
        (ix2 (0 : Fin 1) (0 : Fin 1))
      = ∑ r : Fin 512, ∑ k : Fin 20,
          boneTerm P BL bc ⟨512 * t.val + r.val, by have := t.isLt; have := r.isLt; omega⟩ k := by
  unfold sumBone
  rw [dmLoaded, lenLoaded]
  refine (pay27_apply _ _ _ _ _).trans ?_
  refine Finset.sum_congr rfl fun r _ => Finset.sum_congr rfl fun k _ => ?_
  have hf : 512 * t.val + r.val < 131073 := by have := t.isLt; have := r.isLt; omega
  rw [row_mul_dm P bc hP hbc ⟨512 * t.val + r.val, hf⟩ 0 k _ (fun j => (cur0_apply _ r j).trans (block_apply P t r 0 j)),
    row_mul_dm P bc hP hbc ⟨512 * t.val + r.val, hf⟩ 1 k _ (fun j => (cur1_apply _ r j).trans (block_apply P t r 1 j)),
    row_mul_dm P bc hP hbc ⟨512 * t.val + r.val, hf⟩ 2 k _ (fun j => (cur2_apply _ r j).trans (block_apply P t r 2 j)),
    lenRow_apply]
  rfl

end Cert.Val.Bone

end
-- ==== Proof.Val.BoneLast.lean ====
/-
  THE LAST FRAME's bone-length term, which the host adds after the pallas_call: the product of frame 131072's three
  coordinate rows with the difference matrix, squared and summed over the coordinates, taken from the bone lengths,
  squared and summed over the bones.  Read at its one entry it is the sum over the 20 bones of the squared residual
  `boneTerm` at frame 131072.
-/
import proofs.«404832_j45707041964541_3_alg».proof.Proof.Val.BoneTerm
import proofs.«404832_j45707041964541_3_alg».proof.Proof.Val.DiffMatrixAt
import proofs.«404832_j45707041964541_3_alg».proof.Proof.Val.DotAt
import Idealize.ShloMosaic.Lib.ValueIdxRank1

noncomputable section

namespace Cert.Val.Bone

open Idealize.ShloMosaic Idealize.ShloMosaic.ValueIdx Cert.KernelIdeal Cert.KernelIdeal.Gen

/-- Frame 131072 as three rows of 21 joints, at (a, j). -/
theorem lastPlane_apply (P : FVec Ideal S131073x3x21 .f32) (a : Fin 3) (j : Fin 21) :
    shapeCast S3x21 (extractStridedSlice S1x3x21 ![131072, 0, 0] P slices_S131073x3x21_S1x3x21_131072_0_0)
        shapeCasts_S1x3x21_S3x21 (ix2 a j)
      = P (ix3 (⟨131072, by omega⟩ : Fin 131073) a j) := by
  refine (shapeCast_1ab_ab_apply _ shapeCasts_S1x3x21_S3x21 a j).trans ?_
  exact extractStridedSlice_apply ![131072, 0, 0] P slices_S131073x3x21_S1x3x21_131072_0_0 (ix3 (0 : Fin 1) a j)
    (ix3 (⟨131072, by omega⟩ : Fin 131073) a j) (fun b => match b with
      | ⟨0, _⟩ => by show 131072 = 131072 + 0; omega
      | ⟨1, _⟩ => by show a.val = 0 + a.val; omega
      | ⟨2, _⟩ => by show j.val = 0 + j.val; omega)

/-- The host's sum over the 20 bones from zero, at its one entry. -/
theorem hostSum20 (E : FVec Ideal S20 .f32) :
    Host.reduceAdd (F := Ideal) E (constant S_ .f32 0x00000000#32) reducesTo_S20_S_d0 h_S_ ix0 = ∑ k : Fin 20, E (ix1 k) := by
  simp only [Host.reduceAdd, Ideal.hostReduceAdd_def]
  rw [Ideal.hostReduceAdd_total reducesTo_S20_S_d0 (fun b => b.elim0)]
  show Ideal.ofBits .f32 0x00000000#32 + _ = _
  rw [Ideal.ofBits_zero_f32, zero_add]
  exact (Equiv.sum_comp (idxEquiv1 (n := 20)).symm E).symm

/-- The host's sum over the 3 coordinates from zero, at bone `k`. -/
theorem hostSum3 (D : FVec Ideal S3x20 .f32) (k : Fin 20) :
    Host.reduceAdd (F := Ideal) D (constant S_ .f32 0x00000000#32) reducesTo_S3x20_S20_d0 h_S_ (ix1 k)
      = D (ix2 (0 : Fin 3) k) + D (ix2 (1 : Fin 3) k) + D (ix2 (2 : Fin 3) k) := by
  simp only [Host.reduceAdd, Ideal.hostReduceAdd_def]
  rw [Ideal.hostReduceAdd_single reducesTo_S3x20_S20_d0 (by decide)]
  show Ideal.ofBits .f32 0x00000000#32 + _ = _
  rw [Ideal.ofBits_zero_f32, zero_add]
  refine (Fin.sum_univ_three _).trans ?_
  refine congrArg₂ (· + ·) (congrArg₂ (· + ·) ?_ ?_) ?_ <;>
    exact congrArg D (funext fun a => Fin.ext (by match a with | ⟨0, _⟩ => rfl | ⟨1, _⟩ => rfl))

/-- The last frame's product with the difference matrix. -/
def lastProd (P : FVec Ideal S131073x3x21 .f32) (Dm : FVec Ideal S21x20 .f32) : FVec Ideal S3x20 .f32 :=
  Host.dotGeneral dot_S3x21_S21x20_S3x20_1_0_0_1_n_n (some .fp32)
    (shapeCast _ (extractStridedSlice S1x3x21 ![131072, 0, 0] P slices_S131073x3x21_S1x3x21_131072_0_0) shapeCasts_S1x3x21_S3x21) Dm

/-- The last frame's term, spelt over that product. -/
theorem boneLast_eq (P : FVec Ideal S131073x3x21 .f32) (Dm : FVec Ideal S21x20 .f32) (L : FVec Ideal S20 .f32) :
    boneLast (F := Ideal) P Dm L
      = Host.reduceAdd (F := Ideal)
          (mulf (subf L (Host.reduceAdd (F := Ideal) (mulf (lastProd P Dm) (lastProd P Dm)) (constant S_ .f32 0x00000000#32) reducesTo_S3x20_S20_d0 h_S_))
                (subf L (Host.reduceAdd (F := Ideal) (mulf (lastProd P Dm) (lastProd P Dm)) (constant S_ .f32 0x00000000#32) reducesTo_S3x20_S20_d0 h_S_)))
          (constant S_ .f32 0x00000000#32) reducesTo_S20_S_d0 h_S_ := rfl

/-- THE LAST FRAME'S TERM: the squared residuals of frame 131072. -/
theorem boneLast_apply (P : FVec Ideal S131073x3x21 .f32) (BL : FVec Ideal S20 .f32) (bc : IVec S20x2 32)
    (hP : ∀ i, ∃ r : ℝ, P i = (r : EReal)) (hbc : ∀ i, 0 ≤ (bc i).toInt ∧ (bc i).toInt < 21) :
    boneLast (F := Ideal) P (dmOf bc) BL ix0
      = ∑ k : Fin 20, boneTerm P BL bc (⟨131072, by omega⟩ : Fin 131073) k := by
  have hd : ∀ (a : Fin 3) (k : Fin 20),
      lastProd P (dmOf (F := Ideal) bc) (ix2 a k) = boneDiff P bc (⟨131072, by omega⟩ : Fin 131073) a k := fun a k =>
    (lastDot_apply _ _ a k).trans
      (row_mul_dm P bc hP hbc (⟨131072, by omega⟩ : Fin 131073) a k _ (fun j => lastPlane_apply P a j))
  rw [boneLast_eq]
  refine (hostSum20 _).trans (Finset.sum_congr rfl fun k _ => ?_)
  show (BL (ix1 k) - Host.reduceAdd (F := Ideal) (mulf (lastProd P (dmOf (F := Ideal) bc)) (lastProd P (dmOf (F := Ideal) bc)))
          (constant S_ .f32 0x00000000#32) reducesTo_S3x20_S20_d0 h_S_ (ix1 k))
      * (BL (ix1 k) - Host.reduceAdd (F := Ideal) (mulf (lastProd P (dmOf (F := Ideal) bc)) (lastProd P (dmOf (F := Ideal) bc)))
          (constant S_ .f32 0x00000000#32) reducesTo_S3x20_S20_d0 h_S_ (ix1 k)) = _
  rw [hostSum3]
  show (BL (ix1 k) - (lastProd P (dmOf (F := Ideal) bc) (ix2 (0 : Fin 3) k) * lastProd P (dmOf (F := Ideal) bc) (ix2 (0 : Fin 3) k)
        + lastProd P (dmOf (F := Ideal) bc) (ix2 (1 : Fin 3) k) * lastProd P (dmOf (F := Ideal) bc) (ix2 (1 : Fin 3) k)
        + lastProd P (dmOf (F := Ideal) bc) (ix2 (2 : Fin 3) k) * lastProd P (dmOf (F := Ideal) bc) (ix2 (2 : Fin 3) k)))
      * (BL (ix1 k) - (lastProd P (dmOf (F := Ideal) bc) (ix2 (0 : Fin 3) k) * lastProd P (dmOf (F := Ideal) bc) (ix2 (0 : Fin 3) k)
        + lastProd P (dmOf (F := Ideal) bc) (ix2 (1 : Fin 3) k) * lastProd P (dmOf (F := Ideal) bc) (ix2 (1 : Fin 3) k)
        + lastProd P (dmOf (F := Ideal) bc) (ix2 (2 : Fin 3) k) * lastProd P (dmOf (F := Ideal) bc) (ix2 (2 : Fin 3) k))) = _
  rw [hd 0 k, hd 1 k, hd 2 k]
  rfl

end Cert.Val.Bone

end
-- ==== Proof.Val.GatherAt.lean ====
/-
  The reference's gather of joint columns read at one entry.  The operand is the whole trajectory (131073 x 3 x 21), the
  start indices are 20 words (one per bone, as a 20 x 1 array); the result at (f, a, k) is the operand at (f, a, c) where c
  is the k-th word read signed and kept inside 0 … 20: the frame and coordinate axes are copied (offset axes), the joint
  axis is collapsed and indexed by the word.
-/
import proofs.«404832_j45707041964541_3_alg».proof.Proof.Gen.ReferenceIdeal
import Idealize.ShloMosaic.Lib.ValueIdx

noncomputable section

namespace Cert.Val.Bone

open Idealize.ShloMosaic Idealize.ShloMosaic.ValueIdx Cert.ReferenceIdeal Cert.ReferenceIdeal.Gen

/-- On the frame axis the operand index is the result's frame. -/
theorem gatherCol_axis0 (idx : IVec S20x1 32) (j : S131073x3x20.Idx) :
    (gather_S131073x3x21_S20x1_S131073x3x20_01_2_n_n_2_1_13107331.operandIdx j idx 0).val = (j 0).val := by
  show gather_S131073x3x21_S20x1_S131073x3x20_01_2_n_n_2_1_13107331.start j idx 0 + gather_S131073x3x21_S20x1_S131073x3x20_01_2_n_n_2_1_13107331.batchCoord j 0 + gather_S131073x3x21_S20x1_S131073x3x20_01_2_n_n_2_1_13107331.offCoord j 0 = _
  rw [GatherDims.batchCoord_eq_zero _ _ _ List.not_mem_nil, Nat.add_zero]
  unfold GatherDims.start GatherDims.offCoord
  rw [dif_neg (show ¬(0 : Fin S131073x3x21.rank) ∈ gather_S131073x3x21_S20x1_S131073x3x20_01_2_n_n_2_1_13107331.startIndexMap by decide),
    dif_pos (show (0 : Fin S131073x3x21.rank) ∈ gather_S131073x3x21_S20x1_S131073x3x20_01_2_n_n_2_1_13107331.sKept by decide), Nat.zero_add]
  rfl

/-- On the coordinate axis the operand index is the result's coordinate. -/
theorem gatherCol_axis1 (idx : IVec S20x1 32) (j : S131073x3x20.Idx) :
    (gather_S131073x3x21_S20x1_S131073x3x20_01_2_n_n_2_1_13107331.operandIdx j idx 1).val = (j 1).val := by
  show gather_S131073x3x21_S20x1_S131073x3x20_01_2_n_n_2_1_13107331.start j idx 1 + gather_S131073x3x21_S20x1_S131073x3x20_01_2_n_n_2_1_13107331.batchCoord j 1 + gather_S131073x3x21_S20x1_S131073x3x20_01_2_n_n_2_1_13107331.offCoord j 1 = _
  rw [GatherDims.batchCoord_eq_zero _ _ _ List.not_mem_nil, Nat.add_zero]
  unfold GatherDims.start GatherDims.offCoord
  rw [dif_neg (show ¬(1 : Fin S131073x3x21.rank) ∈ gather_S131073x3x21_S20x1_S131073x3x20_01_2_n_n_2_1_13107331.startIndexMap by decide),
    dif_pos (show (1 : Fin S131073x3x21.rank) ∈ gather_S131073x3x21_S20x1_S131073x3x20_01_2_n_n_2_1_13107331.sKept by decide), Nat.zero_add]
  rfl

/-- On the joint axis the operand index is the bone's word, read signed and kept inside 0 … 20. -/
theorem gatherCol_axis2 (idx : IVec S20x1 32) (f : Fin 131073) (a : Fin 3) (k : Fin 20) :
    (gather_S131073x3x21_S20x1_S131073x3x20_01_2_n_n_2_1_13107331.operandIdx (ix3 f a k) idx 2).val = min (idx (ix2 k (0 : Fin 1))).toInt.toNat 20 := by
  show gather_S131073x3x21_S20x1_S131073x3x20_01_2_n_n_2_1_13107331.start (ix3 f a k) idx 2 + gather_S131073x3x21_S20x1_S131073x3x20_01_2_n_n_2_1_13107331.batchCoord (ix3 f a k) 2 + gather_S131073x3x21_S20x1_S131073x3x20_01_2_n_n_2_1_13107331.offCoord (ix3 f a k) 2 = _
  rw [GatherDims.batchCoord_eq_zero _ _ _ List.not_mem_nil, Nat.add_zero,
    GatherDims.offCoord_eq_zero _ _ _ (show ¬(2 : Fin S131073x3x21.rank) ∈ gather_S131073x3x21_S20x1_S131073x3x20_01_2_n_n_2_1_13107331.sKept by decide), Nat.add_zero]
  unfold GatherDims.start
  rw [dif_pos (show (2 : Fin S131073x3x21.rank) ∈ gather_S131073x3x21_S20x1_S131073x3x20_01_2_n_n_2_1_13107331.startIndexMap by decide)]
  have hsi : gather_S131073x3x21_S20x1_S131073x3x20_01_2_n_n_2_1_13107331.siIdx (ix3 f a k) ⟨List.idxOf (2 : Fin S131073x3x21.rank) gather_S131073x3x21_S20x1_S131073x3x20_01_2_n_n_2_1_13107331.startIndexMap,
      List.idxOf_lt_length_iff.2 (by decide)⟩ = ix2 k (0 : Fin 1) := by
    funext c; refine Fin.ext ?_
    match c with
    | ⟨0, _⟩ => rfl
    | ⟨1, _⟩ => rfl
  rw [hsi]
  rfl

/-- The gather of joint columns at (f, a, k). -/
theorem gatherCol_apply {α : Type} (x : S131073x3x21.Idx → α) (idx : IVec S20x1 32) (f : Fin 131073) (a : Fin 3) (k : Fin 20) :
    Host.gather gather_S131073x3x21_S20x1_S131073x3x20_01_2_n_n_2_1_13107331 x idx (ix3 f a k)
      = x (ix3 f a (⟨min (idx (ix2 k (0 : Fin 1))).toInt.toNat 20, by omega⟩ : Fin 21)) := by
  unfold Host.gather
  refine congrArg x (funext fun b => Fin.ext ?_)
  match b with
  | ⟨0, _⟩ => exact gatherCol_axis0 idx (ix3 f a k)
  | ⟨1, _⟩ => exact gatherCol_axis1 idx (ix3 f a k)
  | ⟨2, _⟩ => exact gatherCol_axis2 idx f a k

end Cert.Val.Bone

end
-- ==== Proof.Val.BoneRef.lean ====
/-
  THE REFERENCE'S SIDE of the bone-length total.  The reference normalises both columns of the bone table (a negative
  word would have 21 added: none is negative), gathers the two joint columns of the whole trajectory, subtracts, squares,
  sums over the three coordinates, takes the result from the bone lengths, squares, and sums over every frame and bone.
  Read at its one entry the total is the sum over the 131073 frames and the 20 bones of the squared residual `boneTerm`.
-/
import proofs.«404832_j45707041964541_3_alg».proof.Proof.Gen.ReferenceIdeal.Read
import proofs.«404832_j45707041964541_3_alg».proof.Proof.Val.BoneTerm
import proofs.«404832_j45707041964541_3_alg».proof.Proof.Val.GatherAt

noncomputable section

namespace Cert.Val.Bone

open Idealize.ShloMosaic Idealize.ShloMosaic.ValueIdx Cert.ReferenceIdeal Cert.ReferenceIdeal.Gen Cert.ReferenceIdeal.Read

/-- The normalisation `w < 0 ? w + 21 : w` leaves a word that is not negative alone. -/
theorem normWord (w y : BitVec 32) (h : 0 ≤ w.toInt) : Scalar.select (IntOp.cmpi .slt w 0#32) y w = w := by
  have e0 : IntOp.cmpi .slt w 0#32 = 0#1 := eq_zero_of_ne_one fun h1 => by
    have h2 := IntOp.cmpi_slt.1 h1
    rw [show (0#32 : BitVec 32).toInt = 0 from by decide] at h2
    omega
  rw [e0, select_zero]

/-- The first gather's start index for bone `k` is the bone table's first word for `k`. -/
theorem col0_norm (bc : IVec S20x2 32) (hbc : ∀ i, 0 ≤ (bc i).toInt ∧ (bc i).toInt < 21) (k : Fin 20) :
    val_main_v61 (F := Ideal) bc (ix2 k (0 : Fin 1)) = bc (ix2 k (0 : Fin 2)) := by
  have hidx : idx_main_v0 (idx_main_v1 (idx_main_v61 (ix2 k (0 : Fin 1)))) = ix2 k (0 : Fin 2) :=
    funext fun a => Fin.ext (by
      match a with
      | ⟨0, _⟩ => show k.val / 1 = k.val; omega
      | ⟨1, _⟩ => rfl)
  have hw : val_main_v1 (F := Ideal) bc (idx_main_v61 (ix2 k (0 : Fin 1))) = bc (ix2 k (0 : Fin 2)) := by
    rw [val_main_v1_apply, val_main_v0_apply, hidx]
  rw [val_main_v61_apply, val_main_v60_apply, val_main_v57_apply, hw, val_main_v56_apply, val_main_c_11_apply]
  exact normWord _ _ (hbc _).1

/-- The second gather's start index for bone `k` is the bone table's second word for `k`. -/
theorem col1_norm (bc : IVec S20x2 32) (hbc : ∀ i, 0 ≤ (bc i).toInt ∧ (bc i).toInt < 21) (k : Fin 20) :
    val_main_v68 (F := Ideal) bc (ix2 k (0 : Fin 1)) = bc (ix2 k (1 : Fin 2)) := by
  have hidx : idx_main_v2 (idx_main_v3 (idx_main_v68 (ix2 k (0 : Fin 1)))) = ix2 k (1 : Fin 2) :=
    funext fun a => Fin.ext (by
      match a with
      | ⟨0, _⟩ => show k.val / 1 = k.val; omega
      | ⟨1, _⟩ => rfl)
  have hw : val_main_v3 (F := Ideal) bc (idx_main_v68 (ix2 k (0 : Fin 1))) = bc (ix2 k (1 : Fin 2)) := by
    rw [val_main_v3_apply, val_main_v2_apply, hidx]
  rw [val_main_v68_apply, val_main_v67_apply, val_main_v64_apply, hw, val_main_v63_apply, val_main_c_13_apply]
  exact normWord _ _ (hbc _).1

/-- The first gathered column at (f, a, k): the first joint of bone `k`. -/
theorem v62_apply (P : FVec Ideal S131073x3x21 .f32) (bc : IVec S20x2 32)
    (hbc : ∀ i, 0 ≤ (bc i).toInt ∧ (bc i).toInt < 21) (f : Fin 131073) (a : Fin 3) (k : Fin 20) :
    val_main_v62 (F := Ideal) P bc (ix3 f a k) = P (ix3 f a (jointOf (bc (ix2 k (0 : Fin 2))))) := by
  unfold val_main_v62
  refine (gatherCol_apply P _ f a k).trans ?_
  exact congrArg (fun w : BitVec 32 => P (ix3 f a (jointOf w))) (col0_norm bc hbc k)

/-- The second gathered column at (f, a, k): the second joint of bone `k`. -/
theorem v69_apply (P : FVec Ideal S131073x3x21 .f32) (bc : IVec S20x2 32)
    (hbc : ∀ i, 0 ≤ (bc i).toInt ∧ (bc i).toInt < 21) (f : Fin 131073) (a : Fin 3) (k : Fin 20) :
    val_main_v69 (F := Ideal) P bc (ix3 f a k) = P (ix3 f a (jointOf (bc (ix2 k (1 : Fin 2))))) := by
  unfold val_main_v69
  refine (gatherCol_apply P _ f a k).trans ?_
  exact congrArg (fun w : BitVec 32 => P (ix3 f a (jointOf w))) (col1_norm bc hbc k)

/-- The squared coordinate difference at (f, a, k). -/
theorem v71_apply (P : FVec Ideal S131073x3x21 .f32) (bc : IVec S20x2 32)
    (hbc : ∀ i, 0 ≤ (bc i).toInt ∧ (bc i).toInt < 21) (f : Fin 131073) (a : Fin 3) (k : Fin 20) :
    val_main_v71 (F := Ideal) P bc (ix3 f a k) = boneDiff P bc f a k * boneDiff P bc f a k := by
  rw [val_main_v71_apply, val_main_v70_apply, v62_apply P bc hbc, v69_apply P bc hbc]
  rfl

/-- The squared length of bone `k` in frame `f`. -/
theorem v72_apply (P : FVec Ideal S131073x3x21 .f32) (bc : IVec S20x2 32)
    (hbc : ∀ i, 0 ≤ (bc i).toInt ∧ (bc i).toInt < 21) (f : Fin 131073) (k : Fin 20) :
    val_main_v72 (F := Ideal) P bc (ix2 f k) = boneSq P bc f k := by
  have hi : ∀ a : Fin 3, idx_main_v72 (ix2 f k) a = ix3 f a k := fun a =>
    funext fun b => Fin.ext (by
      match b with
      | ⟨0, _⟩ => rfl
      | ⟨1, _⟩ => rfl
      | ⟨2, _⟩ => rfl)
  rw [val_main_v72_apply, val_main_cst_15_apply, Fin.sum_univ_three, hi 0, hi 1, hi 2,
    v71_apply P bc hbc, v71_apply P bc hbc, v71_apply P bc hbc]
  show Ideal.ofBits .f32 0x00000000#32 + _ = _
  rw [Ideal.ofBits_zero_f32, zero_add]
  rfl

/-- The squared residual of bone `k` in frame `f`. -/
theorem v76_apply (P : FVec Ideal S131073x3x21 .f32) (BL : FVec Ideal S20 .f32) (bc : IVec S20x2 32)
    (hbc : ∀ i, 0 ≤ (bc i).toInt ∧ (bc i).toInt < 21) (f : Fin 131073) (k : Fin 20) :
    val_main_v76 (F := Ideal) P BL bc (ix2 f k) = boneTerm P BL bc f k := by
  have hi : idx_main_v73 (idx_main_v74 (ix2 f k)) = ix1 k :=
    funext fun b => Fin.ext (by
      match b with
      | ⟨0, _⟩ => rfl)
  rw [val_main_v76_apply, val_main_v75_apply, val_main_v74_apply, val_main_v73_apply, hi, v72_apply P bc hbc]
  rfl

/-- THE REFERENCE'S TOTAL: the squared residuals of every frame and bone. -/
theorem ref_total (P : FVec Ideal S131073x3x21 .f32) (BL : FVec Ideal S20 .f32) (bc : IVec S20x2 32)
    (hbc : ∀ i, 0 ≤ (bc i).toInt ∧ (bc i).toInt < 21) :
    val_main_v77 (F := Ideal) P BL bc ix0 = ∑ f : Fin 131073, ∑ k : Fin 20, boneTerm P BL bc f k := by
  rw [val_main_v77_apply, val_main_cst_16_apply]
  show Ideal.ofBits .f32 0x00000000#32 + _ = _
  rw [Ideal.ofBits_zero_f32, zero_add, sum_idx2]
  exact Finset.sum_congr rfl fun f _ => Finset.sum_congr rfl fun k _ => v76_apply P BL bc hbc f k

end Cert.Val.Bone

end
-- ==== Proof.Val.Bone.lean ====
/-
  THE BONE-LENGTH TOTAL.  The kernel's 256 block sums of the bone-length residual plus the host's last-frame term equal
  the reference's sum over all 131073 frames, over the extended reals, when every trajectory entry is a real number and
  every word of the bone table lies in [0, 21).  Both sides are the sum over frames and bones of the squared residual
  `boneTerm`: the blocks cover frames 0 … 131071 (256 x 512), the last-frame term is frame 131072.
-/
import proofs.«404832_j45707041964541_3_alg».proof.Proof.Val.BoneBlock
import proofs.«404832_j45707041964541_3_alg».proof.Proof.Val.BoneLast
import proofs.«404832_j45707041964541_3_alg».proof.Proof.Val.BoneRef
import proofs.«404832_j45707041964541_3_alg».proof.Proof.Val.SumIdx

noncomputable section

namespace Cert.Val

open Idealize.ShloMosaic Idealize.ShloMosaic.ValueIdx Cert.KernelIdeal Cert.KernelIdeal.Gen

theorem bone_total (P : FVec Ideal S131073x3x21 .f32) (BL : FVec Ideal S20 .f32) (bc : IVec S20x2 32)
    (hP : ∀ i, ∃ r : ℝ, P i = (r : EReal)) (hBL : ∀ i, ∃ r : ℝ, BL i = (r : EReal))
    (hbc : ∀ i, (bc i).toNat < 21) (hbc' : ∀ i, 0 ≤ (bc i).toInt ∧ (bc i).toInt < 21) :
    (∑ t : Fin 256, sumBone (F := Ideal) (dmOf (F := Ideal) bc) (lenRow (F := Ideal) BL)
          (rows512 (F := Ideal) (n := 131074) (e := .f32) (by decide) (padPose (F := Ideal) P) t) (ix2 (0 : Fin 1) (0 : Fin 1)))
        + boneLast (F := Ideal) P (dmOf (F := Ideal) bc) BL ix0
      = Cert.ReferenceIdeal.Read.val_main_v77 (F := Ideal) P BL bc ix0 := by
  rw [Bone.ref_total P BL bc hbc', Bone.boneLast_apply P BL bc hP hbc',
    Finset.sum_congr rfl fun t _ => Bone.sumBone_apply P BL bc hP hbc' t,
    Bone.sum_frames (fun f => ∑ k : Fin 20, Bone.boneTerm P BL bc f k)]
  exact congrArg (· + _) (Bone.sum_blocks fun i : Fin 131072 => ∑ k : Fin 20, Bone.boneTerm P BL bc ⟨i.val, by have := i.isLt; omega⟩ k)

end Cert.Val

end
-- ==== Proof.Val.LiftFrame.lean ====
/-
  The lifted-direction residual of one frame, in plain extended-real arithmetic.

  Frame `i` (of 131072) reads frame `i + 1` of the trajectory. For bone `k` the bone vector is the difference of the two
  joint columns the bone table names (each word read signed and clamped into [0, 20]); its three coordinates are
  normalised by `sqrt (b0² + b1² + b2²) + eps`, where `eps` is the value of one fixed f32 word, and the residual against
  the lifted direction is squared. The frame's value is the sum over the three coordinates and the twenty bones.
-/
import Idealize.ShloMosaic.PureOps.Ideal
import Idealize.ShloMosaic.Lib.ValueIdx
import Mathlib.Data.EReal.Basic

noncomputable section

namespace Cert.Val.Lift

open Idealize.ShloMosaic Idealize.ShloMosaic.ValueIdx
open scoped BigOperators

/-- The joint a bone-table word names: the word read signed, clamped into [0, 20]. -/
def jointOf (w : BitVec 32) : Fin 21 := ⟨min w.toInt.toNat 20, by omega⟩

/-- A word in [0, 21) names the joint of its own number. -/
theorem jointOf_val {w : BitVec 32} (h : w.toNat < 21) : (jointOf w).val = w.toNat := by
  have h2 : w.toInt = (w.toNat : Int) := by
    rw [BitVec.toInt_eq_toNat_cond]
    rw [if_pos (by omega)]
  show min w.toInt.toNat 20 = w.toNat
  rw [h2, Int.toNat_natCast]
  omega

/-- Coordinate `a`, joint `j` of frame `i + 1` of the trajectory. -/
def poseAt (P : (⟨3, ![131073, 3, 21]⟩ : Shape).Idx → EReal) (i : Fin 131072) (a : Fin 3) (j : Fin 21) : EReal :=
  P (ix3 ⟨i.val + 1, by have := i.isLt; omega⟩ a j)

/-- Coordinate `a` of bone `k`'s vector at frame `i + 1`. -/
def boneVec (P : (⟨3, ![131073, 3, 21]⟩ : Shape).Idx → EReal) (bc : (⟨2, ![20, 2]⟩ : Shape).Idx → BitVec 32)
    (i : Fin 131072) (a : Fin 3) (k : Fin 20) : EReal :=
  poseAt P i a (jointOf (bc (ix2 k 0))) - poseAt P i a (jointOf (bc (ix2 k 1)))

/-- The small constant added to a norm: the value of one fixed f32 word. -/
def liftEps : EReal := Ideal.ofBits .f32 0x322BCC77#32

/-- The normaliser of a vector: its Euclidean length plus the small constant. -/
def liftNorm (b0 b1 b2 : EReal) : EReal := Ideal.sqrt (b0 * b0 + b1 * b1 + b2 * b2) + liftEps

/-- The squared residual of a lifted-direction entry `l` against the entry `b` of a vector with normaliser `n`. -/
def liftRes (l b n : EReal) : EReal := (l - Ideal.div b n) * (l - Ideal.div b n)

/-- The squared residual of frame `i`, coordinate `a`, bone `k`. -/
def liftTerm (P : (⟨3, ![131073, 3, 21]⟩ : Shape).Idx → EReal) (LD : (⟨3, ![131072, 3, 20]⟩ : Shape).Idx → EReal)
    (bc : (⟨2, ![20, 2]⟩ : Shape).Idx → BitVec 32) (i : Fin 131072) (a : Fin 3) (k : Fin 20) : EReal :=
  liftRes (LD (ix3 i a k)) (boneVec P bc i a k) (liftNorm (boneVec P bc i 0 k) (boneVec P bc i 1 k) (boneVec P bc i 2 k))

/-- The lifted-direction residual of frame `i`: the sum over coordinates and bones. -/
def liftFrame (P : (⟨3, ![131073, 3, 21]⟩ : Shape).Idx → EReal) (LD : (⟨3, ![131072, 3, 20]⟩ : Shape).Idx → EReal)
    (bc : (⟨2, ![20, 2]⟩ : Shape).Idx → BitVec 32) (i : Fin 131072) : EReal :=
  ∑ a : Fin 3, ∑ k : Fin 20, liftTerm P LD bc i a k

end Cert.Val.Lift

end
-- ==== Proof.Val.LiftIdx.lean ====
/-
  Two index facts the value proofs share: a sum over a rank-3 index set is the triple sum over its coordinates, and a
  load through a unit-stride rectangle reads the block at the rectangle's offsets plus the local index.
-/
import Idealize.ShloMosaic.Lib.ValueIdx
import Idealize.ShloMosaic.Lib.Pipeline.FrameBody

noncomputable section

namespace Cert.Val.Lift

open Idealize.ShloMosaic Idealize.SL.Sem Idealize.ShloMosaic.ValueIdx
open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A load through a unit-stride rectangle reads the block at the offsets plus the local index. -/
theorem ld_unit_apply {Val : EltTy → Type} {S : Shape} {e : EltTy} (X : S.Idx → Val e) (off size : Fin S.rank → Nat)
    (inb : ∀ a, off a + size a ≤ S.size a) (j : (Rect.unit off size inb).shape.Idx) (k : S.Idx)
    (hk : ∀ a, (k a).val = off a + (j a).val) : View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.Val.Lift

end
-- ==== Proof.Val.LiftDm.lean ====
/-
  The one-hot difference matrix read at an entry, and what multiplying a row of real numbers by one of its columns gives.

  Entry (j, k) of the matrix is [first joint of bone k = j] - [second joint of bone k = j], each bracket 1 or 0. So the
  product of a row `X` of 21 real numbers with column `k` is `X (first joint) - X (second joint)`: when the two joints
  differ the two brackets pick one entry each, and when they coincide both sides are zero (here the entries must be real:
  `x - x = 0` fails at an infinity).
-/
import proofs.«404832_j45707041964541_3_alg».proof.Proof.KI.Blocks
import proofs.«404832_j45707041964541_3_alg».proof.Proof.Val.LiftFrame
import Idealize.ShloMosaic.Lib.ValueIdx
import Idealize.ShloMosaic.Lib.Pipeline.Value
import Idealize.ShloMosaic.Lib.ValueLayout
import Idealize.ShloMosaic.Lib.StableHlo.Predicate
import Mathlib.Data.EReal.Basic

noncomputable section

namespace Cert.Val.Lift

open Idealize.ShloMosaic Idealize.SL.Sem Idealize.ShloMosaic.ValueIdx Cert.KernelIdeal Cert.KernelIdeal.Gen
open scoped BigOperators

/-- The coercion of a finite sum of reals is the sum of the coercions. -/
theorem coe_finset_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A one-hot entry: 1 when the word is the joint's number, else 0. -/
def hotAt (w : BitVec 32) (j : Fin 21) : EReal := if w = BitVec.ofNat 32 j.val then 1 else 0

/-- For a word in [0, 21) the test is whether the word names the joint. -/
theorem hotAt_eq {w : BitVec 32} (h : w.toNat < 21) (j : Fin 21) :
    hotAt w j = (((if jointOf w = j then 1 else 0 : ℝ)) : EReal) := by
  unfold hotAt
  have hiff : w = BitVec.ofNat 32 j.val ↔ jointOf w = j := by
    constructor
    · intro e
      apply Fin.ext
      rw [jointOf_val h, e, BitVec.toNat_ofNat]
      have := j.isLt
      omega
    · intro e
      apply BitVec.eq_of_toNat_eq
      rw [BitVec.toNat_ofNat, ← e, jointOf_val h]
      omega
  by_cases hw : w = BitVec.ofNat 32 j.val
  · rw [if_pos hw, if_pos (hiff.1 hw)]; rfl
  · rw [if_neg hw, if_neg (fun e => hw (hiff.2 e))]; rfl

/-- The first column of the bone table at bone `k`. -/
theorem boneCol0_apply (bc : IVec S20x2 32) (k : Fin 20) : boneCol0 bc (ix1 k) = bc (ix2 k 0) := by
  unfold boneCol0
  refine (shapeCast_apply _ shapeCasts_S20x1_S20 (ix1 k) (ix2 k 0) ?_).trans ?_
  · rw [Shape.rowMajor_val_two, Shape.rowMajor_val_one]
    show k.val * 1 + 0 = k.val
    omega
  · exact extractStridedSlice_apply ![0, 0] bc slices_S20x2_S20x1_0_0 (ix2 k 0) (ix2 k 0) (fun a => match a with
      | ⟨0, _⟩ => by show k.val = 0 + k.val; omega
      | ⟨1, _⟩ => by show 0 = 0 + 0; rfl)

/-- The second column of the bone table at bone `k`. -/
theorem boneCol1_apply (bc : IVec S20x2 32) (k : Fin 20) : boneCol1 bc (ix1 k) = bc (ix2 k 1) := by
  unfold boneCol1
  refine (shapeCast_apply _ shapeCasts_S20x1_S20 (ix1 k) (ix2 k 0) ?_).trans ?_
  · rw [Shape.rowMajor_val_two, Shape.rowMajor_val_one]
    show k.val * 1 + 0 = k.val
    omega
  · exact extractStridedSlice_apply ![0, 1] bc slices_S20x2_S20x1_0_1 (ix2 k 0) (ix2 k 1) (fun a => match a with
      | ⟨0, _⟩ => by show k.val = 0 + k.val; omega
      | ⟨1, _⟩ => by show 1 = 1 + 0; rfl)

/-- The one-hot rows of a vector of joint numbers at (k, j). -/
theorem oneHot_apply (v : IVec S20 32) (k : Fin 20) (j : Fin 21) : oneHot (F := Ideal) v (ix2 k j) = hotAt (v (ix1 k)) j := by
  unfold oneHot
  have hA : (broadcastInDim S20x21 ![0, 1] bcast_S20x1_S20x21_0_1 (broadcastInDim S20x1 ![0] bcast_S20_S20x1_0 v)) (ix2 k j) = v (ix1 k) := by
    refine (broadcastInDim_apply _ bcast_S20x1_S20x21_0_1 _ (ix2 k j) (ix2 k 0) (fun a => match a with
      | ⟨0, _⟩ => by show k.val = if (20 : Nat) = 1 then 0 else k.val; rw [if_neg (by decide)]
      | ⟨1, _⟩ => by show 0 = if (1 : Nat) = 1 then 0 else j.val; rw [if_pos rfl])).trans ?_
    exact broadcastInDim_apply _ bcast_S20_S20x1_0 v (ix2 k 0) (ix1 k) (fun a => match a with
      | ⟨0, _⟩ => by show k.val = if (20 : Nat) = 1 then 0 else k.val; rw [if_neg (by decide)])
  have hB : (broadcastInDim S20x21 ![0, 1] bcast_S1x21_S20x21_0_1 (iotaInDim S1x21 32 1)) (ix2 k j) = BitVec.ofNat 32 j.val := by
    refine (broadcastInDim_apply _ bcast_S1x21_S20x21_0_1 _ (ix2 k j) (ix2 0 j) (fun a => match a with
      | ⟨0, _⟩ => by show 0 = if (1 : Nat) = 1 then 0 else k.val; rw [if_pos rfl]
      | ⟨1, _⟩ => by show j.val = if (21 : Nat) = 1 then 0 else j.val; rw [if_neg (by decide)])).trans ?_
    rfl
  show (((IntOp.cmpi .eq
      ((broadcastInDim S20x21 ![0, 1] bcast_S20x1_S20x21_0_1 (broadcastInDim S20x1 ![0] bcast_S20_S20x1_0 v)) (ix2 k j))
      ((broadcastInDim S20x21 ![0, 1] bcast_S1x21_S20x21_0_1 (iotaInDim S1x21 32 1)) (ix2 k j))).toNat : ℝ) : EReal) = _
  rw [hA, hB]
  unfold hotAt
  by_cases hw : v (ix1 k) = BitVec.ofNat 32 j.val
  · rw [if_pos hw, StableHlo.Predicate.cmpi_eq_iff.2 hw]; simp
  · rw [if_neg hw, eq_zero_of_ne_one (fun e => hw (StableHlo.Predicate.cmpi_eq_iff.1 e))]; simp

/-- The difference matrix at (j, k). -/
theorem dmOf_apply (bc : IVec S20x2 32) (j : Fin 21) (k : Fin 20) :
    dmOf (F := Ideal) bc (ix2 j k) = hotAt (bc (ix2 k 0)) j - hotAt (bc (ix2 k 1)) j := by
  unfold dmOf
  refine (transpose_ix2_apply _ transposes_S20x21_S21x20_1_0 j k).trans ?_
  show oneHot (F := Ideal) (boneCol0 bc) (ix2 k j) - oneHot (F := Ideal) (boneCol1 bc) (ix2 k j) = _
  rw [oneHot_apply, oneHot_apply, boneCol0_apply, boneCol1_apply]

/-- A row of 21 real numbers times a column of the difference matrix: the difference of the two entries the column's
    bone names. -/
theorem row_mul_dm (X : Fin 21 → EReal) (hX : ∀ j, ∃ r : ℝ, X j = (r : EReal)) {w0 w1 : BitVec 32}
    (h0 : w0.toNat < 21) (h1 : w1.toNat < 21) :
    ∑ j : Fin 21, X j * (hotAt w0 j - hotAt w1 j) = X (jointOf w0) - X (jointOf w1) := by
  choose f hf using hX
  have e : ∀ j, X j * (hotAt w0 j - hotAt w1 j)
      = ((f j * ((if jointOf w0 = j then 1 else 0) - (if jointOf w1 = j then 1 else 0)) : ℝ) : EReal) := by
    intro j
    rw [hf j, hotAt_eq h0, hotAt_eq h1, ← EReal.coe_sub, ← EReal.coe_mul]
  rw [Finset.sum_congr rfl (fun j _ => e j), ← coe_finset_sum, hf, hf, ← EReal.coe_sub]
  congr 1
  simp [mul_sub, Finset.sum_sub_distrib]

end Cert.Val.Lift

end
-- ==== Proof.Val.LiftShift.lean ====
/-
  The pieces of the kernel body's lifted-direction term, each read at one entry.

  * the body's shape casts that drop a middle unit axis: entry (r, j) of the result is entry (r, 0, j) of the operand;
  * the shifted block (rows 1..511 of the current block followed by row 0 of the two frames that follow): row r is row
    r + 1 of the current block for r < 511, and row 0 of the next frames for r = 511;
  * the product with the 21 x 20 matrix into a zero accumulator: entry (r, k) is the sum over j of (r, j) times (j, k).
-/
import proofs.«404832_j45707041964541_3_alg».proof.Proof.KI.BlockVals
import proofs.«404832_j45707041964541_3_alg».proof.Proof.Val.LiftIdx
import Idealize.ShloMosaic.Lib.ValueIdx
import Idealize.ShloMosaic.Lib.Pipeline.Value
import Idealize.ShloMosaic.PureOps.Ideal.Laws

noncomputable section

namespace Cert.Val.Lift

open Idealize.ShloMosaic Idealize.SL.Sem Idealize.ShloMosaic.ValueIdx Cert.KernelIdeal Cert.KernelIdeal.Gen
open scoped BigOperators

variable {F : FTy → Type} [FloatOps F]

/-! ## Shape casts that drop the middle unit axis -/

theorem cast_512x1x21_apply (v : Vec F S512x1x21 .f32) (r : Fin 512) (j : Fin 21) :
    shapeCast S512x21 v shapeCasts_S512x1x21_S512x21 (ix2 r j) = v (ix3 r 0 j) :=
  shapeCast_apply v shapeCasts_S512x1x21_S512x21 (ix2 r j) (ix3 r 0 j) (by
    rw [Shape.rowMajor_val_three, Shape.rowMajor_val_two]
    show (r.val * 1 + 0) * 21 + j.val = r.val * 21 + j.val
    omega)

theorem cast_512x1x20_apply (v : Vec F S512x1x20 .f32) (r : Fin 512) (k : Fin 20) :
    shapeCast S512x20 v shapeCasts_S512x1x20_S512x20 (ix2 r k) = v (ix3 r 0 k) :=
  shapeCast_apply v shapeCasts_S512x1x20_S512x20 (ix2 r k) (ix3 r 0 k) (by
    rw [Shape.rowMajor_val_three, Shape.rowMajor_val_two]
    show (r.val * 1 + 0) * 20 + k.val = r.val * 20 + k.val
    omega)

theorem cast_2x1x21_apply (v : Vec F S2x1x21 .f32) (r : Fin 2) (j : Fin 21) :
    shapeCast S2x21 v shapeCasts_S2x1x21_S2x21 (ix2 r j) = v (ix3 r 0 j) :=
  shapeCast_apply v shapeCasts_S2x1x21_S2x21 (ix2 r j) (ix3 r 0 j) (by
    rw [Shape.rowMajor_val_three, Shape.rowMajor_val_two]
    show (r.val * 1 + 0) * 21 + j.val = r.val * 21 + j.val
    omega)

/-! ## The shifted block -/

/-- Rows 1..511 of a block followed by row 0 of a two-row block: a row below 511 is the block's next row. -/
theorem shift_lt (c : FVec F S512x21 .f32) (n : FVec F S2x21 .f32) (r : Fin 512) (j : Fin 21) (h : r.val < 511) :
    concatenate S512x21 0 [⟨S511x21, extractStridedSlice S511x21 ![1, 0] c slices_S512x21_o1_0_S511x21⟩,
        ⟨S1x21, extractStridedSlice S1x21 ![0, 0] n slices_S2x21_o0_0_S1x21⟩] concatenates_S511x21_S1x21_S512x21_d0 (ix2 r j)
      = c (ix2 ⟨r.val + 1, by omega⟩ j) := by
  refine (concatenate_pair_apply_left (t := S512x21) (s₁ := S511x21) (s₂ := S1x21) (0 : Fin 2) _ _ concatenates_S511x21_S1x21_S512x21_d0 (ix2 r j) rfl
    (ix2 (⟨r.val, h⟩ : Fin 511) j) (fun b => match b with | ⟨0, _⟩ => rfl | ⟨1, _⟩ => rfl)).trans ?_
  exact extractStridedSlice_apply ![1, 0] c slices_S512x21_o1_0_S511x21 _ _ (fun a => match a with
    | ⟨0, _⟩ => by show r.val + 1 = 1 + r.val; omega
    | ⟨1, _⟩ => by show j.val = 0 + j.val; omega)

/-- … and row 511 is row 0 of the two-row block. -/
theorem shift_last (c : FVec F S512x21 .f32) (n : FVec F S2x21 .f32) (r : Fin 512) (j : Fin 21) (h : r.val = 511) :
    concatenate S512x21 0 [⟨S511x21, extractStridedSlice S511x21 ![1, 0] c slices_S512x21_o1_0_S511x21⟩,
        ⟨S1x21, extractStridedSlice S1x21 ![0, 0] n slices_S2x21_o0_0_S1x21⟩] concatenates_S511x21_S1x21_S512x21_d0 (ix2 r j)
      = n (ix2 0 j) := by
  refine (concatenate_pair_apply_right (t := S512x21) (s₁ := S511x21) (s₂ := S1x21) (0 : Fin 2) _ _ concatenates_S511x21_S1x21_S512x21_d0 (ix2 r j) rfl rfl
    (ix2 (0 : Fin 1) j) (fun b => match b with
      | ⟨0, _⟩ => fun hb => absurd rfl hb
      | ⟨1, _⟩ => fun _ => rfl) (by show 0 + 511 = r.val; omega)).trans ?_
  exact extractStridedSlice_apply ![0, 0] n slices_S2x21_o0_0_S1x21 _ _ (fun a => match a with
    | ⟨0, _⟩ => by show 0 = 0 + 0; rfl
    | ⟨1, _⟩ => by show j.val = 0 + j.val; omega)

/-- The first shifted coordinate block at (r, j), r < 511. -/
theorem pay21_lt (v22 : FVec F S512x21 .f32) (v27 : Vec F S2x1x21 .f32) (r : Fin 512) (j : Fin 21) (h : r.val < 511) :
    k0_pay21 v22 v27 (ix2 r j) = v22 (ix2 ⟨r.val + 1, by omega⟩ j) := by
  unfold k0_pay21; exact shift_lt v22 _ r j h
theorem pay21_last (v22 : FVec F S512x21 .f32) (v27 : Vec F S2x1x21 .f32) (r : Fin 512) (j : Fin 21) (h : r.val = 511) :
    k0_pay21 v22 v27 (ix2 r j) = v27 (ix3 0 0 j) := by
  unfold k0_pay21 k0_pay18; exact (shift_last v22 _ r j h).trans (cast_2x1x21_apply v27 0 j)
theorem pay22_lt (v24 : FVec F S512x21 .f32) (v29 : Vec F S2x1x21 .f32) (r : Fin 512) (j : Fin 21) (h : r.val < 511) :
    k0_pay22 v24 v29 (ix2 r j) = v24 (ix2 ⟨r.val + 1, by omega⟩ j) := by
  unfold k0_pay22; exact shift_lt v24 _ r j h
theorem pay22_last (v24 : FVec F S512x21 .f32) (v29 : Vec F S2x1x21 .f32) (r : Fin 512) (j : Fin 21) (h : r.val = 511) :
    k0_pay22 v24 v29 (ix2 r j) = v29 (ix3 0 0 j) := by
  unfold k0_pay22 k0_pay19; exact (shift_last v24 _ r j h).trans (cast_2x1x21_apply v29 0 j)
theorem pay23_lt (v25 : Vec F S512x1x21 .f32) (v31 : Vec F S2x1x21 .f32) (r : Fin 512) (j : Fin 21) (h : r.val < 511) :
    k0_pay23 v25 v31 (ix2 r j) = v25 (ix3 ⟨r.val + 1, by omega⟩ 0 j) := by
  unfold k0_pay23 k0_pay17; exact (shift_lt _ _ r j h).trans (cast_512x1x21_apply v25 _ j)
theorem pay23_last (v25 : Vec F S512x1x21 .f32) (v31 : Vec F S2x1x21 .f32) (r : Fin 512) (j : Fin 21) (h : r.val = 511) :
    k0_pay23 v25 v31 (ix2 r j) = v31 (ix3 0 0 j) := by
  unfold k0_pay23 k0_pay20; exact (shift_last _ _ r j h).trans (cast_2x1x21_apply v31 0 j)

/-! ## The product with the 21 x 20 matrix -/

theorem lhs_dm_0 (i : S512x20.Idx) (q : dot_S512x21_S21x20_S512x20_1_0_0_1_n_n.contr.Idx) :
    (dot_S512x21_S21x20_S512x20_1_0_0_1_n_n.lhsIdx i q 0).val = (i 0).val := by
  unfold DotDims.lhsIdx
  rw [dif_neg (show ¬(0 : Fin S512x21.rank) ∈ dot_S512x21_S21x20_S512x20_1_0_0_1_n_n.lhsBatch by decide),
    dif_pos (show (0 : Fin S512x21.rank) ∈ dot_S512x21_S21x20_S512x20_1_0_0_1_n_n.lhsNonContracting by decide)]
  rfl
theorem lhs_dm_1 (i : S512x20.Idx) (q : dot_S512x21_S21x20_S512x20_1_0_0_1_n_n.contr.Idx) :
    (dot_S512x21_S21x20_S512x20_1_0_0_1_n_n.lhsIdx i q 1).val = (q ⟨0, by decide⟩).val :=
  dot_S512x21_S21x20_S512x20_1_0_0_1_n_n.lhsIdx_val_of_single rfl i q
theorem rhs_dm_0 (i : S512x20.Idx) (q : dot_S512x21_S21x20_S512x20_1_0_0_1_n_n.contr.Idx) :
    (dot_S512x21_S21x20_S512x20_1_0_0_1_n_n.rhsIdx i q 0).val = (q ⟨0, by decide⟩).val :=
  dot_S512x21_S21x20_S512x20_1_0_0_1_n_n.rhsIdx_val_of_single rfl i q
theorem rhs_dm_1 (i : S512x20.Idx) (q : dot_S512x21_S21x20_S512x20_1_0_0_1_n_n.contr.Idx) :
    (dot_S512x21_S21x20_S512x20_1_0_0_1_n_n.rhsIdx i q 1).val = (i 1).val := by
  unfold DotDims.rhsIdx
  rw [dif_neg (show ¬(1 : Fin S21x20.rank) ∈ dot_S512x21_S21x20_S512x20_1_0_0_1_n_n.rhsBatch by decide),
    dif_pos (show (1 : Fin S21x20.rank) ∈ dot_S512x21_S21x20_S512x20_1_0_0_1_n_n.rhsNonContracting by decide)]
  rfl

/-- The product of a 512 x 21 block with a 21 x 20 matrix into zero, at (r, k). -/
theorem matmul_dm_apply (A : FVec Ideal S512x21 .f32) (D : FVec Ideal S21x20 .f32) (r : Fin 512) (k : Fin 20) :
    matmul dot_S512x21_S21x20_S512x20_1_0_0_1_n_n (some .fp32) A D (constant S512x20 .f32 0x00000000#32) (ix2 r k)
      = ∑ j : Fin 21, A (ix2 r j) * D (ix2 j k) := by
  simp only [matmul]
  rw [Ideal.matmul_constant_zero_apply, ← Equiv.sum_comp (contrEquiv1 dot_S512x21_S21x20_S512x20_1_0_0_1_n_n 21 rfl rfl).symm]
  refine Finset.sum_congr rfl fun j _ => ?_
  have hk := contrEquiv1_symm_val dot_S512x21_S21x20_S512x20_1_0_0_1_n_n 21 rfl rfl j
  have el : dot_S512x21_S21x20_S512x20_1_0_0_1_n_n.lhsIdx (ix2 r k) ((contrEquiv1 dot_S512x21_S21x20_S512x20_1_0_0_1_n_n 21 rfl rfl).symm j) = ix2 r j :=
    funext fun a => Fin.ext (by
      match a with
      | ⟨0, _⟩ => exact lhs_dm_0 _ _
      | ⟨1, _⟩ => exact (lhs_dm_1 _ _).trans hk)
  have er : dot_S512x21_S21x20_S512x20_1_0_0_1_n_n.rhsIdx (ix2 r k) ((contrEquiv1 dot_S512x21_S21x20_S512x20_1_0_0_1_n_n 21 rfl rfl).symm j) = ix2 j k :=
    funext fun a => Fin.ext (by
      match a with
      | ⟨0, _⟩ => exact (rhs_dm_0 _ _).trans hk
      | ⟨1, _⟩ => exact rhs_dm_1 _ _)
  rw [el, er]

end Cert.Val.Lift

end
-- ==== Proof.Val.LiftPay31.lean ====
/-
  The kernel body's lifted-direction sum at a grid point, read at its one entry: for each of the three coordinates, the
  sum over the block's 512 rows and 20 bones of the squared residual (lifted direction minus the bone vector's entry over
  the normaliser), the three sums added together. The normaliser is the square root of the sum of the three squared
  entries plus the small constant.
-/
import proofs.«404832_j45707041964541_3_alg».proof.Proof.KI.BlockVals
import proofs.«404832_j45707041964541_3_alg».proof.Proof.Val.LiftFrame
import proofs.«404832_j45707041964541_3_alg».proof.Proof.Val.LiftIdx
import Idealize.ShloMosaic.Lib.ValueIdx
import Idealize.ShloMosaic.Lib.Pipeline.Value
import Idealize.ShloMosaic.Lib.ValueLayout
import Idealize.ShloMosaic.PureOps.Ideal.Laws

noncomputable section

namespace Cert.Val.Lift

open Idealize.ShloMosaic Idealize.SL.Sem Idealize.ShloMosaic.ValueIdx Cert.KernelIdeal Cert.KernelIdeal.Gen
open scoped BigOperators

/-- The block of normalisers. -/
def nrmBlk (b0 b1 b2 : FVec Ideal S512x20 .f32) : FVec Ideal S512x20 .f32 :=
  addf (sqrt (addf (addf (mulf b0 b0) (mulf b1 b1)) (mulf b2 b2))) (broadcast S512x20 (Scalar.ofBits (F := Ideal) .f32 0x322BCC77#32))

/-- The block of squared residuals of one coordinate. -/
def resBlk (l b n : FVec Ideal S512x20 .f32) : FVec Ideal S512x20 .f32 :=
  mulf (subf l (divf b n)) (subf l (divf b n))

/-- The sum of a 512 x 20 block over all its entries, as the body takes it (into a 1 x 1 vector). -/
def laneSum (v : FVec Ideal S512x20 .f32) : FVec Ideal S1x1 .f32 :=
  broadcast S1x1 (extractAt ![0, 0, 0] (shapeCast S1x1x1
    (multiReduction (F := Ideal) .add [1, 2] S1 (shapeCast S1x512x20 v shapeCasts_S512x20_S1x512x20) 0x00000000#32 reduces_S1x512x20_S1 (.inl rfl) rfl)
    shapeCasts_S1_S1x1x1) inpos_S1x1x1_p0_0_0)

/-- The body's lifted-direction value is the three lane sums added. -/
theorem pay31_eq (l0 l1 l2 b0 b1 b2 : FVec Ideal S512x20 .f32) :
    k0_pay31 (F := Ideal) l0 l1 l2 b0 b1 b2
      = addf (addf (laneSum (resBlk l0 b0 (nrmBlk b0 b1 b2))) (laneSum (resBlk l1 b1 (nrmBlk b0 b1 b2)))) (laneSum (resBlk l2 b2 (nrmBlk b0 b1 b2))) := rfl

theorem nrmBlk_apply (b0 b1 b2 : FVec Ideal S512x20 .f32) (i : S512x20.Idx) :
    nrmBlk b0 b1 b2 i = liftNorm (b0 i) (b1 i) (b2 i) := rfl

theorem resBlk_apply (l b n : FVec Ideal S512x20 .f32) (i : S512x20.Idx) :
    resBlk l b n i = liftRes (l i) (b i) (n i) := rfl

/-- A lane sum at its one entry is the double sum over rows and bones. -/
theorem laneSum_apply (v : FVec Ideal S512x20 .f32) (i : S1x1.Idx) :
    laneSum v i = ∑ r : Fin 512, ∑ k : Fin 20, v (ix2 r k) := by
  unfold laneSum
  show shapeCast S1x1x1
    (multiReduction (F := Ideal) .add [1, 2] S1 (shapeCast S1x512x20 v shapeCasts_S512x20_S1x512x20) 0x00000000#32 reduces_S1x512x20_S1 (.inl rfl) rfl)
    shapeCasts_S1_S1x1x1 (fun a => ⟨(![0, 0, 0] : Fin 3 → Nat) a, inpos_S1x1x1_p0_0_0 a⟩) = _
  refine (shapeCast_apply _ shapeCasts_S1_S1x1x1 _ (ix1 (0 : Fin 1)) ?_).trans ?_
  · rw [Shape.rowMajor_val_one, Shape.rowMajor_val_three]; rfl
  refine (Ideal.multiReduction_add_total (shapeCast S1x512x20 v shapeCasts_S512x20_S1x512x20) 0x00000000#32 reduces_S1x512x20_S1
    (fun b => match b with | ⟨0, _⟩ => rfl) (.inl rfl) rfl (ix1 (0 : Fin 1))).trans ?_
  rw [sum_idx3, Fin.sum_univ_one]
  refine Finset.sum_congr rfl fun r _ => Finset.sum_congr rfl fun k _ => ?_
  exact shapeCast_ab_1ab_apply v shapeCasts_S512x20_S1x512x20 0 r k

/-- The body's lifted-direction value at its one entry. -/
theorem pay31_apply (l0 l1 l2 b0 b1 b2 : FVec Ideal S512x20 .f32) (i : S1x1.Idx) :
    k0_pay31 (F := Ideal) l0 l1 l2 b0 b1 b2 i
      = (∑ r : Fin 512, ∑ k : Fin 20, liftRes (l0 (ix2 r k)) (b0 (ix2 r k)) (liftNorm (b0 (ix2 r k)) (b1 (ix2 r k)) (b2 (ix2 r k))))
        + (∑ r : Fin 512, ∑ k : Fin 20, liftRes (l1 (ix2 r k)) (b1 (ix2 r k)) (liftNorm (b0 (ix2 r k)) (b1 (ix2 r k)) (b2 (ix2 r k))))
        + (∑ r : Fin 512, ∑ k : Fin 20, liftRes (l2 (ix2 r k)) (b2 (ix2 r k)) (liftNorm (b0 (ix2 r k)) (b1 (ix2 r k)) (b2 (ix2 r k)))) := by
  rw [pay31_eq]
  show laneSum _ i + laneSum _ i + laneSum _ i = _
  rw [laneSum_apply, laneSum_apply, laneSum_apply]
  rfl

end Cert.Val.Lift

end
-- ==== Proof.Val.LiftBlock.lean ====
/-
  The kernel's lifted-direction sum at grid position `t` is the sum over the block's 512 rows of the frame residual of
  frame 512 t + r.

  Row r of the shifted block is frame 512 t + r + 1 of the padded trajectory: row r + 1 of the block's own 512 frames for
  r < 511, and the first of the two frames that follow for r = 511; both are frames of the trajectory itself (at most
  frame 131072). The product of such a row with a column of the difference matrix is the bone vector's entry (the rows are
  real numbers). The lifted directions are read at frame 512 t + r.
-/
import proofs.«404832_j45707041964541_3_alg».proof.Proof.KI.BlockVals
import proofs.«404832_j45707041964541_3_alg».proof.Proof.KI.Blocks
import proofs.«404832_j45707041964541_3_alg».proof.Proof.Val.LiftFrame
import proofs.«404832_j45707041964541_3_alg».proof.Proof.Val.LiftIdx
import proofs.«404832_j45707041964541_3_alg».proof.Proof.Val.LiftDm
import proofs.«404832_j45707041964541_3_alg».proof.Proof.Val.LiftShift
import proofs.«404832_j45707041964541_3_alg».proof.Proof.Val.LiftPay31
import Idealize.ShloMosaic.Lib.ValueIdx
import Idealize.ShloMosaic.Lib.Pipeline.Value

noncomputable section

namespace Cert.Val.Lift

open Idealize.ShloMosaic Idealize.SL.Sem Idealize.ShloMosaic.ValueIdx Cert.KernelIdeal Cert.KernelIdeal.Gen
open scoped BigOperators

/-! ## The loads -/

/-- A load of one plane of the middle axis of a rank-3 block, at (r, 0, q): the block at (r, plane, q). -/
theorem ld_plane_apply {Val : EltTy → Type} {e : EltTy} {n c m : Nat} (X : (⟨3, ![n, c, m]⟩ : Shape).Idx → Val e) (A : Fin c)
    (inb : ∀ a, (![0, A.val, 0] : Fin 3 → Nat) a + (![n, 1, m] : Fin 3 → Nat) a ≤ (⟨3, ![n, c, m]⟩ : Shape).size a)
    (r : Fin n) (q : Fin m) :
    View.ld X (Rect.unit (s := ⟨3, ![n, c, m]⟩) ![0, A.val, 0] ![n, 1, m] inb) (ix3 r (0 : Fin 1) q) = X (ix3 r A q) :=
  ld_unit_apply X _ _ inb (ix3 r (0 : Fin 1) q) (ix3 r A q) (fun a => match a with
    | ⟨0, _⟩ => by show r.val = 0 + r.val; omega
    | ⟨1, _⟩ => by show A.val = A.val + 0; omega
    | ⟨2, _⟩ => by show q.val = 0 + q.val; omega)

variable {F : FTy → Type} [FloatOps F]

theorem ldCur0_apply (x7 : Vec F S512x3x21 .f32) (r : Fin 512) (q : Fin 21) : ldCur0 x7 (ix3 r 0 q) = x7 (ix3 r 0 q) :=
  ld_plane_apply x7 (0 : Fin 3) _ r q
theorem ldCur1_apply (x7 : Vec F S512x3x21 .f32) (r : Fin 512) (q : Fin 21) : ldCur1 x7 (ix3 r 0 q) = x7 (ix3 r 1 q) :=
  ld_plane_apply x7 (1 : Fin 3) _ r q
theorem ldCur2_apply (x7 : Vec F S512x3x21 .f32) (r : Fin 512) (q : Fin 21) : ldCur2 x7 (ix3 r 0 q) = x7 (ix3 r 2 q) :=
  ld_plane_apply x7 (2 : Fin 3) _ r q
theorem ldNxt0_apply (x8 : Vec F S2x3x21 .f32) (s : Fin 2) (q : Fin 21) : ldNxt0 x8 (ix3 s 0 q) = x8 (ix3 s 0 q) :=
  ld_plane_apply x8 (0 : Fin 3) _ s q
theorem ldNxt1_apply (x8 : Vec F S2x3x21 .f32) (s : Fin 2) (q : Fin 21) : ldNxt1 x8 (ix3 s 0 q) = x8 (ix3 s 1 q) :=
  ld_plane_apply x8 (1 : Fin 3) _ s q
theorem ldNxt2_apply (x8 : Vec F S2x3x21 .f32) (s : Fin 2) (q : Fin 21) : ldNxt2 x8 (ix3 s 0 q) = x8 (ix3 s 2 q) :=
  ld_plane_apply x8 (2 : Fin 3) _ s q
theorem ldDir0_apply (x1 : Vec F S512x3x20 .f32) (r : Fin 512) (k : Fin 20) : ldDir0 x1 (ix3 r 0 k) = x1 (ix3 r 0 k) :=
  ld_plane_apply x1 (0 : Fin 3) _ r k
theorem ldDir1_apply (x1 : Vec F S512x3x20 .f32) (r : Fin 512) (k : Fin 20) : ldDir1 x1 (ix3 r 0 k) = x1 (ix3 r 1 k) :=
  ld_plane_apply x1 (1 : Fin 3) _ r k
theorem ldDir2_apply (x1 : Vec F S512x3x20 .f32) (r : Fin 512) (k : Fin 20) : ldDir2 x1 (ix3 r 0 k) = x1 (ix3 r 2 k) :=
  ld_plane_apply x1 (2 : Fin 3) _ r k

/-- The difference matrix is loaded whole. -/
theorem ldDm_apply (x5 : Vec F S21x20 .f32) (j : Fin 21) (k : Fin 20) : k0_pay8 (ldDm x5) (ix2 j k) = x5 (ix2 j k) := by
  unfold k0_pay8 ldDm
  rw [shapeCast_self]
  exact ld_unit_apply x5 _ _ _ (ix2 j k) (ix2 j k) (fun a => match a with
    | ⟨0, _⟩ => by show j.val = 0 + j.val; omega
    | ⟨1, _⟩ => by show k.val = 0 + k.val; omega)

/-- The body's casts of the loaded planes, at an entry. -/
theorem pay15_apply (v : Vec F S512x1x21 .f32) (r : Fin 512) (j : Fin 21) : k0_pay15 v (ix2 r j) = v (ix3 r 0 j) :=
  cast_512x1x21_apply v r j
theorem pay16_apply (v : Vec F S512x1x21 .f32) (r : Fin 512) (j : Fin 21) : k0_pay16 v (ix2 r j) = v (ix3 r 0 j) :=
  cast_512x1x21_apply v r j
theorem pay12_apply (v : Vec F S512x1x20 .f32) (r : Fin 512) (k : Fin 20) : k0_pay12 v (ix2 r k) = v (ix3 r 0 k) :=
  cast_512x1x20_apply v r k
theorem pay13_apply (v : Vec F S512x1x20 .f32) (r : Fin 512) (k : Fin 20) : k0_pay13 v (ix2 r k) = v (ix3 r 0 k) :=
  cast_512x1x20_apply v r k
theorem pay14_apply (v : Vec F S512x1x20 .f32) (r : Fin 512) (k : Fin 20) : k0_pay14 v (ix2 r k) = v (ix3 r 0 k) :=
  cast_512x1x20_apply v r k

/-! ## The blocks of the padded trajectory -/

/-- Below frame 131073 the padded trajectory is the trajectory. -/
theorem padPose_lt (P : FVec F S131073x3x21 .f32) (f : Fin 131074) (hf : f.val < 131073) (a : Fin 3) (q : Fin 21) :
    padPose P (ix3 f a q) = P (ix3 ⟨f.val, hf⟩ a q) := by
  unfold padPose pad
  split
  · exact congrArg P (funext fun b => Fin.ext (by
      match b with
      | ⟨0, _⟩ => show (f.val - 0) / (0 + 1) = f.val; omega
      | ⟨1, _⟩ => show (a.val - 0) / (0 + 1) = a.val; omega
      | ⟨2, _⟩ => show (q.val - 0) / (0 + 1) = q.val; omega))
  · rename_i hin
    refine absurd (fun b => ?_) hin
    have ha := a.isLt
    have hq := q.isLt
    match b with
    | ⟨0, _⟩ => exact ⟨Nat.zero_le _, by show (f.val - 0) % (0 + 1) = 0; omega, by show (f.val - 0) / (0 + 1) < 131073; omega⟩
    | ⟨1, _⟩ => exact ⟨Nat.zero_le _, by show (a.val - 0) % (0 + 1) = 0; omega, by show (a.val - 0) / (0 + 1) < 3; omega⟩
    | ⟨2, _⟩ => exact ⟨Nat.zero_le _, by show (q.val - 0) % (0 + 1) = 0; omega, by show (q.val - 0) / (0 + 1) < 21; omega⟩

/-- The block of the block's own 512 frames at grid position `t`. -/
abbrev curBlk (P : FVec F S131073x3x21 .f32) (t : Fin 256) : Vec F S512x3x21 .f32 :=
  rows512 (n := 131074) (e := .f32) (by decide) (padPose P) t
/-- The block of the two frames that follow. -/
abbrev nxtBlk (P : FVec F S131073x3x21 .f32) (t : Fin 256) : Vec F S2x3x21 .f32 :=
  rows2 (n := 131074) (e := .f32) (by decide) (padPose P) t
/-- The block of lifted directions at grid position `t`. -/
abbrev dirBlk (LD : FVec F S131072x3x20 .f32) (t : Fin 256) : Vec F S512x3x20 .f32 :=
  rows512 (n := 131072) (e := .f32) (by decide) LD t

/-- The frame of the whole array that row `r` of block `t` is. -/
abbrev frameOf (t : Fin 256) (r : Fin 512) : Fin 131072 :=
  ⟨512 * t.val + r.val, by have := t.isLt; have := r.isLt; omega⟩

end Cert.Val.Lift

namespace Cert.Val.Lift

open Idealize.ShloMosaic Idealize.SL.Sem Idealize.ShloMosaic.ValueIdx Cert.KernelIdeal Cert.KernelIdeal.Gen
open scoped BigOperators

/-- Row r + 1 of the block's own frames is frame 512 t + r + 1 of the trajectory. -/
theorem curBlk_succ (P : FVec Ideal S131073x3x21 .f32) (t : Fin 256) (r : Fin 512) (h : r.val < 511) (a : Fin 3) (q : Fin 21) :
    curBlk P t (ix3 ⟨r.val + 1, by omega⟩ a q) = poseAt P (frameOf t r) a q := by
  have ht := t.isLt
  show padPose P (ix3 ⟨512 * t.val + (r.val + 1), _⟩ a q) = _
  refine (padPose_lt P _ (by show 512 * t.val + (r.val + 1) < 131073; omega) a q).trans ?_
  unfold poseAt
  exact congrArg (fun f => P (ix3 f a q)) (Fin.ext (by show 512 * t.val + (r.val + 1) = 512 * t.val + r.val + 1; omega))

/-- The first of the two frames that follow block `t` is frame 512 t + 512 of the trajectory. -/
theorem nxtBlk_zero (P : FVec Ideal S131073x3x21 .f32) (t : Fin 256) (r : Fin 512) (h : r.val = 511) (a : Fin 3) (q : Fin 21) :
    nxtBlk P t (ix3 0 a q) = poseAt P (frameOf t r) a q := by
  have ht := t.isLt
  show padPose P (ix3 ⟨512 * (t.val + 1) + 0, _⟩ a q) = _
  refine (padPose_lt P _ (by show 512 * (t.val + 1) + 0 < 131073; omega) a q).trans ?_
  unfold poseAt
  exact congrArg (fun f => P (ix3 f a q)) (Fin.ext (by show 512 * (t.val + 1) + 0 = 512 * t.val + r.val + 1; omega))

/-! ## The shifted blocks -/

theorem shifted0 (P : FVec Ideal S131073x3x21 .f32) (t : Fin 256) (r : Fin 512) (q : Fin 21) :
    k0_pay21 (k0_pay15 (ldCur0 (curBlk P t))) (ldNxt0 (nxtBlk P t)) (ix2 r q) = poseAt P (frameOf t r) 0 q := by
  by_cases h : r.val < 511
  · rw [pay21_lt _ _ r q h]
    rw [pay15_apply, ldCur0_apply]
    exact curBlk_succ P t r h 0 q
  · have h' : r.val = 511 := by have := r.isLt; omega
    rw [pay21_last _ _ r q h', ldNxt0_apply]
    exact nxtBlk_zero P t r h' 0 q

theorem shifted1 (P : FVec Ideal S131073x3x21 .f32) (t : Fin 256) (r : Fin 512) (q : Fin 21) :
    k0_pay22 (k0_pay16 (ldCur1 (curBlk P t))) (ldNxt1 (nxtBlk P t)) (ix2 r q) = poseAt P (frameOf t r) 1 q := by
  by_cases h : r.val < 511
  · rw [pay22_lt _ _ r q h]
    rw [pay16_apply, ldCur1_apply]
    exact curBlk_succ P t r h 1 q
  · have h' : r.val = 511 := by have := r.isLt; omega
    rw [pay22_last _ _ r q h', ldNxt1_apply]
    exact nxtBlk_zero P t r h' 1 q

theorem shifted2 (P : FVec Ideal S131073x3x21 .f32) (t : Fin 256) (r : Fin 512) (q : Fin 21) :
    k0_pay23 (ldCur2 (curBlk P t)) (ldNxt2 (nxtBlk P t)) (ix2 r q) = poseAt P (frameOf t r) 2 q := by
  by_cases h : r.val < 511
  · rw [pay23_lt _ _ r q h, ldCur2_apply]
    exact curBlk_succ P t r h 2 q
  · have h' : r.val = 511 := by have := r.isLt; omega
    rw [pay23_last _ _ r q h', ldNxt2_apply]
    exact nxtBlk_zero P t r h' 2 q

/-! ## The bone vectors of the block -/

/-- The three products with the difference matrix, at an entry. -/
theorem pay28_apply (D : FVec Ideal S21x20 .f32) (v22 : FVec Ideal S512x21 .f32) (v27 : Vec Ideal S2x1x21 .f32) (r : Fin 512) (k : Fin 20) :
    k0_pay28 D v22 v27 (ix2 r k) = ∑ j : Fin 21, k0_pay21 v22 v27 (ix2 r j) * D (ix2 j k) :=
  matmul_dm_apply _ _ r k
theorem pay29_apply (D : FVec Ideal S21x20 .f32) (v24 : FVec Ideal S512x21 .f32) (v29 : Vec Ideal S2x1x21 .f32) (r : Fin 512) (k : Fin 20) :
    k0_pay29 D v24 v29 (ix2 r k) = ∑ j : Fin 21, k0_pay22 v24 v29 (ix2 r j) * D (ix2 j k) :=
  matmul_dm_apply _ _ r k
theorem pay30_apply (D : FVec Ideal S21x20 .f32) (v25 : Vec Ideal S512x1x21 .f32) (v31 : Vec Ideal S2x1x21 .f32) (r : Fin 512) (k : Fin 20) :
    k0_pay30 D v25 v31 (ix2 r k) = ∑ j : Fin 21, k0_pay23 v25 v31 (ix2 r j) * D (ix2 j k) :=
  matmul_dm_apply _ _ r k

section Bones
variable (P : FVec Ideal S131073x3x21 .f32) (bc : IVec S20x2 32) (hP : ∀ i, ∃ r : ℝ, P i = (r : EReal))
  (hbc : ∀ i, (bc i).toNat < 21)
include hP hbc

theorem boneBlk0 (t : Fin 256) (r : Fin 512) (k : Fin 20) :
    k0_pay28 (k0_pay8 (ldDm (dmOf (F := Ideal) bc))) (k0_pay15 (ldCur0 (curBlk P t))) (ldNxt0 (nxtBlk P t)) (ix2 r k)
      = boneVec P bc (frameOf t r) 0 k := by
  rw [pay28_apply]
  refine (Finset.sum_congr rfl fun j _ => ?_).trans
    (row_mul_dm (fun j => poseAt P (frameOf t r) 0 j) (fun j => hP _) (hbc (ix2 k 0)) (hbc (ix2 k 1)))
  rw [shifted0, ldDm_apply, dmOf_apply]

theorem boneBlk1 (t : Fin 256) (r : Fin 512) (k : Fin 20) :
    k0_pay29 (k0_pay8 (ldDm (dmOf (F := Ideal) bc))) (k0_pay16 (ldCur1 (curBlk P t))) (ldNxt1 (nxtBlk P t)) (ix2 r k)
      = boneVec P bc (frameOf t r) 1 k := by
  rw [pay29_apply]
  refine (Finset.sum_congr rfl fun j _ => ?_).trans
    (row_mul_dm (fun j => poseAt P (frameOf t r) 1 j) (fun j => hP _) (hbc (ix2 k 0)) (hbc (ix2 k 1)))
  rw [shifted1, ldDm_apply, dmOf_apply]

theorem boneBlk2 (t : Fin 256) (r : Fin 512) (k : Fin 20) :
    k0_pay30 (k0_pay8 (ldDm (dmOf (F := Ideal) bc))) (ldCur2 (curBlk P t)) (ldNxt2 (nxtBlk P t)) (ix2 r k)
      = boneVec P bc (frameOf t r) 2 k := by
  rw [pay30_apply]
  refine (Finset.sum_congr rfl fun j _ => ?_).trans
    (row_mul_dm (fun j => poseAt P (frameOf t r) 2 j) (fun j => hP _) (hbc (ix2 k 0)) (hbc (ix2 k 1)))
  rw [shifted2, ldDm_apply, dmOf_apply]

end Bones

/-! ## The lifted directions of the block -/

theorem dir0_at (LD : FVec Ideal S131072x3x20 .f32) (t : Fin 256) (r : Fin 512) (k : Fin 20) :
    k0_pay12 (ldDir0 (dirBlk LD t)) (ix2 r k) = LD (ix3 (frameOf t r) 0 k) := by
  exact (pay12_apply _ r k).trans ((ldDir0_apply _ r k).trans rfl)
theorem dir1_at (LD : FVec Ideal S131072x3x20 .f32) (t : Fin 256) (r : Fin 512) (k : Fin 20) :
    k0_pay13 (ldDir1 (dirBlk LD t)) (ix2 r k) = LD (ix3 (frameOf t r) 1 k) := by
  exact (pay13_apply _ r k).trans ((ldDir1_apply _ r k).trans rfl)
theorem dir2_at (LD : FVec Ideal S131072x3x20 .f32) (t : Fin 256) (r : Fin 512) (k : Fin 20) :
    k0_pay14 (ldDir2 (dirBlk LD t)) (ix2 r k) = LD (ix3 (frameOf t r) 2 k) := by
  exact (pay14_apply _ r k).trans ((ldDir2_apply _ r k).trans rfl)

/-! ## The block's sum -/

/-- Three double sums over rows and bones, one per coordinate, regroup into the sum over rows of the sum over coordinates
    and bones. -/
theorem three_sums (T : Fin 3 → Fin 512 → Fin 20 → EReal) :
    (∑ r : Fin 512, ∑ k : Fin 20, T 0 r k) + (∑ r : Fin 512, ∑ k : Fin 20, T 1 r k) + (∑ r : Fin 512, ∑ k : Fin 20, T 2 r k)
      = ∑ r : Fin 512, ∑ a : Fin 3, ∑ k : Fin 20, T a r k := by
  simp only [Fin.sum_univ_three, Finset.sum_add_distrib]

/-- THE KERNEL'S BLOCK SUM: the sum over the block's rows of the frame residual. -/
theorem ker_block (P : FVec Ideal S131073x3x21 .f32) (LD : FVec Ideal S131072x3x20 .f32) (bc : IVec S20x2 32)
    (hP : ∀ i, ∃ r : ℝ, P i = (r : EReal)) (hbc : ∀ i, (bc i).toNat < 21) (t : Fin 256) :
    sumLift (F := Ideal) (dirBlk LD t) (dmOf (F := Ideal) bc) (curBlk P t) (nxtBlk P t) (ix2 0 0)
      = ∑ r : Fin 512, liftFrame P LD bc (frameOf t r) := by
  unfold sumLift
  refine (pay31_apply _ _ _ _ _ _ _).trans ?_
  refine Eq.trans ?_ (three_sums (fun a r k => liftTerm P LD bc (frameOf t r) a k))
  refine congrArg₂ (· + ·) (congrArg₂ (· + ·) ?_ ?_) ?_
  · refine Finset.sum_congr rfl fun r _ => Finset.sum_congr rfl fun k _ => ?_
    rw [dir0_at, boneBlk0 P bc hP hbc, boneBlk1 P bc hP hbc, boneBlk2 P bc hP hbc]
    rfl
  · refine Finset.sum_congr rfl fun r _ => Finset.sum_congr rfl fun k _ => ?_
    rw [dir1_at, boneBlk0 P bc hP hbc, boneBlk1 P bc hP hbc, boneBlk2 P bc hP hbc]
    rfl
  · refine Finset.sum_congr rfl fun r _ => Finset.sum_congr rfl fun k _ => ?_
    rw [dir2_at, boneBlk0 P bc hP hbc, boneBlk1 P bc hP hbc, boneBlk2 P bc hP hbc]
    rfl

end Cert.Val.Lift

end
-- ==== Proof.Val.LiftRef.lean ====
/-
  The reference's lifted-direction total, read one operation at a time, is the sum over the 131072 frames of the frame
  residual.

  The reference drops frame 0 of the trajectory, gathers the two joint columns each bone names (the bone table's words
  first normalised: a negative word would have 21 added, and no word is negative here), subtracts them, normalises by the
  square root of the sum over the three coordinates of the squares plus the small constant, subtracts from the lifted
  directions, squares, and sums over every index.
-/
import proofs.«404832_j45707041964541_3_alg».proof.Proof.Gen.ReferenceIdeal.Read
import proofs.«404832_j45707041964541_3_alg».proof.Proof.Val.LiftFrame
import proofs.«404832_j45707041964541_3_alg».proof.Proof.Val.LiftIdx
import Idealize.ShloMosaic.Lib.ValueIdx
import Idealize.ShloMosaic.Lib.Pipeline.Value
import Idealize.ShloMosaic.Lib.Affine
import Idealize.ShloMosaic.PureOps.Ideal.Laws

noncomputable section

namespace Cert.Val.Lift

open Idealize.ShloMosaic Idealize.SL.Sem Idealize.ShloMosaic.ValueIdx Cert.ReferenceIdeal Cert.ReferenceIdeal.Read
open scoped BigOperators

/-! ## The bone table's columns, normalised -/

/-- A word that is not negative (read signed) does not test below zero. -/
theorem slt_zero_of_nonneg {w : BitVec 32} (h : 0 ≤ w.toInt) : IntOp.cmpi .slt w 0#32 = 0#1 :=
  eq_zero_of_ne_one (fun e => by
    have h1 := IntOp.cmpi_slt.1 e
    have h2 : (0#32 : BitVec 32).toInt = 0 := by decide
    omega)

theorem refWord0 (bc : IVec S20x2 32) (k : Fin 20) : val_main_v1 (F := Ideal) bc (ix1 k) = bc (ix2 k 0) := by
  rw [val_main_v1_apply, val_main_v0_apply]
  exact congrArg bc (funext fun a => Fin.ext (by
    match a with
    | ⟨0, _⟩ => exact Nat.div_one _
    | ⟨1, _⟩ => rfl))

theorem refWord1 (bc : IVec S20x2 32) (k : Fin 20) : val_main_v3 (F := Ideal) bc (ix1 k) = bc (ix2 k 1) := by
  rw [val_main_v3_apply, val_main_v2_apply]
  exact congrArg bc (funext fun a => Fin.ext (by
    match a with
    | ⟨0, _⟩ => exact Nat.div_one _
    | ⟨1, _⟩ => rfl))

/-- The first gather's start index at bone `k`: the bone table's first word, unchanged. -/
theorem refCol0 (bc : IVec S20x2 32) (hbc' : ∀ i, 0 ≤ (bc i).toInt ∧ (bc i).toInt < 21) (k : Fin 20) :
    val_main_v37 (F := Ideal) bc (ix2 k 0) = bc (ix2 k 0) := by
  have e : idx_main_v37 (ix2 k (0 : Fin 1)) = ix1 k := funext fun a => Fin.ext (by match a with | ⟨0, _⟩ => rfl)
  rw [val_main_v37_apply, e, val_main_v36_apply, val_main_v33_apply, val_main_v32_apply, val_main_c_apply, refWord0,
    slt_zero_of_nonneg (hbc' _).1, select_zero]

/-- The second gather's start index at bone `k`: the bone table's second word, unchanged. -/
theorem refCol1 (bc : IVec S20x2 32) (hbc' : ∀ i, 0 ≤ (bc i).toInt ∧ (bc i).toInt < 21) (k : Fin 20) :
    val_main_v44 (F := Ideal) bc (ix2 k 0) = bc (ix2 k 1) := by
  have e : idx_main_v44 (ix2 k (0 : Fin 1)) = ix1 k := funext fun a => Fin.ext (by match a with | ⟨0, _⟩ => rfl)
  rw [val_main_v44_apply, e, val_main_v43_apply, val_main_v40_apply, val_main_v39_apply, val_main_c_6_apply, refWord1,
    slt_zero_of_nonneg (hbc' _).1, select_zero]

/-! ## The gather of joint columns -/

/-- Result axis 0 of the gather reads operand axis 0 at the same coordinate. -/
theorem gather_axis0 (j : S131072x3x20.Idx) (idx : IVec S20x1 32) :
    (gather_S131072x3x21_S20x1_S131072x3x20_01_2_n_n_2_1_13107231.operandIdx j idx 0).val = (j 0).val := by
  show gather_S131072x3x21_S20x1_S131072x3x20_01_2_n_n_2_1_13107231.start j idx 0
      + gather_S131072x3x21_S20x1_S131072x3x20_01_2_n_n_2_1_13107231.batchCoord j 0
      + gather_S131072x3x21_S20x1_S131072x3x20_01_2_n_n_2_1_13107231.offCoord j 0 = _
  rw [GatherDims.batchCoord_eq_zero _ _ _ List.not_mem_nil, Nat.add_zero]
  unfold GatherDims.start GatherDims.offCoord
  rw [dif_neg (show ¬ (0 : Fin 3) ∈ gather_S131072x3x21_S20x1_S131072x3x20_01_2_n_n_2_1_13107231.startIndexMap by decide),
    dif_pos (show (0 : Fin 3) ∈ gather_S131072x3x21_S20x1_S131072x3x20_01_2_n_n_2_1_13107231.sKept by decide), Nat.zero_add]
  rfl

/-- Result axis 1 of the gather reads operand axis 1 at the same coordinate. -/
theorem gather_axis1 (j : S131072x3x20.Idx) (idx : IVec S20x1 32) :
    (gather_S131072x3x21_S20x1_S131072x3x20_01_2_n_n_2_1_13107231.operandIdx j idx 1).val = (j 1).val := by
  show gather_S131072x3x21_S20x1_S131072x3x20_01_2_n_n_2_1_13107231.start j idx 1
      + gather_S131072x3x21_S20x1_S131072x3x20_01_2_n_n_2_1_13107231.batchCoord j 1
      + gather_S131072x3x21_S20x1_S131072x3x20_01_2_n_n_2_1_13107231.offCoord j 1 = _
  rw [GatherDims.batchCoord_eq_zero _ _ _ List.not_mem_nil, Nat.add_zero]
  unfold GatherDims.start GatherDims.offCoord
  rw [dif_neg (show ¬ (1 : Fin 3) ∈ gather_S131072x3x21_S20x1_S131072x3x20_01_2_n_n_2_1_13107231.startIndexMap by decide),
    dif_pos (show (1 : Fin 3) ∈ gather_S131072x3x21_S20x1_S131072x3x20_01_2_n_n_2_1_13107231.sKept by decide), Nat.zero_add]
  rfl

/-- On operand axis 2 the gather reads the joint the start index names. -/
theorem gather_axis2 (j : S131072x3x20.Idx) (idx : IVec S20x1 32) :
    (gather_S131072x3x21_S20x1_S131072x3x20_01_2_n_n_2_1_13107231.operandIdx j idx 2).val
      = (jointOf (idx (ix2 (j 2) 0))).val := by
  show gather_S131072x3x21_S20x1_S131072x3x20_01_2_n_n_2_1_13107231.start j idx 2
      + gather_S131072x3x21_S20x1_S131072x3x20_01_2_n_n_2_1_13107231.batchCoord j 2
      + gather_S131072x3x21_S20x1_S131072x3x20_01_2_n_n_2_1_13107231.offCoord j 2 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (2 : Fin 3) ∈ gather_S131072x3x21_S20x1_S131072x3x20_01_2_n_n_2_1_13107231.startIndexMap from List.mem_singleton.mpr rfl)]
  have hsi : gather_S131072x3x21_S20x1_S131072x3x20_01_2_n_n_2_1_13107231.siIdx j
      ⟨List.idxOf (2 : Fin 3) gather_S131072x3x21_S20x1_S131072x3x20_01_2_n_n_2_1_13107231.startIndexMap,
        List.idxOf_lt_length_iff.2 (List.mem_singleton.mpr rfl)⟩ = ix2 (j 2) 0 := by
    funext c; refine Fin.ext ?_
    match c with
    | ⟨0, _⟩ => rfl
    | ⟨1, _⟩ => rfl
  rw [hsi]
  rfl

/-- The gather of the joint columns a vector of 20 words names, at (i, a, k): the operand at (i, a, joint of word k). -/
theorem gather_col_apply {α : Type} (x : S131072x3x21.Idx → α) (idx : IVec S20x1 32) (i : Fin 131072) (a : Fin 3) (k : Fin 20) :
    Host.gather gather_S131072x3x21_S20x1_S131072x3x20_01_2_n_n_2_1_13107231 x idx (ix3 i a k)
      = x (ix3 i a (jointOf (idx (ix2 k 0)))) := by
  unfold Host.gather
  refine congrArg x (funext fun b => Fin.ext ?_)
  match b with
  | ⟨0, _⟩ => exact gather_axis0 _ _
  | ⟨1, _⟩ => exact gather_axis1 _ _
  | ⟨2, _⟩ => exact gather_axis2 _ _

/-! ## The operations, at an index -/

/-- The trajectory without its frame 0, at (i, a, j). -/
theorem refPose (P : FVec Ideal S131073x3x21 .f32) (i : Fin 131072) (a : Fin 3) (j : Fin 21) :
    val_main_v4 (F := Ideal) P (ix3 i a j) = poseAt P i a j := by
  rw [val_main_v4_apply]
  unfold poseAt
  exact congrArg P (funext fun b => Fin.ext (by
    match b with
    | ⟨0, _⟩ => show 1 + i.val = i.val + 1; omega
    | ⟨1, _⟩ => rfl
    | ⟨2, _⟩ => rfl))

/-- The bone vectors, at (i, a, k). -/
theorem refBone (P : FVec Ideal S131073x3x21 .f32) (bc : IVec S20x2 32) (hbc' : ∀ i, 0 ≤ (bc i).toInt ∧ (bc i).toInt < 21)
    (i : Fin 131072) (a : Fin 3) (k : Fin 20) :
    val_main_v46 (F := Ideal) P bc (ix3 i a k) = boneVec P bc i a k := by
  show val_main_v38 (F := Ideal) P bc (ix3 i a k) - val_main_v45 (F := Ideal) P bc (ix3 i a k) = _
  unfold val_main_v38 val_main_v45 boneVec
  rw [gather_col_apply, gather_col_apply, refCol0 bc hbc', refCol1 bc hbc', refPose, refPose]

/-- The normalisers broadcast over the coordinates, at (i, a, k). -/
theorem refNorm (P : FVec Ideal S131073x3x21 .f32) (bc : IVec S20x2 32) (hbc' : ∀ i, 0 ≤ (bc i).toInt ∧ (bc i).toInt < 21)
    (i : Fin 131072) (a : Fin 3) (k : Fin 20) :
    val_main_v50 (F := Ideal) P bc (ix3 i a k)
      = liftNorm (boneVec P bc i 0 k) (boneVec P bc i 1 k) (boneVec P bc i 2 k) := by
  have hidx : ∀ c : Fin 3, idx_main_call0_v1 (idx_main_call0_v2 (idx_main_v50 (ix3 i a k))) c = ix3 i c k := fun c =>
    funext fun b => Fin.ext (by
      match b with
      | ⟨0, _⟩ => rfl
      | ⟨1, _⟩ => rfl
      | ⟨2, _⟩ => rfl)
  have hsq : ∀ c : Fin 3, val_main_call0_v0 (F := Ideal) P bc (ix3 i c k) = boneVec P bc i c k * boneVec P bc i c k := fun c => by
    rw [val_main_call0_v0_apply, refBone P bc hbc']; rfl
  rw [val_main_v50_apply, val_main_v49_apply, val_main_v47_apply, val_main_call0_v2_apply, val_main_call0_v1_apply,
    val_main_v48_apply, val_main_cst_8_apply, val_main_call0_cst_apply, Fin.sum_univ_three, hidx, hidx, hidx, hsq, hsq, hsq]
  show Ideal.sqrt (Ideal.ofBits .f32 0x00000000#32 + (boneVec P bc i 0 k * boneVec P bc i 0 k + boneVec P bc i 1 k * boneVec P bc i 1 k
      + boneVec P bc i 2 k * boneVec P bc i 2 k)) + Ideal.ofBits .f32 0x322BCC77#32 = _
  rw [Ideal.ofBits_zero_f32, zero_add]
  rfl

/-- The squared residuals, at (i, a, k). -/
theorem refTerm (P : FVec Ideal S131073x3x21 .f32) (LD : FVec Ideal S131072x3x20 .f32) (bc : IVec S20x2 32)
    (hbc' : ∀ i, 0 ≤ (bc i).toInt ∧ (bc i).toInt < 21) (i : Fin 131072) (a : Fin 3) (k : Fin 20) :
    val_main_v53 (F := Ideal) P LD bc (ix3 i a k) = liftTerm P LD bc i a k := by
  rw [val_main_v53_apply, val_main_v52_apply, val_main_v51_apply, refBone P bc hbc', refNorm P bc hbc']
  rfl

/-- THE REFERENCE'S TOTAL: the sum over the frames of the frame residual. -/
theorem ref_total (P : FVec Ideal S131073x3x21 .f32) (LD : FVec Ideal S131072x3x20 .f32) (bc : IVec S20x2 32)
    (hbc' : ∀ i, 0 ≤ (bc i).toInt ∧ (bc i).toInt < 21) :
    val_main_v54 (F := Ideal) P LD bc ix0 = ∑ i : Fin 131072, liftFrame P LD bc i := by
  rw [val_main_v54_apply, val_main_cst_9_apply]
  show Ideal.ofBits .f32 0x00000000#32 + _ = _
  rw [Ideal.ofBits_zero_f32, zero_add, sum_idx3]
  refine Finset.sum_congr rfl fun i _ => ?_
  unfold liftFrame
  exact Finset.sum_congr rfl fun a _ => Finset.sum_congr rfl fun k _ => refTerm P LD bc hbc' i a k

end Cert.Val.Lift

end
-- ==== Proof.Val.Lift.lean ====
/-
  THE LIFT TOTAL: the sum over the 256 grid positions of the kernel's lifted-direction block sum is the reference's
  lifted-direction sum.

  Both are the sum over the 131072 frames of the frame residual: the kernel's block sum at position `t` is the sum over
  rows r of the residual of frame 512 t + r, the 256 blocks of 512 rows cover the frames once each, and the reference's
  sum over every index regroups by frames.
-/
import proofs.«404832_j45707041964541_3_alg».proof.Proof.Val.LiftBlock
import proofs.«404832_j45707041964541_3_alg».proof.Proof.Val.LiftRef
import proofs.«404832_j45707041964541_3_alg».proof.Proof.Val.SmoothReal

noncomputable section

namespace Cert.Val

open Idealize.ShloMosaic Idealize.SL.Sem Idealize.ShloMosaic.ValueIdx Cert.KernelIdeal Cert.KernelIdeal.Gen
open scoped BigOperators

theorem lift_total (P : FVec Ideal S131073x3x21 .f32) (LD : FVec Ideal S131072x3x20 .f32) (bc : IVec S20x2 32)
    (hP : ∀ i, ∃ r : ℝ, P i = (r : EReal)) (hLD : ∀ i, ∃ r : ℝ, LD i = (r : EReal)) (hbc : ∀ i, (bc i).toNat < 21)
    (hbc' : ∀ i, 0 ≤ (bc i).toInt ∧ (bc i).toInt < 21) :
    (∑ t : Fin 256, sumLift (F := Ideal) (rows512 (by decide) LD t) (dmOf (F := Ideal) bc) (rows512 (by decide) (padPose P) t)
        (rows2 (by decide) (padPose P) t) (ix2 0 0))
      = Cert.ReferenceIdeal.Read.val_main_v54 (F := Ideal) P LD bc ix0 := by
  refine ((Finset.sum_congr rfl fun t _ => Lift.ker_block P LD bc hP hbc t).trans ?_).trans (Lift.ref_total P LD bc hbc').symm
  have key := sum_blocks (fun n => if h : n < 131072 then Lift.liftFrame P LD bc ⟨n, h⟩ else 0)
  refine Eq.trans ?_ (key.trans ?_)
  · refine Finset.sum_congr rfl fun t _ => Finset.sum_congr rfl fun r _ => ?_
    have hlt : 512 * t.val + r.val < 131072 := by have := t.isLt; have := r.isLt; omega
    rw [dif_pos hlt]
  · refine Finset.sum_congr rfl fun i _ => ?_
    rw [dif_pos i.isLt]

end Cert.Val

end
-- ==== Proof.Val.ProjBlockRead.lean ====
/-
  The projection loss, kernel side, step 1: the pieces the body loads from its input blocks, and the layout
  operations of the body (views of a unit axis, a column repeated along the joints, a scalar taken out of the 3 x 3
  camera rotation, the block shifted by one frame), each read at one index.
-/
import proofs.«404832_j45707041964541_3_alg».proof.Proof.KI.BlockVals
import proofs.«404832_j45707041964541_3_alg».proof.Proof.KI.Blocks
import Idealize.ShloMosaic.Lib.ValueIdx
import Idealize.ShloMosaic.Lib.Pipeline.Value
import Idealize.ShloMosaic.PureOps.Ideal.Laws

noncomputable section

namespace Cert.Val.Proj

open Idealize.ShloMosaic Idealize.SL.Sem Idealize.ShloMosaic.ValueIdx Cert.KernelIdeal Cert.KernelIdeal.Gen

/-- Image coordinate 0 of the observations, loaded, at (frame r, joint n). -/
theorem ldObs0_at (x0 : Vec Ideal S512x2x21 .f32) (r : Fin 512) (n : Fin 21) :
    ldObs0 x0 (ix3 r 0 n) = x0 (ix3 r 0 n) :=
  congrArg x0 (funext fun a => Fin.ext (by
    match a with
    | ⟨0, _⟩ => show 0 + 1 * r.val = r.val; omega
    | ⟨1, _⟩ => show 0 + 1 * 0 = 0; rfl
    | ⟨2, _⟩ => show 0 + 1 * n.val = n.val; omega))
/-- Image coordinate 1 of the observations, loaded, at (frame r, joint n). -/
theorem ldObs1_at (x0 : Vec Ideal S512x2x21 .f32) (r : Fin 512) (n : Fin 21) :
    ldObs1 x0 (ix3 r 0 n) = x0 (ix3 r 1 n) :=
  congrArg x0 (funext fun a => Fin.ext (by
    match a with
    | ⟨0, _⟩ => show 0 + 1 * r.val = r.val; omega
    | ⟨1, _⟩ => show 1 + 1 * 0 = 1; rfl
    | ⟨2, _⟩ => show 0 + 1 * n.val = n.val; omega))
/-- The camera rotation, loaded whole, at (i, j). -/
theorem ldCam_at (x3 : Vec Ideal S3x3 .f32) (i j : Fin 3) : ldCam x3 (ix2 i j) = x3 (ix2 i j) :=
  congrArg x3 (funext fun a => Fin.ext (by
    match a with
    | ⟨0, _⟩ => show 0 + 1 * i.val = i.val; omega
    | ⟨1, _⟩ => show 0 + 1 * j.val = j.val; omega))
/-- Coordinate 0 of the block's own frames, loaded, at (frame r, joint n). -/
theorem ldCur0_at (x7 : Vec Ideal S512x3x21 .f32) (r : Fin 512) (n : Fin 21) :
    ldCur0 x7 (ix3 r 0 n) = x7 (ix3 r 0 n) :=
  congrArg x7 (funext fun a => Fin.ext (by
    match a with
    | ⟨0, _⟩ => show 0 + 1 * r.val = r.val; omega
    | ⟨1, _⟩ => show 0 + 1 * 0 = 0; rfl
    | ⟨2, _⟩ => show 0 + 1 * n.val = n.val; omega))
/-- Coordinate 1 of the block's own frames, loaded, at (frame r, joint n). -/
theorem ldCur1_at (x7 : Vec Ideal S512x3x21 .f32) (r : Fin 512) (n : Fin 21) :
    ldCur1 x7 (ix3 r 0 n) = x7 (ix3 r 1 n) :=
  congrArg x7 (funext fun a => Fin.ext (by
    match a with
    | ⟨0, _⟩ => show 0 + 1 * r.val = r.val; omega
    | ⟨1, _⟩ => show 1 + 1 * 0 = 1; rfl
    | ⟨2, _⟩ => show 0 + 1 * n.val = n.val; omega))
/-- Coordinate 2 of the block's own frames, loaded, at (frame r, joint n). -/
theorem ldCur2_at (x7 : Vec Ideal S512x3x21 .f32) (r : Fin 512) (n : Fin 21) :
    ldCur2 x7 (ix3 r 0 n) = x7 (ix3 r 2 n) :=
  congrArg x7 (funext fun a => Fin.ext (by
    match a with
    | ⟨0, _⟩ => show 0 + 1 * r.val = r.val; omega
    | ⟨1, _⟩ => show 2 + 1 * 0 = 2; rfl
    | ⟨2, _⟩ => show 0 + 1 * n.val = n.val; omega))
/-- Coordinate 0 of the two following frames, loaded, at (frame q, joint n). -/
theorem ldNxt0_at (x8 : Vec Ideal S2x3x21 .f32) (q : Fin 2) (n : Fin 21) :
    ldNxt0 x8 (ix3 q 0 n) = x8 (ix3 q 0 n) :=
  congrArg x8 (funext fun a => Fin.ext (by
    match a with
    | ⟨0, _⟩ => show 0 + 1 * q.val = q.val; omega
    | ⟨1, _⟩ => show 0 + 1 * 0 = 0; rfl
    | ⟨2, _⟩ => show 0 + 1 * n.val = n.val; omega))
/-- Coordinate 1 of the two following frames, loaded, at (frame q, joint n). -/
theorem ldNxt1_at (x8 : Vec Ideal S2x3x21 .f32) (q : Fin 2) (n : Fin 21) :
    ldNxt1 x8 (ix3 q 0 n) = x8 (ix3 q 1 n) :=
  congrArg x8 (funext fun a => Fin.ext (by
    match a with
    | ⟨0, _⟩ => show 0 + 1 * q.val = q.val; omega
    | ⟨1, _⟩ => show 1 + 1 * 0 = 1; rfl
    | ⟨2, _⟩ => show 0 + 1 * n.val = n.val; omega))
/-- Coordinate 2 of the two following frames, loaded, at (frame q, joint n). -/
theorem ldNxt2_at (x8 : Vec Ideal S2x3x21 .f32) (q : Fin 2) (n : Fin 21) :
    ldNxt2 x8 (ix3 q 0 n) = x8 (ix3 q 2 n) :=
  congrArg x8 (funext fun a => Fin.ext (by
    match a with
    | ⟨0, _⟩ => show 0 + 1 * q.val = q.val; omega
    | ⟨1, _⟩ => show 2 + 1 * 0 = 2; rfl
    | ⟨2, _⟩ => show 0 + 1 * n.val = n.val; omega))
/-- Coordinate 0 of the drone positions, loaded, at frame r. -/
theorem ldPos0_at (x4 : Vec Ideal S512x3x1 .f32) (r : Fin 512) :
    ldPos0 x4 (ix3 r 0 0) = x4 (ix3 r 0 0) :=
  congrArg x4 (funext fun a => Fin.ext (by
    match a with
    | ⟨0, _⟩ => show 0 + 1 * r.val = r.val; omega
    | ⟨1, _⟩ => show 0 + 1 * 0 = 0; rfl
    | ⟨2, _⟩ => show 0 + 1 * 0 = 0; rfl))
/-- Coordinate 1 of the drone positions, loaded, at frame r. -/
theorem ldPos1_at (x4 : Vec Ideal S512x3x1 .f32) (r : Fin 512) :
    ldPos1 x4 (ix3 r 0 0) = x4 (ix3 r 1 0) :=
  congrArg x4 (funext fun a => Fin.ext (by
    match a with
    | ⟨0, _⟩ => show 0 + 1 * r.val = r.val; omega
    | ⟨1, _⟩ => show 1 + 1 * 0 = 1; rfl
    | ⟨2, _⟩ => show 0 + 1 * 0 = 0; rfl))
/-- Coordinate 2 of the drone positions, loaded, at frame r. -/
theorem ldPos2_at (x4 : Vec Ideal S512x3x1 .f32) (r : Fin 512) :
    ldPos2 x4 (ix3 r 0 0) = x4 (ix3 r 2 0) :=
  congrArg x4 (funext fun a => Fin.ext (by
    match a with
    | ⟨0, _⟩ => show 0 + 1 * r.val = r.val; omega
    | ⟨1, _⟩ => show 2 + 1 * 0 = 2; rfl
    | ⟨2, _⟩ => show 0 + 1 * 0 = 0; rfl))
/-- Entry (0, 0) of the drone rotations, loaded, at frame r. -/
theorem ldRot00_at (x2 : Vec Ideal S512x3x3 .f32) (r : Fin 512) :
    ldRot00 x2 (ix3 r 0 0) = x2 (ix3 r 0 0) :=
  congrArg x2 (funext fun a => Fin.ext (by
    match a with
    | ⟨0, _⟩ => show 0 + 1 * r.val = r.val; omega
    | ⟨1, _⟩ => show 0 + 1 * 0 = 0; rfl
    | ⟨2, _⟩ => show 0 + 1 * 0 = 0; rfl))
/-- Entry (0, 1) of the drone rotations, loaded, at frame r. -/
theorem ldRot01_at (x2 : Vec Ideal S512x3x3 .f32) (r : Fin 512) :
    ldRot01 x2 (ix3 r 0 0) = x2 (ix3 r 0 1) :=
  congrArg x2 (funext fun a => Fin.ext (by
    match a with
    | ⟨0, _⟩ => show 0 + 1 * r.val = r.val; omega
    | ⟨1, _⟩ => show 0 + 1 * 0 = 0; rfl
    | ⟨2, _⟩ => show 1 + 1 * 0 = 1; rfl))
/-- Entry (0, 2) of the drone rotations, loaded, at frame r. -/
theorem ldRot02_at (x2 : Vec Ideal S512x3x3 .f32) (r : Fin 512) :
    ldRot02 x2 (ix3 r 0 0) = x2 (ix3 r 0 2) :=
  congrArg x2 (funext fun a => Fin.ext (by
    match a with
    | ⟨0, _⟩ => show 0 + 1 * r.val = r.val; omega
    | ⟨1, _⟩ => show 0 + 1 * 0 = 0; rfl
    | ⟨2, _⟩ => show 2 + 1 * 0 = 2; rfl))
/-- Entry (1, 0) of the drone rotations, loaded, at frame r. -/
theorem ldRot10_at (x2 : Vec Ideal S512x3x3 .f32) (r : Fin 512) :
    ldRot10 x2 (ix3 r 0 0) = x2 (ix3 r 1 0) :=
  congrArg x2 (funext fun a => Fin.ext (by
    match a with
    | ⟨0, _⟩ => show 0 + 1 * r.val = r.val; omega
    | ⟨1, _⟩ => show 1 + 1 * 0 = 1; rfl
    | ⟨2, _⟩ => show 0 + 1 * 0 = 0; rfl))
/-- Entry (1, 1) of the drone rotations, loaded, at frame r. -/
theorem ldRot11_at (x2 : Vec Ideal S512x3x3 .f32) (r : Fin 512) :
    ldRot11 x2 (ix3 r 0 0) = x2 (ix3 r 1 1) :=
  congrArg x2 (funext fun a => Fin.ext (by
    match a with
    | ⟨0, _⟩ => show 0 + 1 * r.val = r.val; omega
    | ⟨1, _⟩ => show 1 + 1 * 0 = 1; rfl
    | ⟨2, _⟩ => show 1 + 1 * 0 = 1; rfl))
/-- Entry (1, 2) of the drone rotations, loaded, at frame r. -/
theorem ldRot12_at (x2 : Vec Ideal S512x3x3 .f32) (r : Fin 512) :
    ldRot12 x2 (ix3 r 0 0) = x2 (ix3 r 1 2) :=
  congrArg x2 (funext fun a => Fin.ext (by
    match a with
    | ⟨0, _⟩ => show 0 + 1 * r.val = r.val; omega
    | ⟨1, _⟩ => show 1 + 1 * 0 = 1; rfl
    | ⟨2, _⟩ => show 2 + 1 * 0 = 2; rfl))
/-- Entry (2, 0) of the drone rotations, loaded, at frame r. -/
theorem ldRot20_at (x2 : Vec Ideal S512x3x3 .f32) (r : Fin 512) :
    ldRot20 x2 (ix3 r 0 0) = x2 (ix3 r 2 0) :=
  congrArg x2 (funext fun a => Fin.ext (by
    match a with
    | ⟨0, _⟩ => show 0 + 1 * r.val = r.val; omega
    | ⟨1, _⟩ => show 2 + 1 * 0 = 2; rfl
    | ⟨2, _⟩ => show 0 + 1 * 0 = 0; rfl))
/-- Entry (2, 1) of the drone rotations, loaded, at frame r. -/
theorem ldRot21_at (x2 : Vec Ideal S512x3x3 .f32) (r : Fin 512) :
    ldRot21 x2 (ix3 r 0 0) = x2 (ix3 r 2 1) :=
  congrArg x2 (funext fun a => Fin.ext (by
    match a with
    | ⟨0, _⟩ => show 0 + 1 * r.val = r.val; omega
    | ⟨1, _⟩ => show 2 + 1 * 0 = 2; rfl
    | ⟨2, _⟩ => show 1 + 1 * 0 = 1; rfl))
/-- Entry (2, 2) of the drone rotations, loaded, at frame r. -/
theorem ldRot22_at (x2 : Vec Ideal S512x3x3 .f32) (r : Fin 512) :
    ldRot22 x2 (ix3 r 0 0) = x2 (ix3 r 2 2) :=
  congrArg x2 (funext fun a => Fin.ext (by
    match a with
    | ⟨0, _⟩ => show 0 + 1 * r.val = r.val; omega
    | ⟨1, _⟩ => show 2 + 1 * 0 = 2; rfl
    | ⟨2, _⟩ => show 2 + 1 * 0 = 2; rfl))

/-- A [512,1,21] piece viewed [512,21], at (r, n). -/
theorem cast21_at (v : FVec Ideal S512x1x21 .f32) (h : S512x1x21.ShapeCasts S512x21) (r : Fin 512) (n : Fin 21) :
    shapeCast S512x21 v h (ix2 r n) = v (ix3 r 0 n) :=
  shapeCast_apply v h (ix2 r n) (ix3 r 0 n)
    (by rewrite [Shape.rowMajor_val_three, Shape.rowMajor_val_two]; show (r.val * 1 + 0) * 21 + n.val = r.val * 21 + n.val; omega)

/-- A [2,1,21] piece viewed [2,21], at (q, n). -/
theorem cast2_at (v : FVec Ideal S2x1x21 .f32) (h : S2x1x21.ShapeCasts S2x21) (q : Fin 2) (n : Fin 21) :
    shapeCast S2x21 v h (ix2 q n) = v (ix3 q 0 n) :=
  shapeCast_apply v h (ix2 q n) (ix3 q 0 n)
    (by rewrite [Shape.rowMajor_val_three, Shape.rowMajor_val_two]; show (q.val * 1 + 0) * 21 + n.val = q.val * 21 + n.val; omega)

/-- A [512,1,1] piece viewed [512,1], at (r, 0). -/
theorem cast1_at (v : FVec Ideal S512x1x1 .f32) (h : S512x1x1.ShapeCasts S512x1) (r : Fin 512) :
    shapeCast S512x1 v h (ix2 r 0) = v (ix3 r 0 0) :=
  shapeCast_apply v h (ix2 r 0) (ix3 r 0 0)
    (by rewrite [Shape.rowMajor_val_three, Shape.rowMajor_val_two]; show (r.val * 1 + 0) * 1 + 0 = r.val * 1 + 0; omega)

/-- A column broadcast along the joints, at (r, n). -/
theorem bcastCol_at (v : FVec Ideal S512x1 .f32) (h : S512x1.Broadcasts S512x21) (r : Fin 512) (n : Fin 21) :
    broadcastTo S512x21 v h (ix2 r n) = v (ix2 r 0) :=
  broadcastTo_apply v h (ix2 r n) (ix2 r 0) (fun a => match a with
    | ⟨0, _⟩ => by show r.val = if (512 : Nat) = 1 then 0 else r.val; rw [if_neg (by decide)]
    | ⟨1, _⟩ => by show 0 = if (1 : Nat) = 1 then 0 else n.val; rw [if_pos rfl])

/-- The scalar taken out of entry (0, 0) of a 3 x 3 matrix. -/
theorem rc00 (v : FVec Ideal S3x3 .f32) (hs : S3x3.Slices ![0, 0] S1x1) (hp : ∀ a, (![0, 0] : Fin 2 → Nat) a < S1x1.size a) :
    extractAt ![0, 0] (extractStridedSlice S1x1 ![0, 0] v hs) hp = v (ix2 0 0) :=
  congrArg v (funext fun a => Fin.ext (by
    match a with
    | ⟨0, _⟩ => rfl
    | ⟨1, _⟩ => rfl))
/-- The scalar taken out of entry (0, 1) of a 3 x 3 matrix. -/
theorem rc01 (v : FVec Ideal S3x3 .f32) (hs : S3x3.Slices ![0, 1] S1x1) (hp : ∀ a, (![0, 0] : Fin 2 → Nat) a < S1x1.size a) :
    extractAt ![0, 0] (extractStridedSlice S1x1 ![0, 1] v hs) hp = v (ix2 0 1) :=
  congrArg v (funext fun a => Fin.ext (by
    match a with
    | ⟨0, _⟩ => rfl
    | ⟨1, _⟩ => rfl))
/-- The scalar taken out of entry (0, 2) of a 3 x 3 matrix. -/
theorem rc02 (v : FVec Ideal S3x3 .f32) (hs : S3x3.Slices ![0, 2] S1x1) (hp : ∀ a, (![0, 0] : Fin 2 → Nat) a < S1x1.size a) :
    extractAt ![0, 0] (extractStridedSlice S1x1 ![0, 2] v hs) hp = v (ix2 0 2) :=
  congrArg v (funext fun a => Fin.ext (by
    match a with
    | ⟨0, _⟩ => rfl
    | ⟨1, _⟩ => rfl))
/-- The scalar taken out of entry (1, 0) of a 3 x 3 matrix. -/
theorem rc10 (v : FVec Ideal S3x3 .f32) (hs : S3x3.Slices ![1, 0] S1x1) (hp : ∀ a, (![0, 0] : Fin 2 → Nat) a < S1x1.size a) :
    extractAt ![0, 0] (extractStridedSlice S1x1 ![1, 0] v hs) hp = v (ix2 1 0) :=
  congrArg v (funext fun a => Fin.ext (by
    match a with
    | ⟨0, _⟩ => rfl
    | ⟨1, _⟩ => rfl))
/-- The scalar taken out of entry (1, 1) of a 3 x 3 matrix. -/
theorem rc11 (v : FVec Ideal S3x3 .f32) (hs : S3x3.Slices ![1, 1] S1x1) (hp : ∀ a, (![0, 0] : Fin 2 → Nat) a < S1x1.size a) :
    extractAt ![0, 0] (extractStridedSlice S1x1 ![1, 1] v hs) hp = v (ix2 1 1) :=
  congrArg v (funext fun a => Fin.ext (by
    match a with
    | ⟨0, _⟩ => rfl
    | ⟨1, _⟩ => rfl))
/-- The scalar taken out of entry (1, 2) of a 3 x 3 matrix. -/
theorem rc12 (v : FVec Ideal S3x3 .f32) (hs : S3x3.Slices ![1, 2] S1x1) (hp : ∀ a, (![0, 0] : Fin 2 → Nat) a < S1x1.size a) :
    extractAt ![0, 0] (extractStridedSlice S1x1 ![1, 2] v hs) hp = v (ix2 1 2) :=
  congrArg v (funext fun a => Fin.ext (by
    match a with
    | ⟨0, _⟩ => rfl
    | ⟨1, _⟩ => rfl))
/-- The scalar taken out of entry (2, 0) of a 3 x 3 matrix. -/
theorem rc20 (v : FVec Ideal S3x3 .f32) (hs : S3x3.Slices ![2, 0] S1x1) (hp : ∀ a, (![0, 0] : Fin 2 → Nat) a < S1x1.size a) :
    extractAt ![0, 0] (extractStridedSlice S1x1 ![2, 0] v hs) hp = v (ix2 2 0) :=
  congrArg v (funext fun a => Fin.ext (by
    match a with
    | ⟨0, _⟩ => rfl
    | ⟨1, _⟩ => rfl))
/-- The scalar taken out of entry (2, 1) of a 3 x 3 matrix. -/
theorem rc21 (v : FVec Ideal S3x3 .f32) (hs : S3x3.Slices ![2, 1] S1x1) (hp : ∀ a, (![0, 0] : Fin 2 → Nat) a < S1x1.size a) :
    extractAt ![0, 0] (extractStridedSlice S1x1 ![2, 1] v hs) hp = v (ix2 2 1) :=
  congrArg v (funext fun a => Fin.ext (by
    match a with
    | ⟨0, _⟩ => rfl
    | ⟨1, _⟩ => rfl))
/-- The scalar taken out of entry (2, 2) of a 3 x 3 matrix. -/
theorem rc22 (v : FVec Ideal S3x3 .f32) (hs : S3x3.Slices ![2, 2] S1x1) (hp : ∀ a, (![0, 0] : Fin 2 → Nat) a < S1x1.size a) :
    extractAt ![0, 0] (extractStridedSlice S1x1 ![2, 2] v hs) hp = v (ix2 2 2) :=
  congrArg v (funext fun a => Fin.ext (by
    match a with
    | ⟨0, _⟩ => rfl
    | ⟨1, _⟩ => rfl))

/-- The block shifted by one frame: rows 1 … 511 of the block, then row 0 of the two following frames. -/
theorem shift_at (v22 : FVec Ideal S512x21 .f32) (v27 : Vec Ideal S2x1x21 .f32) (r : Fin 512) (n : Fin 21) :
    k0_pay21 v22 v27 (ix2 r n) = if h : r.val + 1 < 512 then v22 (ix2 ⟨r.val + 1, h⟩ n) else v27 (ix3 0 0 n) := by
  unfold k0_pay21 k0_pay18
  by_cases h : r.val + 1 < 512
  · rw [dif_pos h]
    refine (concatenate_pair_apply_left _ _ _ concatenates_S511x21_S1x21_S512x21_d0 (ix2 r n) rfl (ix2 ⟨r.val, by omega⟩ n)
      (fun b => match b with | ⟨0, _⟩ => rfl | ⟨1, _⟩ => rfl)).trans ?_
    exact congrArg v22 (funext fun a => Fin.ext (by
      match a with
      | ⟨0, _⟩ => show 1 + r.val = r.val + 1; omega
      | ⟨1, _⟩ => show 0 + n.val = n.val; omega))
  · rw [dif_neg h]
    refine (concatenate_pair_apply_right _ _ _ concatenates_S511x21_S1x21_S512x21_d0 (ix2 r n) rfl rfl (ix2 0 n)
      (fun b hb => match b with | ⟨0, _⟩ => (hb (Fin.ext rfl)).elim | ⟨1, _⟩ => rfl)
      (by show 0 + 511 = r.val; have := r.isLt; omega)).trans ?_
    refine (extractStridedSlice_apply _ _ _ (ix2 0 n) (ix2 0 n) (fun a => match a with
      | ⟨0, _⟩ => by show 0 = 0 + 0; rfl
      | ⟨1, _⟩ => by show n.val = 0 + n.val; omega)).trans ?_
    exact cast2_at v27 _ 0 n

end Cert.Val.Proj

end
-- ==== Proof.Val.ProjBlockCam.lean ====
/-
  The projection loss, kernel side, step 2: at one (frame, joint) of a block, the relative position and the camera
  coordinates 0 and 1 the body computes, as plain extended-real arithmetic of the block entries (the body's own order
  of operations, starting from zero).
-/
import proofs.«404832_j45707041964541_3_alg».proof.Proof.KI.BlockVals
import proofs.«404832_j45707041964541_3_alg».proof.Proof.KI.Blocks
import Idealize.ShloMosaic.Lib.ValueIdx
import Idealize.ShloMosaic.Lib.Pipeline.Value
import Idealize.ShloMosaic.PureOps.Ideal.Laws
import proofs.«404832_j45707041964541_3_alg».proof.Proof.Val.ProjBlockRead

noncomputable section

namespace Cert.Val.Proj

open Idealize.ShloMosaic Idealize.SL.Sem Idealize.ShloMosaic.ValueIdx Cert.KernelIdeal Cert.KernelIdeal.Gen

/-- The shifted block of the second and third coordinates (the same operations as for the first). -/
theorem shift22_at (v24 : FVec Ideal S512x21 .f32) (v29 : Vec Ideal S2x1x21 .f32) (r : Fin 512) (n : Fin 21) :
    k0_pay22 v24 v29 (ix2 r n) = if h : r.val + 1 < 512 then v24 (ix2 ⟨r.val + 1, h⟩ n) else v29 (ix3 0 0 n) :=
  shift_at v24 v29 r n
theorem shift23_at (v25 : Vec Ideal S512x1x21 .f32) (v31 : Vec Ideal S2x1x21 .f32) (r : Fin 512) (n : Fin 21) :
    k0_pay23 v25 v31 (ix2 r n) = if h : r.val + 1 < 512 then k0_pay17 v25 (ix2 ⟨r.val + 1, h⟩ n) else v31 (ix3 0 0 n) :=
  shift_at (k0_pay17 v25) v31 r n

/-! ## The block-level quantities -/

/-- Frame r + 1 of the block's trajectory, counting into the two following frames at the block's end. -/
def bShift (x7 : Vec Ideal S512x3x21 .f32) (x8 : Vec Ideal S2x3x21 .f32) (k : Fin 3) (r : Fin 512) (n : Fin 21) : EReal :=
  if h : r.val + 1 < 512 then x7 (ix3 ⟨r.val + 1, h⟩ k n) else x8 (ix3 0 k n)

/-- The joint's position relative to the drone. -/
def bRel (x4 : Vec Ideal S512x3x1 .f32) (x7 : Vec Ideal S512x3x21 .f32) (x8 : Vec Ideal S2x3x21 .f32) (k : Fin 3) (r : Fin 512) (n : Fin 21) : EReal :=
  bShift x7 x8 k r n - x4 (ix3 r k 0)

/-- Entry (i, k) of the camera rotation times the transposed drone rotation, summed in the body's order. -/
def bCoef (x2 : Vec Ideal S512x3x3 .f32) (x3 : Vec Ideal S3x3 .f32) (i k : Fin 3) (r : Fin 512) : EReal :=
  (x3 (ix2 i 0) * x2 (ix3 r k 0) + x3 (ix2 i 1) * x2 (ix3 r k 1)) + x3 (ix2 i 2) * x2 (ix3 r k 2)

/-- Camera coordinate i of the relative position, summed in the body's order from zero. -/
def bCam (x2 : Vec Ideal S512x3x3 .f32) (x3 : Vec Ideal S3x3 .f32) (x4 : Vec Ideal S512x3x1 .f32) (x7 : Vec Ideal S512x3x21 .f32)
    (x8 : Vec Ideal S2x3x21 .f32) (i : Fin 3) (r : Fin 512) (n : Fin 21) : EReal :=
  ((0 + bCoef x2 x3 i 0 r * bRel x4 x7 x8 0 r n) + bCoef x2 x3 i 1 r * bRel x4 x7 x8 1 r n) + bCoef x2 x3 i 2 r * bRel x4 x7 x8 2 r n

theorem rel0_at (x4 : Vec Ideal S512x3x1 .f32) (x7 : Vec Ideal S512x3x21 .f32) (x8 : Vec Ideal S2x3x21 .f32) (r : Fin 512) (n : Fin 21) :
    rel0 x4 x7 x8 (ix2 r n) = bRel x4 x7 x8 0 r n := by
  unfold rel0 k0_pay32 k0_pay15
  simp only [subf_apply, shift_at, bcastCol_at, cast1_at, cast21_at, ldCur0_at, ldNxt0_at, ldPos0_at]
  rfl
theorem rel1_at (x4 : Vec Ideal S512x3x1 .f32) (x7 : Vec Ideal S512x3x21 .f32) (x8 : Vec Ideal S2x3x21 .f32) (r : Fin 512) (n : Fin 21) :
    rel1 x4 x7 x8 (ix2 r n) = bRel x4 x7 x8 1 r n := by
  unfold rel1 k0_pay33 k0_pay16
  simp only [subf_apply, shift22_at, bcastCol_at, cast1_at, cast21_at, ldCur1_at, ldNxt1_at, ldPos1_at]
  rfl
theorem rel2_at (x4 : Vec Ideal S512x3x1 .f32) (x7 : Vec Ideal S512x3x21 .f32) (x8 : Vec Ideal S2x3x21 .f32) (r : Fin 512) (n : Fin 21) :
    rel2 x4 x7 x8 (ix2 r n) = bRel x4 x7 x8 2 r n := by
  unfold rel2 k0_pay34
  simp only [subf_apply, shift23_at, bcastCol_at, cast1_at, ldNxt2_at, ldPos2_at]
  unfold k0_pay17
  simp only [cast21_at, ldCur2_at]
  rfl

/-! ## The camera coordinates at (frame r, joint n) of the block -/

theorem camX_at (x2 : Vec Ideal S512x3x3 .f32) (x3 : Vec Ideal S3x3 .f32) (x4 : Vec Ideal S512x3x1 .f32) (x7 : Vec Ideal S512x3x21 .f32)
    (x8 : Vec Ideal S2x3x21 .f32) (r : Fin 512) (n : Fin 21) :
    camX x2 x3 x4 x7 x8 (ix2 r n) = bCam x2 x3 x4 x7 x8 0 r n := by
  unfold camX k0_pay46 k0_pay45 k0_pay44 k0_pay43 k0_pay42 k0_pay41 k0_pay40 k0_pay39 k0_pay38 k0_pay37 k0_pay36 k0_pay35
  simp only [addf_apply, mulf_apply, subf_apply, divf_apply, broadcast_apply, bcastCol_at, cast1_at, cast21_at, ldCam_at, ldObs0_at, ldObs1_at, ldRot00_at, ldRot01_at, ldRot02_at, ldRot10_at, ldRot11_at, ldRot12_at, ldRot20_at, ldRot21_at, ldRot22_at, rc00, rc01, rc02, rc10, rc11, rc12, rc20, rc21, rc22, rel0_at, rel1_at, rel2_at, Ideal.ofBits_def, Ideal.ofBits_zero_f32]
  rfl

theorem camY_at (x2 : Vec Ideal S512x3x3 .f32) (x3 : Vec Ideal S3x3 .f32) (x4 : Vec Ideal S512x3x1 .f32) (x7 : Vec Ideal S512x3x21 .f32)
    (x8 : Vec Ideal S2x3x21 .f32) (r : Fin 512) (n : Fin 21) :
    camY x2 x3 x4 x7 x8 (ix2 r n) = bCam x2 x3 x4 x7 x8 1 r n := by
  unfold camY camY0 k0_pay49 k0_pay48 k0_pay47 k0_pay43 k0_pay42 k0_pay41 k0_pay40 k0_pay39 k0_pay38 k0_pay37 k0_pay36 k0_pay35
  simp only [addf_apply, mulf_apply, subf_apply, divf_apply, broadcast_apply, bcastCol_at, cast1_at, cast21_at, ldCam_at, ldObs0_at, ldObs1_at, ldRot00_at, ldRot01_at, ldRot02_at, ldRot10_at, ldRot11_at, ldRot12_at, ldRot20_at, ldRot21_at, ldRot22_at, rc00, rc01, rc02, rc10, rc11, rc12, rc20, rc21, rc22, rel0_at, rel1_at, rel2_at, Ideal.ofBits_def, Ideal.ofBits_zero_f32]
  rfl

end Cert.Val.Proj

end
-- ==== Proof.Val.ProjCam.lean ====
/-
  The projection loss as plain extended-real arithmetic of the argument arrays: the relative position of a joint, the
  camera coordinates in the kernel's order of summation and in the reference's, the squared residuals; the two orders
  agree over real entries; a sum over a rank-3 index set by coordinates; and the 131072 frames cut into 256 blocks of 512.
-/
import proofs.«404832_j45707041964541_3_alg».proof.KernelIdeal
import Idealize.ShloMosaic.Lib.ValueIdx
import Idealize.ShloMosaic.PureOps.Ideal.Laws
import Mathlib.Data.EReal.Basic
import Mathlib.Data.EReal.Operations
import Mathlib.Algebra.BigOperators.Fin
import Mathlib.Tactic.Ring

noncomputable section

namespace Cert.Val.Proj

open Idealize.ShloMosaic Idealize.ShloMosaic.ValueIdx Cert.KernelIdeal
open scoped BigOperators

/-- 512 and 288, as both programs write them. -/
def c512 : EReal := Ideal.ofBits .f32 0x44000000#32
def c288 : EReal := Ideal.ofBits .f32 0x43900000#32

/-- One squared residual of the pinhole projection: ((512 · c) / z + off − obs)². The division is the extended reals'
    total one, the same function in both programs; it is never opened. -/
def sq (c z off obs : EReal) : EReal :=
  ((Ideal.div (c512 * c) z + off) - obs) * ((Ideal.div (c512 * c) z + off) - obs)

section Arrays

variable (P : FVec Ideal S131073x3x21 .f32) (B2 : FVec Ideal S131072x2x21 .f32) (RD : FVec Ideal S131072x3x3 .f32)
  (CD : FVec Ideal S131072x3x1 .f32) (RC : FVec Ideal S3x3 .f32)

/-- Coordinate k of joint n at frame w + 1, relative to the drone's position at observation w. -/
def rel (w : Fin 131072) (k : Fin 3) (n : Fin 21) : EReal :=
  P (ix3 ⟨w.val + 1, by have := w.isLt; omega⟩ k n) - CD (ix3 w k 0)

/-- Entry (i, k) of the camera rotation times the transposed drone rotation of observation w, summed left to right. -/
def coef (i k : Fin 3) (w : Fin 131072) : EReal :=
  (RC (ix2 i 0) * RD (ix3 w k 0) + RC (ix2 i 1) * RD (ix3 w k 1)) + RC (ix2 i 2) * RD (ix3 w k 2)

/-- Camera coordinate i of joint n at observation w, as the kernel sums it: from zero, coordinate by coordinate. -/
def camK (i : Fin 3) (w : Fin 131072) (n : Fin 21) : EReal :=
  ((0 + coef RD RC i 0 w * rel P CD w 0 n) + coef RD RC i 1 w * rel P CD w 1 n) + coef RD RC i 2 w * rel P CD w 2 n

/-- The same camera coordinate as the reference's two contractions give it. -/
def cam (i : Fin 3) (w : Fin 131072) (n : Fin 21) : EReal :=
  ∑ k : Fin 3, (∑ j : Fin 3, RD (ix3 w k j) * RC (ix2 i j)) * rel P CD w k n

/-- The two squared residuals of joint n at observation w. -/
def resid0 (w : Fin 131072) (n : Fin 21) : EReal :=
  sq (cam P RD CD RC 0 w n) (cam P RD CD RC 2 w n) c512 (B2 (ix3 w 0 n))
def resid1 (w : Fin 131072) (n : Fin 21) : EReal :=
  sq (cam P RD CD RC 1 w n) (cam P RD CD RC 2 w n) c288 (B2 (ix3 w 1 n))

end Arrays

/-- An array of extended reals that is real at every entry is the image of an array of reals. -/
theorem real_fun {ι : Type} (a : ι → EReal) (h : ∀ i, ∃ r : ℝ, a i = (r : EReal)) : ∃ f : ι → ℝ, a = fun i => (f i : EReal) := by
  choose f hf using h
  exact ⟨f, funext hf⟩

/-- Over real entries the kernel's camera coordinate is the reference's: both are the same polynomial in the entries. -/
theorem camK_eq_cam (P : FVec Ideal S131073x3x21 .f32) (RD : FVec Ideal S131072x3x3 .f32) (CD : FVec Ideal S131072x3x1 .f32)
    (RC : FVec Ideal S3x3 .f32) (hP : ∀ i, ∃ r : ℝ, P i = (r : EReal)) (hRD : ∀ i, ∃ r : ℝ, RD i = (r : EReal))
    (hCD : ∀ i, ∃ r : ℝ, CD i = (r : EReal)) (hRC : ∀ i, ∃ r : ℝ, RC i = (r : EReal)) (i : Fin 3) (w : Fin 131072) (n : Fin 21) :
    camK P RD CD RC i w n = cam P RD CD RC i w n := by
  obtain ⟨p, rfl⟩ := real_fun P hP
  obtain ⟨d, rfl⟩ := real_fun RD hRD
  obtain ⟨c, rfl⟩ := real_fun CD hCD
  obtain ⟨q, rfl⟩ := real_fun RC hRC
  unfold camK cam coef rel
  simp only [Fin.sum_univ_three, zero_add, ← EReal.coe_mul, ← EReal.coe_add, ← EReal.coe_sub]
  congr 1
  ring

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Blocks of 512 frames -/

/-- Frame r of block t. -/
def fr (t : Fin 256) (r : Fin 512) : Fin 131072 := ⟨512 * t.val + r.val, by have := t.isLt; have := r.isLt; omega⟩

/-- The 256 blocks of 512 frames are the 131072 frames. -/
def frameEquiv : Fin 256 × Fin 512 ≃ Fin 131072 where
  toFun p := fr p.1 p.2
  invFun w := (⟨w.val / 512, by have := w.isLt; omega⟩, ⟨w.val % 512, by omega⟩)
  left_inv p := by
    obtain ⟨⟨a, ha⟩, ⟨b, hb⟩⟩ := p
    refine Prod.ext (Fin.ext ?_) (Fin.ext ?_)
    · show (512 * a + b) / 512 = a; omega
    · show (512 * a + b) % 512 = b; omega
  right_inv w := Fin.ext (by show 512 * (w.val / 512) + w.val % 512 = w.val; omega)

/-- A sum over the blocks of the sums over their frames is the sum over all frames. -/
theorem sum_frames {M : Type*} [AddCommMonoid M] (G : Fin 131072 → M) :
    ∑ t : Fin 256, ∑ r : Fin 512, G (fr t r) = ∑ w : Fin 131072, G w := by
  rw [← Equiv.sum_comp frameEquiv G, Fintype.sum_prod_type]
  rfl

end Cert.Val.Proj

end
-- ==== Proof.Val.ProjBlockSum.lean ====
/-
  The projection loss, kernel side, step 3: the body's sum over a block's frames and joints, and with it the whole
  projection sum of one grid point as the two image coordinates' squared residuals over the block's entries.
-/
import proofs.«404832_j45707041964541_3_alg».proof.Proof.KI.BlockVals
import proofs.«404832_j45707041964541_3_alg».proof.Proof.KI.Blocks
import Idealize.ShloMosaic.Lib.ValueIdx
import Idealize.ShloMosaic.Lib.Pipeline.Value
import Idealize.ShloMosaic.PureOps.Ideal.Laws
import proofs.«404832_j45707041964541_3_alg».proof.Proof.Val.ProjBlockCam
import proofs.«404832_j45707041964541_3_alg».proof.Proof.Val.ProjCam

noncomputable section

namespace Cert.Val.Proj

open Idealize.ShloMosaic Idealize.SL.Sem Idealize.ShloMosaic.ValueIdx Cert.KernelIdeal Cert.KernelIdeal.Gen
open scoped BigOperators

/-! ## The body's two sums over the block -/

/-- The sum of a [512, 21] vector over both axes, as the body takes it (viewed [1, 512, 21], reduced over the last two
    axes, the one entry taken out): the double sum over frames and joints. -/
theorem blockSum_at (v : FVec Ideal S512x21 .f32) (h1 : S512x21.ShapeCasts S1x512x21) (hr : S1x512x21.Reduces [1, 2] S1)
    (hφ : FKind.Formats .f32) (hacc : (0x00000000#32 : BitVec 32) = FKind.add.neutral .f32 hφ)
    (h2 : S1.ShapeCasts S1x1x1) (hp : ∀ a, (![0, 0, 0] : Fin 3 → Nat) a < S1x1x1.size a) :
    extractAt ![0, 0, 0] (shapeCast S1x1x1 (multiReduction .add [1, 2] S1 (shapeCast S1x512x21 v h1) 0x00000000#32 hr hφ hacc) h2) hp
      = ∑ r : Fin 512, ∑ n : Fin 21, v (ix2 r n) := by
  refine (shapeCast_apply _ h2 _ (ix1 0) (by rewrite [Shape.rowMajor_val_one, Shape.rowMajor_val_three]; rfl)).trans ?_
  rw [Ideal.multiReduction_add_total _ _ hr (fun b => match b with | ⟨0, _⟩ => rfl) hφ hacc (ix1 0)]
  rw [sum_idx3, Fin.sum_univ_one]
  refine Finset.sum_congr rfl fun r _ => Finset.sum_congr rfl fun n _ => ?_
  refine (shapeCast_addUnit_apply ![512, 21] v h1 (ix3 0 r n)).trans ?_
  exact congrArg v (funext fun a => match a with | ⟨0, _⟩ => rfl | ⟨1, _⟩ => rfl)

/-- The body's projection sum over one block: the two image coordinates' squared residuals, each summed over the
    block's frames and joints. -/
theorem sumProj_at (x0 : Vec Ideal S512x2x21 .f32) (x2 : Vec Ideal S512x3x3 .f32) (x3 : Vec Ideal S3x3 .f32) (x4 : Vec Ideal S512x3x1 .f32)
    (x7 : Vec Ideal S512x3x21 .f32) (x8 : Vec Ideal S2x3x21 .f32) :
    sumProj x0 x2 x3 x4 x7 x8 (ix2 0 0)
      = (∑ r : Fin 512, ∑ n : Fin 21, sq (bCam x2 x3 x4 x7 x8 0 r n) (bCam x2 x3 x4 x7 x8 2 r n) c512 (x0 (ix3 r 0 n)))
        + (∑ r : Fin 512, ∑ n : Fin 21, sq (bCam x2 x3 x4 x7 x8 1 r n) (bCam x2 x3 x4 x7 x8 2 r n) c288 (x0 (ix3 r 1 n))) := by
  unfold sumProj k0_pay53
  simp only [addf_apply, broadcast_apply]
  congr 1 <;> refine (blockSum_at _ _ _ _ _ _ _).trans ?_ <;>
    refine Finset.sum_congr rfl fun r _ => Finset.sum_congr rfl fun n _ => ?_
  · unfold k0_pay52 k0_pay51 k0_pay10 camZ0 k0_pay50 k0_pay43 k0_pay42 k0_pay41 k0_pay40 k0_pay39 k0_pay38 k0_pay37 k0_pay36 k0_pay35
    simp only [addf_apply, mulf_apply, subf_apply, divf_apply, broadcast_apply, bcastCol_at, cast1_at, cast21_at, ldCam_at, ldObs0_at, ldObs1_at, ldRot00_at, ldRot01_at, ldRot02_at, ldRot10_at, ldRot11_at, ldRot12_at, ldRot20_at, ldRot21_at, ldRot22_at, rc00, rc01, rc02, rc10, rc11, rc12, rc20, rc21, rc22, rel0_at, rel1_at, rel2_at, Ideal.ofBits_def, Ideal.ofBits_zero_f32, camX_at]
    rfl
  · unfold k0_pay52 k0_pay51 k0_pay11 camZ0 k0_pay50 k0_pay43 k0_pay42 k0_pay41 k0_pay40 k0_pay39 k0_pay38 k0_pay37 k0_pay36 k0_pay35
    simp only [addf_apply, mulf_apply, subf_apply, divf_apply, broadcast_apply, bcastCol_at, cast1_at, cast21_at, ldCam_at, ldObs0_at, ldObs1_at, ldRot00_at, ldRot01_at, ldRot02_at, ldRot10_at, ldRot11_at, ldRot12_at, ldRot20_at, ldRot21_at, ldRot22_at, rc00, rc01, rc02, rc10, rc11, rc12, rc20, rc21, rc22, rel0_at, rel1_at, rel2_at, Ideal.ofBits_def, Ideal.ofBits_zero_f32, camY_at]
    rfl

end Cert.Val.Proj

end
-- ==== Proof.Val.ProjKernel.lean ====
/-
  The projection loss, kernel side, step 4: the blocks the pipeline hands the body at grid position t, read in the
  argument arrays (frames 512 t … 512 t + 511, and frame 512 (t + 1) of the padded trajectory, which is still a frame of
  the trajectory), so that the grid point's projection sum is the sum of the squared residuals over its 512 frames.
-/
import proofs.«404832_j45707041964541_3_alg».proof.Proof.KI.BlockVals
import proofs.«404832_j45707041964541_3_alg».proof.Proof.KI.Blocks
import Idealize.ShloMosaic.Lib.ValueIdx
import Idealize.ShloMosaic.Lib.Pipeline.Value
import Idealize.ShloMosaic.PureOps.Ideal.Laws
import Idealize.ShloMosaic.Lib.KernelVsHost
import proofs.«404832_j45707041964541_3_alg».proof.Proof.Val.ProjBlockSum
import proofs.«404832_j45707041964541_3_alg».proof.Proof.Val.ProjCam

noncomputable section

namespace Cert.Val.Proj

open Idealize.ShloMosaic Idealize.SL.Sem Idealize.ShloMosaic.ValueIdx Cert.KernelIdeal Cert.KernelIdeal.Gen
open scoped BigOperators

/-- The padded trajectory is the trajectory at every frame below the appended one. -/
theorem padPose_at (P : FVec Ideal S131073x3x21 .f32) (f : Fin 131074) (hf : f.val < 131073) (k : Fin 3) (n : Fin 21) :
    padPose P (ix3 f k n) = P (ix3 ⟨f.val, hf⟩ k n) := by
  unfold padPose
  exact pad_apply_of_inside _ _ _ P _ _ _ (ix3 f k n) (ix3 ⟨f.val, hf⟩ k n) (fun a => match a with
    | ⟨0, _⟩ => by show f.val = 0 + f.val * (0 + 1); omega
    | ⟨1, _⟩ => by show k.val = 0 + k.val * (0 + 1); omega
    | ⟨2, _⟩ => by show n.val = 0 + n.val * (0 + 1); omega)

section Blocks

variable (P : FVec Ideal S131073x3x21 .f32) (B2 : FVec Ideal S131072x2x21 .f32) (RD : FVec Ideal S131072x3x3 .f32)
  (CD : FVec Ideal S131072x3x1 .f32) (RC : FVec Ideal S3x3 .f32) (t : Fin 256)

/-- At grid position t the block's relative position at row r is the arrays' at frame 512 t + r: the shifted block is
    frame 512 t + r + 1 of the padded trajectory, which is that frame of the trajectory. -/
theorem bRel_blocks (k : Fin 3) (r : Fin 512) (n : Fin 21) :
    bRel (rows512 (by decide) CD t) (rows512 (by decide) (padPose P) t) (rows2 (by decide) (padPose P) t) k r n
      = rel P CD (fr t r) k n := by
  have ht := t.isLt
  have hr := r.isLt
  unfold bRel bShift rel
  congr 1
  by_cases h : r.val + 1 < 512
  · rw [dif_pos h]
    refine (padPose_at P ⟨512 * t.val + (r.val + 1), by omega⟩ (by show 512 * t.val + (r.val + 1) < 131073; omega) k n).trans ?_
    exact congrArg (fun f => P (ix3 f k n)) (Fin.ext (by show 512 * t.val + (r.val + 1) = 512 * t.val + r.val + 1; omega))
  · rw [dif_neg h]
    refine (padPose_at P ⟨512 * (t.val + 1) + 0, by omega⟩ (by show 512 * (t.val + 1) + 0 < 131073; omega) k n).trans ?_
    exact congrArg (fun f => P (ix3 f k n)) (Fin.ext (by show 512 * (t.val + 1) + 0 = 512 * t.val + r.val + 1; omega))

/-- The block's rotation coefficients are the arrays'. -/
theorem bCoef_blocks (i k : Fin 3) (r : Fin 512) :
    bCoef (rows512 (by decide) RD t) RC i k r = coef RD RC i k (fr t r) := rfl

/-- The block's camera coordinates are the arrays', in the kernel's order of summation. -/
theorem bCam_blocks (i : Fin 3) (r : Fin 512) (n : Fin 21) :
    bCam (rows512 (by decide) RD t) RC (rows512 (by decide) CD t) (rows512 (by decide) (padPose P) t) (rows2 (by decide) (padPose P) t) i r n
      = camK P RD CD RC i (fr t r) n := by
  unfold bCam camK
  rw [bRel_blocks, bRel_blocks, bRel_blocks, bCoef_blocks, bCoef_blocks, bCoef_blocks]

/-- THE KERNEL'S PROJECTION SUM AT GRID POSITION t, over real entries: the two residuals summed over the block's 512
    frames and the 21 joints. -/
theorem kernel_block (hP : ∀ i, ∃ r : ℝ, P i = (r : EReal)) (hRD : ∀ i, ∃ r : ℝ, RD i = (r : EReal))
    (hCD : ∀ i, ∃ r : ℝ, CD i = (r : EReal)) (hRC : ∀ i, ∃ r : ℝ, RC i = (r : EReal)) :
    sumProj (F := Ideal) (rows512 (by decide) B2 t) (rows512 (by decide) RD t) RC (rows512 (by decide) CD t)
        (rows512 (by decide) (padPose P) t) (rows2 (by decide) (padPose P) t) (ix2 0 0)
      = (∑ r : Fin 512, ∑ n : Fin 21, resid0 P B2 RD CD RC (fr t r) n) + (∑ r : Fin 512, ∑ n : Fin 21, resid1 P B2 RD CD RC (fr t r) n) := by
  rw [sumProj_at]
  congr 1 <;> refine Finset.sum_congr rfl fun r _ => Finset.sum_congr rfl fun n _ => ?_
  · rw [bCam_blocks, bCam_blocks, camK_eq_cam P RD CD RC hP hRD hCD hRC, camK_eq_cam P RD CD RC hP hRD hCD hRC]
    rfl
  · rw [bCam_blocks, bCam_blocks, camK_eq_cam P RD CD RC hP hRD hCD hRC, camK_eq_cam P RD CD RC hP hRD hCD hRC]
    rfl

end Blocks

end Cert.Val.Proj

end
-- ==== Proof.Val.ProjRef.lean ====
/-
  The projection loss, reference side: the reference's operations 4 to 30 read one at a time at an index, down to the
  squared residuals of ProjCam over the argument arrays, and the final reduction as their sum over every observation and
  joint. The joined array (operation 27) is read by hand at its two slices.
-/
import proofs.«404832_j45707041964541_3_alg».proof.Proof.Gen.ReferenceIdeal.Read
import proofs.«404832_j45707041964541_3_alg».proof.Proof.Val.ProjCam
import Idealize.ShloMosaic.Lib.ValueIdx
import Idealize.ShloMosaic.Lib.Pipeline.Value
import Idealize.ShloMosaic.PureOps.Ideal.Laws

noncomputable section

namespace Cert.Val.Proj

open Idealize.ShloMosaic Idealize.ShloMosaic.ValueIdx Cert.ReferenceIdeal Cert.ReferenceIdeal.Gen Cert.ReferenceIdeal.Read
open scoped BigOperators

section Ref

variable (P : FVec Ideal S131073x3x21 .f32) (B2 : FVec Ideal S131072x2x21 .f32) (RD : FVec Ideal S131072x3x3 .f32)
  (CD : FVec Ideal S131072x3x1 .f32) (RC : FVec Ideal S3x3 .f32)

/-- The reference's relative position (its operations 4 to 6) at (w, k, n). -/
theorem ref_rel (w : Fin 131072) (k : Fin 3) (n : Fin 21) :
    val_main_v6 (F := Ideal) P CD (ix3 w k n) = rel P CD w k n := by
  have e4 : idx_main_v4 (ix3 w k n) = ix3 ⟨w.val + 1, by have := w.isLt; omega⟩ k n := funext fun a => match a with
    | ⟨0, _⟩ => Fin.ext (by show 1 + w.val = w.val + 1; omega)
    | ⟨1, _⟩ => rfl
    | ⟨2, _⟩ => rfl
  have e5 : idx_main_v5 (ix3 w k n) = ix3 w k 0 := funext fun a => match a with
    | ⟨0, _⟩ => rfl
    | ⟨1, _⟩ => rfl
    | ⟨2, _⟩ => rfl
  rw [val_main_v6_apply, val_main_v4_apply, val_main_v5_apply, e4, e5]
  rfl

/-- The reference's first contraction (operation 7): the drone rotation's row k against the camera rotation's row i. -/
theorem ref_rot (w : Fin 131072) (k i : Fin 3) :
    val_main_v7 (F := Ideal) RD RC (ix3 w k i) = ∑ j : Fin 3, RD (ix3 w k j) * RC (ix2 i j) := by
  rw [val_main_v7_apply]
  refine Finset.sum_congr rfl fun j _ => ?_
  have el : lidx_main_v7 (ix3 w k i) j = ix3 w k j := funext fun a => match a with
    | ⟨0, _⟩ => rfl
    | ⟨1, _⟩ => rfl
    | ⟨2, _⟩ => rfl
  have er : ridx_main_v7 (ix3 w k i) j = ix2 i j := funext fun a => match a with
    | ⟨0, _⟩ => rfl
    | ⟨1, _⟩ => rfl
  rw [el, er]

/-- The reference's second contraction (operation 8) is the camera coordinate. -/
theorem ref_cam (w : Fin 131072) (i : Fin 3) (n : Fin 21) :
    val_main_v8 (F := Ideal) P RD CD RC (ix3 w i n) = cam P RD CD RC i w n := by
  rw [val_main_v8_apply]
  unfold cam
  refine Finset.sum_congr rfl fun k _ => ?_
  have el : lidx_main_v8 (ix3 w i n) k = ix3 w k i := funext fun a => match a with
    | ⟨0, _⟩ => rfl
    | ⟨1, _⟩ => rfl
    | ⟨2, _⟩ => rfl
  have er : ridx_main_v8 (ix3 w i n) k = ix3 w k n := funext fun a => match a with
    | ⟨0, _⟩ => rfl
    | ⟨1, _⟩ => rfl
    | ⟨2, _⟩ => rfl
  rw [el, er, ref_rot, ref_rel]

/-- A [131072, 1, 21] slice viewed [131072, 21] reads (w, 0, n) at (w, n). -/
theorem idx_view (w : Fin 131072) (n : Fin 21) : idx_main_v10 (ix2 w n) = ix3 w 0 n := funext fun a => match a with
  | ⟨0, _⟩ => Fin.ext (by show (w.val * 21 + n.val) / 21 = w.val; have := n.isLt; omega)
  | ⟨1, _⟩ => rfl
  | ⟨2, _⟩ => Fin.ext (by show (w.val * 21 + n.val) % 21 = n.val; have := n.isLt; omega)

/-- Operations 9 – 10: the depth. -/
theorem ref_z (w : Fin 131072) (n : Fin 21) : val_main_v10 (F := Ideal) P RD CD RC (ix2 w n) = cam P RD CD RC 2 w n := by
  have e : idx_main_v9 (ix3 w 0 n) = ix3 w 2 n := funext fun a => match a with
    | ⟨0, _⟩ => rfl
    | ⟨1, _⟩ => rfl
    | ⟨2, _⟩ => rfl
  rw [val_main_v10_apply, idx_view, val_main_v9_apply, e, ref_cam]
/-- Operations 11 – 12: camera coordinate 0. -/
theorem ref_x (w : Fin 131072) (n : Fin 21) : val_main_v12 (F := Ideal) P RD CD RC (ix2 w n) = cam P RD CD RC 0 w n := by
  have e : idx_main_v11 (ix3 w 0 n) = ix3 w 0 n := funext fun a => match a with
    | ⟨0, _⟩ => rfl
    | ⟨1, _⟩ => rfl
    | ⟨2, _⟩ => rfl
  rw [val_main_v12_apply, show idx_main_v12 (ix2 w n) = ix3 w 0 n from idx_view w n, val_main_v11_apply, e, ref_cam]
/-- Operations 18 – 19: camera coordinate 1. -/
theorem ref_y (w : Fin 131072) (n : Fin 21) : val_main_v19 (F := Ideal) P RD CD RC (ix2 w n) = cam P RD CD RC 1 w n := by
  have e : idx_main_v18 (ix3 w 0 n) = ix3 w 1 n := funext fun a => match a with
    | ⟨0, _⟩ => rfl
    | ⟨1, _⟩ => rfl
    | ⟨2, _⟩ => rfl
  rw [val_main_v19_apply, show idx_main_v19 (ix2 w n) = ix3 w 0 n from idx_view w n, val_main_v18_apply, e, ref_cam]

/-- Operations 13 – 17: the first image coordinate. -/
theorem ref_u (w : Fin 131072) (n : Fin 21) :
    val_main_v17 (F := Ideal) P RD CD RC (ix2 w n) = Ideal.div (c512 * cam P RD CD RC 0 w n) (cam P RD CD RC 2 w n) + c512 := by
  rw [val_main_v17_apply, val_main_v15_apply, val_main_v14_apply, val_main_v13_apply, val_main_cst_apply, val_main_v16_apply,
    val_main_cst_0_apply, ref_x, ref_z]
  rfl
/-- Operations 20 – 24: the second image coordinate. -/
theorem ref_v (w : Fin 131072) (n : Fin 21) :
    val_main_v24 (F := Ideal) P RD CD RC (ix2 w n) = Ideal.div (c512 * cam P RD CD RC 1 w n) (cam P RD CD RC 2 w n) + c288 := by
  rw [val_main_v24_apply, val_main_v22_apply, val_main_v21_apply, val_main_v20_apply, val_main_cst_1_apply, val_main_v23_apply,
    val_main_cst_2_apply, ref_y, ref_z]
  rfl

/-- Operation 27, the two image coordinates joined along the middle axis, at its first and at its second slice. -/
theorem ref_join0 (w : Fin 131072) (n : Fin 21) :
    val_main_v27 (F := Ideal) P RD CD RC (ix3 w 0 n) = val_main_v17 (F := Ideal) P RD CD RC (ix2 w n) := by
  unfold val_main_v27
  refine (concatenate_pair_apply_left _ _ _ concatenates_S131072x1x21_S131072x1x21_S131072x2x21_d1 (ix3 w 0 n) rfl (ix3 w 0 n)
    (fun b => match b with | ⟨0, _⟩ => rfl | ⟨1, _⟩ => rfl | ⟨2, _⟩ => rfl)).trans ?_
  have e : idx_main_v25 (ix3 w 0 n) = ix2 w n := funext fun a => match a with
    | ⟨0, _⟩ => rfl
    | ⟨1, _⟩ => rfl
  rw [val_main_v25_apply, e]
theorem ref_join1 (w : Fin 131072) (n : Fin 21) :
    val_main_v27 (F := Ideal) P RD CD RC (ix3 w 1 n) = val_main_v24 (F := Ideal) P RD CD RC (ix2 w n) := by
  unfold val_main_v27
  refine (concatenate_pair_apply_right _ _ _ concatenates_S131072x1x21_S131072x1x21_S131072x2x21_d1 (ix3 w 1 n) rfl rfl (ix3 w 0 n)
    (fun b hb => match b with | ⟨0, _⟩ => rfl | ⟨1, _⟩ => (hb (Fin.ext rfl)).elim | ⟨2, _⟩ => rfl) rfl).trans ?_
  have e : idx_main_v26 (ix3 w 0 n) = ix2 w n := funext fun a => match a with
    | ⟨0, _⟩ => rfl
    | ⟨1, _⟩ => rfl
  rw [val_main_v26_apply, e]

/-- Operations 28 – 29 at the two slices: the squared residuals. -/
theorem ref_sq0 (w : Fin 131072) (n : Fin 21) :
    val_main_v29 (F := Ideal) P B2 RD CD RC (ix3 w 0 n) = resid0 P B2 RD CD RC w n := by
  rw [val_main_v29_apply, val_main_v28_apply, ref_join0, ref_u]
  rfl
theorem ref_sq1 (w : Fin 131072) (n : Fin 21) :
    val_main_v29 (F := Ideal) P B2 RD CD RC (ix3 w 1 n) = resid1 P B2 RD CD RC w n := by
  rw [val_main_v29_apply, val_main_v28_apply, ref_join1, ref_v]
  rfl

/-- THE REFERENCE'S PROJECTION TOTAL: the two residuals summed over every observation and joint. -/
theorem ref_total :
    val_main_v30 (F := Ideal) P B2 RD CD RC ix0
      = (∑ w : Fin 131072, ∑ n : Fin 21, resid0 P B2 RD CD RC w n) + (∑ w : Fin 131072, ∑ n : Fin 21, resid1 P B2 RD CD RC w n) := by
  have h0 : val_main_cst_3 (F := Ideal) (Shape.Idx.first h_S_) = 0 := Ideal.ofBits_zero_f32
  have step : ∀ w : Fin 131072, (∑ c : Fin 2, ∑ n : Fin 21, val_main_v29 (F := Ideal) P B2 RD CD RC (ix3 w c n))
      = (∑ n : Fin 21, resid0 P B2 RD CD RC w n) + (∑ n : Fin 21, resid1 P B2 RD CD RC w n) := fun w => by
    rw [Fin.sum_univ_two]
    congr 1 <;> refine Finset.sum_congr rfl fun n _ => ?_
    · exact ref_sq0 P B2 RD CD RC w n
    · exact ref_sq1 P B2 RD CD RC w n
  rw [val_main_v30_apply, h0, zero_add, sum_idx3]
  refine (Finset.sum_congr rfl fun w _ => step w).trans ?_
  exact Finset.sum_add_distrib

end Ref

end Cert.Val.Proj

end
-- ==== Proof.Val.Proj.lean ====
/-
  THE PROJECTION TOTAL. The kernel's projection accumulator receives, at each of the 256 grid positions, the body's
  projection sum over that position's block of 512 frames; the reference reduces the squared residuals of all 131072
  observations at once. Over real entries (every float input entry a real number) the two are equal as extended reals:
  each block sum is the sum of the same residuals over its frames (the camera coordinates agree by the ring laws of the
  reals, the division is one function applied to equal arguments, and from there both sides do the same operations),
  and the 256 blocks of 512 frames are the 131072 frames.
-/
import proofs.«404832_j45707041964541_3_alg».proof.Proof.Val.ProjKernel
import proofs.«404832_j45707041964541_3_alg».proof.Proof.Val.ProjRef

noncomputable section

namespace Cert.Val

open Idealize.ShloMosaic Idealize.SL.Sem Idealize.ShloMosaic.ValueIdx Cert.KernelIdeal Cert.KernelIdeal.Gen
open scoped BigOperators

/-- THE PROJECTION TOTAL: over real entries, the kernel's 256 per-point projection sums add up to the reference's
    projection sum (its operation 30). -/
theorem proj_total (P : FVec Ideal S131073x3x21 .f32) (B2 : FVec Ideal S131072x2x21 .f32) (RD : FVec Ideal S131072x3x3 .f32)
    (CD : FVec Ideal S131072x3x1 .f32) (RC : FVec Ideal S3x3 .f32)
    (hP : ∀ i, ∃ r : ℝ, P i = (r : EReal)) (hB2 : ∀ i, ∃ r : ℝ, B2 i = (r : EReal)) (hRD : ∀ i, ∃ r : ℝ, RD i = (r : EReal))
    (hCD : ∀ i, ∃ r : ℝ, CD i = (r : EReal)) (hRC : ∀ i, ∃ r : ℝ, RC i = (r : EReal)) :
    (∑ t : Fin 256, sumProj (F := Ideal) (rows512 (by decide) B2 t) (rows512 (by decide) RD t) RC (rows512 (by decide) CD t)
        (rows512 (by decide) (padPose P) t) (rows2 (by decide) (padPose P) t) (ix2 0 0))
      = Cert.ReferenceIdeal.Read.val_main_v30 (F := Ideal) P B2 RD CD RC ix0 := by
  rw [Proj.ref_total]
  refine (Finset.sum_congr rfl fun t _ => Proj.kernel_block P B2 RD CD RC t hP hRD hCD hRC).trans ?_
  refine Finset.sum_add_distrib.trans ?_
  exact congrArg₂ (fun a b : EReal => a + b)
    (Proj.sum_frames (fun w => ∑ n : Fin 21, Proj.resid0 P B2 RD CD RC w n))
    (Proj.sum_frames (fun w => ∑ n : Fin 21, Proj.resid1 P B2 RD CD RC w n))

end Cert.Val

end
-- ==== Proof.PreDecode.lean ====
/-
  UNTRUSTED — THE PRINTED PRECONDITION `finite_inputs`, DECODED. The precondition is printed as a pure function of the
  eight inputs that ends in one bit; the claim supposes that bit is 1. The bit is the conjunction of eight `all`s:
  for each of the seven float inputs, that |x| < +∞ at every element (so, at the extended reals, every element is a
  real: neither infinity and not the junk value), and for the integer input, that every entry b has 0 ≤ b and b < 21,
  both read signed. Here the conjunction is split, each `all` is read at one element, and the element facts are
  restated as propositions about the inputs.
-/
import proofs.«404832_j45707041964541_3_alg».proof.Pre_finite_inputs
import proofs.«404832_j45707041964541_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx
import Mathlib.Data.EReal.Basic

noncomputable section

namespace Cert.PreDecode

open Idealize.ShloMosaic Idealize.ShloMosaic.ValueIdx Cert.Pre_finite_inputs

/-- The scalar shape has one index. -/
instance subsingleton_scalar_idx : Subsingleton S_.Idx := ⟨fun a b => funext fun d => d.elim0⟩

/-- The f32 pattern with an all-ones exponent and a zero significand is plus infinity. -/
theorem ofBits_inf_f32 : Ideal.ofBits .f32 0x7F800000#32 = (⊤ : EReal) := by
  simp [Ideal.ofBits, Ideal.ieee]

/-- An extended real whose absolute value lies below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison |x| < +∞ being 1 says the element is a real. -/
theorem real_of_cmp (x : EReal) (e : Ideal.cmp .olt (max x (-x)) (Ideal.ofBits .f32 0x7F800000#32) = 1#1) :
    ∃ r : ℝ, x = (r : EReal) := by
  rw [ofBits_inf_f32] at e
  simp only [Ideal.cmp, StableHlo.Predicate.ofBool_eq_one_iff, decide_eq_true_eq] at e
  exact real_of_abs_lt_top x e

/-- An `all` of |a| < +∞ over a float array that came out 1 says every element of the array is a real. -/
theorem all_real {s : Shape} {axes : List (Fin s.rank)} (hb : S_.BroadcastsInDim s (![] : Fin 0 → Fin s.rank))
    (hr : s.ReducesTo axes S_) (h0 : 0 < S_.numel) (a : FVec Ideal s .f32) (init : IVec S_ 1) (j : S_.Idx)
    (e : Host.reduce IntOp.andi
          (cmpf .olt (Host.absf a) (broadcastInDim s ![] hb (constant (F := Ideal) S_ .f32 0x7F800000#32))) init hr h0 j = 1#1)
    (i : s.Idx) : ∃ r : ℝ, a i = (r : EReal) :=
  real_of_cmp (a i) (Host.reduce_andi_all _ init hr h0 j e i)

/-- A 32-bit word that tests 0 ≤ b and b < 21, both signed, lies in [0, 21) read signed. -/
theorem range_of_cmp (b : BitVec 32) (e : IntOp.andi (IntOp.cmpi .sge b 0#32) (IntOp.cmpi .slt b 21#32) = 1#1) :
    0 ≤ b.toInt ∧ b.toInt < 21 := by
  obtain ⟨h0, h1⟩ := IntOp.andi_eq_one.1 e
  have h0' := IntOp.cmpi_sge.1 h0
  have h1' := IntOp.cmpi_slt.1 h1
  rw [show (0#32 : BitVec 32).toInt = 0 from by decide] at h0'
  rw [show (21#32 : BitVec 32).toInt = 21 from by decide] at h1'
  exact ⟨h0', h1'⟩

/-- A word in [0, 21) read signed is below 21 read unsigned. -/
theorem toNat_lt_of_range (b : BitVec 32) (h : 0 ≤ b.toInt ∧ b.toInt < 21) : b.toNat < 21 := by
  obtain ⟨h0, h1⟩ := h
  have hb := b.isLt
  rw [BitVec.toInt_eq_toNat_cond] at h0 h1
  split at h0 <;> omega

/-- An `all` of (0 ≤ b and b < 21) over a word array that came out 1 says every word is in [0, 21), signed. -/
theorem all_range {s : Shape} {axes : List (Fin s.rank)} (hb : S_.BroadcastsInDim s (![] : Fin 0 → Fin s.rank))
    (hr : s.ReducesTo axes S_) (h0 : 0 < S_.numel) (a : IVec s 32) (init : IVec S_ 1) (j : S_.Idx)
    (e : Host.reduce IntOp.andi
          (andi (cmpi .sge a (broadcastInDim s ![] hb (constantI S_ 32 0#32)))
                (cmpi .slt a (broadcastInDim s ![] hb (constantI S_ 32 21#32)))) init hr h0 j = 1#1)
    (i : s.Idx) : 0 ≤ (a i).toInt ∧ (a i).toInt < 21 :=
  range_of_cmp (a i) (Host.reduce_andi_all _ init hr h0 j e i)

/-- The conjunction of two one-bit arrays, read at an index. -/
theorem andi_apply_eq_one {s : Shape} (x y : IVec s 1) (i : s.Idx) : andi x y i = 1#1 ↔ x i = 1#1 ∧ y i = 1#1 :=
  IntOp.andi_eq_one

section Decode

variable (a0 : FVec Ideal S131073x3x21 .f32) (a1 : FVec Ideal S131072x2x21 .f32) (a2 : FVec Ideal S131072x3x20 .f32)
  (a3 : FVec Ideal S131072x3x3 .f32) (a4 : FVec Ideal S131072x3x1 .f32) (a5 : FVec Ideal S20 .f32)
  (a6 : FVec Ideal S3x3 .f32) (a7 : IVec S20x2 32)

/-- THE PRECONDITION DECODED: every float input is real at every element, and every entry of the integer input lies in
    [0, 21), read signed. -/
theorem decode (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i : S20x2.Idx, 0 ≤ (a7 i).toInt ∧ (a7 i).toInt < 21) := by
  have e := congrFun h ix0
  dsimp only [Cert.Pre_finite_inputs.fn, Cert.Pre_finite_inputs.fn_part1, Cert.Pre_finite_inputs.fn_part2] at e
  simp only [andi_apply_eq_one] at e
  obtain ⟨⟨⟨⟨⟨⟨⟨e0, e1⟩, e2⟩, e3⟩, e4⟩, e5⟩, e6⟩, e7⟩ := e
  exact ⟨all_real _ _ _ a0 _ _ e0, all_real _ _ _ a1 _ _ e1, all_real _ _ _ a2 _ _ e2, all_real _ _ _ a3 _ _ e3,
    all_real _ _ _ a4 _ _ e4, all_real _ _ _ a5 _ _ e5, all_real _ _ _ a6 _ _ e6, all_range _ _ _ a7 _ _ e7⟩

/-- Input 0 is real at every element. -/
theorem fin0 (h : Cert.Pre_finite_inputs.fn (F := Ideal) a0 a1 a2 a3 a4 a5 a6 a7 = fun _ => 1#1) :
    ∀ i, ∃ r : ℝ, a0 i = (r : EReal) := (decode a0 a1 a2 a3 a4 a5 a6 a7 h).1
/-- Input 1 is real at every element. -/
theorem fin1 (h : Cert.Pre_finite_inputs.fn (F := Ideal) a0 a1 a2 a3 a4 a5 a6 a7 = fun _ => 1#1) :
    ∀ i, ∃ r : ℝ, a1 i = (r : EReal) := (decode a0 a1 a2 a3 a4 a5 a6 a7 h).2.1
/-- Input 2 is real at every element. -/
theorem fin2 (h : Cert.Pre_finite_inputs.fn (F := Ideal) a0 a1 a2 a3 a4 a5 a6 a7 = fun _ => 1#1) :
    ∀ i, ∃ r : ℝ, a2 i = (r : EReal) := (decode a0 a1 a2 a3 a4 a5 a6 a7 h).2.2.1
/-- Input 3 is real at every element. -/
theorem fin3 (h : Cert.Pre_finite_inputs.fn (F := Ideal) a0 a1 a2 a3 a4 a5 a6 a7 = fun _ => 1#1) :
    ∀ i, ∃ r : ℝ, a3 i = (r : EReal) := (decode a0 a1 a2 a3 a4 a5 a6 a7 h).2.2.2.1
/-- Input 4 is real at every element. -/
theorem fin4 (h : Cert.Pre_finite_inputs.fn (F := Ideal) a0 a1 a2 a3 a4 a5 a6 a7 = fun _ => 1#1) :
    ∀ i, ∃ r : ℝ, a4 i = (r : EReal) := (decode a0 a1 a2 a3 a4 a5 a6 a7 h).2.2.2.2.1
/-- Input 5 is real at every element. -/
theorem fin5 (h : Cert.Pre_finite_inputs.fn (F := Ideal) a0 a1 a2 a3 a4 a5 a6 a7 = fun _ => 1#1) :
    ∀ i, ∃ r : ℝ, a5 i = (r : EReal) := (decode a0 a1 a2 a3 a4 a5 a6 a7 h).2.2.2.2.2.1
/-- Input 6 is real at every element. -/
theorem fin6 (h : Cert.Pre_finite_inputs.fn (F := Ideal) a0 a1 a2 a3 a4 a5 a6 a7 = fun _ => 1#1) :
    ∀ i, ∃ r : ℝ, a6 i = (r : EReal) := (decode a0 a1 a2 a3 a4 a5 a6 a7 h).2.2.2.2.2.2.1
/-- Every entry of input 7 lies in [0, 21), read signed. -/
theorem idx7 (h : Cert.Pre_finite_inputs.fn (F := Ideal) a0 a1 a2 a3 a4 a5 a6 a7 = fun _ => 1#1) :
    ∀ i : S20x2.Idx, 0 ≤ (a7 i).toInt ∧ (a7 i).toInt < 21 := (decode a0 a1 a2 a3 a4 a5 a6 a7 h).2.2.2.2.2.2.2
/-- Every entry of input 7 is below 21, read unsigned. -/
theorem idx7_toNat (h : Cert.Pre_finite_inputs.fn (F := Ideal) a0 a1 a2 a3 a4 a5 a6 a7 = fun _ => 1#1) :
    ∀ i : S20x2.Idx, (a7 i).toNat < 21 := fun i => toNat_lt_of_range _ (idx7 a0 a1 a2 a3 a4 a5 a6 a7 h i)
/-- An entry of input 7 reads the same signed and unsigned. -/
theorem idx7_toInt_eq (h : Cert.Pre_finite_inputs.fn (F := Ideal) a0 a1 a2 a3 a4 a5 a6 a7 = fun _ => 1#1)
    (i : S20x2.Idx) : (a7 i).toInt = ((a7 i).toNat : Int) :=
  StableHlo.Predicate.toInt_eq_toNat_of_lt (by have := idx7_toNat a0 a1 a2 a3 a4 a5 a6 a7 h i; omega)

end Decode

/-- An array of extended reals that is real at every element is the coercion of an array of reals. -/
theorem exists_real_fun {ι : Type} (a : ι → EReal) (h : ∀ i, ∃ r : ℝ, a i = (r : EReal)) :
    ∃ f : ι → ℝ, a = fun i => (f i : EReal) := by
  choose f hf using h
  exact ⟨f, funext hf⟩

/-- A real element is neither infinity. -/
theorem ne_top_bot_of_real {x : EReal} (h : ∃ r : ℝ, x = (r : EReal)) : x ≠ ⊤ ∧ x ≠ ⊥ := by
  obtain ⟨r, rfl⟩ := h
  exact ⟨EReal.coe_ne_top r, EReal.coe_ne_bot r⟩

/-- A real element is the coercion of its real part. -/
theorem coe_toReal_of_real {x : EReal} (h : ∃ r : ℝ, x = (r : EReal)) : ((x.toReal : ℝ) : EReal) = x := by
  obtain ⟨r, rfl⟩ := h
  rfl

end Cert.PreDecode

end
-- ==== Proof.Assemble.lean ====
/-
  THE ASSEMBLY of the algebraic claim: the idealized kernel and the idealized reference, run from memories that agree
  on the eight arguments, end with equal results over the extended reals.
  The kernel's result is the host's closing arithmetic of the four result arrays its pipelined region leaves; entry j
  of each array is the sum over row j of the grid of a per-point sum of blocks of the arguments, so the host's sum of
  the array is the sum over all 256 grid points; each of the four totals is one of the reference's four sums (for the
  bone-length term after the last frame's residual is added); and the two programs then scale and add the four alike.
-/
import proofs.«404832_j45707041964541_3_alg».proof.Proof.KI.Frame
import proofs.«404832_j45707041964541_3_alg».proof.Proof.KI.OutVals
import proofs.«404832_j45707041964541_3_alg».proof.Proof.KI.TailSum
import proofs.«404832_j45707041964541_3_alg».proof.Proof.Val.Smooth
import proofs.«404832_j45707041964541_3_alg».proof.Proof.Val.Bone
import proofs.«404832_j45707041964541_3_alg».proof.Proof.Val.Lift
import proofs.«404832_j45707041964541_3_alg».proof.Proof.Val.Proj
import proofs.«404832_j45707041964541_3_alg».proof.Proof.PreDecode
import proofs.«404832_j45707041964541_3_alg».proof.Proof.Gen.ReferenceIdeal.Read
import proofs.«404832_j45707041964541_3_alg».proof.Defs

set_option maxRecDepth 16384

noncomputable section

namespace Cert.Assemble

open Idealize.ShloMosaic Idealize.ShloMosaic.TcCoe Idealize.SL.Sem Idealize.ShloMosaic.ValueIdx
open Cert.KernelIdeal Cert.KernelIdeal.Gen
open scoped BigOperators

/-! ## The closing arithmetic, over its four sums -/

/-- The scaling and adding both programs end with, over the four sums: each divided by its count, weighted by a
    quarter, and added left to right. -/
def combine (a b d e : FVec Ideal S_ .f32) : FVec Ideal S_ .f32 :=
  addf (addf (addf
    (mulf (constant S_ .f32 0x3E800000#32) (Host.divf a (constant S_ .f32 0x42280000#32)))
    (mulf (constant S_ .f32 0x3E800000#32) (Host.divf b (constant S_ .f32 0x427C0000#32))))
    (mulf (constant S_ .f32 0x3E800000#32) (Host.divf d (constant S_ .f32 0x41A00000#32))))
    (mulf (constant S_ .f32 0x3E800000#32) (Host.divf e (constant S_ .f32 0x427C0000#32)))

/-- The kernel's result is that of the sums of its four result arrays, the last frame's bone-length residual added
    to the third. -/
theorem tailVal_eq (P : FVec Ideal S131073x3x21 .f32) (Dm : FVec Ideal S21x20 .f32) (BL : FVec Ideal S20 .f32)
    (o0 o1 o2 o3 : FVec Ideal S2x1x1 .f32) :
    tailVal (F := Ideal) P Dm BL o0 o1 o2 o3
      = combine (Host.reduceAdd (F := Ideal) o0 (constant S_ .f32 0x00000000#32) reducesTo_S2x1x1_S_d0_1_2 h_S_) (Host.reduceAdd (F := Ideal) o1 (constant S_ .f32 0x00000000#32) reducesTo_S2x1x1_S_d0_1_2 h_S_)
          (addf (Host.reduceAdd (F := Ideal) o2 (constant S_ .f32 0x00000000#32) reducesTo_S2x1x1_S_d0_1_2 h_S_) (boneLast (F := Ideal) P Dm BL)) (Host.reduceAdd (F := Ideal) o3 (constant S_ .f32 0x00000000#32) reducesTo_S2x1x1_S_d0_1_2 h_S_) := rfl

/-- The reference's result is that of its four sums. -/
theorem ref_eq (P : FVec Ideal S131073x3x21 .f32) (B2 : FVec Ideal S131072x2x21 .f32) (LD : FVec Ideal S131072x3x20 .f32)
    (RD : FVec Ideal S131072x3x3 .f32) (CD : FVec Ideal S131072x3x1 .f32) (BL : FVec Ideal S20 .f32) (RC : FVec Ideal S3x3 .f32)
    (bc : IVec S20x2 32) :
    Cert.ReferenceIdeal.Read.val_main_v94 (F := Ideal) P B2 LD RD CD BL RC bc
      = combine (Cert.ReferenceIdeal.Read.val_main_v30 (F := Ideal) P B2 RD CD RC) (Cert.ReferenceIdeal.Read.val_main_v54 (F := Ideal) P LD bc)
          (Cert.ReferenceIdeal.Read.val_main_v77 (F := Ideal) P BL bc) (Cert.ReferenceIdeal.Read.val_main_v86 (F := Ideal) P) := rfl

/-! ## The value equation, over the arguments -/

/-- THE VALUE EQUATION. For arguments of which the precondition holds, and four result arrays whose entry `j` is the
    sum over row `j` of the grid of the point's sum of blocks of the arguments, the kernel's closing arithmetic gives
    the reference's result. -/
theorem value_eq (P : FVec Ideal S131073x3x21 .f32) (B2 : FVec Ideal S131072x2x21 .f32) (LD : FVec Ideal S131072x3x20 .f32)
    (RD : FVec Ideal S131072x3x3 .f32) (CD : FVec Ideal S131072x3x1 .f32) (BL : FVec Ideal S20 .f32) (RC : FVec Ideal S3x3 .f32)
    (bc : IVec S20x2 32)
    (hpre : Cert.Pre_finite_inputs.fn (F := Ideal) P B2 LD RD CD BL RC bc = fun _ => 1#1)
    (o0 o1 o2 o3 : FVec Ideal S2x1x1 .f32)
    (h0 : ∀ j : Fin 2, o0 (ix3 j 0 0) = ∑ ib : Fin 128, sumProj (F := Ideal) (rows512 (F := Ideal) (n := 131072) (a := 2) (b := 21) (e := .f32) (by decide) B2 (⟨128 * j.val + ib.val, by have := j.isLt; have := ib.isLt; omega⟩ : Fin 256)) (rows512 (F := Ideal) (n := 131072) (a := 3) (b := 3) (e := .f32) (by decide) RD (⟨128 * j.val + ib.val, by have := j.isLt; have := ib.isLt; omega⟩ : Fin 256)) RC (rows512 (F := Ideal) (n := 131072) (a := 3) (b := 1) (e := .f32) (by decide) CD (⟨128 * j.val + ib.val, by have := j.isLt; have := ib.isLt; omega⟩ : Fin 256)) (rows512 (F := Ideal) (n := 131074) (a := 3) (b := 21) (e := .f32) (by decide) (padPose (F := Ideal) P) (⟨128 * j.val + ib.val, by have := j.isLt; have := ib.isLt; omega⟩ : Fin 256)) (rows2 (F := Ideal) (n := 131074) (a := 3) (b := 21) (e := .f32) (by decide) (padPose (F := Ideal) P) (⟨128 * j.val + ib.val, by have := j.isLt; have := ib.isLt; omega⟩ : Fin 256)) (ix2 (0 : Fin 1) (0 : Fin 1)))
    (h1 : ∀ j : Fin 2, o1 (ix3 j 0 0) = ∑ ib : Fin 128, sumLift (F := Ideal) (rows512 (F := Ideal) (n := 131072) (a := 3) (b := 20) (e := .f32) (by decide) LD (⟨128 * j.val + ib.val, by have := j.isLt; have := ib.isLt; omega⟩ : Fin 256)) (dmOf (F := Ideal) bc) (rows512 (F := Ideal) (n := 131074) (a := 3) (b := 21) (e := .f32) (by decide) (padPose (F := Ideal) P) (⟨128 * j.val + ib.val, by have := j.isLt; have := ib.isLt; omega⟩ : Fin 256)) (rows2 (F := Ideal) (n := 131074) (a := 3) (b := 21) (e := .f32) (by decide) (padPose (F := Ideal) P) (⟨128 * j.val + ib.val, by have := j.isLt; have := ib.isLt; omega⟩ : Fin 256)) (ix2 (0 : Fin 1) (0 : Fin 1)))
    (h2 : ∀ j : Fin 2, o2 (ix3 j 0 0) = ∑ ib : Fin 128, sumBone (F := Ideal) (dmOf (F := Ideal) bc) (lenRow (F := Ideal) BL) (rows512 (F := Ideal) (n := 131074) (a := 3) (b := 21) (e := .f32) (by decide) (padPose (F := Ideal) P) (⟨128 * j.val + ib.val, by have := j.isLt; have := ib.isLt; omega⟩ : Fin 256)) (ix2 (0 : Fin 1) (0 : Fin 1)))
    (h3 : ∀ j : Fin 2, o3 (ix3 j 0 0) = ∑ ib : Fin 128, sumSmoothAt (F := Ideal) (BitVec.ofNat 32 (512 * ((⟨128 * j.val + ib.val, by have := j.isLt; have := ib.isLt; omega⟩ : Fin 256)).val)) (rows512 (F := Ideal) (n := 131074) (a := 3) (b := 21) (e := .f32) (by decide) (padPose (F := Ideal) P) (⟨128 * j.val + ib.val, by have := j.isLt; have := ib.isLt; omega⟩ : Fin 256)) (rows2 (F := Ideal) (n := 131074) (a := 3) (b := 21) (e := .f32) (by decide) (padPose (F := Ideal) P) (⟨128 * j.val + ib.val, by have := j.isLt; have := ib.isLt; omega⟩ : Fin 256)) (ix2 (0 : Fin 1) (0 : Fin 1))) :
    tailVal (F := Ideal) P (dmOf (F := Ideal) bc) BL o0 o1 o2 o3
      = Cert.ReferenceIdeal.Read.val_main_v94 (F := Ideal) P B2 LD RD CD BL RC bc := by
  obtain ⟨hP, hB2, hLD, hRD, hCD, hBL, hRC, hbc'⟩ := Cert.PreDecode.decode P B2 LD RD CD BL RC bc hpre
  have hbc : ∀ i, (bc i).toNat < 21 := Cert.PreDecode.idx7_toNat P B2 LD RD CD BL RC bc hpre
  have e0 : Host.reduceAdd (F := Ideal) o0 (constant S_ .f32 0x00000000#32) reducesTo_S2x1x1_S_d0_1_2 h_S_ = Cert.ReferenceIdeal.Read.val_main_v30 (F := Ideal) P B2 RD CD RC := by
    rw [tail_total o0 (fun t => sumProj (F := Ideal) (rows512 (F := Ideal) (n := 131072) (a := 2) (b := 21) (e := .f32) (by decide) B2 t) (rows512 (F := Ideal) (n := 131072) (a := 3) (b := 3) (e := .f32) (by decide) RD t) RC (rows512 (F := Ideal) (n := 131072) (a := 3) (b := 1) (e := .f32) (by decide) CD t) (rows512 (F := Ideal) (n := 131074) (a := 3) (b := 21) (e := .f32) (by decide) (padPose (F := Ideal) P) t) (rows2 (F := Ideal) (n := 131074) (a := 3) (b := 21) (e := .f32) (by decide) (padPose (F := Ideal) P) t) (ix2 (0 : Fin 1) (0 : Fin 1))) h0]
    funext i
    have hi : i = ix0 := eq_ix0 i
    subst hi
    exact Cert.Val.proj_total P B2 RD CD RC hP hB2 hRD hCD hRC
  have e1 : Host.reduceAdd (F := Ideal) o1 (constant S_ .f32 0x00000000#32) reducesTo_S2x1x1_S_d0_1_2 h_S_ = Cert.ReferenceIdeal.Read.val_main_v54 (F := Ideal) P LD bc := by
    rw [tail_total o1 (fun t => sumLift (F := Ideal) (rows512 (F := Ideal) (n := 131072) (a := 3) (b := 20) (e := .f32) (by decide) LD t) (dmOf (F := Ideal) bc) (rows512 (F := Ideal) (n := 131074) (a := 3) (b := 21) (e := .f32) (by decide) (padPose (F := Ideal) P) t) (rows2 (F := Ideal) (n := 131074) (a := 3) (b := 21) (e := .f32) (by decide) (padPose (F := Ideal) P) t) (ix2 (0 : Fin 1) (0 : Fin 1))) h1]
    funext i
    have hi : i = ix0 := eq_ix0 i
    subst hi
    exact Cert.Val.lift_total P LD bc hP hLD hbc hbc'
  have e2 : addf (Host.reduceAdd (F := Ideal) o2 (constant S_ .f32 0x00000000#32) reducesTo_S2x1x1_S_d0_1_2 h_S_) (boneLast (F := Ideal) P (dmOf (F := Ideal) bc) BL)
      = Cert.ReferenceIdeal.Read.val_main_v77 (F := Ideal) P BL bc := by
    rw [tail_total o2 (fun t => sumBone (F := Ideal) (dmOf (F := Ideal) bc) (lenRow (F := Ideal) BL) (rows512 (F := Ideal) (n := 131074) (a := 3) (b := 21) (e := .f32) (by decide) (padPose (F := Ideal) P) t) (ix2 (0 : Fin 1) (0 : Fin 1))) h2]
    funext i
    have hi : i = ix0 := eq_ix0 i
    subst hi
    exact Cert.Val.bone_total P BL bc hP hBL hbc hbc'
  have e3 : Host.reduceAdd (F := Ideal) o3 (constant S_ .f32 0x00000000#32) reducesTo_S2x1x1_S_d0_1_2 h_S_ = Cert.ReferenceIdeal.Read.val_main_v86 (F := Ideal) P := by
    rw [tail_total o3 (fun t => sumSmoothAt (F := Ideal) (BitVec.ofNat 32 (512 * (t).val)) (rows512 (F := Ideal) (n := 131074) (a := 3) (b := 21) (e := .f32) (by decide) (padPose (F := Ideal) P) t) (rows2 (F := Ideal) (n := 131074) (a := 3) (b := 21) (e := .f32) (by decide) (padPose (F := Ideal) P) t) (ix2 (0 : Fin 1) (0 : Fin 1))) h3]
    funext i
    have hi : i = ix0 := eq_ix0 i
    subst hi
    exact Cert.Val.smooth_total P hP
  rw [tailVal_eq, ref_eq, e0, e1, e2, e3]

/-! ## The region's result arrays at the kernel's launch memory -/

section AtMemory
variable (m : (ℓ : Loc Cert.KernelIdeal.nD Cert.KernelIdeal.τ Cert.KernelIdeal.sig) → Buf (Elt Ideal) ℓ) (ρ : Dev Cert.KernelIdeal.nD → PrngReg)

/-- The kernel's result is the reference's term of the same arguments, when the precondition holds of them. -/
theorem kernel_value (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    tailVal (F := Ideal) (m ((c.tc : Thread Cert.KernelIdeal.nD Cert.KernelIdeal.τ).loc Cert.KernelIdeal.main_arg0)) (dmOf (F := Ideal) (m ((c.tc : Thread Cert.KernelIdeal.nD Cert.KernelIdeal.τ).loc Cert.KernelIdeal.main_arg7))) (m ((c.tc : Thread Cert.KernelIdeal.nD Cert.KernelIdeal.τ).loc Cert.KernelIdeal.main_arg5))
        ((dat0 (V6 m ρ) c).arrAt 9 cfg0.N) ((dat0 (V6 m ρ) c).arrAt 10 cfg0.N) ((dat0 (V6 m ρ) c).arrAt 11 cfg0.N) ((dat0 (V6 m ρ) c).arrAt 12 cfg0.N)
      = Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have hA1 : V6 m ρ c main_arg1 = (m ((c.tc : Thread Cert.KernelIdeal.nD Cert.KernelIdeal.τ).loc Cert.KernelIdeal.main_arg1)) := W6_arg m ρ c main_arg1 (Or.inr (Or.inl rfl))
  have hA2 : V6 m ρ c main_arg2 = (m ((c.tc : Thread Cert.KernelIdeal.nD Cert.KernelIdeal.τ).loc Cert.KernelIdeal.main_arg2)) := W6_arg m ρ c main_arg2 (Or.inr (Or.inr (Or.inl rfl)))
  have hA3 : V6 m ρ c main_arg3 = (m ((c.tc : Thread Cert.KernelIdeal.nD Cert.KernelIdeal.τ).loc Cert.KernelIdeal.main_arg3)) := W6_arg m ρ c main_arg3 (Or.inr (Or.inr (Or.inr (Or.inl rfl))))
  have hA4 : V6 m ρ c main_arg4 = (m ((c.tc : Thread Cert.KernelIdeal.nD Cert.KernelIdeal.τ).loc Cert.KernelIdeal.main_arg4)) := W6_arg m ρ c main_arg4 (Or.inr (Or.inr (Or.inr (Or.inr (Or.inl rfl)))))
  have hA6 : V6 m ρ c main_arg6 = (m ((c.tc : Thread Cert.KernelIdeal.nD Cert.KernelIdeal.τ).loc Cert.KernelIdeal.main_arg6)) := W6_arg m ρ c main_arg6 (Or.inr (Or.inr (Or.inr (Or.inr (Or.inr (Or.inr (Or.inl rfl)))))))
  have hv7 : V6 m ρ c main_v7 = dmOf (F := Ideal) (m ((c.tc : Thread Cert.KernelIdeal.nD Cert.KernelIdeal.τ).loc Cert.KernelIdeal.main_arg7)) := W6_v7 m ρ c
  have hv8 : V6 m ρ c main_v8 = padPose (F := Ideal) (m ((c.tc : Thread Cert.KernelIdeal.nD Cert.KernelIdeal.τ).loc Cert.KernelIdeal.main_arg0)) := W6_v8 m ρ c
  have hv9 : V6 m ρ c main_v9 = lenRow (F := Ideal) (m ((c.tc : Thread Cert.KernelIdeal.nD Cert.KernelIdeal.τ).loc Cert.KernelIdeal.main_arg5)) := W6_v9 m ρ c
  refine value_eq _ _ _ _ _ _ _ _ hpre _ _ _ _ (fun j => ?_) (fun j => ?_) (fun j => ?_) (fun j => ?_)
  · have h := result9 (V6 m ρ) c j
    rw [hA1, hA3, hA6, hA4, hv8] at h
    exact h
  · have h := result10 (V6 m ρ) c j
    rw [hA2, hv7, hv8] at h
    exact h
  · have h := result11 (V6 m ρ) c j
    rw [hv7, hv9, hv8] at h
    exact h
  · have h := result12 (V6 m ρ) c j
    rw [hv8] at h
    refine h.trans (Finset.sum_congr rfl fun ib _ => ?_)
    show sumSmoothAt (F := Ideal) (startWord (grid0.coords _)) _ _ _ = sumSmoothAt (F := Ideal) (BitVec.ofNat 32 (512 * _)) _ _ _
    rw [startWord_eq]

end AtMemory

/-! ## The claim -/

/-- At the ideal instance the kernel and the reference, from memories agreeing on the arguments, both run, end with
    equal results and leave the arguments unchanged. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (kernel_value m ρ c (hpre c)).symm

end Cert.Assemble

end
-- ==== Proof.lean ====
/-
  Equivalence over the extended reals of the windowed pose-loss kernel and its array reference: four losses over
  131072 frames — the pinhole projection residual, the lifted bone-direction residual, the bone-length residual over all
  131073 frames, and the squared second difference of the trajectory — each scaled by its count and by 1/4.
  The kernel streams 256 blocks of 512 frames over a 2 x 128 grid and adds each block's four sums into four
  accumulators; the host sums the accumulators, adds the last frame's bone residual and combines.  Frames: the two kernel
  programs run as host segments around the one pipelined region (its padded trajectory read through two windows that
  share one array); the reference is a straight-line host program.  Values: each accumulator ends at the sum of its block
  sums; each block sum is the reference's per-frame term summed over the block's frames (the matrix product with the
  one-hot difference matrix is the difference of two joint columns when the bone table indexes joints; the second
  difference regroups over the reals; the masked last frame contributes zero); so the four totals agree, and both
  programs close with the same arithmetic on them.
-/
import proofs.«404832_j45707041964541_3_alg».proof.Defs
import proofs.«404832_j45707041964541_3_alg».proof.Proof.K.Frame
import proofs.«404832_j45707041964541_3_alg».proof.Proof.KI.Frame
import proofs.«404832_j45707041964541_3_alg».proof.Proof.Assemble
import Idealize.ShloMosaic.Adequacy
import Idealize.ShloMosaic.Init

noncomputable section

namespace Cert.Proof

open Idealize.ShloMosaic Idealize.SL.Sem

theorem frame_p : @Cert.frame_Kernel Cert.Kernel.Gen.facts Cert.Pre_finite_inputs.Gen.facts :=
  fun m ρ _ => Cert.Kernel.Gen.frame m ρ

theorem frame_pi : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Assemble.algebraic⟩

end Cert.Proof

end
